-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v397_0)) (v1 : (c : Dev Cert.KernelIdeal.nD) → Buf (Elt Ideal) ((c.tc : Thread Cert.KernelIdeal.nD Cert.KernelIdeal.τ).loc Cert.KernelIdeal.main_v397_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v397_0) = v0 c
          ∧ r.2.mem ((c.tc : Thread Cert.KernelIdeal.nD Cert.KernelIdeal.τ).loc Cert.KernelIdeal.main_v397_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v515) = v0 c
          ∧ r.2.mem ((c.tc : Thread Cert.ReferenceIdeal.nD Cert.ReferenceIdeal.τ).loc Cert.ReferenceIdeal.main_v525) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x1 : Shape := ⟨2, ![1600000, 1]⟩
abbrev S1600000x27 : Shape := ⟨2, ![1600000, 27]⟩
abbrev S128x128x128 : Shape := ⟨3, ![128, 128, 128]⟩
abbrev S2000000x3 : Shape := ⟨2, ![2000000, 3]⟩
abbrev S_ : Shape := ⟨0, ![]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S1600000x27 : S_.BroadcastsInDim S1600000x27 (![] : Fin 0 → Fin S1600000x27.rank)
  reducesTo_S1600000x27_S_d0_1 : S1600000x27.ReducesTo [0, 1] S_
  bcast_S_S2000000x3 : S_.BroadcastsInDim S2000000x3 (![] : Fin 0 → Fin S2000000x3.rank)
  reducesTo_S2000000x3_S_d0_1 : S2000000x3.ReducesTo [0, 1] S_
  bcast_S_S128x128x128 : S_.BroadcastsInDim S128x128x128 (![] : Fin 0 → Fin S128x128x128.rank)
  reducesTo_S128x128x128_S_d0_1_2 : S128x128x128.ReducesTo [0, 1, 2] S_

variable [Facts]

def fn_part1 {F : FTy → Type} [FloatOps F] (main_v13 : IVec S_ 1) (main_v15 : IVec S128x128x128 1) (main_c_5 : IVec S_ 1) : IVec S_ 1 :=
  let main_v16 : IVec S_ 1 := (fun x v => Host.reduce IntOp.andi x v reducesTo_S128x128x128_S_d0_1_2 h_S_) main_v15 main_c_5
  let main_v17 : IVec S_ 1 := andi main_v13 main_v16
  main_v17

def fn {F : FTy → Type} [FloatOps F] (main_arg0 : FVec F S1600000x1 .f32) (main_arg1 : FVec F S1600000x27 .f32) (main_arg2 : IVec S128x128x128 32) (main_arg3 : FVec F S2000000x3 .f32) : IVec S_ 1 :=
  let main_v0 : FVec F S1600000x1 .f32 := Host.absf main_arg0
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S1600000x27 .f32 := Host.absf main_arg1
  let main_cst_0 : FVec F S_ .f32 := constant S_ .f32 0x7F800000#32
  let main_v5 : FVec F S1600000x27 .f32 := broadcastInDim S1600000x27 ![] bcast_S_S1600000x27 main_cst_0
  let main_v6 : IVec S1600000x27 1 := cmpf .olt main_v4 main_v5
  let main_c_1 : IVec S_ 1 := constantI S_ 1 1#1
  let main_v7 : IVec S_ 1 := (fun x v => Host.reduce IntOp.andi x v reducesTo_S1600000x27_S_d0_1 h_S_) main_v6 main_c_1
  let main_v8 : IVec S_ 1 := andi main_v3 main_v7
  let main_v9 : FVec F S2000000x3 .f32 := Host.absf main_arg3
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_c_4 : IVec S_ 32 := constantI S_ 32 1600000#32
  let main_v14 : IVec S128x128x128 32 := broadcastInDim S128x128x128 ![] bcast_S_S128x128x128 main_c_4
  let main_v15 : IVec S128x128x128 1 := cmpi .slt main_arg2 main_v14
  let main_c_5 : IVec S_ 1 := constantI S_ 1 1#1
  fn_part1 (F := F) main_v13 main_v15 main_c_5
-- ==== Kernel.lean ====
abbrev S1600000x1 : Shape := ⟨2, ![1600000, 1]⟩
abbrev S1600000x27 : Shape := ⟨2, ![1600000, 27]⟩
abbrev S128x128x128 : Shape := ⟨3, ![128, 128, 128]⟩
abbrev S2000000x3 : Shape := ⟨2, ![2000000, 3]⟩
abbrev S3 : Shape := ⟨1, ![3]⟩
abbrev S_ : Shape := ⟨0, ![]⟩
abbrev S1x3 : Shape := ⟨2, ![1, 3]⟩
abbrev S1600000x28 : Shape := ⟨2, ![1600000, 28]⟩
abbrev S2000000x1 : Shape := ⟨2, ![2000000, 1]⟩
abbrev S2000000 : Shape := ⟨1, ![2000000]⟩
abbrev S1 : Shape := ⟨1, ![1]⟩
abbrev S1x1 : Shape := ⟨2, ![1, 1]⟩
abbrev S2000000x28 : Shape := ⟨2, ![2000000, 28]⟩
abbrev S2000000x27 : Shape := ⟨2, ![2000000, 27]⟩
abbrev S3200x28 : Shape := ⟨2, ![3200, 28]⟩
abbrev S3200x1 : Shape := ⟨2, ![3200, 1]⟩
abbrev S3200x27 : Shape := ⟨2, ![3200, 27]⟩

abbrev nBuf : Space → Nat
  | .hbm => 706
  | .vmem => 20
  | .smem => 0
  | _ => 0

abbrev hbmTy0_0 (i : Nat) : BufTy := match i % 128 with
  | 0 => ⟨S1600000x1, .f32⟩
  | 1 => ⟨S1600000x27, .f32⟩
  | 2 => ⟨S128x128x128, .i32⟩
  | 3 => ⟨S2000000x3, .f32⟩
  | 4 => ⟨S3, .f32⟩
  | 5 => ⟨S3, .i32⟩
  | 6 => ⟨S_, .f32⟩
  | 7 => ⟨S3, .f32⟩
  | 8 => ⟨S3, .f32⟩
  | 9 => ⟨S_, .f32⟩
  | 10 => ⟨S_, .f32⟩
  | 11 => ⟨S2000000x3, .f32⟩
  | 12 => ⟨S2000000x3, .f32⟩
  | 13 => ⟨S1x3, .f32⟩
  | 14 => ⟨S2000000x3, .f32⟩
  | 15 => ⟨S2000000x3, .f32⟩
  | 16 => ⟨S2000000x3, .f32⟩
  | 17 => ⟨S2000000x3, .i32⟩
  | 18 => ⟨S_, .i32⟩
  | 19 => ⟨S3, .i32⟩
  | 20 => ⟨S3, .i32⟩
  | 21 => ⟨S_, .i32⟩
  | 22 => ⟨S_, .i32⟩
  | 23 => ⟨S2000000x3, .i32⟩
  | 24 => ⟨S2000000x3, .i32⟩
  | 25 => ⟨S1x3, .i32⟩
  | 26 => ⟨S2000000x3, .i32⟩
  | 27 => ⟨S2000000x3, .i32⟩
  | 28 => ⟨S2000000x3, .f32⟩
  | 29 => ⟨S2000000x3, .f32⟩
  | 30 => ⟨S1600000x28, .f32⟩
  | 31 => ⟨S2000000x1, .f32⟩
  | 32 => ⟨S2000000, .f32⟩
  | 33 => ⟨S_, .f32⟩
  | 34 => ⟨S2000000, .f32⟩
  | 35 => ⟨S2000000, .f32⟩
  | 36 => ⟨S2000000x1, .f32⟩
  | 37 => ⟨S2000000, .f32⟩
  | 38 => ⟨S_, .f32⟩
  | 39 => ⟨S2000000, .f32⟩
  | 40 => ⟨S2000000, .f32⟩
  | 41 => ⟨S2000000x1, .f32⟩
  | 42 => ⟨S2000000, .f32⟩
  | 43 => ⟨S_, .f32⟩
  | 44 => ⟨S2000000, .f32⟩
  | 45 => ⟨S2000000, .f32⟩
  | 46 => ⟨S2000000x1, .i32⟩
  | 47 => ⟨S2000000, .i32⟩
  | 48 => ⟨S_, .i32⟩
  | 49 => ⟨S2000000, .i32⟩
  | 50 => ⟨S2000000, .i32⟩
  | 51 => ⟨S2000000x1, .i32⟩
  | 52 => ⟨S2000000, .i32⟩
  | 53 => ⟨S_, .i32⟩
  | 54 => ⟨S2000000, .i32⟩
  | 55 => ⟨S2000000, .i32⟩
  | 56 => ⟨S2000000x1, .i32⟩
  | 57 => ⟨S2000000, .i32⟩
  | 58 => ⟨S_, .i32⟩
  | 59 => ⟨S2000000, .i32⟩
  | 60 => ⟨S2000000, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S2000000x1, .i32⟩
  | 83 => ⟨S2000000x1, .i32⟩
  | 84 => ⟨S2000000x1, .i32⟩
  | 85 => ⟨S2000000x3, .i32⟩
  | 86 => ⟨S2000000, .i32⟩
  | 87 => ⟨S_, .i32⟩
  | 88 => ⟨S2000000, .i32⟩
  | 89 => ⟨S2000000, .i1⟩
  | 90 => ⟨S_, .i32⟩
  | 91 => ⟨S_, .i32⟩
  | 92 => ⟨S2000000, .i32⟩
  | 93 => ⟨S2000000, .i32⟩
  | 94 => ⟨S2000000, .f32⟩
  | 95 => ⟨S2000000, .f32⟩
  | 96 => ⟨S2000000, .f32⟩
  | 97 => ⟨S2000000, .f32⟩
  | 98 => ⟨S2000000x1, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S1, .i32⟩
  | 108 => ⟨S_, .i32⟩
  | 109 => ⟨S2000000x1, .i32⟩
  | 110 => ⟨S2000000x1, .i1⟩
  | 111 => ⟨S1x1, .i32⟩
  | 112 => ⟨S2000000x1, .i32⟩
  | 113 => ⟨S2000000x1, .i1⟩
  | 114 => ⟨S2000000x1, .i1⟩
  | 115 => ⟨S_, .i1⟩
  | 116 => ⟨S2000000, .i1⟩
  | 117 => ⟨S2000000x28, .f32⟩
  | 118 => ⟨S2000000x28, .i1⟩
  | 119 => ⟨S_, .f32⟩
  | 120 => ⟨S2000000x28, .f32⟩
  | 121 => ⟨S2000000x28, .f32⟩
  | 122 => ⟨S2000000x28, .f32⟩
  | 123 => ⟨S2000000x28, .f32⟩
  | 124 => ⟨S2000000x1, .f32⟩
  | 125 => ⟨S2000000, .f32⟩
  | 126 => ⟨S2000000x1, .i32⟩
  | 127 => ⟨S2000000, .i32⟩
  | _ => ⟨S1600000x1, .f32⟩

abbrev hbmTy0_1 (i : Nat) : BufTy := match i % 128 with
  | 0 => ⟨S_, .i32⟩
  | 1 => ⟨S2000000, .i32⟩
  | 2 => ⟨S2000000, .i32⟩
  | 3 => ⟨S2000000x1, .i32⟩
  | 4 => ⟨S2000000, .i32⟩
  | 5 => ⟨S_, .i32⟩
  | 6 => ⟨S2000000, .i32⟩
  | 7 => ⟨S2000000, .i32⟩
  | 8 => ⟨S2000000x1, .i32⟩
  | 9 => ⟨S2000000, .i32⟩
  | 10 => ⟨S_, .i32⟩
  | 11 => ⟨S2000000, .i32⟩
  | 12 => ⟨S2000000, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x1, .i32⟩
  | 36 => ⟨S2000000x1, .i32⟩
  | 37 => ⟨S2000000x3, .i32⟩
  | 38 => ⟨S2000000, .i32⟩
  | 39 => ⟨S_, .i32⟩
  | 40 => ⟨S2000000, .i32⟩
  | 41 => ⟨S2000000, .i1⟩
  | 42 => ⟨S_, .i32⟩
  | 43 => ⟨S_, .i32⟩
  | 44 => ⟨S2000000, .i32⟩
  | 45 => ⟨S2000000, .i32⟩
  | 46 => ⟨S2000000, .f32⟩
  | 47 => ⟨S2000000, .f32⟩
  | 48 => ⟨S2000000, .f32⟩
  | 49 => ⟨S2000000, .f32⟩
  | 50 => ⟨S2000000x1, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S1, .i32⟩
  | 60 => ⟨S_, .i32⟩
  | 61 => ⟨S2000000x1, .i32⟩
  | 62 => ⟨S2000000x1, .i1⟩
  | 63 => ⟨S1x1, .i32⟩
  | 64 => ⟨S2000000x1, .i32⟩
  | 65 => ⟨S2000000x1, .i1⟩
  | 66 => ⟨S2000000x1, .i1⟩
  | 67 => ⟨S_, .i1⟩
  | 68 => ⟨S2000000, .i1⟩
  | 69 => ⟨S2000000x28, .f32⟩
  | 70 => ⟨S2000000x28, .i1⟩
  | 71 => ⟨S_, .f32⟩
  | 72 => ⟨S2000000x28, .f32⟩
  | 73 => ⟨S2000000x28, .f32⟩
  | 74 => ⟨S2000000x28, .f32⟩
  | 75 => ⟨S2000000x28, .f32⟩
  | 76 => ⟨S2000000x1, .f32⟩
  | 77 => ⟨S2000000, .f32⟩
  | 78 => ⟨S2000000x1, .f32⟩
  | 79 => ⟨S2000000, .f32⟩
  | 80 => ⟨S_, .f32⟩
  | 81 => ⟨S2000000, .f32⟩
  | 82 => ⟨S2000000, .f32⟩
  | 83 => ⟨S2000000x1, .i32⟩
  | 84 => ⟨S2000000, .i32⟩
  | 85 => ⟨S_, .i32⟩
  | 86 => ⟨S2000000, .i32⟩
  | 87 => ⟨S2000000, .i32⟩
  | 88 => ⟨S2000000x1, .i32⟩
  | 89 => ⟨S2000000, .i32⟩
  | 90 => ⟨S_, .i32⟩
  | 91 => ⟨S2000000, .i32⟩
  | 92 => ⟨S2000000, .i32⟩
  | 93 => ⟨S2000000x1, .i32⟩
  | 94 => ⟨S2000000, .i32⟩
  | 95 => ⟨S_, .i32⟩
  | 96 => ⟨S2000000, .i32⟩
  | 97 => ⟨S2000000, .i32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x1, .i32⟩
  | 121 => ⟨S2000000x1, .i32⟩
  | 122 => ⟨S2000000x3, .i32⟩
  | 123 => ⟨S2000000, .i32⟩
  | 124 => ⟨S_, .i32⟩
  | 125 => ⟨S2000000, .i32⟩
  | 126 => ⟨S2000000, .i1⟩
  | 127 => ⟨S_, .i32⟩
  | _ => ⟨S1600000x1, .f32⟩

abbrev hbmTy0_2 (i : Nat) : BufTy := match i % 128 with
  | 0 => ⟨S_, .i32⟩
  | 1 => ⟨S2000000, .i32⟩
  | 2 => ⟨S2000000, .i32⟩
  | 3 => ⟨S2000000, .f32⟩
  | 4 => ⟨S2000000, .f32⟩
  | 5 => ⟨S2000000, .f32⟩
  | 6 => ⟨S2000000, .f32⟩
  | 7 => ⟨S2000000x1, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S1, .i32⟩
  | 17 => ⟨S_, .i32⟩
  | 18 => ⟨S2000000x1, .i32⟩
  | 19 => ⟨S2000000x1, .i1⟩
  | 20 => ⟨S1x1, .i32⟩
  | 21 => ⟨S2000000x1, .i32⟩
  | 22 => ⟨S2000000x1, .i1⟩
  | 23 => ⟨S2000000x1, .i1⟩
  | 24 => ⟨S_, .i1⟩
  | 25 => ⟨S2000000, .i1⟩
  | 26 => ⟨S2000000x28, .f32⟩
  | 27 => ⟨S2000000x28, .i1⟩
  | 28 => ⟨S_, .f32⟩
  | 29 => ⟨S2000000x28, .f32⟩
  | 30 => ⟨S2000000x28, .f32⟩
  | 31 => ⟨S2000000x28, .f32⟩
  | 32 => ⟨S2000000x28, .f32⟩
  | 33 => ⟨S2000000x1, .f32⟩
  | 34 => ⟨S2000000, .f32⟩
  | 35 => ⟨S2000000x1, .i32⟩
  | 36 => ⟨S2000000, .i32⟩
  | 37 => ⟨S_, .i32⟩
  | 38 => ⟨S2000000, .i32⟩
  | 39 => ⟨S2000000, .i32⟩
  | 40 => ⟨S2000000x1, .i32⟩
  | 41 => ⟨S2000000, .i32⟩
  | 42 => ⟨S_, .i32⟩
  | 43 => ⟨S2000000, .i32⟩
  | 44 => ⟨S2000000, .i32⟩
  | 45 => ⟨S2000000x1, .i32⟩
  | 46 => ⟨S2000000, .i32⟩
  | 47 => ⟨S_, .i32⟩
  | 48 => ⟨S2000000, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x1, .i32⟩
  | 73 => ⟨S2000000x1, .i32⟩
  | 74 => ⟨S2000000x3, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S_, .i32⟩
  | 81 => ⟨S2000000, .i32⟩
  | 82 => ⟨S2000000, .i32⟩
  | 83 => ⟨S2000000, .f32⟩
  | 84 => ⟨S2000000, .f32⟩
  | 85 => ⟨S2000000, .f32⟩
  | 86 => ⟨S2000000, .f32⟩
  | 87 => ⟨S2000000x1, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S1, .i32⟩
  | 97 => ⟨S_, .i32⟩
  | 98 => ⟨S2000000x1, .i32⟩
  | 99 => ⟨S2000000x1, .i1⟩
  | 100 => ⟨S1x1, .i32⟩
  | 101 => ⟨S2000000x1, .i32⟩
  | 102 => ⟨S2000000x1, .i1⟩
  | 103 => ⟨S2000000x1, .i1⟩
  | 104 => ⟨S_, .i1⟩
  | 105 => ⟨S2000000, .i1⟩
  | 106 => ⟨S2000000x28, .f32⟩
  | 107 => ⟨S2000000x28, .i1⟩
  | 108 => ⟨S_, .f32⟩
  | 109 => ⟨S2000000x28, .f32⟩
  | 110 => ⟨S2000000x28, .f32⟩
  | 111 => ⟨S2000000x28, .f32⟩
  | 112 => ⟨S2000000x28, .f32⟩
  | 113 => ⟨S2000000x1, .f32⟩
  | 114 => ⟨S2000000, .f32⟩
  | 115 => ⟨S2000000x1, .f32⟩
  | 116 => ⟨S2000000, .f32⟩
  | 117 => ⟨S_, .f32⟩
  | 118 => ⟨S2000000, .f32⟩
  | 119 => ⟨S2000000, .f32⟩
  | 120 => ⟨S2000000x1, .f32⟩
  | 121 => ⟨S2000000, .f32⟩
  | 122 => ⟨S_, .f32⟩
  | 123 => ⟨S2000000, .f32⟩
  | 124 => ⟨S2000000, .f32⟩
  | 125 => ⟨S2000000x1, .i32⟩
  | 126 => ⟨S2000000, .i32⟩
  | 127 => ⟨S_, .i32⟩
  | _ => ⟨S1600000x1, .f32⟩

abbrev hbmTy0_3 (i : Nat) : BufTy := match i % 128 with
  | 0 => ⟨S2000000, .i32⟩
  | 1 => ⟨S2000000, .i32⟩
  | 2 => ⟨S2000000x1, .i32⟩
  | 3 => ⟨S2000000, .i32⟩
  | 4 => ⟨S_, .i32⟩
  | 5 => ⟨S2000000, .i32⟩
  | 6 => ⟨S2000000, .i32⟩
  | 7 => ⟨S2000000x1, .i32⟩
  | 8 => ⟨S2000000, .i32⟩
  | 9 => ⟨S_, .i32⟩
  | 10 => ⟨S2000000, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x1, .i32⟩
  | 35 => ⟨S2000000x1, .i32⟩
  | 36 => ⟨S2000000x3, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S_, .i32⟩
  | 43 => ⟨S2000000, .i32⟩
  | 44 => ⟨S2000000, .i32⟩
  | 45 => ⟨S2000000, .f32⟩
  | 46 => ⟨S2000000, .f32⟩
  | 47 => ⟨S2000000, .f32⟩
  | 48 => ⟨S2000000, .f32⟩
  | 49 => ⟨S2000000x1, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S1, .i32⟩
  | 59 => ⟨S_, .i32⟩
  | 60 => ⟨S2000000x1, .i32⟩
  | 61 => ⟨S2000000x1, .i1⟩
  | 62 => ⟨S1x1, .i32⟩
  | 63 => ⟨S2000000x1, .i32⟩
  | 64 => ⟨S2000000x1, .i1⟩
  | 65 => ⟨S2000000x1, .i1⟩
  | 66 => ⟨S_, .i1⟩
  | 67 => ⟨S2000000, .i1⟩
  | 68 => ⟨S2000000x28, .f32⟩
  | 69 => ⟨S2000000x28, .i1⟩
  | 70 => ⟨S_, .f32⟩
  | 71 => ⟨S2000000x28, .f32⟩
  | 72 => ⟨S2000000x28, .f32⟩
  | 73 => ⟨S2000000x28, .f32⟩
  | 74 => ⟨S2000000x28, .f32⟩
  | 75 => ⟨S2000000x1, .f32⟩
  | 76 => ⟨S2000000, .f32⟩
  | 77 => ⟨S2000000x1, .i32⟩
  | 78 => ⟨S2000000, .i32⟩
  | 79 => ⟨S_, .i32⟩
  | 80 => ⟨S2000000, .i32⟩
  | 81 => ⟨S2000000, .i32⟩
  | 82 => ⟨S2000000x1, .i32⟩
  | 83 => ⟨S2000000, .i32⟩
  | 84 => ⟨S_, .i32⟩
  | 85 => ⟨S2000000, .i32⟩
  | 86 => ⟨S2000000, .i32⟩
  | 87 => ⟨S2000000x1, .i32⟩
  | 88 => ⟨S2000000, .i32⟩
  | 89 => ⟨S_, .i32⟩
  | 90 => ⟨S2000000, .i32⟩
  | 91 => ⟨S2000000, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S2000000x1, .i32⟩
  | 114 => ⟨S2000000x1, .i32⟩
  | 115 => ⟨S2000000x1, .i32⟩
  | 116 => ⟨S2000000x3, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S_, .i32⟩
  | 123 => ⟨S2000000, .i32⟩
  | 124 => ⟨S2000000, .i32⟩
  | 125 => ⟨S2000000, .f32⟩
  | 126 => ⟨S2000000, .f32⟩
  | 127 => ⟨S2000000, .f32⟩
  | _ => ⟨S1600000x1, .f32⟩

abbrev hbmTy0_4 (i : Nat) : BufTy := match i % 128 with
  | 0 => ⟨S2000000, .f32⟩
  | 1 => ⟨S2000000x1, .f32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S1, .i32⟩
  | 11 => ⟨S_, .i32⟩
  | 12 => ⟨S2000000x1, .i32⟩
  | 13 => ⟨S2000000x1, .i1⟩
  | 14 => ⟨S1x1, .i32⟩
  | 15 => ⟨S2000000x1, .i32⟩
  | 16 => ⟨S2000000x1, .i1⟩
  | 17 => ⟨S2000000x1, .i1⟩
  | 18 => ⟨S_, .i1⟩
  | 19 => ⟨S2000000, .i1⟩
  | 20 => ⟨S2000000x28, .f32⟩
  | 21 => ⟨S2000000x28, .i1⟩
  | 22 => ⟨S_, .f32⟩
  | 23 => ⟨S2000000x28, .f32⟩
  | 24 => ⟨S2000000x28, .f32⟩
  | 25 => ⟨S2000000x28, .f32⟩
  | 26 => ⟨S2000000x28, .f32⟩
  | 27 => ⟨S2000000x1, .f32⟩
  | 28 => ⟨S2000000, .f32⟩
  | 29 => ⟨S2000000x1, .f32⟩
  | 30 => ⟨S2000000, .f32⟩
  | 31 => ⟨S_, .f32⟩
  | 32 => ⟨S2000000, .f32⟩
  | 33 => ⟨S2000000, .f32⟩
  | 34 => ⟨S2000000x1, .i32⟩
  | 35 => ⟨S2000000, .i32⟩
  | 36 => ⟨S_, .i32⟩
  | 37 => ⟨S2000000, .i32⟩
  | 38 => ⟨S2000000, .i32⟩
  | 39 => ⟨S2000000x1, .i32⟩
  | 40 => ⟨S2000000, .i32⟩
  | 41 => ⟨S_, .i32⟩
  | 42 => ⟨S2000000, .i32⟩
  | 43 => ⟨S2000000, .i32⟩
  | 44 => ⟨S2000000x1, .i32⟩
  | 45 => ⟨S2000000, .i32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x1, .i32⟩
  | 72 => ⟨S2000000x1, .i32⟩
  | 73 => ⟨S2000000x3, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S_, .i32⟩
  | 80 => ⟨S2000000, .i32⟩
  | 81 => ⟨S2000000, .i32⟩
  | 82 => ⟨S2000000, .f32⟩
  | 83 => ⟨S2000000, .f32⟩
  | 84 => ⟨S2000000, .f32⟩
  | 85 => ⟨S2000000, .f32⟩
  | 86 => ⟨S2000000x1, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S1, .i32⟩
  | 96 => ⟨S_, .i32⟩
  | 97 => ⟨S2000000x1, .i32⟩
  | 98 => ⟨S2000000x1, .i1⟩
  | 99 => ⟨S1x1, .i32⟩
  | 100 => ⟨S2000000x1, .i32⟩
  | 101 => ⟨S2000000x1, .i1⟩
  | 102 => ⟨S2000000x1, .i1⟩
  | 103 => ⟨S_, .i1⟩
  | 104 => ⟨S2000000, .i1⟩
  | 105 => ⟨S2000000x28, .f32⟩
  | 106 => ⟨S2000000x28, .i1⟩
  | 107 => ⟨S_, .f32⟩
  | 108 => ⟨S2000000x28, .f32⟩
  | 109 => ⟨S2000000x28, .f32⟩
  | 110 => ⟨S2000000x28, .f32⟩
  | 111 => ⟨S2000000x28, .f32⟩
  | 112 => ⟨S2000000x1, .f32⟩
  | 113 => ⟨S2000000, .f32⟩
  | 114 => ⟨S2000000x1, .i32⟩
  | 115 => ⟨S2000000, .i32⟩
  | 116 => ⟨S_, .i32⟩
  | 117 => ⟨S2000000, .i32⟩
  | 118 => ⟨S2000000, .i32⟩
  | 119 => ⟨S2000000x1, .i32⟩
  | 120 => ⟨S2000000, .i32⟩
  | 121 => ⟨S_, .i32⟩
  | 122 => ⟨S2000000, .i32⟩
  | 123 => ⟨S2000000, .i32⟩
  | 124 => ⟨S2000000x1, .i32⟩
  | 125 => ⟨S2000000, .i32⟩
  | 126 => ⟨S_, .i32⟩
  | 127 => ⟨S2000000, .i32⟩
  | _ => ⟨S1600000x1, .f32⟩

abbrev hbmTy0_5 (i : Nat) : BufTy := match i % 128 with
  | 0 => ⟨S2000000, .i32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x1, .i32⟩
  | 24 => ⟨S2000000x1, .i32⟩
  | 25 => ⟨S2000000x3, .i32⟩
  | 26 => ⟨S2000000, .i32⟩
  | 27 => ⟨S_, .i32⟩
  | 28 => ⟨S2000000, .i32⟩
  | 29 => ⟨S2000000, .i1⟩
  | 30 => ⟨S_, .i32⟩
  | 31 => ⟨S_, .i32⟩
  | 32 => ⟨S2000000, .i32⟩
  | 33 => ⟨S2000000, .i32⟩
  | 34 => ⟨S2000000, .f32⟩
  | 35 => ⟨S2000000, .f32⟩
  | 36 => ⟨S2000000, .f32⟩
  | 37 => ⟨S2000000, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S1, .i32⟩
  | 48 => ⟨S_, .i32⟩
  | 49 => ⟨S2000000x1, .i32⟩
  | 50 => ⟨S2000000x1, .i1⟩
  | 51 => ⟨S1x1, .i32⟩
  | 52 => ⟨S2000000x1, .i32⟩
  | 53 => ⟨S2000000x1, .i1⟩
  | 54 => ⟨S2000000x1, .i1⟩
  | 55 => ⟨S_, .i1⟩
  | 56 => ⟨S2000000, .i1⟩
  | 57 => ⟨S2000000x28, .f32⟩
  | 58 => ⟨S2000000x28, .i1⟩
  | 59 => ⟨S_, .f32⟩
  | 60 => ⟨S2000000x28, .f32⟩
  | 61 => ⟨S2000000x28, .f32⟩
  | 62 => ⟨S2000000x28, .f32⟩
  | 63 => ⟨S2000000x28, .f32⟩
  | 64 => ⟨S2000000x1, .f32⟩
  | 65 => ⟨S2000000x27, .f32⟩
  | _ => ⟨S1600000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1600000x1, .f32⟩

abbrev bufTy : (tb : Table) → Fin (tcTables nBuf tb) → BufTy
  | .hbm, ⟨i, _⟩ => hbmTy i
  | .local _ .vmem, ⟨0, _⟩ => ⟨S3200x28, .f32⟩
  | .local _ .vmem, ⟨1, _⟩ => ⟨S3200x28, .f32⟩
  | .local _ .vmem, ⟨2, _⟩ => ⟨S3200x28, .f32⟩
  | .local _ .vmem, ⟨3, _⟩ => ⟨S3200x28, .f32⟩
  | .local _ .vmem, ⟨4, _⟩ => ⟨S3200x28, .f32⟩
  | .local _ .vmem, ⟨5, _⟩ => ⟨S3200x28, .f32⟩
  | .local _ .vmem, ⟨6, _⟩ => ⟨S3200x28, .f32⟩
  | .local _ .vmem, ⟨7, _⟩ => ⟨S3200x28, .f32⟩
  | .local _ .vmem, ⟨8, _⟩ => ⟨S3200x28, .f32⟩
  | .local _ .vmem, ⟨9, _⟩ => ⟨S3200x28, .f32⟩
  | .local _ .vmem, ⟨10, _⟩ => ⟨S3200x28, .f32⟩
  | .local _ .vmem, ⟨11, _⟩ => ⟨S3200x28, .f32⟩
  | .local _ .vmem, ⟨12, _⟩ => ⟨S3200x28, .f32⟩
  | .local _ .vmem, ⟨13, _⟩ => ⟨S3200x28, .f32⟩
  | .local _ .vmem, ⟨14, _⟩ => ⟨S3200x28, .f32⟩
  | .local _ .vmem, ⟨15, _⟩ => ⟨S3200x28, .f32⟩
  | .local _ .vmem, ⟨16, _⟩ => ⟨S3200x1, .f32⟩
  | .local _ .vmem, ⟨17, _⟩ => ⟨S3200x1, .f32⟩
  | .local _ .vmem, ⟨18, _⟩ => ⟨S3200x27, .f32⟩
  | .local _ .vmem, ⟨19, _⟩ => ⟨S3200x27, .f32⟩
  | _, _ => ⟨S1600000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_c_10 : Ref sig .tc := ⟨.hbm, 61, rfl⟩
abbrev main_v35 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_12 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_14 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_c_17 : Ref sig .tc := ⟨.hbm, 90, rfl⟩
abbrev main_call2_v0 : Ref sig .tc := ⟨.hbm, 91, rfl⟩
abbrev main_call2_v1 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_c_18 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_19 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_c_20 : Ref sig .tc := ⟨.hbm, 138, rfl⟩
abbrev main_v78 : Ref sig .tc := ⟨.hbm, 139, rfl⟩
abbrev main_v79 : Ref sig .tc := ⟨.hbm, 140, rfl⟩
abbrev main_c_21 : Ref sig .tc := ⟨.hbm, 141, rfl⟩
abbrev main_v80 : Ref sig .tc := ⟨.hbm, 142, rfl⟩
abbrev main_v81 : Ref sig .tc := ⟨.hbm, 143, rfl⟩
abbrev main_c_22 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_23 : Ref sig .tc := ⟨.hbm, 148, rfl⟩
abbrev main_v85 : Ref sig .tc := ⟨.hbm, 149, rfl⟩
abbrev main_v86 : Ref sig .tc := ⟨.hbm, 150, rfl⟩
abbrev main_c_24 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_c_25 : Ref sig .tc := ⟨.hbm, 155, rfl⟩
abbrev main_v90 : Ref sig .tc := ⟨.hbm, 156, rfl⟩
abbrev main_v91 : Ref sig .tc := ⟨.hbm, 157, rfl⟩
abbrev main_c_26 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_c_27 : Ref sig .tc := ⟨.hbm, 167, rfl⟩
abbrev main_v100 : Ref sig .tc := ⟨.hbm, 168, rfl⟩
abbrev main_v101 : Ref sig .tc := ⟨.hbm, 169, rfl⟩
abbrev main_c_28 : Ref sig .tc := ⟨.hbm, 170, rfl⟩
abbrev main_call4_v0 : Ref sig .tc := ⟨.hbm, 171, rfl⟩
abbrev main_call4_v1 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_call5_c : Ref sig .tc := ⟨.hbm, 179, rfl⟩
abbrev main_call5_v0 : Ref sig .tc := ⟨.hbm, 180, rfl⟩
abbrev main_call5_v1 : Ref sig .tc := ⟨.hbm, 181, rfl⟩
abbrev main_call5_c_0 : Ref sig .tc := ⟨.hbm, 182, rfl⟩
abbrev main_call5_v2 : Ref sig .tc := ⟨.hbm, 183, rfl⟩
abbrev main_call5_v3 : Ref sig .tc := ⟨.hbm, 184, rfl⟩
abbrev main_call5_v4 : Ref sig .tc := ⟨.hbm, 185, rfl⟩
abbrev main_call5_v5 : Ref sig .tc := ⟨.hbm, 186, rfl⟩
abbrev main_call5_c_1 : Ref sig .tc := ⟨.hbm, 187, rfl⟩
abbrev main_call5_c_2 : Ref sig .tc := ⟨.hbm, 188, rfl⟩
abbrev main_call5_v6 : Ref sig .tc := ⟨.hbm, 189, rfl⟩
abbrev main_call5_v7 : Ref sig .tc := ⟨.hbm, 190, rfl⟩
abbrev main_call5_v8 : Ref sig .tc := ⟨.hbm, 191, rfl⟩
abbrev main_call5_v9 : Ref sig .tc := ⟨.hbm, 192, rfl⟩
abbrev main_call5_v10 : Ref sig .tc := ⟨.hbm, 193, rfl⟩
abbrev main_call5_v11 : Ref sig .tc := ⟨.hbm, 194, rfl⟩
abbrev main_call5_c_3 : Ref sig .tc := ⟨.hbm, 195, rfl⟩
abbrev main_call5_v12 : Ref sig .tc := ⟨.hbm, 196, rfl⟩
abbrev main_call5_v13 : Ref sig .tc := ⟨.hbm, 197, rfl⟩
abbrev main_call5_v14 : Ref sig .tc := ⟨.hbm, 198, rfl⟩
abbrev main_call5_cst : Ref sig .tc := ⟨.hbm, 199, rfl⟩
abbrev main_call5_v15 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_29 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_c_30 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_c_31 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_c_32 : Ref sig .tc := ⟨.hbm, 223, rfl⟩
abbrev main_v127 : Ref sig .tc := ⟨.hbm, 224, rfl⟩
abbrev main_v128 : Ref sig .tc := ⟨.hbm, 225, rfl⟩
abbrev main_c_33 : Ref sig .tc := ⟨.hbm, 226, rfl⟩
abbrev main_v129 : Ref sig .tc := ⟨.hbm, 227, rfl⟩
abbrev main_v130 : Ref sig .tc := ⟨.hbm, 228, rfl⟩
abbrev main_c_34 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_c_35 : Ref sig .tc := ⟨.hbm, 233, rfl⟩
abbrev main_v134 : Ref sig .tc := ⟨.hbm, 234, rfl⟩
abbrev main_v135 : Ref sig .tc := ⟨.hbm, 235, rfl⟩
abbrev main_c_36 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_c_37 : Ref sig .tc := ⟨.hbm, 240, rfl⟩
abbrev main_v139 : Ref sig .tc := ⟨.hbm, 241, rfl⟩
abbrev main_v140 : Ref sig .tc := ⟨.hbm, 242, rfl⟩
abbrev main_c_38 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_c_39 : Ref sig .tc := ⟨.hbm, 252, rfl⟩
abbrev main_v149 : Ref sig .tc := ⟨.hbm, 253, rfl⟩
abbrev main_v150 : Ref sig .tc := ⟨.hbm, 254, rfl⟩
abbrev main_c_40 : Ref sig .tc := ⟨.hbm, 255, rfl⟩
abbrev main_call6_v0 : Ref sig .tc := ⟨.hbm, 256, rfl⟩
abbrev main_call6_v1 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_call7_c : Ref sig .tc := ⟨.hbm, 264, rfl⟩
abbrev main_call7_v0 : Ref sig .tc := ⟨.hbm, 265, rfl⟩
abbrev main_call7_v1 : Ref sig .tc := ⟨.hbm, 266, rfl⟩
abbrev main_call7_c_0 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_call7_v5 : Ref sig .tc := ⟨.hbm, 271, rfl⟩
abbrev main_call7_c_1 : Ref sig .tc := ⟨.hbm, 272, rfl⟩
abbrev main_call7_c_2 : Ref sig .tc := ⟨.hbm, 273, rfl⟩
abbrev main_call7_v6 : Ref sig .tc := ⟨.hbm, 274, rfl⟩
abbrev main_call7_v7 : Ref sig .tc := ⟨.hbm, 275, rfl⟩
abbrev main_call7_v8 : Ref sig .tc := ⟨.hbm, 276, rfl⟩
abbrev main_call7_v9 : Ref sig .tc := ⟨.hbm, 277, rfl⟩
abbrev main_call7_v10 : Ref sig .tc := ⟨.hbm, 278, rfl⟩
abbrev main_call7_v11 : Ref sig .tc := ⟨.hbm, 279, rfl⟩
abbrev main_call7_c_3 : Ref sig .tc := ⟨.hbm, 280, rfl⟩
abbrev main_call7_v12 : Ref sig .tc := ⟨.hbm, 281, rfl⟩
abbrev main_call7_v13 : Ref sig .tc := ⟨.hbm, 282, rfl⟩
abbrev main_call7_v14 : Ref sig .tc := ⟨.hbm, 283, rfl⟩
abbrev main_call7_cst : Ref sig .tc := ⟨.hbm, 284, rfl⟩
abbrev main_call7_v15 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_v163 : Ref sig .tc := ⟨.hbm, 292, rfl⟩
abbrev main_c_41 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_c_42 : Ref sig .tc := ⟨.hbm, 298, rfl⟩
abbrev main_v168 : Ref sig .tc := ⟨.hbm, 299, rfl⟩
abbrev main_v169 : Ref sig .tc := ⟨.hbm, 300, rfl⟩
abbrev main_v170 : Ref sig .tc := ⟨.hbm, 301, rfl⟩
abbrev main_v171 : Ref sig .tc := ⟨.hbm, 302, rfl⟩
abbrev main_c_43 : Ref sig .tc := ⟨.hbm, 303, rfl⟩
abbrev main_v172 : Ref sig .tc := ⟨.hbm, 304, rfl⟩
abbrev main_v173 : Ref sig .tc := ⟨.hbm, 305, rfl⟩
abbrev main_c_44 : Ref sig .tc := ⟨.hbm, 306, rfl⟩
abbrev main_v174 : Ref sig .tc := ⟨.hbm, 307, rfl⟩
abbrev main_v175 : Ref sig .tc := ⟨.hbm, 308, rfl⟩
abbrev main_c_45 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_c_46 : Ref sig .tc := ⟨.hbm, 313, rfl⟩
abbrev main_v179 : Ref sig .tc := ⟨.hbm, 314, rfl⟩
abbrev main_v180 : Ref sig .tc := ⟨.hbm, 315, rfl⟩
abbrev main_c_47 : Ref sig .tc := ⟨.hbm, 316, rfl⟩
abbrev main_v181 : Ref sig .tc := ⟨.hbm, 317, rfl⟩
abbrev main_v182 : Ref sig .tc := ⟨.hbm, 318, rfl⟩
abbrev main_v183 : Ref sig .tc := ⟨.hbm, 319, rfl⟩
abbrev main_c_48 : Ref sig .tc := ⟨.hbm, 320, rfl⟩
abbrev main_v184 : Ref sig .tc := ⟨.hbm, 321, rfl⟩
abbrev main_v185 : Ref sig .tc := ⟨.hbm, 322, rfl⟩
abbrev main_c_49 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_c_50 : Ref sig .tc := ⟨.hbm, 332, rfl⟩
abbrev main_v194 : Ref sig .tc := ⟨.hbm, 333, rfl⟩
abbrev main_v195 : Ref sig .tc := ⟨.hbm, 334, rfl⟩
abbrev main_c_51 : Ref sig .tc := ⟨.hbm, 335, rfl⟩
abbrev main_call8_v0 : Ref sig .tc := ⟨.hbm, 336, rfl⟩
abbrev main_call8_v1 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_call9_c : Ref sig .tc := ⟨.hbm, 344, rfl⟩
abbrev main_call9_v0 : Ref sig .tc := ⟨.hbm, 345, rfl⟩
abbrev main_call9_v1 : Ref sig .tc := ⟨.hbm, 346, rfl⟩
abbrev main_call9_c_0 : Ref sig .tc := ⟨.hbm, 347, rfl⟩
abbrev main_call9_v2 : Ref sig .tc := ⟨.hbm, 348, rfl⟩
abbrev main_call9_v3 : Ref sig .tc := ⟨.hbm, 349, rfl⟩
abbrev main_call9_v4 : Ref sig .tc := ⟨.hbm, 350, rfl⟩
abbrev main_call9_v5 : Ref sig .tc := ⟨.hbm, 351, rfl⟩
abbrev main_call9_c_1 : Ref sig .tc := ⟨.hbm, 352, rfl⟩
abbrev main_call9_c_2 : Ref sig .tc := ⟨.hbm, 353, rfl⟩
abbrev main_call9_v6 : Ref sig .tc := ⟨.hbm, 354, rfl⟩
abbrev main_call9_v7 : Ref sig .tc := ⟨.hbm, 355, rfl⟩
abbrev main_call9_v8 : Ref sig .tc := ⟨.hbm, 356, rfl⟩
abbrev main_call9_v9 : Ref sig .tc := ⟨.hbm, 357, rfl⟩
abbrev main_call9_v10 : Ref sig .tc := ⟨.hbm, 358, rfl⟩
abbrev main_call9_v11 : Ref sig .tc := ⟨.hbm, 359, rfl⟩
abbrev main_call9_c_3 : Ref sig .tc := ⟨.hbm, 360, rfl⟩
abbrev main_call9_v12 : Ref sig .tc := ⟨.hbm, 361, rfl⟩
abbrev main_call9_v13 : Ref sig .tc := ⟨.hbm, 362, rfl⟩
abbrev main_call9_v14 : Ref sig .tc := ⟨.hbm, 363, rfl⟩
abbrev main_call9_cst : Ref sig .tc := ⟨.hbm, 364, rfl⟩
abbrev main_call9_v15 : Ref sig .tc := ⟨.hbm, 365, rfl⟩
abbrev main_v202 : Ref sig .tc := ⟨.hbm, 366, rfl⟩
abbrev main_v203 : Ref sig .tc := ⟨.hbm, 367, rfl⟩
abbrev main_v204 : Ref sig .tc := ⟨.hbm, 368, rfl⟩
abbrev main_v205 : Ref sig .tc := ⟨.hbm, 369, rfl⟩
abbrev main_v206 : Ref sig .tc := ⟨.hbm, 370, rfl⟩
abbrev main_v207 : Ref sig .tc := ⟨.hbm, 371, rfl⟩
abbrev main_v208 : Ref sig .tc := ⟨.hbm, 372, rfl⟩
abbrev main_cst_52 : Ref sig .tc := ⟨.hbm, 373, rfl⟩
abbrev main_v209 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_cst_53 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_c_54 : Ref sig .tc := ⟨.hbm, 383, rfl⟩
abbrev main_v217 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_c_55 : Ref sig .tc := ⟨.hbm, 388, rfl⟩
abbrev main_v221 : Ref sig .tc := ⟨.hbm, 389, rfl⟩
abbrev main_v222 : Ref sig .tc := ⟨.hbm, 390, rfl⟩
abbrev main_v223 : Ref sig .tc := ⟨.hbm, 391, rfl⟩
abbrev main_v224 : Ref sig .tc := ⟨.hbm, 392, rfl⟩
abbrev main_c_56 : Ref sig .tc := ⟨.hbm, 393, rfl⟩
abbrev main_v225 : Ref sig .tc := ⟨.hbm, 394, rfl⟩
abbrev main_v226 : Ref sig .tc := ⟨.hbm, 395, rfl⟩
abbrev main_c_57 : Ref sig .tc := ⟨.hbm, 396, rfl⟩
abbrev main_v227 : Ref sig .tc := ⟨.hbm, 397, rfl⟩
abbrev main_v228 : Ref sig .tc := ⟨.hbm, 398, rfl⟩
abbrev main_c_58 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_c_59 : Ref sig .tc := ⟨.hbm, 403, rfl⟩
abbrev main_v232 : Ref sig .tc := ⟨.hbm, 404, rfl⟩
abbrev main_v233 : Ref sig .tc := ⟨.hbm, 405, rfl⟩
abbrev main_c_60 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_c_61 : Ref sig .tc := ⟨.hbm, 410, rfl⟩
abbrev main_v237 : Ref sig .tc := ⟨.hbm, 411, rfl⟩
abbrev main_v238 : Ref sig .tc := ⟨.hbm, 412, rfl⟩
abbrev main_c_62 : Ref sig .tc := ⟨.hbm, 413, rfl⟩
abbrev main_v239 : Ref sig .tc := ⟨.hbm, 414, rfl⟩
abbrev main_v240 : Ref sig .tc := ⟨.hbm, 415, rfl⟩
abbrev main_v241 : Ref sig .tc := ⟨.hbm, 416, rfl⟩
abbrev main_v242 : Ref sig .tc := ⟨.hbm, 417, rfl⟩
abbrev main_v243 : Ref sig .tc := ⟨.hbm, 418, rfl⟩
abbrev main_v244 : Ref sig .tc := ⟨.hbm, 419, rfl⟩
abbrev main_v245 : Ref sig .tc := ⟨.hbm, 420, rfl⟩
abbrev main_v246 : Ref sig .tc := ⟨.hbm, 421, rfl⟩
abbrev main_c_63 : Ref sig .tc := ⟨.hbm, 422, rfl⟩
abbrev main_v247 : Ref sig .tc := ⟨.hbm, 423, rfl⟩
abbrev main_v248 : Ref sig .tc := ⟨.hbm, 424, rfl⟩
abbrev main_c_64 : Ref sig .tc := ⟨.hbm, 425, rfl⟩
abbrev main_call10_v0 : Ref sig .tc := ⟨.hbm, 426, rfl⟩
abbrev main_call10_v1 : Ref sig .tc := ⟨.hbm, 427, rfl⟩
abbrev main_v249 : Ref sig .tc := ⟨.hbm, 428, rfl⟩
abbrev main_v250 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_call11_c : Ref sig .tc := ⟨.hbm, 434, rfl⟩
abbrev main_call11_v0 : Ref sig .tc := ⟨.hbm, 435, rfl⟩
abbrev main_call11_v1 : Ref sig .tc := ⟨.hbm, 436, rfl⟩
abbrev main_call11_c_0 : Ref sig .tc := ⟨.hbm, 437, rfl⟩
abbrev main_call11_v2 : Ref sig .tc := ⟨.hbm, 438, rfl⟩
abbrev main_call11_v3 : Ref sig .tc := ⟨.hbm, 439, rfl⟩
abbrev main_call11_v4 : Ref sig .tc := ⟨.hbm, 440, rfl⟩
abbrev main_call11_v5 : Ref sig .tc := ⟨.hbm, 441, rfl⟩
abbrev main_call11_c_1 : Ref sig .tc := ⟨.hbm, 442, rfl⟩
abbrev main_call11_c_2 : Ref sig .tc := ⟨.hbm, 443, rfl⟩
abbrev main_call11_v6 : Ref sig .tc := ⟨.hbm, 444, rfl⟩
abbrev main_call11_v7 : Ref sig .tc := ⟨.hbm, 445, rfl⟩
abbrev main_call11_v8 : Ref sig .tc := ⟨.hbm, 446, rfl⟩
abbrev main_call11_v9 : Ref sig .tc := ⟨.hbm, 447, rfl⟩
abbrev main_call11_v10 : Ref sig .tc := ⟨.hbm, 448, rfl⟩
abbrev main_call11_v11 : Ref sig .tc := ⟨.hbm, 449, rfl⟩
abbrev main_call11_c_3 : Ref sig .tc := ⟨.hbm, 450, rfl⟩
abbrev main_call11_v12 : Ref sig .tc := ⟨.hbm, 451, rfl⟩
abbrev main_call11_v13 : Ref sig .tc := ⟨.hbm, 452, rfl⟩
abbrev main_call11_v14 : Ref sig .tc := ⟨.hbm, 453, rfl⟩
abbrev main_call11_cst : Ref sig .tc := ⟨.hbm, 454, rfl⟩
abbrev main_call11_v15 : Ref sig .tc := ⟨.hbm, 455, rfl⟩
abbrev main_v255 : Ref sig .tc := ⟨.hbm, 456, rfl⟩
abbrev main_v256 : Ref sig .tc := ⟨.hbm, 457, rfl⟩
abbrev main_v257 : Ref sig .tc := ⟨.hbm, 458, rfl⟩
abbrev main_v258 : Ref sig .tc := ⟨.hbm, 459, rfl⟩
abbrev main_v259 : Ref sig .tc := ⟨.hbm, 460, rfl⟩
abbrev main_v260 : Ref sig .tc := ⟨.hbm, 461, rfl⟩
abbrev main_v261 : Ref sig .tc := ⟨.hbm, 462, rfl⟩
abbrev main_c_65 : Ref sig .tc := ⟨.hbm, 463, rfl⟩
abbrev main_v262 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_c_66 : Ref sig .tc := ⟨.hbm, 468, rfl⟩
abbrev main_v266 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_c_67 : Ref sig .tc := ⟨.hbm, 473, rfl⟩
abbrev main_v270 : Ref sig .tc := ⟨.hbm, 474, rfl⟩
abbrev main_v271 : Ref sig .tc := ⟨.hbm, 475, rfl⟩
abbrev main_c_68 : Ref sig .tc := ⟨.hbm, 476, rfl⟩
abbrev main_v272 : Ref sig .tc := ⟨.hbm, 477, rfl⟩
abbrev main_v273 : Ref sig .tc := ⟨.hbm, 478, rfl⟩
abbrev main_c_69 : Ref sig .tc := ⟨.hbm, 479, rfl⟩
abbrev main_v274 : Ref sig .tc := ⟨.hbm, 480, rfl⟩
abbrev main_v275 : Ref sig .tc := ⟨.hbm, 481, rfl⟩
abbrev main_v276 : Ref sig .tc := ⟨.hbm, 482, rfl⟩
abbrev main_c_70 : Ref sig .tc := ⟨.hbm, 483, rfl⟩
abbrev main_v277 : Ref sig .tc := ⟨.hbm, 484, rfl⟩
abbrev main_v278 : Ref sig .tc := ⟨.hbm, 485, rfl⟩
abbrev main_c_71 : Ref sig .tc := ⟨.hbm, 486, rfl⟩
abbrev main_v279 : Ref sig .tc := ⟨.hbm, 487, rfl⟩
abbrev main_v280 : Ref sig .tc := ⟨.hbm, 488, rfl⟩
abbrev main_v281 : Ref sig .tc := ⟨.hbm, 489, rfl⟩
abbrev main_c_72 : Ref sig .tc := ⟨.hbm, 490, rfl⟩
abbrev main_v282 : Ref sig .tc := ⟨.hbm, 491, rfl⟩
abbrev main_v283 : Ref sig .tc := ⟨.hbm, 492, rfl⟩
abbrev main_c_73 : Ref sig .tc := ⟨.hbm, 493, rfl⟩
abbrev main_v284 : Ref sig .tc := ⟨.hbm, 494, rfl⟩
abbrev main_v285 : Ref sig .tc := ⟨.hbm, 495, rfl⟩
abbrev main_v286 : Ref sig .tc := ⟨.hbm, 496, rfl⟩
abbrev main_v287 : Ref sig .tc := ⟨.hbm, 497, rfl⟩
abbrev main_v288 : Ref sig .tc := ⟨.hbm, 498, rfl⟩
abbrev main_v289 : Ref sig .tc := ⟨.hbm, 499, rfl⟩
abbrev main_v290 : Ref sig .tc := ⟨.hbm, 500, rfl⟩
abbrev main_v291 : Ref sig .tc := ⟨.hbm, 501, rfl⟩
abbrev main_c_74 : Ref sig .tc := ⟨.hbm, 502, rfl⟩
abbrev main_v292 : Ref sig .tc := ⟨.hbm, 503, rfl⟩
abbrev main_v293 : Ref sig .tc := ⟨.hbm, 504, rfl⟩
abbrev main_c_75 : Ref sig .tc := ⟨.hbm, 505, rfl⟩
abbrev main_call12_v0 : Ref sig .tc := ⟨.hbm, 506, rfl⟩
abbrev main_call12_v1 : Ref sig .tc := ⟨.hbm, 507, rfl⟩
abbrev main_v294 : Ref sig .tc := ⟨.hbm, 508, rfl⟩
abbrev main_v295 : Ref sig .tc := ⟨.hbm, 509, rfl⟩
abbrev main_v296 : Ref sig .tc := ⟨.hbm, 510, rfl⟩
abbrev main_v297 : Ref sig .tc := ⟨.hbm, 511, rfl⟩
abbrev main_v298 : Ref sig .tc := ⟨.hbm, 512, rfl⟩
abbrev main_v299 : Ref sig .tc := ⟨.hbm, 513, rfl⟩
abbrev main_call13_c : Ref sig .tc := ⟨.hbm, 514, rfl⟩
abbrev main_call13_v0 : Ref sig .tc := ⟨.hbm, 515, rfl⟩
abbrev main_call13_v1 : Ref sig .tc := ⟨.hbm, 516, rfl⟩
abbrev main_call13_c_0 : Ref sig .tc := ⟨.hbm, 517, rfl⟩
abbrev main_call13_v2 : Ref sig .tc := ⟨.hbm, 518, rfl⟩
abbrev main_call13_v3 : Ref sig .tc := ⟨.hbm, 519, rfl⟩
abbrev main_call13_v4 : Ref sig .tc := ⟨.hbm, 520, rfl⟩
abbrev main_call13_v5 : Ref sig .tc := ⟨.hbm, 521, rfl⟩
abbrev main_call13_c_1 : Ref sig .tc := ⟨.hbm, 522, rfl⟩
abbrev main_call13_c_2 : Ref sig .tc := ⟨.hbm, 523, rfl⟩
abbrev main_call13_v6 : Ref sig .tc := ⟨.hbm, 524, rfl⟩
abbrev main_call13_v7 : Ref sig .tc := ⟨.hbm, 525, rfl⟩
abbrev main_call13_v8 : Ref sig .tc := ⟨.hbm, 526, rfl⟩
abbrev main_call13_v9 : Ref sig .tc := ⟨.hbm, 527, rfl⟩
abbrev main_call13_v10 : Ref sig .tc := ⟨.hbm, 528, rfl⟩
abbrev main_call13_v11 : Ref sig .tc := ⟨.hbm, 529, rfl⟩
abbrev main_call13_c_3 : Ref sig .tc := ⟨.hbm, 530, rfl⟩
abbrev main_call13_v12 : Ref sig .tc := ⟨.hbm, 531, rfl⟩
abbrev main_call13_v13 : Ref sig .tc := ⟨.hbm, 532, rfl⟩
abbrev main_call13_v14 : Ref sig .tc := ⟨.hbm, 533, rfl⟩
abbrev main_call13_cst : Ref sig .tc := ⟨.hbm, 534, rfl⟩
abbrev main_call13_v15 : Ref sig .tc := ⟨.hbm, 535, rfl⟩
abbrev main_v300 : Ref sig .tc := ⟨.hbm, 536, rfl⟩
abbrev main_v301 : Ref sig .tc := ⟨.hbm, 537, rfl⟩
abbrev main_v302 : Ref sig .tc := ⟨.hbm, 538, rfl⟩
abbrev main_v303 : Ref sig .tc := ⟨.hbm, 539, rfl⟩
abbrev main_v304 : Ref sig .tc := ⟨.hbm, 540, rfl⟩
abbrev main_v305 : Ref sig .tc := ⟨.hbm, 541, rfl⟩
abbrev main_v306 : Ref sig .tc := ⟨.hbm, 542, rfl⟩
abbrev main_cst_76 : Ref sig .tc := ⟨.hbm, 543, rfl⟩
abbrev main_v307 : Ref sig .tc := ⟨.hbm, 544, rfl⟩
abbrev main_v308 : Ref sig .tc := ⟨.hbm, 545, rfl⟩
abbrev main_v309 : Ref sig .tc := ⟨.hbm, 546, rfl⟩
abbrev main_v310 : Ref sig .tc := ⟨.hbm, 547, rfl⟩
abbrev main_c_77 : Ref sig .tc := ⟨.hbm, 548, rfl⟩
abbrev main_v311 : Ref sig .tc := ⟨.hbm, 549, rfl⟩
abbrev main_v312 : Ref sig .tc := ⟨.hbm, 550, rfl⟩
abbrev main_v313 : Ref sig .tc := ⟨.hbm, 551, rfl⟩
abbrev main_v314 : Ref sig .tc := ⟨.hbm, 552, rfl⟩
abbrev main_c_78 : Ref sig .tc := ⟨.hbm, 553, rfl⟩
abbrev main_v315 : Ref sig .tc := ⟨.hbm, 554, rfl⟩
abbrev main_v316 : Ref sig .tc := ⟨.hbm, 555, rfl⟩
abbrev main_v317 : Ref sig .tc := ⟨.hbm, 556, rfl⟩
abbrev main_v318 : Ref sig .tc := ⟨.hbm, 557, rfl⟩
abbrev main_c_79 : Ref sig .tc := ⟨.hbm, 558, rfl⟩
abbrev main_v319 : Ref sig .tc := ⟨.hbm, 559, rfl⟩
abbrev main_v320 : Ref sig .tc := ⟨.hbm, 560, rfl⟩
abbrev main_c_80 : Ref sig .tc := ⟨.hbm, 561, rfl⟩
abbrev main_v321 : Ref sig .tc := ⟨.hbm, 562, rfl⟩
abbrev main_v322 : Ref sig .tc := ⟨.hbm, 563, rfl⟩
abbrev main_c_81 : Ref sig .tc := ⟨.hbm, 564, rfl⟩
abbrev main_v323 : Ref sig .tc := ⟨.hbm, 565, rfl⟩
abbrev main_v324 : Ref sig .tc := ⟨.hbm, 566, rfl⟩
abbrev main_v325 : Ref sig .tc := ⟨.hbm, 567, rfl⟩
abbrev main_c_82 : Ref sig .tc := ⟨.hbm, 568, rfl⟩
abbrev main_v326 : Ref sig .tc := ⟨.hbm, 569, rfl⟩
abbrev main_v327 : Ref sig .tc := ⟨.hbm, 570, rfl⟩
abbrev main_c_83 : Ref sig .tc := ⟨.hbm, 571, rfl⟩
abbrev main_v328 : Ref sig .tc := ⟨.hbm, 572, rfl⟩
abbrev main_v329 : Ref sig .tc := ⟨.hbm, 573, rfl⟩
abbrev main_v330 : Ref sig .tc := ⟨.hbm, 574, rfl⟩
abbrev main_c_84 : Ref sig .tc := ⟨.hbm, 575, rfl⟩
abbrev main_v331 : Ref sig .tc := ⟨.hbm, 576, rfl⟩
abbrev main_v332 : Ref sig .tc := ⟨.hbm, 577, rfl⟩
abbrev main_c_85 : Ref sig .tc := ⟨.hbm, 578, rfl⟩
abbrev main_v333 : Ref sig .tc := ⟨.hbm, 579, rfl⟩
abbrev main_v334 : Ref sig .tc := ⟨.hbm, 580, rfl⟩
abbrev main_v335 : Ref sig .tc := ⟨.hbm, 581, rfl⟩
abbrev main_v336 : Ref sig .tc := ⟨.hbm, 582, rfl⟩
abbrev main_v337 : Ref sig .tc := ⟨.hbm, 583, rfl⟩
abbrev main_v338 : Ref sig .tc := ⟨.hbm, 584, rfl⟩
abbrev main_v339 : Ref sig .tc := ⟨.hbm, 585, rfl⟩
abbrev main_v340 : Ref sig .tc := ⟨.hbm, 586, rfl⟩
abbrev main_c_86 : Ref sig .tc := ⟨.hbm, 587, rfl⟩
abbrev main_v341 : Ref sig .tc := ⟨.hbm, 588, rfl⟩
abbrev main_v342 : Ref sig .tc := ⟨.hbm, 589, rfl⟩
abbrev main_c_87 : Ref sig .tc := ⟨.hbm, 590, rfl⟩
abbrev main_call14_v0 : Ref sig .tc := ⟨.hbm, 591, rfl⟩
abbrev main_call14_v1 : Ref sig .tc := ⟨.hbm, 592, rfl⟩
abbrev main_v343 : Ref sig .tc := ⟨.hbm, 593, rfl⟩
abbrev main_v344 : Ref sig .tc := ⟨.hbm, 594, rfl⟩
abbrev main_v345 : Ref sig .tc := ⟨.hbm, 595, rfl⟩
abbrev main_v346 : Ref sig .tc := ⟨.hbm, 596, rfl⟩
abbrev main_v347 : Ref sig .tc := ⟨.hbm, 597, rfl⟩
abbrev main_v348 : Ref sig .tc := ⟨.hbm, 598, rfl⟩
abbrev main_call15_c : Ref sig .tc := ⟨.hbm, 599, rfl⟩
abbrev main_call15_v0 : Ref sig .tc := ⟨.hbm, 600, rfl⟩
abbrev main_call15_v1 : Ref sig .tc := ⟨.hbm, 601, rfl⟩
abbrev main_call15_c_0 : Ref sig .tc := ⟨.hbm, 602, rfl⟩
abbrev main_call15_v2 : Ref sig .tc := ⟨.hbm, 603, rfl⟩
abbrev main_call15_v3 : Ref sig .tc := ⟨.hbm, 604, rfl⟩
abbrev main_call15_v4 : Ref sig .tc := ⟨.hbm, 605, rfl⟩
abbrev main_call15_v5 : Ref sig .tc := ⟨.hbm, 606, rfl⟩
abbrev main_call15_c_1 : Ref sig .tc := ⟨.hbm, 607, rfl⟩
abbrev main_call15_c_2 : Ref sig .tc := ⟨.hbm, 608, rfl⟩
abbrev main_call15_v6 : Ref sig .tc := ⟨.hbm, 609, rfl⟩
abbrev main_call15_v7 : Ref sig .tc := ⟨.hbm, 610, rfl⟩
abbrev main_call15_v8 : Ref sig .tc := ⟨.hbm, 611, rfl⟩
abbrev main_call15_v9 : Ref sig .tc := ⟨.hbm, 612, rfl⟩
abbrev main_call15_v10 : Ref sig .tc := ⟨.hbm, 613, rfl⟩
abbrev main_call15_v11 : Ref sig .tc := ⟨.hbm, 614, rfl⟩
abbrev main_call15_c_3 : Ref sig .tc := ⟨.hbm, 615, rfl⟩
abbrev main_call15_v12 : Ref sig .tc := ⟨.hbm, 616, rfl⟩
abbrev main_call15_v13 : Ref sig .tc := ⟨.hbm, 617, rfl⟩
abbrev main_call15_v14 : Ref sig .tc := ⟨.hbm, 618, rfl⟩
abbrev main_call15_cst : Ref sig .tc := ⟨.hbm, 619, rfl⟩
abbrev main_call15_v15 : Ref sig .tc := ⟨.hbm, 620, rfl⟩
abbrev main_v349 : Ref sig .tc := ⟨.hbm, 621, rfl⟩
abbrev main_v350 : Ref sig .tc := ⟨.hbm, 622, rfl⟩
abbrev main_v351 : Ref sig .tc := ⟨.hbm, 623, rfl⟩
abbrev main_v352 : Ref sig .tc := ⟨.hbm, 624, rfl⟩
abbrev main_v353 : Ref sig .tc := ⟨.hbm, 625, rfl⟩
abbrev main_v354 : Ref sig .tc := ⟨.hbm, 626, rfl⟩
abbrev main_v355 : Ref sig .tc := ⟨.hbm, 627, rfl⟩
abbrev main_c_88 : Ref sig .tc := ⟨.hbm, 628, rfl⟩
abbrev main_v356 : Ref sig .tc := ⟨.hbm, 629, rfl⟩
abbrev main_v357 : Ref sig .tc := ⟨.hbm, 630, rfl⟩
abbrev main_v358 : Ref sig .tc := ⟨.hbm, 631, rfl⟩
abbrev main_v359 : Ref sig .tc := ⟨.hbm, 632, rfl⟩
abbrev main_c_89 : Ref sig .tc := ⟨.hbm, 633, rfl⟩
abbrev main_v360 : Ref sig .tc := ⟨.hbm, 634, rfl⟩
abbrev main_v361 : Ref sig .tc := ⟨.hbm, 635, rfl⟩
abbrev main_v362 : Ref sig .tc := ⟨.hbm, 636, rfl⟩
abbrev main_v363 : Ref sig .tc := ⟨.hbm, 637, rfl⟩
abbrev main_c_90 : Ref sig .tc := ⟨.hbm, 638, rfl⟩
abbrev main_v364 : Ref sig .tc := ⟨.hbm, 639, rfl⟩
abbrev main_v365 : Ref sig .tc := ⟨.hbm, 640, rfl⟩
abbrev main_c_91 : Ref sig .tc := ⟨.hbm, 641, rfl⟩
abbrev main_v366 : Ref sig .tc := ⟨.hbm, 642, rfl⟩
abbrev main_v367 : Ref sig .tc := ⟨.hbm, 643, rfl⟩
abbrev main_c_92 : Ref sig .tc := ⟨.hbm, 644, rfl⟩
abbrev main_v368 : Ref sig .tc := ⟨.hbm, 645, rfl⟩
abbrev main_v369 : Ref sig .tc := ⟨.hbm, 646, rfl⟩
abbrev main_v370 : Ref sig .tc := ⟨.hbm, 647, rfl⟩
abbrev main_c_93 : Ref sig .tc := ⟨.hbm, 648, rfl⟩
abbrev main_v371 : Ref sig .tc := ⟨.hbm, 649, rfl⟩
abbrev main_v372 : Ref sig .tc := ⟨.hbm, 650, rfl⟩
abbrev main_c_94 : Ref sig .tc := ⟨.hbm, 651, rfl⟩
abbrev main_v373 : Ref sig .tc := ⟨.hbm, 652, rfl⟩
abbrev main_v374 : Ref sig .tc := ⟨.hbm, 653, rfl⟩
abbrev main_v375 : Ref sig .tc := ⟨.hbm, 654, rfl⟩
abbrev main_c_95 : Ref sig .tc := ⟨.hbm, 655, rfl⟩
abbrev main_v376 : Ref sig .tc := ⟨.hbm, 656, rfl⟩
abbrev main_v377 : Ref sig .tc := ⟨.hbm, 657, rfl⟩
abbrev main_c_96 : Ref sig .tc := ⟨.hbm, 658, rfl⟩
abbrev main_v378 : Ref sig .tc := ⟨.hbm, 659, rfl⟩
abbrev main_v379 : Ref sig .tc := ⟨.hbm, 660, rfl⟩
abbrev main_v380 : Ref sig .tc := ⟨.hbm, 661, rfl⟩
abbrev main_v381 : Ref sig .tc := ⟨.hbm, 662, rfl⟩
abbrev main_v382 : Ref sig .tc := ⟨.hbm, 663, rfl⟩
abbrev main_v383 : Ref sig .tc := ⟨.hbm, 664, rfl⟩
abbrev main_v384 : Ref sig .tc := ⟨.hbm, 665, rfl⟩
abbrev main_v385 : Ref sig .tc := ⟨.hbm, 666, rfl⟩
abbrev main_c_97 : Ref sig .tc := ⟨.hbm, 667, rfl⟩
abbrev main_v386 : Ref sig .tc := ⟨.hbm, 668, rfl⟩
abbrev main_v387 : Ref sig .tc := ⟨.hbm, 669, rfl⟩
abbrev main_c_98 : Ref sig .tc := ⟨.hbm, 670, rfl⟩
abbrev main_call16_v0 : Ref sig .tc := ⟨.hbm, 671, rfl⟩
abbrev main_call16_v1 : Ref sig .tc := ⟨.hbm, 672, rfl⟩
abbrev main_v388 : Ref sig .tc := ⟨.hbm, 673, rfl⟩
abbrev main_v389 : Ref sig .tc := ⟨.hbm, 674, rfl⟩
abbrev main_v390 : Ref sig .tc := ⟨.hbm, 675, rfl⟩
abbrev main_v391 : Ref sig .tc := ⟨.hbm, 676, rfl⟩
abbrev main_v392 : Ref sig .tc := ⟨.hbm, 677, rfl⟩
abbrev main_v393 : Ref sig .tc := ⟨.hbm, 678, rfl⟩
abbrev main_call17_c : Ref sig .tc := ⟨.hbm, 679, rfl⟩
abbrev main_call17_v0 : Ref sig .tc := ⟨.hbm, 680, rfl⟩
abbrev main_call17_v1 : Ref sig .tc := ⟨.hbm, 681, rfl⟩
abbrev main_call17_c_0 : Ref sig .tc := ⟨.hbm, 682, rfl⟩
abbrev main_call17_v2 : Ref sig .tc := ⟨.hbm, 683, rfl⟩
abbrev main_call17_v3 : Ref sig .tc := ⟨.hbm, 684, rfl⟩
abbrev main_call17_v4 : Ref sig .tc := ⟨.hbm, 685, rfl⟩
abbrev main_call17_v5 : Ref sig .tc := ⟨.hbm, 686, rfl⟩
abbrev main_call17_c_1 : Ref sig .tc := ⟨.hbm, 687, rfl⟩
abbrev main_call17_c_2 : Ref sig .tc := ⟨.hbm, 688, rfl⟩
abbrev main_call17_v6 : Ref sig .tc := ⟨.hbm, 689, rfl⟩
abbrev main_call17_v7 : Ref sig .tc := ⟨.hbm, 690, rfl⟩
abbrev main_call17_v8 : Ref sig .tc := ⟨.hbm, 691, rfl⟩
abbrev main_call17_v9 : Ref sig .tc := ⟨.hbm, 692, rfl⟩
abbrev main_call17_v10 : Ref sig .tc := ⟨.hbm, 693, rfl⟩
abbrev main_call17_v11 : Ref sig .tc := ⟨.hbm, 694, rfl⟩
abbrev main_call17_c_3 : Ref sig .tc := ⟨.hbm, 695, rfl⟩
abbrev main_call17_v12 : Ref sig .tc := ⟨.hbm, 696, rfl⟩
abbrev main_call17_v13 : Ref sig .tc := ⟨.hbm, 697, rfl⟩
abbrev main_call17_v14 : Ref sig .tc := ⟨.hbm, 698, rfl⟩
abbrev main_call17_cst : Ref sig .tc := ⟨.hbm, 699, rfl⟩
abbrev main_call17_v15 : Ref sig .tc := ⟨.hbm, 700, rfl⟩
abbrev main_v394 : Ref sig .tc := ⟨.hbm, 701, rfl⟩
abbrev main_v395 : Ref sig .tc := ⟨.hbm, 702, rfl⟩
abbrev main_v396 : Ref sig .tc := ⟨.hbm, 703, rfl⟩
abbrev main_v397_0 : Ref sig .tc := ⟨.hbm, 704, rfl⟩
abbrev main_v397_1 : Ref sig .tc := ⟨.hbm, 705, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3200x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3200x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3200x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3200x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3200x27 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S3 : S_.BroadcastsInDim S3 (![] : Fin 0 → Fin S3.rank)
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  concatenates_S1600000x1_S1600000x27_S1600000x28_d1 : Shape.Concatenates [S1600000x1, S1600000x27] S1600000x28 1
  slices_S2000000x3_S2000000x1_0_0 : S2000000x3.Slices ![0, 0] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_2 : S2000000x3.Slices ![0, 2] S2000000x1
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x28_0 : S2000000.BroadcastsInDim S2000000x28 (![0] : Fin 1 → Fin S2000000x28.rank)
  bcast_S_S2000000x28 : S_.BroadcastsInDim S2000000x28 (![] : Fin 0 → Fin S2000000x28.rank)
  bcast_S2000000x1_S2000000x28_0_1 : S2000000x1.BroadcastsInDim S2000000x28 (![0, 1] : Fin 2 → Fin S2000000x28.rank)
  inb_S3200x28_S3200x28_0_0 : ∀ a, (![0, 0] : Fin 2 → Nat) a + S3200x28.size a ≤ S3200x28.size a
  h_S3200x28 : 0 < S3200x28.numel
  shapeCasts_S3200x28_S3200x28 : S3200x28.ShapeCasts S3200x28
  slices_S3200x28_o0_0_S3200x1 : S3200x28.Slices ![0, 0] S3200x1
  inb_S3200x1_S3200x1_0_0 : ∀ a, (![0, 0] : Fin 2 → Nat) a + S3200x1.size a ≤ S3200x1.size a
  h_S3200x1 : 0 < S3200x1.numel
  slices_S3200x28_o0_1_S3200x27 : S3200x28.Slices ![0, 1] S3200x27
  inb_S3200x27_S3200x27_0_0 : ∀ a, (![0, 0] : Fin 2 → Nat) a + S3200x27.size a ≤ S3200x27.size a
  h_S3200x27 : 0 < S3200x27.numel
  gather_S128x128x128_S2000000x3_S2000000_n_012_n_n_012_1_111_wf : GatherDims.WF S128x128x128 S2000000x3 S2000000 [] [0, 1, 2] [] [0, 1, 2] [] 1 ![1, 1, 1]
  gather_S1600000x28_S2000000x1_S2000000x28_1_0_n_n_0_1_128_wf : GatherDims.WF S1600000x28 S2000000x1 S2000000x28 [1] [0] [] [0] [] 1 ![1, 28]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x28.size a ≤ S2000000x28.size a
  hwx0_0 : ∀ i : grid0.Coords, EltTy.bits .f32 = 32 ∨ (Rect.block (s := S2000000x28) S3200x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x28.size a ≤ S2000000x28.size a
  hwx0_1 : ∀ i : grid0.Coords, EltTy.bits .f32 = 32 ∨ (Rect.block (s := S2000000x28) S3200x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x28.size a ≤ S2000000x28.size a
  hwx0_2 : ∀ i : grid0.Coords, EltTy.bits .f32 = 32 ∨ (Rect.block (s := S2000000x28) S3200x28.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x28.size a ≤ S2000000x28.size a
  hwx0_3 : ∀ i : grid0.Coords, EltTy.bits .f32 = 32 ∨ (Rect.block (s := S2000000x28) S3200x28.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x28.size a ≤ S2000000x28.size a
  hwx0_4 : ∀ i : grid0.Coords, EltTy.bits .f32 = 32 ∨ (Rect.block (s := S2000000x28) S3200x28.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x28.size a ≤ S2000000x28.size a
  hwx0_5 : ∀ i : grid0.Coords, EltTy.bits .f32 = 32 ∨ (Rect.block (s := S2000000x28) S3200x28.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x28.size a ≤ S2000000x28.size a
  hwx0_6 : ∀ i : grid0.Coords, EltTy.bits .f32 = 32 ∨ (Rect.block (s := S2000000x28) S3200x28.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x28.size a ≤ S2000000x28.size a
  hwx0_7 : ∀ i : grid0.Coords, EltTy.bits .f32 = 32 ∨ (Rect.block (s := S2000000x28) S3200x28.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x1.size a ≤ S2000000x1.size a
  hwx0_8 : ∀ i : grid0.Coords, EltTy.bits .f32 = 32 ∨ (Rect.block (s := S2000000x1) S3200x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x27.size a ≤ S2000000x27.size a
  hwx0_9 : ∀ i : grid0.Coords, EltTy.bits .f32 = 32 ∨ (Rect.block (s := S2000000x27) S3200x27.size (cc0_transform_9 i) (hinb0_9 i)).WholeWords (EltTy.packing .f32)

variable [Facts₀]

def gather_S128x128x128_S2000000x3_S2000000_n_012_n_n_012_1_111 : GatherDims S128x128x128 S2000000x3 S2000000 where
  offsetDims := []
  collapsedSliceDims := [0, 1, 2]
  operandBatchingDims := []
  startIndicesBatchingDims := []
  startIndexMap := [0, 1, 2]
  indexVectorDim := 1
  sliceSizes := ![1, 1, 1]
  wf := gather_S128x128x128_S2000000x3_S2000000_n_012_n_n_012_1_111_wf
def gather_S1600000x28_S2000000x1_S2000000x28_1_0_n_n_0_1_128 : GatherDims S1600000x28 S2000000x1 S2000000x28 where
  offsetDims := [1]
  collapsedSliceDims := [0]
  operandBatchingDims := []
  startIndicesBatchingDims := []
  startIndexMap := [0]
  indexVectorDim := 1
  sliceSizes := ![1, 28]
  wf := gather_S1600000x28_S2000000x1_S2000000x28_1_0_n_n_0_1_128_wf

abbrev win0_0 : Pipeline.Window sig grid0 :=
  Pipeline.Window.ofSpec (Memref.whole main_v65) S3200x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v110) S3200x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v159) S3200x28.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v204) S3200x28.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v257) S3200x28.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v302) S3200x28.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v351) S3200x28.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v396) S3200x28.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v397_0) S3200x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v397_1) S3200x27.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x1 : Shape := ⟨2, ![1600000, 1]⟩
abbrev S1600000x27 : Shape := ⟨2, ![1600000, 27]⟩
abbrev S128x128x128 : Shape := ⟨3, ![128, 128, 128]⟩
abbrev S2000000x3 : Shape := ⟨2, ![2000000, 3]⟩
abbrev S3 : Shape := ⟨1, ![3]⟩
abbrev S_ : Shape := ⟨0, ![]⟩
abbrev S1x3 : Shape := ⟨2, ![1, 3]⟩
abbrev S2000000x1 : Shape := ⟨2, ![2000000, 1]⟩
abbrev S2000000x27 : Shape := ⟨2, ![2000000, 27]⟩
abbrev S2000000 : Shape := ⟨1, ![2000000]⟩

abbrev nBuf : Space → Nat
  | .hbm => 691
  | .vmem => 0
  | .smem => 0
  | _ => 0

abbrev hbmTy0_0 (i : Nat) : BufTy := match i % 128 with
  | 0 => ⟨S1600000x1, .f32⟩
  | 1 => ⟨S1600000x27, .f32⟩
  | 2 => ⟨S128x128x128, .i32⟩
  | 3 => ⟨S2000000x3, .f32⟩
  | 4 => ⟨S3, .f32⟩
  | 5 => ⟨S3, .i32⟩
  | 6 => ⟨S_, .f32⟩
  | 7 => ⟨S3, .f32⟩
  | 8 => ⟨S3, .f32⟩
  | 9 => ⟨S_, .f32⟩
  | 10 => ⟨S_, .f32⟩
  | 11 => ⟨S2000000x3, .f32⟩
  | 12 => ⟨S2000000x3, .f32⟩
  | 13 => ⟨S1x3, .f32⟩
  | 14 => ⟨S2000000x3, .f32⟩
  | 15 => ⟨S2000000x3, .f32⟩
  | 16 => ⟨S2000000x3, .f32⟩
  | 17 => ⟨S2000000x3, .i32⟩
  | 18 => ⟨S_, .i32⟩
  | 19 => ⟨S3, .i32⟩
  | 20 => ⟨S3, .i32⟩
  | 21 => ⟨S_, .i32⟩
  | 22 => ⟨S_, .i32⟩
  | 23 => ⟨S2000000x3, .i32⟩
  | 24 => ⟨S2000000x3, .i32⟩
  | 25 => ⟨S1x3, .i32⟩
  | 26 => ⟨S2000000x3, .i32⟩
  | 27 => ⟨S2000000x3, .i32⟩
  | 28 => ⟨S2000000x3, .f32⟩
  | 29 => ⟨S2000000x3, .f32⟩
  | 30 => ⟨S_, .f32⟩
  | 31 => ⟨S2000000x1, .f32⟩
  | 32 => ⟨S_, .f32⟩
  | 33 => ⟨S2000000x27, .f32⟩
  | 34 => ⟨S2000000x1, .f32⟩
  | 35 => ⟨S2000000, .f32⟩
  | 36 => ⟨S_, .f32⟩
  | 37 => ⟨S2000000, .f32⟩
  | 38 => ⟨S2000000, .f32⟩
  | 39 => ⟨S2000000x1, .f32⟩
  | 40 => ⟨S2000000, .f32⟩
  | 41 => ⟨S_, .f32⟩
  | 42 => ⟨S2000000, .f32⟩
  | 43 => ⟨S2000000, .f32⟩
  | 44 => ⟨S2000000x1, .f32⟩
  | 45 => ⟨S2000000, .f32⟩
  | 46 => ⟨S_, .f32⟩
  | 47 => ⟨S2000000, .f32⟩
  | 48 => ⟨S2000000, .f32⟩
  | 49 => ⟨S2000000x1, .i32⟩
  | 50 => ⟨S2000000, .i32⟩
  | 51 => ⟨S_, .i32⟩
  | 52 => ⟨S2000000, .i32⟩
  | 53 => ⟨S2000000, .i32⟩
  | 54 => ⟨S2000000x1, .i32⟩
  | 55 => ⟨S2000000, .i32⟩
  | 56 => ⟨S_, .i32⟩
  | 57 => ⟨S2000000, .i32⟩
  | 58 => ⟨S2000000, .i32⟩
  | 59 => ⟨S2000000x1, .i32⟩
  | 60 => ⟨S2000000, .i32⟩
  | 61 => ⟨S_, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x1, .i32⟩
  | 87 => ⟨S2000000x1, .i32⟩
  | 88 => ⟨S2000000x3, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S_, .i32⟩
  | 95 => ⟨S2000000, .i32⟩
  | 96 => ⟨S2000000, .i32⟩
  | 97 => ⟨S2000000, .f32⟩
  | 98 => ⟨S2000000, .f32⟩
  | 99 => ⟨S2000000, .f32⟩
  | 100 => ⟨S2000000, .f32⟩
  | 101 => ⟨S2000000x1, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x1, .f32⟩
  | 111 => ⟨S2000000x1, .f32⟩
  | 112 => ⟨S2000000x1, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x27, .f32⟩
  | 122 => ⟨S2000000x27, .f32⟩
  | 123 => ⟨S2000000x27, .f32⟩
  | 124 => ⟨S2000000x27, .f32⟩
  | 125 => ⟨S2000000x1, .f32⟩
  | 126 => ⟨S2000000, .f32⟩
  | 127 => ⟨S2000000x1, .i32⟩
  | _ => ⟨S1600000x1, .f32⟩

abbrev hbmTy0_1 (i : Nat) : BufTy := match i % 128 with
  | 0 => ⟨S2000000, .i32⟩
  | 1 => ⟨S_, .i32⟩
  | 2 => ⟨S2000000, .i32⟩
  | 3 => ⟨S2000000, .i32⟩
  | 4 => ⟨S2000000x1, .i32⟩
  | 5 => ⟨S2000000, .i32⟩
  | 6 => ⟨S_, .i32⟩
  | 7 => ⟨S2000000, .i32⟩
  | 8 => ⟨S2000000, .i32⟩
  | 9 => ⟨S2000000x1, .i32⟩
  | 10 => ⟨S2000000, .i32⟩
  | 11 => ⟨S_, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x1, .i32⟩
  | 37 => ⟨S2000000x1, .i32⟩
  | 38 => ⟨S2000000x3, .i32⟩
  | 39 => ⟨S2000000, .i32⟩
  | 40 => ⟨S_, .i32⟩
  | 41 => ⟨S2000000, .i32⟩
  | 42 => ⟨S2000000, .i1⟩
  | 43 => ⟨S_, .i32⟩
  | 44 => ⟨S_, .i32⟩
  | 45 => ⟨S2000000, .i32⟩
  | 46 => ⟨S2000000, .i32⟩
  | 47 => ⟨S2000000, .f32⟩
  | 48 => ⟨S2000000, .f32⟩
  | 49 => ⟨S2000000, .f32⟩
  | 50 => ⟨S2000000, .f32⟩
  | 51 => ⟨S2000000x1, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x1, .f32⟩
  | 61 => ⟨S2000000x1, .f32⟩
  | 62 => ⟨S2000000x1, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x27, .f32⟩
  | 72 => ⟨S2000000x27, .f32⟩
  | 73 => ⟨S2000000x27, .f32⟩
  | 74 => ⟨S2000000x27, .f32⟩
  | 75 => ⟨S2000000x1, .f32⟩
  | 76 => ⟨S2000000, .f32⟩
  | 77 => ⟨S2000000x1, .f32⟩
  | 78 => ⟨S2000000, .f32⟩
  | 79 => ⟨S_, .f32⟩
  | 80 => ⟨S2000000, .f32⟩
  | 81 => ⟨S2000000, .f32⟩
  | 82 => ⟨S2000000x1, .i32⟩
  | 83 => ⟨S2000000, .i32⟩
  | 84 => ⟨S_, .i32⟩
  | 85 => ⟨S2000000, .i32⟩
  | 86 => ⟨S2000000, .i32⟩
  | 87 => ⟨S2000000x1, .i32⟩
  | 88 => ⟨S2000000, .i32⟩
  | 89 => ⟨S_, .i32⟩
  | 90 => ⟨S2000000, .i32⟩
  | 91 => ⟨S2000000, .i32⟩
  | 92 => ⟨S2000000x1, .i32⟩
  | 93 => ⟨S2000000, .i32⟩
  | 94 => ⟨S_, .i32⟩
  | 95 => ⟨S2000000, .i32⟩
  | 96 => ⟨S2000000, .i32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x1, .i32⟩
  | 120 => ⟨S2000000x1, .i32⟩
  | 121 => ⟨S2000000x3, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S_, .i32⟩
  | _ => ⟨S1600000x1, .f32⟩

abbrev hbmTy0_2 (i : Nat) : BufTy := match i % 128 with
  | 0 => ⟨S2000000, .i32⟩
  | 1 => ⟨S2000000, .i32⟩
  | 2 => ⟨S2000000, .f32⟩
  | 3 => ⟨S2000000, .f32⟩
  | 4 => ⟨S2000000, .f32⟩
  | 5 => ⟨S2000000, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x1, .f32⟩
  | 16 => ⟨S2000000x1, .f32⟩
  | 17 => ⟨S2000000x1, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x27, .f32⟩
  | 27 => ⟨S2000000x27, .f32⟩
  | 28 => ⟨S2000000x27, .f32⟩
  | 29 => ⟨S2000000x27, .f32⟩
  | 30 => ⟨S2000000x1, .f32⟩
  | 31 => ⟨S2000000, .f32⟩
  | 32 => ⟨S2000000x1, .i32⟩
  | 33 => ⟨S2000000, .i32⟩
  | 34 => ⟨S_, .i32⟩
  | 35 => ⟨S2000000, .i32⟩
  | 36 => ⟨S2000000, .i32⟩
  | 37 => ⟨S2000000x1, .i32⟩
  | 38 => ⟨S2000000, .i32⟩
  | 39 => ⟨S_, .i32⟩
  | 40 => ⟨S2000000, .i32⟩
  | 41 => ⟨S2000000, .i32⟩
  | 42 => ⟨S2000000x1, .i32⟩
  | 43 => ⟨S2000000, .i32⟩
  | 44 => ⟨S_, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x1, .i32⟩
  | 70 => ⟨S2000000x1, .i32⟩
  | 71 => ⟨S2000000x3, .i32⟩
  | 72 => ⟨S2000000, .i32⟩
  | 73 => ⟨S_, .i32⟩
  | 74 => ⟨S2000000, .i32⟩
  | 75 => ⟨S2000000, .i1⟩
  | 76 => ⟨S_, .i32⟩
  | 77 => ⟨S_, .i32⟩
  | 78 => ⟨S2000000, .i32⟩
  | 79 => ⟨S2000000, .i32⟩
  | 80 => ⟨S2000000, .f32⟩
  | 81 => ⟨S2000000, .f32⟩
  | 82 => ⟨S2000000, .f32⟩
  | 83 => ⟨S2000000, .f32⟩
  | 84 => ⟨S2000000x1, .f32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S2000000x1, .i32⟩
  | 93 => ⟨S2000000x1, .f32⟩
  | 94 => ⟨S2000000x1, .f32⟩
  | 95 => ⟨S2000000x1, .f32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x27, .f32⟩
  | 105 => ⟨S2000000x27, .f32⟩
  | 106 => ⟨S2000000x27, .f32⟩
  | 107 => ⟨S2000000x27, .f32⟩
  | 108 => ⟨S2000000x1, .f32⟩
  | 109 => ⟨S2000000, .f32⟩
  | 110 => ⟨S2000000x1, .f32⟩
  | 111 => ⟨S2000000, .f32⟩
  | 112 => ⟨S_, .f32⟩
  | 113 => ⟨S2000000, .f32⟩
  | 114 => ⟨S2000000, .f32⟩
  | 115 => ⟨S2000000x1, .f32⟩
  | 116 => ⟨S2000000, .f32⟩
  | 117 => ⟨S_, .f32⟩
  | 118 => ⟨S2000000, .f32⟩
  | 119 => ⟨S2000000, .f32⟩
  | 120 => ⟨S2000000x1, .i32⟩
  | 121 => ⟨S2000000, .i32⟩
  | 122 => ⟨S_, .i32⟩
  | 123 => ⟨S2000000, .i32⟩
  | 124 => ⟨S2000000, .i32⟩
  | 125 => ⟨S2000000x1, .i32⟩
  | 126 => ⟨S2000000, .i32⟩
  | 127 => ⟨S_, .i32⟩
  | _ => ⟨S1600000x1, .f32⟩

abbrev hbmTy0_3 (i : Nat) : BufTy := match i % 128 with
  | 0 => ⟨S2000000, .i32⟩
  | 1 => ⟨S2000000, .i32⟩
  | 2 => ⟨S2000000x1, .i32⟩
  | 3 => ⟨S2000000, .i32⟩
  | 4 => ⟨S_, .i32⟩
  | 5 => ⟨S2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x1, .i32⟩
  | 30 => ⟨S2000000x1, .i32⟩
  | 31 => ⟨S2000000x3, .i32⟩
  | 32 => ⟨S2000000, .i32⟩
  | 33 => ⟨S_, .i32⟩
  | 34 => ⟨S2000000, .i32⟩
  | 35 => ⟨S2000000, .i1⟩
  | 36 => ⟨S_, .i32⟩
  | 37 => ⟨S_, .i32⟩
  | 38 => ⟨S2000000, .i32⟩
  | 39 => ⟨S2000000, .i32⟩
  | 40 => ⟨S2000000, .f32⟩
  | 41 => ⟨S2000000, .f32⟩
  | 42 => ⟨S2000000, .f32⟩
  | 43 => ⟨S2000000, .f32⟩
  | 44 => ⟨S2000000x1, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000x1, .f32⟩
  | 54 => ⟨S2000000x1, .f32⟩
  | 55 => ⟨S2000000x1, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x27, .f32⟩
  | 65 => ⟨S2000000x27, .f32⟩
  | 66 => ⟨S2000000x27, .f32⟩
  | 67 => ⟨S2000000x27, .f32⟩
  | 68 => ⟨S2000000x1, .f32⟩
  | 69 => ⟨S2000000, .f32⟩
  | 70 => ⟨S2000000x1, .i32⟩
  | 71 => ⟨S2000000, .i32⟩
  | 72 => ⟨S_, .i32⟩
  | 73 => ⟨S2000000, .i32⟩
  | 74 => ⟨S2000000, .i32⟩
  | 75 => ⟨S2000000x1, .i32⟩
  | 76 => ⟨S2000000, .i32⟩
  | 77 => ⟨S_, .i32⟩
  | 78 => ⟨S2000000, .i32⟩
  | 79 => ⟨S2000000, .i32⟩
  | 80 => ⟨S2000000x1, .i32⟩
  | 81 => ⟨S2000000, .i32⟩
  | 82 => ⟨S_, .i32⟩
  | 83 => ⟨S2000000, .i32⟩
  | 84 => ⟨S2000000, .i32⟩
  | 85 => ⟨S_, .i32⟩
  | 86 => ⟨S2000000, .i32⟩
  | 87 => ⟨S2000000, .i1⟩
  | 88 => ⟨S_, .i32⟩
  | 89 => ⟨S2000000, .i32⟩
  | 90 => ⟨S2000000, .i32⟩
  | 91 => ⟨S2000000, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x1, .i32⟩
  | 108 => ⟨S2000000x1, .i32⟩
  | 109 => ⟨S2000000x3, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S_, .i32⟩
  | 116 => ⟨S2000000, .i32⟩
  | 117 => ⟨S2000000, .i32⟩
  | 118 => ⟨S2000000, .f32⟩
  | 119 => ⟨S2000000, .f32⟩
  | 120 => ⟨S2000000, .f32⟩
  | 121 => ⟨S2000000, .f32⟩
  | 122 => ⟨S2000000x1, .f32⟩
  | 123 => ⟨S_, .i32⟩
  | 124 => ⟨S2000000, .i32⟩
  | 125 => ⟨S2000000, .i1⟩
  | 126 => ⟨S_, .i32⟩
  | 127 => ⟨S2000000, .i32⟩
  | _ => ⟨S1600000x1, .f32⟩

abbrev hbmTy0_4 (i : Nat) : BufTy := match i % 128 with
  | 0 => ⟨S2000000, .i32⟩
  | 1 => ⟨S2000000, .i32⟩
  | 2 => ⟨S2000000x1, .i32⟩
  | 3 => ⟨S2000000x1, .f32⟩
  | 4 => ⟨S2000000x1, .f32⟩
  | 5 => ⟨S2000000x1, .f32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000x27, .f32⟩
  | 15 => ⟨S2000000x27, .f32⟩
  | 16 => ⟨S2000000x27, .f32⟩
  | 17 => ⟨S2000000x27, .f32⟩
  | 18 => ⟨S2000000x1, .f32⟩
  | 19 => ⟨S2000000, .f32⟩
  | 20 => ⟨S2000000x1, .f32⟩
  | 21 => ⟨S2000000, .f32⟩
  | 22 => ⟨S_, .f32⟩
  | 23 => ⟨S2000000, .f32⟩
  | 24 => ⟨S2000000, .f32⟩
  | 25 => ⟨S2000000x1, .i32⟩
  | 26 => ⟨S2000000, .i32⟩
  | 27 => ⟨S_, .i32⟩
  | 28 => ⟨S2000000, .i32⟩
  | 29 => ⟨S2000000, .i32⟩
  | 30 => ⟨S2000000x1, .i32⟩
  | 31 => ⟨S2000000, .i32⟩
  | 32 => ⟨S_, .i32⟩
  | 33 => ⟨S2000000, .i32⟩
  | 34 => ⟨S2000000, .i32⟩
  | 35 => ⟨S2000000x1, .i32⟩
  | 36 => ⟨S2000000, .i32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x1, .i32⟩
  | 63 => ⟨S2000000x1, .i32⟩
  | 64 => ⟨S2000000x3, .i32⟩
  | 65 => ⟨S2000000, .i32⟩
  | 66 => ⟨S_, .i32⟩
  | 67 => ⟨S2000000, .i32⟩
  | 68 => ⟨S2000000, .i1⟩
  | 69 => ⟨S_, .i32⟩
  | 70 => ⟨S_, .i32⟩
  | 71 => ⟨S2000000, .i32⟩
  | 72 => ⟨S2000000, .i32⟩
  | 73 => ⟨S2000000, .f32⟩
  | 74 => ⟨S2000000, .f32⟩
  | 75 => ⟨S2000000, .f32⟩
  | 76 => ⟨S2000000, .f32⟩
  | 77 => ⟨S2000000x1, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x1, .f32⟩
  | 87 => ⟨S2000000x1, .f32⟩
  | 88 => ⟨S2000000x1, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x27, .f32⟩
  | 98 => ⟨S2000000x27, .f32⟩
  | 99 => ⟨S2000000x27, .f32⟩
  | 100 => ⟨S2000000x27, .f32⟩
  | 101 => ⟨S2000000x1, .f32⟩
  | 102 => ⟨S2000000, .f32⟩
  | 103 => ⟨S2000000x1, .i32⟩
  | 104 => ⟨S2000000, .i32⟩
  | 105 => ⟨S_, .i32⟩
  | 106 => ⟨S2000000, .i32⟩
  | 107 => ⟨S2000000, .i32⟩
  | 108 => ⟨S2000000x1, .i32⟩
  | 109 => ⟨S2000000, .i32⟩
  | 110 => ⟨S_, .i32⟩
  | 111 => ⟨S2000000, .i32⟩
  | 112 => ⟨S2000000, .i32⟩
  | 113 => ⟨S2000000x1, .i32⟩
  | 114 => ⟨S2000000, .i32⟩
  | 115 => ⟨S_, .i32⟩
  | 116 => ⟨S2000000, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S_, .i32⟩
  | 126 => ⟨S2000000, .i32⟩
  | 127 => ⟨S2000000, .i1⟩
  | _ => ⟨S1600000x1, .f32⟩

abbrev hbmTy0_5 (i : Nat) : BufTy := match i % 128 with
  | 0 => ⟨S_, .i32⟩
  | 1 => ⟨S2000000, .i32⟩
  | 2 => ⟨S2000000, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x1, .i32⟩
  | 13 => ⟨S2000000x1, .i32⟩
  | 14 => ⟨S2000000x3, .i32⟩
  | 15 => ⟨S2000000, .i32⟩
  | 16 => ⟨S_, .i32⟩
  | 17 => ⟨S2000000, .i32⟩
  | 18 => ⟨S2000000, .i1⟩
  | 19 => ⟨S_, .i32⟩
  | 20 => ⟨S_, .i32⟩
  | 21 => ⟨S2000000, .i32⟩
  | 22 => ⟨S2000000, .i32⟩
  | 23 => ⟨S2000000, .f32⟩
  | 24 => ⟨S2000000, .f32⟩
  | 25 => ⟨S2000000, .f32⟩
  | 26 => ⟨S2000000, .f32⟩
  | 27 => ⟨S2000000x1, .f32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x1, .f32⟩
  | 37 => ⟨S2000000x1, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x27, .f32⟩
  | 48 => ⟨S2000000x27, .f32⟩
  | 49 => ⟨S2000000x27, .f32⟩
  | 50 => ⟨S2000000x27, .f32⟩
  | _ => ⟨S1600000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1600000x1, .f32⟩

abbrev bufTy : (tb : Table) → Fin (tcTables nBuf tb) → BufTy
  | .hbm, ⟨i, _⟩ => hbmTy i
  | _, _ => ⟨S1600000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_v36 : Ref sig .tc := ⟨.hbm, 65, rfl⟩
abbrev main_v37 : Ref sig .tc := ⟨.hbm, 66, rfl⟩
abbrev main_c_13 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_c_15 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_16 : Ref sig .tc := ⟨.hbm, 78, rfl⟩
abbrev main_v46 : Ref sig .tc := ⟨.hbm, 79, rfl⟩
abbrev main_v47 : Ref sig .tc := ⟨.hbm, 80, rfl⟩
abbrev main_c_17 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_c_19 : Ref sig .tc := ⟨.hbm, 93, rfl⟩
abbrev main_call2_v0 : Ref sig .tc := ⟨.hbm, 94, rfl⟩
abbrev main_call2_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_20 : Ref sig .tc := ⟨.hbm, 102, rfl⟩
abbrev main_v64 : Ref sig .tc := ⟨.hbm, 103, rfl⟩
abbrev main_v65 : Ref sig .tc := ⟨.hbm, 104, rfl⟩
abbrev main_c_21 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_22 : Ref sig .tc := ⟨.hbm, 113, rfl⟩
abbrev main_v73 : Ref sig .tc := ⟨.hbm, 114, rfl⟩
abbrev main_v74 : Ref sig .tc := ⟨.hbm, 115, rfl⟩
abbrev main_c_23 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_24 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_25 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_c_26 : Ref sig .tc := ⟨.hbm, 139, rfl⟩
abbrev main_v95 : Ref sig .tc := ⟨.hbm, 140, rfl⟩
abbrev main_v96 : Ref sig .tc := ⟨.hbm, 141, rfl⟩
abbrev main_c_27 : Ref sig .tc := ⟨.hbm, 142, rfl⟩
abbrev main_v97 : Ref sig .tc := ⟨.hbm, 143, rfl⟩
abbrev main_v98 : Ref sig .tc := ⟨.hbm, 144, rfl⟩
abbrev main_c_28 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_29 : Ref sig .tc := ⟨.hbm, 149, rfl⟩
abbrev main_v102 : Ref sig .tc := ⟨.hbm, 150, rfl⟩
abbrev main_v103 : Ref sig .tc := ⟨.hbm, 151, rfl⟩
abbrev main_c_30 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_31 : Ref sig .tc := ⟨.hbm, 156, rfl⟩
abbrev main_v107 : Ref sig .tc := ⟨.hbm, 157, rfl⟩
abbrev main_v108 : Ref sig .tc := ⟨.hbm, 158, rfl⟩
abbrev main_c_32 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_33 : Ref sig .tc := ⟨.hbm, 168, rfl⟩
abbrev main_v117 : Ref sig .tc := ⟨.hbm, 169, rfl⟩
abbrev main_v118 : Ref sig .tc := ⟨.hbm, 170, rfl⟩
abbrev main_c_34 : Ref sig .tc := ⟨.hbm, 171, rfl⟩
abbrev main_call3_v0 : Ref sig .tc := ⟨.hbm, 172, rfl⟩
abbrev main_call3_v1 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_35 : Ref sig .tc := ⟨.hbm, 180, rfl⟩
abbrev main_v125 : Ref sig .tc := ⟨.hbm, 181, rfl⟩
abbrev main_v126 : Ref sig .tc := ⟨.hbm, 182, rfl⟩
abbrev main_c_36 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_c_37 : Ref sig .tc := ⟨.hbm, 191, rfl⟩
abbrev main_v134 : Ref sig .tc := ⟨.hbm, 192, rfl⟩
abbrev main_v135 : Ref sig .tc := ⟨.hbm, 193, rfl⟩
abbrev main_c_38 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_39 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_40 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_c_41 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_c_42 : Ref sig .tc := ⟨.hbm, 222, rfl⟩
abbrev main_v160 : Ref sig .tc := ⟨.hbm, 223, rfl⟩
abbrev main_v161 : Ref sig .tc := ⟨.hbm, 224, rfl⟩
abbrev main_c_43 : Ref sig .tc := ⟨.hbm, 225, rfl⟩
abbrev main_v162 : Ref sig .tc := ⟨.hbm, 226, rfl⟩
abbrev main_v163 : Ref sig .tc := ⟨.hbm, 227, rfl⟩
abbrev main_c_44 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_45 : Ref sig .tc := ⟨.hbm, 232, rfl⟩
abbrev main_v167 : Ref sig .tc := ⟨.hbm, 233, rfl⟩
abbrev main_v168 : Ref sig .tc := ⟨.hbm, 234, rfl⟩
abbrev main_c_46 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_47 : Ref sig .tc := ⟨.hbm, 239, rfl⟩
abbrev main_v172 : Ref sig .tc := ⟨.hbm, 240, rfl⟩
abbrev main_v173 : Ref sig .tc := ⟨.hbm, 241, rfl⟩
abbrev main_c_48 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_c_49 : Ref sig .tc := ⟨.hbm, 251, rfl⟩
abbrev main_v182 : Ref sig .tc := ⟨.hbm, 252, rfl⟩
abbrev main_v183 : Ref sig .tc := ⟨.hbm, 253, rfl⟩
abbrev main_c_50 : Ref sig .tc := ⟨.hbm, 254, rfl⟩
abbrev main_call4_v0 : Ref sig .tc := ⟨.hbm, 255, rfl⟩
abbrev main_call4_v1 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_c_51 : Ref sig .tc := ⟨.hbm, 263, rfl⟩
abbrev main_v190 : Ref sig .tc := ⟨.hbm, 264, rfl⟩
abbrev main_v191 : Ref sig .tc := ⟨.hbm, 265, rfl⟩
abbrev main_c_52 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_c_53 : Ref sig .tc := ⟨.hbm, 274, rfl⟩
abbrev main_v199 : Ref sig .tc := ⟨.hbm, 275, rfl⟩
abbrev main_v200 : Ref sig .tc := ⟨.hbm, 276, rfl⟩
abbrev main_c_54 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_c_55 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_c_56 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_c_57 : Ref sig .tc := ⟨.hbm, 300, rfl⟩
abbrev main_v221 : Ref sig .tc := ⟨.hbm, 301, rfl⟩
abbrev main_v222 : Ref sig .tc := ⟨.hbm, 302, rfl⟩
abbrev main_c_58 : Ref sig .tc := ⟨.hbm, 303, rfl⟩
abbrev main_v223 : Ref sig .tc := ⟨.hbm, 304, rfl⟩
abbrev main_v224 : Ref sig .tc := ⟨.hbm, 305, rfl⟩
abbrev main_c_59 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_c_60 : Ref sig .tc := ⟨.hbm, 310, rfl⟩
abbrev main_v228 : Ref sig .tc := ⟨.hbm, 311, rfl⟩
abbrev main_v229 : Ref sig .tc := ⟨.hbm, 312, rfl⟩
abbrev main_c_61 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_c_62 : Ref sig .tc := ⟨.hbm, 317, rfl⟩
abbrev main_v233 : Ref sig .tc := ⟨.hbm, 318, rfl⟩
abbrev main_v234 : Ref sig .tc := ⟨.hbm, 319, rfl⟩
abbrev main_c_63 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_c_64 : Ref sig .tc := ⟨.hbm, 329, rfl⟩
abbrev main_v243 : Ref sig .tc := ⟨.hbm, 330, rfl⟩
abbrev main_v244 : Ref sig .tc := ⟨.hbm, 331, rfl⟩
abbrev main_c_65 : Ref sig .tc := ⟨.hbm, 332, rfl⟩
abbrev main_call5_v0 : Ref sig .tc := ⟨.hbm, 333, rfl⟩
abbrev main_call5_v1 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_c_66 : Ref sig .tc := ⟨.hbm, 341, rfl⟩
abbrev main_v251 : Ref sig .tc := ⟨.hbm, 342, rfl⟩
abbrev main_v252 : Ref sig .tc := ⟨.hbm, 343, rfl⟩
abbrev main_c_67 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_c_68 : Ref sig .tc := ⟨.hbm, 352, rfl⟩
abbrev main_v260 : Ref sig .tc := ⟨.hbm, 353, rfl⟩
abbrev main_v261 : Ref sig .tc := ⟨.hbm, 354, rfl⟩
abbrev main_c_69 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_cst_70 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_cst_71 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_c_72 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_c_73 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_c_74 : Ref sig .tc := ⟨.hbm, 388, rfl⟩
abbrev main_v290 : Ref sig .tc := ⟨.hbm, 389, rfl⟩
abbrev main_v291 : Ref sig .tc := ⟨.hbm, 390, rfl⟩
abbrev main_c_75 : Ref sig .tc := ⟨.hbm, 391, rfl⟩
abbrev main_v292 : Ref sig .tc := ⟨.hbm, 392, rfl⟩
abbrev main_v293 : Ref sig .tc := ⟨.hbm, 393, rfl⟩
abbrev main_c_76 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_c_77 : Ref sig .tc := ⟨.hbm, 398, rfl⟩
abbrev main_v297 : Ref sig .tc := ⟨.hbm, 399, rfl⟩
abbrev main_v298 : Ref sig .tc := ⟨.hbm, 400, rfl⟩
abbrev main_c_78 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_c_79 : Ref sig .tc := ⟨.hbm, 405, rfl⟩
abbrev main_v302 : Ref sig .tc := ⟨.hbm, 406, rfl⟩
abbrev main_v303 : Ref sig .tc := ⟨.hbm, 407, rfl⟩
abbrev main_c_80 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_c_81 : Ref sig .tc := ⟨.hbm, 417, rfl⟩
abbrev main_v312 : Ref sig .tc := ⟨.hbm, 418, rfl⟩
abbrev main_v313 : Ref sig .tc := ⟨.hbm, 419, rfl⟩
abbrev main_c_82 : Ref sig .tc := ⟨.hbm, 420, rfl⟩
abbrev main_call6_v0 : Ref sig .tc := ⟨.hbm, 421, rfl⟩
abbrev main_call6_v1 : Ref sig .tc := ⟨.hbm, 422, rfl⟩
abbrev main_v314 : Ref sig .tc := ⟨.hbm, 423, rfl⟩
abbrev main_v315 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_v319 : Ref sig .tc := ⟨.hbm, 428, rfl⟩
abbrev main_c_83 : Ref sig .tc := ⟨.hbm, 429, rfl⟩
abbrev main_v320 : Ref sig .tc := ⟨.hbm, 430, rfl⟩
abbrev main_v321 : Ref sig .tc := ⟨.hbm, 431, rfl⟩
abbrev main_c_84 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_c_85 : Ref sig .tc := ⟨.hbm, 440, rfl⟩
abbrev main_v329 : Ref sig .tc := ⟨.hbm, 441, rfl⟩
abbrev main_v330 : Ref sig .tc := ⟨.hbm, 442, rfl⟩
abbrev main_c_86 : Ref sig .tc := ⟨.hbm, 443, rfl⟩
abbrev main_v331 : Ref sig .tc := ⟨.hbm, 444, rfl⟩
abbrev main_v332 : Ref sig .tc := ⟨.hbm, 445, rfl⟩
abbrev main_v333 : Ref sig .tc := ⟨.hbm, 446, rfl⟩
abbrev main_v334 : Ref sig .tc := ⟨.hbm, 447, rfl⟩
abbrev main_v335 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_v339 : Ref sig .tc := ⟨.hbm, 452, rfl⟩
abbrev main_v340 : Ref sig .tc := ⟨.hbm, 453, rfl⟩
abbrev main_v341 : Ref sig .tc := ⟨.hbm, 454, rfl⟩
abbrev main_v342 : Ref sig .tc := ⟨.hbm, 455, rfl⟩
abbrev main_c_87 : Ref sig .tc := ⟨.hbm, 456, rfl⟩
abbrev main_v343 : Ref sig .tc := ⟨.hbm, 457, rfl⟩
abbrev main_v344 : Ref sig .tc := ⟨.hbm, 458, rfl⟩
abbrev main_v345 : Ref sig .tc := ⟨.hbm, 459, rfl⟩
abbrev main_v346 : Ref sig .tc := ⟨.hbm, 460, rfl⟩
abbrev main_c_88 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_c_89 : Ref sig .tc := ⟨.hbm, 466, rfl⟩
abbrev main_v351 : Ref sig .tc := ⟨.hbm, 467, rfl⟩
abbrev main_v352 : Ref sig .tc := ⟨.hbm, 468, rfl⟩
abbrev main_c_90 : Ref sig .tc := ⟨.hbm, 469, rfl⟩
abbrev main_v353 : Ref sig .tc := ⟨.hbm, 470, rfl⟩
abbrev main_v354 : Ref sig .tc := ⟨.hbm, 471, rfl⟩
abbrev main_c_91 : Ref sig .tc := ⟨.hbm, 472, rfl⟩
abbrev main_v355 : Ref sig .tc := ⟨.hbm, 473, rfl⟩
abbrev main_v356 : Ref sig .tc := ⟨.hbm, 474, rfl⟩
abbrev main_v357 : Ref sig .tc := ⟨.hbm, 475, rfl⟩
abbrev main_c_92 : Ref sig .tc := ⟨.hbm, 476, rfl⟩
abbrev main_v358 : Ref sig .tc := ⟨.hbm, 477, rfl⟩
abbrev main_v359 : Ref sig .tc := ⟨.hbm, 478, rfl⟩
abbrev main_c_93 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_c_94 : Ref sig .tc := ⟨.hbm, 483, rfl⟩
abbrev main_v363 : Ref sig .tc := ⟨.hbm, 484, rfl⟩
abbrev main_v364 : Ref sig .tc := ⟨.hbm, 485, rfl⟩
abbrev main_c_95 : Ref sig .tc := ⟨.hbm, 486, rfl⟩
abbrev main_v365 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_c_96 : Ref sig .tc := ⟨.hbm, 495, rfl⟩
abbrev main_v373 : Ref sig .tc := ⟨.hbm, 496, rfl⟩
abbrev main_v374 : Ref sig .tc := ⟨.hbm, 497, rfl⟩
abbrev main_c_97 : Ref sig .tc := ⟨.hbm, 498, rfl⟩
abbrev main_call7_v0 : Ref sig .tc := ⟨.hbm, 499, rfl⟩
abbrev main_call7_v1 : Ref sig .tc := ⟨.hbm, 500, rfl⟩
abbrev main_v375 : Ref sig .tc := ⟨.hbm, 501, rfl⟩
abbrev main_v376 : Ref sig .tc := ⟨.hbm, 502, rfl⟩
abbrev main_v377 : Ref sig .tc := ⟨.hbm, 503, rfl⟩
abbrev main_v378 : Ref sig .tc := ⟨.hbm, 504, rfl⟩
abbrev main_v379 : Ref sig .tc := ⟨.hbm, 505, rfl⟩
abbrev main_v380 : Ref sig .tc := ⟨.hbm, 506, rfl⟩
abbrev main_c_98 : Ref sig .tc := ⟨.hbm, 507, rfl⟩
abbrev main_v381 : Ref sig .tc := ⟨.hbm, 508, rfl⟩
abbrev main_v382 : Ref sig .tc := ⟨.hbm, 509, rfl⟩
abbrev main_c_99 : Ref sig .tc := ⟨.hbm, 510, rfl⟩
abbrev main_v383 : Ref sig .tc := ⟨.hbm, 511, rfl⟩
abbrev main_v384 : Ref sig .tc := ⟨.hbm, 512, rfl⟩
abbrev main_v385 : Ref sig .tc := ⟨.hbm, 513, rfl⟩
abbrev main_v386 : Ref sig .tc := ⟨.hbm, 514, rfl⟩
abbrev main_v387 : Ref sig .tc := ⟨.hbm, 515, rfl⟩
abbrev main_v388 : Ref sig .tc := ⟨.hbm, 516, rfl⟩
abbrev main_v389 : Ref sig .tc := ⟨.hbm, 517, rfl⟩
abbrev main_c_100 : Ref sig .tc := ⟨.hbm, 518, rfl⟩
abbrev main_v390 : Ref sig .tc := ⟨.hbm, 519, rfl⟩
abbrev main_v391 : Ref sig .tc := ⟨.hbm, 520, rfl⟩
abbrev main_c_101 : Ref sig .tc := ⟨.hbm, 521, rfl⟩
abbrev main_v392 : Ref sig .tc := ⟨.hbm, 522, rfl⟩
abbrev main_v393 : Ref sig .tc := ⟨.hbm, 523, rfl⟩
abbrev main_v394 : Ref sig .tc := ⟨.hbm, 524, rfl⟩
abbrev main_v395 : Ref sig .tc := ⟨.hbm, 525, rfl⟩
abbrev main_v396 : Ref sig .tc := ⟨.hbm, 526, rfl⟩
abbrev main_v397 : Ref sig .tc := ⟨.hbm, 527, rfl⟩
abbrev main_v398 : Ref sig .tc := ⟨.hbm, 528, rfl⟩
abbrev main_v399 : Ref sig .tc := ⟨.hbm, 529, rfl⟩
abbrev main_v400 : Ref sig .tc := ⟨.hbm, 530, rfl⟩
abbrev main_v401 : Ref sig .tc := ⟨.hbm, 531, rfl⟩
abbrev main_v402 : Ref sig .tc := ⟨.hbm, 532, rfl⟩
abbrev main_v403 : Ref sig .tc := ⟨.hbm, 533, rfl⟩
abbrev main_cst_102 : Ref sig .tc := ⟨.hbm, 534, rfl⟩
abbrev main_v404 : Ref sig .tc := ⟨.hbm, 535, rfl⟩
abbrev main_v405 : Ref sig .tc := ⟨.hbm, 536, rfl⟩
abbrev main_v406 : Ref sig .tc := ⟨.hbm, 537, rfl⟩
abbrev main_v407 : Ref sig .tc := ⟨.hbm, 538, rfl⟩
abbrev main_c_103 : Ref sig .tc := ⟨.hbm, 539, rfl⟩
abbrev main_v408 : Ref sig .tc := ⟨.hbm, 540, rfl⟩
abbrev main_v409 : Ref sig .tc := ⟨.hbm, 541, rfl⟩
abbrev main_v410 : Ref sig .tc := ⟨.hbm, 542, rfl⟩
abbrev main_v411 : Ref sig .tc := ⟨.hbm, 543, rfl⟩
abbrev main_c_104 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_v415 : Ref sig .tc := ⟨.hbm, 548, rfl⟩
abbrev main_c_105 : Ref sig .tc := ⟨.hbm, 549, rfl⟩
abbrev main_v416 : Ref sig .tc := ⟨.hbm, 550, rfl⟩
abbrev main_v417 : Ref sig .tc := ⟨.hbm, 551, rfl⟩
abbrev main_c_106 : Ref sig .tc := ⟨.hbm, 552, rfl⟩
abbrev main_v418 : Ref sig .tc := ⟨.hbm, 553, rfl⟩
abbrev main_v419 : Ref sig .tc := ⟨.hbm, 554, rfl⟩
abbrev main_c_107 : Ref sig .tc := ⟨.hbm, 555, rfl⟩
abbrev main_v420 : Ref sig .tc := ⟨.hbm, 556, rfl⟩
abbrev main_v421 : Ref sig .tc := ⟨.hbm, 557, rfl⟩
abbrev main_v422 : Ref sig .tc := ⟨.hbm, 558, rfl⟩
abbrev main_c_108 : Ref sig .tc := ⟨.hbm, 559, rfl⟩
abbrev main_v423 : Ref sig .tc := ⟨.hbm, 560, rfl⟩
abbrev main_v424 : Ref sig .tc := ⟨.hbm, 561, rfl⟩
abbrev main_c_109 : Ref sig .tc := ⟨.hbm, 562, rfl⟩
abbrev main_v425 : Ref sig .tc := ⟨.hbm, 563, rfl⟩
abbrev main_v426 : Ref sig .tc := ⟨.hbm, 564, rfl⟩
abbrev main_v427 : Ref sig .tc := ⟨.hbm, 565, rfl⟩
abbrev main_c_110 : Ref sig .tc := ⟨.hbm, 566, rfl⟩
abbrev main_v428 : Ref sig .tc := ⟨.hbm, 567, rfl⟩
abbrev main_v429 : Ref sig .tc := ⟨.hbm, 568, rfl⟩
abbrev main_c_111 : Ref sig .tc := ⟨.hbm, 569, rfl⟩
abbrev main_v430 : Ref sig .tc := ⟨.hbm, 570, rfl⟩
abbrev main_v431 : Ref sig .tc := ⟨.hbm, 571, rfl⟩
abbrev main_v432 : Ref sig .tc := ⟨.hbm, 572, rfl⟩
abbrev main_v433 : Ref sig .tc := ⟨.hbm, 573, rfl⟩
abbrev main_v434 : Ref sig .tc := ⟨.hbm, 574, rfl⟩
abbrev main_v435 : Ref sig .tc := ⟨.hbm, 575, rfl⟩
abbrev main_v436 : Ref sig .tc := ⟨.hbm, 576, rfl⟩
abbrev main_v437 : Ref sig .tc := ⟨.hbm, 577, rfl⟩
abbrev main_c_112 : Ref sig .tc := ⟨.hbm, 578, rfl⟩
abbrev main_v438 : Ref sig .tc := ⟨.hbm, 579, rfl⟩
abbrev main_v439 : Ref sig .tc := ⟨.hbm, 580, rfl⟩
abbrev main_c_113 : Ref sig .tc := ⟨.hbm, 581, rfl⟩
abbrev main_call8_v0 : Ref sig .tc := ⟨.hbm, 582, rfl⟩
abbrev main_call8_v1 : Ref sig .tc := ⟨.hbm, 583, rfl⟩
abbrev main_v440 : Ref sig .tc := ⟨.hbm, 584, rfl⟩
abbrev main_v441 : Ref sig .tc := ⟨.hbm, 585, rfl⟩
abbrev main_v442 : Ref sig .tc := ⟨.hbm, 586, rfl⟩
abbrev main_v443 : Ref sig .tc := ⟨.hbm, 587, rfl⟩
abbrev main_v444 : Ref sig .tc := ⟨.hbm, 588, rfl⟩
abbrev main_v445 : Ref sig .tc := ⟨.hbm, 589, rfl⟩
abbrev main_c_114 : Ref sig .tc := ⟨.hbm, 590, rfl⟩
abbrev main_v446 : Ref sig .tc := ⟨.hbm, 591, rfl⟩
abbrev main_v447 : Ref sig .tc := ⟨.hbm, 592, rfl⟩
abbrev main_c_115 : Ref sig .tc := ⟨.hbm, 593, rfl⟩
abbrev main_v448 : Ref sig .tc := ⟨.hbm, 594, rfl⟩
abbrev main_v449 : Ref sig .tc := ⟨.hbm, 595, rfl⟩
abbrev main_v450 : Ref sig .tc := ⟨.hbm, 596, rfl⟩
abbrev main_v451 : Ref sig .tc := ⟨.hbm, 597, rfl⟩
abbrev main_v452 : Ref sig .tc := ⟨.hbm, 598, rfl⟩
abbrev main_v453 : Ref sig .tc := ⟨.hbm, 599, rfl⟩
abbrev main_v454 : Ref sig .tc := ⟨.hbm, 600, rfl⟩
abbrev main_c_116 : Ref sig .tc := ⟨.hbm, 601, rfl⟩
abbrev main_v455 : Ref sig .tc := ⟨.hbm, 602, rfl⟩
abbrev main_v456 : Ref sig .tc := ⟨.hbm, 603, rfl⟩
abbrev main_c_117 : Ref sig .tc := ⟨.hbm, 604, rfl⟩
abbrev main_v457 : Ref sig .tc := ⟨.hbm, 605, rfl⟩
abbrev main_v458 : Ref sig .tc := ⟨.hbm, 606, rfl⟩
abbrev main_v459 : Ref sig .tc := ⟨.hbm, 607, rfl⟩
abbrev main_v460 : Ref sig .tc := ⟨.hbm, 608, rfl⟩
abbrev main_v461 : Ref sig .tc := ⟨.hbm, 609, rfl⟩
abbrev main_v462 : Ref sig .tc := ⟨.hbm, 610, rfl⟩
abbrev main_v463 : Ref sig .tc := ⟨.hbm, 611, rfl⟩
abbrev main_v464 : Ref sig .tc := ⟨.hbm, 612, rfl⟩
abbrev main_v465 : Ref sig .tc := ⟨.hbm, 613, rfl⟩
abbrev main_v466 : Ref sig .tc := ⟨.hbm, 614, rfl⟩
abbrev main_v467 : Ref sig .tc := ⟨.hbm, 615, rfl⟩
abbrev main_v468 : Ref sig .tc := ⟨.hbm, 616, rfl⟩
abbrev main_c_118 : Ref sig .tc := ⟨.hbm, 617, rfl⟩
abbrev main_v469 : Ref sig .tc := ⟨.hbm, 618, rfl⟩
abbrev main_v470 : Ref sig .tc := ⟨.hbm, 619, rfl⟩
abbrev main_v471 : Ref sig .tc := ⟨.hbm, 620, rfl⟩
abbrev main_v472 : Ref sig .tc := ⟨.hbm, 621, rfl⟩
abbrev main_c_119 : Ref sig .tc := ⟨.hbm, 622, rfl⟩
abbrev main_v473 : Ref sig .tc := ⟨.hbm, 623, rfl⟩
abbrev main_v474 : Ref sig .tc := ⟨.hbm, 624, rfl⟩
abbrev main_v475 : Ref sig .tc := ⟨.hbm, 625, rfl⟩
abbrev main_v476 : Ref sig .tc := ⟨.hbm, 626, rfl⟩
abbrev main_c_120 : Ref sig .tc := ⟨.hbm, 627, rfl⟩
abbrev main_v477 : Ref sig .tc := ⟨.hbm, 628, rfl⟩
abbrev main_v478 : Ref sig .tc := ⟨.hbm, 629, rfl⟩
abbrev main_c_121 : Ref sig .tc := ⟨.hbm, 630, rfl⟩
abbrev main_v479 : Ref sig .tc := ⟨.hbm, 631, rfl⟩
abbrev main_v480 : Ref sig .tc := ⟨.hbm, 632, rfl⟩
abbrev main_c_122 : Ref sig .tc := ⟨.hbm, 633, rfl⟩
abbrev main_v481 : Ref sig .tc := ⟨.hbm, 634, rfl⟩
abbrev main_v482 : Ref sig .tc := ⟨.hbm, 635, rfl⟩
abbrev main_v483 : Ref sig .tc := ⟨.hbm, 636, rfl⟩
abbrev main_c_123 : Ref sig .tc := ⟨.hbm, 637, rfl⟩
abbrev main_v484 : Ref sig .tc := ⟨.hbm, 638, rfl⟩
abbrev main_v485 : Ref sig .tc := ⟨.hbm, 639, rfl⟩
abbrev main_c_124 : Ref sig .tc := ⟨.hbm, 640, rfl⟩
abbrev main_v486 : Ref sig .tc := ⟨.hbm, 641, rfl⟩
abbrev main_v487 : Ref sig .tc := ⟨.hbm, 642, rfl⟩
abbrev main_v488 : Ref sig .tc := ⟨.hbm, 643, rfl⟩
abbrev main_c_125 : Ref sig .tc := ⟨.hbm, 644, rfl⟩
abbrev main_v489 : Ref sig .tc := ⟨.hbm, 645, rfl⟩
abbrev main_v490 : Ref sig .tc := ⟨.hbm, 646, rfl⟩
abbrev main_c_126 : Ref sig .tc := ⟨.hbm, 647, rfl⟩
abbrev main_v491 : Ref sig .tc := ⟨.hbm, 648, rfl⟩
abbrev main_v492 : Ref sig .tc := ⟨.hbm, 649, rfl⟩
abbrev main_v493 : Ref sig .tc := ⟨.hbm, 650, rfl⟩
abbrev main_v494 : Ref sig .tc := ⟨.hbm, 651, rfl⟩
abbrev main_v495 : Ref sig .tc := ⟨.hbm, 652, rfl⟩
abbrev main_v496 : Ref sig .tc := ⟨.hbm, 653, rfl⟩
abbrev main_v497 : Ref sig .tc := ⟨.hbm, 654, rfl⟩
abbrev main_v498 : Ref sig .tc := ⟨.hbm, 655, rfl⟩
abbrev main_c_127 : Ref sig .tc := ⟨.hbm, 656, rfl⟩
abbrev main_v499 : Ref sig .tc := ⟨.hbm, 657, rfl⟩
abbrev main_v500 : Ref sig .tc := ⟨.hbm, 658, rfl⟩
abbrev main_c_128 : Ref sig .tc := ⟨.hbm, 659, rfl⟩
abbrev main_call9_v0 : Ref sig .tc := ⟨.hbm, 660, rfl⟩
abbrev main_call9_v1 : Ref sig .tc := ⟨.hbm, 661, rfl⟩
abbrev main_v501 : Ref sig .tc := ⟨.hbm, 662, rfl⟩
abbrev main_v502 : Ref sig .tc := ⟨.hbm, 663, rfl⟩
abbrev main_v503 : Ref sig .tc := ⟨.hbm, 664, rfl⟩
abbrev main_v504 : Ref sig .tc := ⟨.hbm, 665, rfl⟩
abbrev main_v505 : Ref sig .tc := ⟨.hbm, 666, rfl⟩
abbrev main_v506 : Ref sig .tc := ⟨.hbm, 667, rfl⟩
abbrev main_c_129 : Ref sig .tc := ⟨.hbm, 668, rfl⟩
abbrev main_v507 : Ref sig .tc := ⟨.hbm, 669, rfl⟩
abbrev main_v508 : Ref sig .tc := ⟨.hbm, 670, rfl⟩
abbrev main_c_130 : Ref sig .tc := ⟨.hbm, 671, rfl⟩
abbrev main_v509 : Ref sig .tc := ⟨.hbm, 672, rfl⟩
abbrev main_v510 : Ref sig .tc := ⟨.hbm, 673, rfl⟩
abbrev main_v511 : Ref sig .tc := ⟨.hbm, 674, rfl⟩
abbrev main_v512 : Ref sig .tc := ⟨.hbm, 675, rfl⟩
abbrev main_v513 : Ref sig .tc := ⟨.hbm, 676, rfl⟩
abbrev main_v514 : Ref sig .tc := ⟨.hbm, 677, rfl⟩
abbrev main_v515 : Ref sig .tc := ⟨.hbm, 678, rfl⟩
abbrev main_c_131 : Ref sig .tc := ⟨.hbm, 679, rfl⟩
abbrev main_v516 : Ref sig .tc := ⟨.hbm, 680, rfl⟩
abbrev main_v517 : Ref sig .tc := ⟨.hbm, 681, rfl⟩
abbrev main_c_132 : Ref sig .tc := ⟨.hbm, 682, rfl⟩
abbrev main_v518 : Ref sig .tc := ⟨.hbm, 683, rfl⟩
abbrev main_v519 : Ref sig .tc := ⟨.hbm, 684, rfl⟩
abbrev main_v520 : Ref sig .tc := ⟨.hbm, 685, rfl⟩
abbrev main_v521 : Ref sig .tc := ⟨.hbm, 686, rfl⟩
abbrev main_v522 : Ref sig .tc := ⟨.hbm, 687, rfl⟩
abbrev main_v523 : Ref sig .tc := ⟨.hbm, 688, rfl⟩
abbrev main_v524 : Ref sig .tc := ⟨.hbm, 689, rfl⟩
abbrev main_v525 : Ref sig .tc := ⟨.hbm, 690, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x1 : S_.BroadcastsInDim S2000000x1 (![] : Fin 0 → Fin S2000000x1.rank)
  bcast_S_S2000000x27 : S_.BroadcastsInDim S2000000x27 (![] : Fin 0 → Fin S2000000x27.rank)
  slices_S2000000x3_S2000000x1_0_0 : S2000000x3.Slices ![0, 0] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_2 : S2000000x3.Slices ![0, 2] S2000000x1
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x1_S2000000x27_0_1 : S2000000x1.BroadcastsInDim S2000000x27 (![0, 1] : Fin 2 → Fin S2000000x27.rank)
  gather_S128x128x128_S2000000x3_S2000000_n_012_n_n_012_1_111_wf : GatherDims.WF S128x128x128 S2000000x3 S2000000 [] [0, 1, 2] [] [0, 1, 2] [] 1 ![1, 1, 1]
  gather_S1600000x1_S2000000x1_S2000000x1_1_0_n_n_0_1_11_wf : GatherDims.WF S1600000x1 S2000000x1 S2000000x1 [1] [0] [] [0] [] 1 ![1, 1]
  gather_S1600000x27_S2000000x1_S2000000x27_1_0_n_n_0_1_127_wf : GatherDims.WF S1600000x27 S2000000x1 S2000000x27 [1] [0] [] [0] [] 1 ![1, 27]

variable [Facts₀]

def gather_S128x128x128_S2000000x3_S2000000_n_012_n_n_012_1_111 : GatherDims S128x128x128 S2000000x3 S2000000 where
  offsetDims := []
  collapsedSliceDims := [0, 1, 2]
  operandBatchingDims := []
  startIndicesBatchingDims := []
  startIndexMap := [0, 1, 2]
  indexVectorDim := 1
  sliceSizes := ![1, 1, 1]
  wf := gather_S128x128x128_S2000000x3_S2000000_n_012_n_n_012_1_111_wf
def gather_S1600000x1_S2000000x1_S2000000x1_1_0_n_n_0_1_11 : GatherDims S1600000x1 S2000000x1 S2000000x1 where
  offsetDims := [1]
  collapsedSliceDims := [0]
  operandBatchingDims := []
  startIndicesBatchingDims := []
  startIndexMap := [0]
  indexVectorDim := 1
  sliceSizes := ![1, 1]
  wf := gather_S1600000x1_S2000000x1_S2000000x1_1_0_n_n_0_1_11_wf
def gather_S1600000x27_S2000000x1_S2000000x27_1_0_n_n_0_1_127 : GatherDims S1600000x27 S2000000x1 S2000000x27 where
  offsetDims := [1]
  collapsedSliceDims := [0]
  operandBatchingDims := []
  startIndicesBatchingDims := []
  startIndexMap := [0]
  indexVectorDim := 1
  sliceSizes := ![1, 27]
  wf := gather_S1600000x27_S2000000x1_S2000000x27_1_0_n_n_0_1_127_wf

class Facts : Prop extends Facts₀ where

variable [Facts]
-- ==== Proof.KFrame.lean ====
/-
  The frame of `Kernel`'s @main, at any float family `F`: thirty-seven lines of host operations, then one pipelined region over a
  grid of 625 points whose body loads the eight input blocks (3200 rows of 28 lanes each), adds them left to right, and stores lane 0
  of the sum into the first output block and lanes 1 … 27 into the second. Every input window is fetched at every point and both
  output windows are written back at every point, nothing is carried between points, so the proof data is the plain one: after the
  body an input's staging buffer still holds its block and an output's holds the canon of its one store over the input blocks. The
  run is the library's frame run (`Pipeline.θ_run_frame`); no host operation writes an argument array, and no window stages one, so
  the arguments end as launched.
-/
import proofs.«415466_j54125177864604_3_alg».proof.Proof.Gen.Kernel.Launch
import proofs.«415466_j54125177864604_3_alg».proof.Proof.Gen.Kernel.Skeleton
import proofs.«415466_j54125177864604_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The thirty-seven lines of host operations before the region, in order. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- Core `c`'s TensorCore buffers when the region is entered: the fold of every host operation over the launch contents. -/
abbrev V (c : Dev nD) (b : Ref sig .tc) : Buf (Elt F) ((c : Thread nD τ).loc b) :=
  StableHlo.after (List.flatten hostLines) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor

/-- @main is the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [hostLines, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub⟩)
    (by simp only [hostLines, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh⟩) main_chain

set_option maxHeartbeats 40000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the four argument
    arrays (no window stages one), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The whole input block, the whole first output block, the whole second output block. -/
abbrev rIn : Rect S3200x28 := Rect.unit (s := S3200x28) ![0, 0] S3200x28.size inb_S3200x28_S3200x28_0_0
abbrev rD : Rect S3200x1 := Rect.unit (s := S3200x1) ![0, 0] S3200x1.size inb_S3200x1_S3200x1_0_0
abbrev rSh : Rect S3200x27 := Rect.unit (s := S3200x27) ![0, 0] S3200x27.size inb_S3200x27_S3200x27_0_0

/-! ## What the body leaves in each output window's buffer -/

/-- The first output's buffer after the body: its one store, lane 0 of the eight blocks' sum. -/
def out0_8 (x0 x1 x2 x3 x4 x5 x6 x7 : Vec F S3200x28 .f32) : Vec F S3200x1 .f32 :=
  View.canon [⟨rD, k0_pay2 (View.ld x0 rIn) (View.ld x1 rIn) (View.ld x2 rIn) (View.ld x3 rIn) (View.ld x4 rIn) (View.ld x5 rIn) (View.ld x6 rIn) (View.ld x7 rIn)⟩]
/-- The second output's buffer after the body: its one store, lanes 1 … 27 of the eight blocks' sum. -/
def out0_9 (x0 x1 x2 x3 x4 x5 x6 x7 : Vec F S3200x28 .f32) : Vec F S3200x27 .f32 :=
  View.canon [⟨rSh, k0_pay3 (View.ld x0 rIn) (View.ld x1 rIn) (View.ld x2 rIn) (View.ld x3 rIn) (View.ld x4 rIn) (View.ld x5 rIn) (View.ld x6 rIn) (View.ld x7 rIn)⟩]

/-- Each store is the whole block, so it covers it. -/
theorem cover0_8 (p0 : Vec F S3200x1 .f32) (y : S3200x1.Idx) :
    ∃ pc ∈ ([⟨rD, p0⟩] : List (View.Piece (Elt F) S3200x1 .f32)), y ∈ pc.1.set :=
  View.cover_of_tiled [⟨rD, p0⟩] S3200x1.size (by rfl) y
theorem cover0_9 (p0 : Vec F S3200x27 .f32) (y : S3200x27.Idx) :
    ∃ pc ∈ ([⟨rSh, p0⟩] : List (View.Piece (Elt F) S3200x27 .f32)), y ∈ pc.1.set :=
  View.cover_of_tiled [⟨rSh, p0⟩] S3200x27.size (by rfl) y

/-! ## The body's triple -/

set_option maxHeartbeats 4000000 in
/-- The kernel body on whole staging memrefs, the inputs' at read contents and the outputs' at anything, runs to the continuation
    holding the inputs' as they were and each output's at its store's canon over the inputs'. -/
theorem sound_kernel (c : Dev nD) (E : Set ℕ) (i : grid0.Coords)
    (arg1 : Memref sig .tc .vmem S3200x28 .f32) (harg1 : arg1.IsWhole) (arg2 : Memref sig .tc .vmem S3200x28 .f32) (harg2 : arg2.IsWhole) (arg3 : Memref sig .tc .vmem S3200x28 .f32) (harg3 : arg3.IsWhole) (arg4 : Memref sig .tc .vmem S3200x28 .f32) (harg4 : arg4.IsWhole) (arg5 : Memref sig .tc .vmem S3200x28 .f32) (harg5 : arg5.IsWhole) (arg6 : Memref sig .tc .vmem S3200x28 .f32) (harg6 : arg6.IsWhole) (arg7 : Memref sig .tc .vmem S3200x28 .f32) (harg7 : arg7.IsWhole) (arg8 : Memref sig .tc .vmem S3200x28 .f32) (harg8 : arg8.IsWhole)
    (arg9 : Memref sig .tc .vmem S3200x1 .f32) (harg9 : arg9.IsWhole) (arg10 : Memref sig .tc .vmem S3200x27 .f32) (harg10 : arg10.IsWhole)
    (x0 x1 x2 x3 x4 x5 x6 x7 : Vec F S3200x28 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6 x7)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the one pipeline on core `c`: the arrays as the region finds them; after the body at point `t` each input's
    buffer at its block and each output's at its store's canon over the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant and the core's `owes`
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faulting nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIFrame.lean ====
/-
  The frame of `KernelIdeal`'s @main, at any float family `F`: thirty-seven lines of host operations, then one pipelined region over a
  grid of 625 points whose body loads the eight input blocks (3200 rows of 28 lanes each), adds them left to right, and stores lane 0
  of the sum into the first output block and lanes 1 … 27 into the second. Every input window is fetched at every point and both
  output windows are written back at every point, nothing is carried between points, so the proof data is the plain one: after the
  body an input's staging buffer still holds its block and an output's holds the canon of its one store over the input blocks. The
  run is the library's frame run (`Pipeline.θ_run_frame`); no host operation writes an argument array, and no window stages one, so
  the arguments end as launched.
-/
import proofs.«415466_j54125177864604_3_alg».proof.Proof.Gen.KernelIdeal.Launch
import proofs.«415466_j54125177864604_3_alg».proof.Proof.Gen.KernelIdeal.Skeleton
import proofs.«415466_j54125177864604_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The thirty-seven lines of host operations before the region, in order. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- Core `c`'s TensorCore buffers when the region is entered: the fold of every host operation over the launch contents. -/
abbrev V (c : Dev nD) (b : Ref sig .tc) : Buf (Elt F) ((c : Thread nD τ).loc b) :=
  StableHlo.after (List.flatten hostLines) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor

/-- @main is the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [hostLines, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub⟩)
    (by simp only [hostLines, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh⟩) main_chain

set_option maxHeartbeats 40000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 40000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the four argument
    arrays (no window stages one), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The whole input block, the whole first output block, the whole second output block. -/
abbrev rIn : Rect S3200x28 := Rect.unit (s := S3200x28) ![0, 0] S3200x28.size inb_S3200x28_S3200x28_0_0
abbrev rD : Rect S3200x1 := Rect.unit (s := S3200x1) ![0, 0] S3200x1.size inb_S3200x1_S3200x1_0_0
abbrev rSh : Rect S3200x27 := Rect.unit (s := S3200x27) ![0, 0] S3200x27.size inb_S3200x27_S3200x27_0_0

/-! ## What the body leaves in each output window's buffer -/

/-- The first output's buffer after the body: its one store, lane 0 of the eight blocks' sum. -/
def out0_8 (x0 x1 x2 x3 x4 x5 x6 x7 : Vec F S3200x28 .f32) : Vec F S3200x1 .f32 :=
  View.canon [⟨rD, k0_pay2 (View.ld x0 rIn) (View.ld x1 rIn) (View.ld x2 rIn) (View.ld x3 rIn) (View.ld x4 rIn) (View.ld x5 rIn) (View.ld x6 rIn) (View.ld x7 rIn)⟩]
/-- The second output's buffer after the body: its one store, lanes 1 … 27 of the eight blocks' sum. -/
def out0_9 (x0 x1 x2 x3 x4 x5 x6 x7 : Vec F S3200x28 .f32) : Vec F S3200x27 .f32 :=
  View.canon [⟨rSh, k0_pay3 (View.ld x0 rIn) (View.ld x1 rIn) (View.ld x2 rIn) (View.ld x3 rIn) (View.ld x4 rIn) (View.ld x5 rIn) (View.ld x6 rIn) (View.ld x7 rIn)⟩]

/-- Each store is the whole block, so it covers it. -/
theorem cover0_8 (p0 : Vec F S3200x1 .f32) (y : S3200x1.Idx) :
    ∃ pc ∈ ([⟨rD, p0⟩] : List (View.Piece (Elt F) S3200x1 .f32)), y ∈ pc.1.set :=
  View.cover_of_tiled [⟨rD, p0⟩] S3200x1.size (by rfl) y
theorem cover0_9 (p0 : Vec F S3200x27 .f32) (y : S3200x27.Idx) :
    ∃ pc ∈ ([⟨rSh, p0⟩] : List (View.Piece (Elt F) S3200x27 .f32)), y ∈ pc.1.set :=
  View.cover_of_tiled [⟨rSh, p0⟩] S3200x27.size (by rfl) y

/-! ## The body's triple -/

set_option maxHeartbeats 4000000 in
/-- The kernel body on whole staging memrefs, the inputs' at read contents and the outputs' at anything, runs to the continuation
    holding the inputs' as they were and each output's at its store's canon over the inputs'. -/
theorem sound_kernel (c : Dev nD) (E : Set ℕ) (i : grid0.Coords)
    (arg1 : Memref sig .tc .vmem S3200x28 .f32) (harg1 : arg1.IsWhole) (arg2 : Memref sig .tc .vmem S3200x28 .f32) (harg2 : arg2.IsWhole) (arg3 : Memref sig .tc .vmem S3200x28 .f32) (harg3 : arg3.IsWhole) (arg4 : Memref sig .tc .vmem S3200x28 .f32) (harg4 : arg4.IsWhole) (arg5 : Memref sig .tc .vmem S3200x28 .f32) (harg5 : arg5.IsWhole) (arg6 : Memref sig .tc .vmem S3200x28 .f32) (harg6 : arg6.IsWhole) (arg7 : Memref sig .tc .vmem S3200x28 .f32) (harg7 : arg7.IsWhole) (arg8 : Memref sig .tc .vmem S3200x28 .f32) (harg8 : arg8.IsWhole)
    (arg9 : Memref sig .tc .vmem S3200x1 .f32) (harg9 : arg9.IsWhole) (arg10 : Memref sig .tc .vmem S3200x27 .f32) (harg10 : arg10.IsWhole)
    (x0 x1 x2 x3 x4 x5 x6 x7 : Vec F S3200x28 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6 x7)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the one pipeline on core `c`: the arrays as the region finds them; after the body at point `t` each input's
    buffer at its block and each output's at its store's canon over the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant and the core's `owes`
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faulting nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KIValue.lean ====
/-
  What the idealized kernel's two result arrays hold after the run, as whole-array functions of the eight [2000000, 28] arrays
  the host lines leave for the region: row `n` of the first result is lane 0 of the eight rows' sum, taken left to right, and
  row `n`, lane `j` of the second is lane `j + 1` of that sum. Grid point `t` covers rows `3200 t … 3200 t + 3199`.
-/
import proofs.«415466_j54125177864604_3_alg».proof.Proof.KIFrame
import Idealize.ShloMosaic.PureOps.Ideal
import Idealize.ShloMosaic.Lib.Pipeline.Value
import Idealize.ShloMosaic.Lib.ValueIdx
import Idealize.ShloMosaic.Lib.StableHlo.Predicate

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.StableHlo.Predicate (ij)

/-- Lane 0 of the eight arrays' sum, row by row. -/
def sumD (x0 x1 x2 x3 x4 x5 x6 x7 : FVec Ideal S2000000x28 .f32) : FVec Ideal S2000000x1 .f32 :=
  fun i => (((((((x0 (ij (n := 2000000) (m := 28) ⟨(i 0).val, (i 0).isLt⟩ 0) + x1 (ij (n := 2000000) (m := 28) ⟨(i 0).val, (i 0).isLt⟩ 0) : EReal) + x2 (ij (n := 2000000) (m := 28) ⟨(i 0).val, (i 0).isLt⟩ 0) : EReal) + x3 (ij (n := 2000000) (m := 28) ⟨(i 0).val, (i 0).isLt⟩ 0) : EReal) + x4 (ij (n := 2000000) (m := 28) ⟨(i 0).val, (i 0).isLt⟩ 0) : EReal) + x5 (ij (n := 2000000) (m := 28) ⟨(i 0).val, (i 0).isLt⟩ 0) : EReal) + x6 (ij (n := 2000000) (m := 28) ⟨(i 0).val, (i 0).isLt⟩ 0) : EReal) + x7 (ij (n := 2000000) (m := 28) ⟨(i 0).val, (i 0).isLt⟩ 0) : EReal)

/-- Lanes 1 … 27 of the eight arrays' sum, row by row. -/
def sumSh (x0 x1 x2 x3 x4 x5 x6 x7 : FVec Ideal S2000000x28 .f32) : FVec Ideal S2000000x27 .f32 :=
  fun i => (((((((x0 (ij (n := 2000000) (m := 28) ⟨(i 0).val, (i 0).isLt⟩ ⟨(i 1).val + 1, Nat.succ_lt_succ (i 1).isLt⟩) + x1 (ij (n := 2000000) (m := 28) ⟨(i 0).val, (i 0).isLt⟩ ⟨(i 1).val + 1, Nat.succ_lt_succ (i 1).isLt⟩) : EReal) + x2 (ij (n := 2000000) (m := 28) ⟨(i 0).val, (i 0).isLt⟩ ⟨(i 1).val + 1, Nat.succ_lt_succ (i 1).isLt⟩) : EReal) + x3 (ij (n := 2000000) (m := 28) ⟨(i 0).val, (i 0).isLt⟩ ⟨(i 1).val + 1, Nat.succ_lt_succ (i 1).isLt⟩) : EReal) + x4 (ij (n := 2000000) (m := 28) ⟨(i 0).val, (i 0).isLt⟩ ⟨(i 1).val + 1, Nat.succ_lt_succ (i 1).isLt⟩) : EReal) + x5 (ij (n := 2000000) (m := 28) ⟨(i 0).val, (i 0).isLt⟩ ⟨(i 1).val + 1, Nat.succ_lt_succ (i 1).isLt⟩) : EReal) + x6 (ij (n := 2000000) (m := 28) ⟨(i 0).val, (i 0).isLt⟩ ⟨(i 1).val + 1, Nat.succ_lt_succ (i 1).isLt⟩) : EReal) + x7 (ij (n := 2000000) (m := 28) ⟨(i 0).val, (i 0).isLt⟩ ⟨(i 1).val + 1, Nat.succ_lt_succ (i 1).isLt⟩) : EReal)

theorem sumD_apply (x0 x1 x2 x3 x4 x5 x6 x7 : FVec Ideal S2000000x28 .f32) (n : Fin 2000000) :
    sumD x0 x1 x2 x3 x4 x5 x6 x7 (ij n (0 : Fin 1)) = (((((((x0 (ij n (0 : Fin 28)) + x1 (ij n (0 : Fin 28)) : EReal) + x2 (ij n (0 : Fin 28)) : EReal) + x3 (ij n (0 : Fin 28)) : EReal) + x4 (ij n (0 : Fin 28)) : EReal) + x5 (ij n (0 : Fin 28)) : EReal) + x6 (ij n (0 : Fin 28)) : EReal) + x7 (ij n (0 : Fin 28)) : EReal) := by
  rfl

theorem sumSh_apply (x0 x1 x2 x3 x4 x5 x6 x7 : FVec Ideal S2000000x28 .f32) (n : Fin 2000000) (j : Fin 27) :
    sumSh x0 x1 x2 x3 x4 x5 x6 x7 (ij n j) = (((((((x0 (ij n (⟨j.val + 1, by omega⟩ : Fin 28)) + x1 (ij n (⟨j.val + 1, by omega⟩ : Fin 28)) : EReal) + x2 (ij n (⟨j.val + 1, by omega⟩ : Fin 28)) : EReal) + x3 (ij n (⟨j.val + 1, by omega⟩ : Fin 28)) : EReal) + x4 (ij n (⟨j.val + 1, by omega⟩ : Fin 28)) : EReal) + x5 (ij n (⟨j.val + 1, by omega⟩ : Fin 28)) : EReal) + x6 (ij n (⟨j.val + 1, by omega⟩ : Fin 28)) : EReal) + x7 (ij n (⟨j.val + 1, by omega⟩ : Fin 28)) : EReal) := by
  rfl

/-! ## The body's sum at an index of the block -/

private theorem zero_offsets : (![0, 0] : Fin 2 → Nat) = fun _ => 0 :=
  funext fun a => match a with | ⟨0, _⟩ => rfl | ⟨1, _⟩ => rfl

/-- The eight loaded blocks' sum, left to right, at an index of the block: the casts to the same shape change nothing. -/
private theorem blockSum_apply (x0 x1 x2 x3 x4 x5 x6 x7 : Vec Ideal S3200x28 .f32) (k : S3200x28.Idx) :
    k0_pay1 x0 x1 x2 x3 x4 x5 x6 x7 k = (((((((x0 k + x1 k : EReal) + x2 k : EReal) + x3 k : EReal) + x4 k : EReal) + x5 k : EReal) + x6 k : EReal) + x7 k : EReal) := by
  unfold k0_pay1
  simp only [shapeCast_self]
  rfl

/-- Row `r` of the first store's payload is lane 0 of row `r` of the sum. -/
private theorem lane0_apply (x0 x1 x2 x3 x4 x5 x6 x7 : Vec Ideal S3200x28 .f32) (r : Fin 3200) :
    k0_pay2 x0 x1 x2 x3 x4 x5 x6 x7 (ij r (0 : Fin 1)) = (((((((x0 (ij r (0 : Fin 28)) + x1 (ij r (0 : Fin 28)) : EReal) + x2 (ij r (0 : Fin 28)) : EReal) + x3 (ij r (0 : Fin 28)) : EReal) + x4 (ij r (0 : Fin 28)) : EReal) + x5 (ij r (0 : Fin 28)) : EReal) + x6 (ij r (0 : Fin 28)) : EReal) + x7 (ij r (0 : Fin 28)) : EReal) := by
  unfold k0_pay2
  refine (extractStridedSlice_apply _ _ _ (ij r (0 : Fin 1)) (ij r (0 : Fin 28)) (fun a => ?_)).trans (blockSum_apply x0 x1 x2 x3 x4 x5 x6 x7 _)
  match a with
  | ⟨0, _⟩ => show r.val = 0 + r.val; omega
  | ⟨1, _⟩ => show 0 = 0 + 0; rfl

/-- Row `r`, lane `j` of the second store's payload is lane `j + 1` of row `r` of the sum. -/
private theorem lanes1_apply (x0 x1 x2 x3 x4 x5 x6 x7 : Vec Ideal S3200x28 .f32) (r : Fin 3200) (j : Fin 27) :
    k0_pay3 x0 x1 x2 x3 x4 x5 x6 x7 (ij r j) = (((((((x0 (ij r (⟨j.val + 1, by omega⟩ : Fin 28)) + x1 (ij r (⟨j.val + 1, by omega⟩ : Fin 28)) : EReal) + x2 (ij r (⟨j.val + 1, by omega⟩ : Fin 28)) : EReal) + x3 (ij r (⟨j.val + 1, by omega⟩ : Fin 28)) : EReal) + x4 (ij r (⟨j.val + 1, by omega⟩ : Fin 28)) : EReal) + x5 (ij r (⟨j.val + 1, by omega⟩ : Fin 28)) : EReal) + x6 (ij r (⟨j.val + 1, by omega⟩ : Fin 28)) : EReal) + x7 (ij r (⟨j.val + 1, by omega⟩ : Fin 28)) : EReal) := by
  unfold k0_pay3
  refine (extractStridedSlice_apply _ _ _ (ij r j) (ij r (⟨j.val + 1, by omega⟩ : Fin 28)) (fun a => ?_)).trans (blockSum_apply x0 x1 x2 x3 x4 x5 x6 x7 _)
  match a with
  | ⟨0, _⟩ => show r.val = 0 + r.val; omega
  | ⟨1, _⟩ => show j.val + 1 = 1 + j.val; omega

/-! ## Where each window's block sits in its array -/

/-- Every window's index map sends point `t` to block `(t, 0)`: decided over the 625 points. -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- `x` is rows `3200 b … 3200 b + 3199` of `X`. -/
private def RowsOf (b : Nat) (x : Vec Ideal S3200x28 .f32) (X : FVec Ideal S2000000x28 .f32) : Prop :=
  ∀ (k : S3200x28.Idx) (K : S2000000x28.Idx), (K 0).val = b * 3200 + (k 0).val → (K 1).val = (k 1).val → x k = X K

/-- Input window 0's block at point `t`, read off any contents of its array, is rows `3200 t …` of them. -/
private theorem rows_0 (t : Fin cfg0.N) (A : FVec Ideal S2000000x28 .f32) :
    RowsOf t.val (((cfg0.win 0).blk t).view.read (Elt Ideal) A) A := by
  intro k K hK0 hK1
  have e0 : win0_0.index t (0 : Fin 2) = t.val := (index_facts t).1
  have e1 : win0_0.index t (1 : Fin 2) = 0 := (index_facts t).2.1
  rw [View.read_apply]
  refine congrArg A (funext fun a => Fin.ext ?_)
  match a with
  | ⟨0, _⟩ => show win0_0.index t (0 : Fin 2) * 3200 + 1 * (k 0).val = (K 0).val; rw [e0, hK0]; omega
  | ⟨1, _⟩ => show win0_0.index t (1 : Fin 2) * 28 + 1 * (k 1).val = (K 1).val; rw [e1, hK1]; omega

/-- Input window 1's block at point `t`, read off any contents of its array, is rows `3200 t …` of them. -/
private theorem rows_1 (t : Fin cfg0.N) (A : FVec Ideal S2000000x28 .f32) :
    RowsOf t.val (((cfg0.win 1).blk t).view.read (Elt Ideal) A) A := by
  intro k K hK0 hK1
  have e0 : win0_1.index t (0 : Fin 2) = t.val := (index_facts t).2.2.1
  have e1 : win0_1.index t (1 : Fin 2) = 0 := (index_facts t).2.2.2.1
  rw [View.read_apply]
  refine congrArg A (funext fun a => Fin.ext ?_)
  match a with
  | ⟨0, _⟩ => show win0_1.index t (0 : Fin 2) * 3200 + 1 * (k 0).val = (K 0).val; rw [e0, hK0]; omega
  | ⟨1, _⟩ => show win0_1.index t (1 : Fin 2) * 28 + 1 * (k 1).val = (K 1).val; rw [e1, hK1]; omega

/-- Input window 2's block at point `t`, read off any contents of its array, is rows `3200 t …` of them. -/
private theorem rows_2 (t : Fin cfg0.N) (A : FVec Ideal S2000000x28 .f32) :
    RowsOf t.val (((cfg0.win 2).blk t).view.read (Elt Ideal) A) A := by
  intro k K hK0 hK1
  have e0 : win0_2.index t (0 : Fin 2) = t.val := (index_facts t).2.2.2.2.1
  have e1 : win0_2.index t (1 : Fin 2) = 0 := (index_facts t).2.2.2.2.2.1
  rw [View.read_apply]
  refine congrArg A (funext fun a => Fin.ext ?_)
  match a with
  | ⟨0, _⟩ => show win0_2.index t (0 : Fin 2) * 3200 + 1 * (k 0).val = (K 0).val; rw [e0, hK0]; omega
  | ⟨1, _⟩ => show win0_2.index t (1 : Fin 2) * 28 + 1 * (k 1).val = (K 1).val; rw [e1, hK1]; omega

/-- Input window 3's block at point `t`, read off any contents of its array, is rows `3200 t …` of them. -/
private theorem rows_3 (t : Fin cfg0.N) (A : FVec Ideal S2000000x28 .f32) :
    RowsOf t.val (((cfg0.win 3).blk t).view.read (Elt Ideal) A) A := by
  intro k K hK0 hK1
  have e0 : win0_3.index t (0 : Fin 2) = t.val := (index_facts t).2.2.2.2.2.2.1
  have e1 : win0_3.index t (1 : Fin 2) = 0 := (index_facts t).2.2.2.2.2.2.2.1
  rw [View.read_apply]
  refine congrArg A (funext fun a => Fin.ext ?_)
  match a with
  | ⟨0, _⟩ => show win0_3.index t (0 : Fin 2) * 3200 + 1 * (k 0).val = (K 0).val; rw [e0, hK0]; omega
  | ⟨1, _⟩ => show win0_3.index t (1 : Fin 2) * 28 + 1 * (k 1).val = (K 1).val; rw [e1, hK1]; omega

/-- Input window 4's block at point `t`, read off any contents of its array, is rows `3200 t …` of them. -/
private theorem rows_4 (t : Fin cfg0.N) (A : FVec Ideal S2000000x28 .f32) :
    RowsOf t.val (((cfg0.win 4).blk t).view.read (Elt Ideal) A) A := by
  intro k K hK0 hK1
  have e0 : win0_4.index t (0 : Fin 2) = t.val := (index_facts t).2.2.2.2.2.2.2.2.1
  have e1 : win0_4.index t (1 : Fin 2) = 0 := (index_facts t).2.2.2.2.2.2.2.2.2.1
  rw [View.read_apply]
  refine congrArg A (funext fun a => Fin.ext ?_)
  match a with
  | ⟨0, _⟩ => show win0_4.index t (0 : Fin 2) * 3200 + 1 * (k 0).val = (K 0).val; rw [e0, hK0]; omega
  | ⟨1, _⟩ => show win0_4.index t (1 : Fin 2) * 28 + 1 * (k 1).val = (K 1).val; rw [e1, hK1]; omega

/-- Input window 5's block at point `t`, read off any contents of its array, is rows `3200 t …` of them. -/
private theorem rows_5 (t : Fin cfg0.N) (A : FVec Ideal S2000000x28 .f32) :
    RowsOf t.val (((cfg0.win 5).blk t).view.read (Elt Ideal) A) A := by
  intro k K hK0 hK1
  have e0 : win0_5.index t (0 : Fin 2) = t.val := (index_facts t).2.2.2.2.2.2.2.2.2.2.1
  have e1 : win0_5.index t (1 : Fin 2) = 0 := (index_facts t).2.2.2.2.2.2.2.2.2.2.2.1
  rw [View.read_apply]
  refine congrArg A (funext fun a => Fin.ext ?_)
  match a with
  | ⟨0, _⟩ => show win0_5.index t (0 : Fin 2) * 3200 + 1 * (k 0).val = (K 0).val; rw [e0, hK0]; omega
  | ⟨1, _⟩ => show win0_5.index t (1 : Fin 2) * 28 + 1 * (k 1).val = (K 1).val; rw [e1, hK1]; omega

/-- Input window 6's block at point `t`, read off any contents of its array, is rows `3200 t …` of them. -/
private theorem rows_6 (t : Fin cfg0.N) (A : FVec Ideal S2000000x28 .f32) :
    RowsOf t.val (((cfg0.win 6).blk t).view.read (Elt Ideal) A) A := by
  intro k K hK0 hK1
  have e0 : win0_6.index t (0 : Fin 2) = t.val := (index_facts t).2.2.2.2.2.2.2.2.2.2.2.2.1
  have e1 : win0_6.index t (1 : Fin 2) = 0 := (index_facts t).2.2.2.2.2.2.2.2.2.2.2.2.2.1
  rw [View.read_apply]
  refine congrArg A (funext fun a => Fin.ext ?_)
  match a with
  | ⟨0, _⟩ => show win0_6.index t (0 : Fin 2) * 3200 + 1 * (k 0).val = (K 0).val; rw [e0, hK0]; omega
  | ⟨1, _⟩ => show win0_6.index t (1 : Fin 2) * 28 + 1 * (k 1).val = (K 1).val; rw [e1, hK1]; omega

/-- Input window 7's block at point `t`, read off any contents of its array, is rows `3200 t …` of them. -/
private theorem rows_7 (t : Fin cfg0.N) (A : FVec Ideal S2000000x28 .f32) :
    RowsOf t.val (((cfg0.win 7).blk t).view.read (Elt Ideal) A) A := by
  intro k K hK0 hK1
  have e0 : win0_7.index t (0 : Fin 2) = t.val := (index_facts t).2.2.2.2.2.2.2.2.2.2.2.2.2.2.1
  have e1 : win0_7.index t (1 : Fin 2) = 0 := (index_facts t).2.2.2.2.2.2.2.2.2.2.2.2.2.2.2.1
  rw [View.read_apply]
  refine congrArg A (funext fun a => Fin.ext ?_)
  match a with
  | ⟨0, _⟩ => show win0_7.index t (0 : Fin 2) * 3200 + 1 * (k 0).val = (K 0).val; rw [e0, hK0]; omega
  | ⟨1, _⟩ => show win0_7.index t (1 : Fin 2) * 28 + 1 * (k 1).val = (K 1).val; rw [e1, hK1]; omega

/-! ## What a point writes back, as rows of the whole-array sums -/

/-- When the eight blocks are rows `3200 b …` of eight arrays, row `r` of the first store's payload is row `3200 b + r` of the
    arrays' lane-0 sum. -/
private theorem lane0_of_rows (b : Nat) (x0 x1 x2 x3 x4 x5 x6 x7 : Vec Ideal S3200x28 .f32) (X0 X1 X2 X3 X4 X5 X6 X7 : FVec Ideal S2000000x28 .f32)
    (h0 : RowsOf b x0 X0) (h1 : RowsOf b x1 X1) (h2 : RowsOf b x2 X2) (h3 : RowsOf b x3 X3) (h4 : RowsOf b x4 X4) (h5 : RowsOf b x5 X5) (h6 : RowsOf b x6 X6) (h7 : RowsOf b x7 X7)
    (j : S3200x1.Idx) (i : S2000000x1.Idx) (hi : (i 0).val = b * 3200 + (j 0).val) :
    k0_pay2 x0 x1 x2 x3 x4 x5 x6 x7 j = sumD X0 X1 X2 X3 X4 X5 X6 X7 i := by
  obtain ⟨r, q, rfl⟩ : ∃ (r : Fin 3200) (q : Fin 1), j = ij r q := ⟨j 0, j 1, (StableHlo.Predicate.ij_eta j).symm⟩
  obtain ⟨n, p, rfl⟩ : ∃ (n : Fin 2000000) (p : Fin 1), i = ij n p := ⟨i 0, i 1, (StableHlo.Predicate.ij_eta i).symm⟩
  obtain rfl : q = 0 := Subsingleton.elim _ _
  obtain rfl : p = 0 := Subsingleton.elim _ _
  rw [sumD_apply, lane0_apply]
  rw [h0 (ij r (0 : Fin 28)) (ij n (0 : Fin 28)) hi rfl, h1 (ij r (0 : Fin 28)) (ij n (0 : Fin 28)) hi rfl, h2 (ij r (0 : Fin 28)) (ij n (0 : Fin 28)) hi rfl, h3 (ij r (0 : Fin 28)) (ij n (0 : Fin 28)) hi rfl, h4 (ij r (0 : Fin 28)) (ij n (0 : Fin 28)) hi rfl, h5 (ij r (0 : Fin 28)) (ij n (0 : Fin 28)) hi rfl, h6 (ij r (0 : Fin 28)) (ij n (0 : Fin 28)) hi rfl, h7 (ij r (0 : Fin 28)) (ij n (0 : Fin 28)) hi rfl]

/-- Likewise row `r`, lane `l` of the second store's payload is row `3200 b + r`, lane `l` of the arrays' shifted-lane sum. -/
private theorem lanes1_of_rows (b : Nat) (x0 x1 x2 x3 x4 x5 x6 x7 : Vec Ideal S3200x28 .f32) (X0 X1 X2 X3 X4 X5 X6 X7 : FVec Ideal S2000000x28 .f32)
    (h0 : RowsOf b x0 X0) (h1 : RowsOf b x1 X1) (h2 : RowsOf b x2 X2) (h3 : RowsOf b x3 X3) (h4 : RowsOf b x4 X4) (h5 : RowsOf b x5 X5) (h6 : RowsOf b x6 X6) (h7 : RowsOf b x7 X7)
    (j : S3200x27.Idx) (i : S2000000x27.Idx) (hi0 : (i 0).val = b * 3200 + (j 0).val) (hi1 : (i 1).val = (j 1).val) :
    k0_pay3 x0 x1 x2 x3 x4 x5 x6 x7 j = sumSh X0 X1 X2 X3 X4 X5 X6 X7 i := by
  obtain ⟨r, q, rfl⟩ : ∃ (r : Fin 3200) (q : Fin 27), j = ij r q := ⟨j 0, j 1, (StableHlo.Predicate.ij_eta j).symm⟩
  obtain ⟨n, p, rfl⟩ : ∃ (n : Fin 2000000) (p : Fin 27), i = ij n p := ⟨i 0, i 1, (StableHlo.Predicate.ij_eta i).symm⟩
  obtain rfl : p = q := Fin.ext hi1
  rw [sumSh_apply, lanes1_apply]
  rw [h0 (ij r (⟨p.val + 1, by omega⟩ : Fin 28)) (ij n (⟨p.val + 1, by omega⟩ : Fin 28)) hi0 rfl, h1 (ij r (⟨p.val + 1, by omega⟩ : Fin 28)) (ij n (⟨p.val + 1, by omega⟩ : Fin 28)) hi0 rfl, h2 (ij r (⟨p.val + 1, by omega⟩ : Fin 28)) (ij n (⟨p.val + 1, by omega⟩ : Fin 28)) hi0 rfl, h3 (ij r (⟨p.val + 1, by omega⟩ : Fin 28)) (ij n (⟨p.val + 1, by omega⟩ : Fin 28)) hi0 rfl, h4 (ij r (⟨p.val + 1, by omega⟩ : Fin 28)) (ij n (⟨p.val + 1, by omega⟩ : Fin 28)) hi0 rfl, h5 (ij r (⟨p.val + 1, by omega⟩ : Fin 28)) (ij n (⟨p.val + 1, by omega⟩ : Fin 28)) hi0 rfl, h6 (ij r (⟨p.val + 1, by omega⟩ : Fin 28)) (ij n (⟨p.val + 1, by omega⟩ : Fin 28)) hi0 rfl, h7 (ij r (⟨p.val + 1, by omega⟩ : Fin 28)) (ij n (⟨p.val + 1, by omega⟩ : Fin 28)) hi0 rfl]

variable (m : (ℓ : Loc nD τ sig) → Buf (Elt Ideal) ℓ) (ρ : Dev nD → PrngReg)

/-! ## Each point writes back its rows of the two sums -/

/-- Point `t` writes back to the first result rows `3200 t …` of the lane-0 sum of the arrays the region finds. -/
private theorem lane0_flushed (c : Dev nD) (t : Fin cfg0.N) :
    (dats m 0 c).flushed 8 t = ((cfg0.win 8).blk t).view.read (Elt Ideal) (sumD (V m c main_v65) (V m c main_v110) (V m c main_v159) (V m c main_v204) (V m c main_v257) (V m c main_v302) (V m c main_v351) (V m c main_v396)) := by
  show (cfg0.win 8).cut (grid0.coords t) ((dats m 0 c).after 8 t) = _
  rw [after0_8]
  unfold out0_8
  rw [View.canon_unit_zero zero_offsets]
  simp only [View.ld_unit_zero (S := S3200x28) zero_offsets]
  have e0 : win0_8.index t (0 : Fin 2) = t.val := (index_facts t).2.2.2.2.2.2.2.2.2.2.2.2.2.2.2.2.1
  funext j
  rw [View.read_apply]
  refine lane0_of_rows t.val _ _ _ _ _ _ _ _ _ _ _ _ _ _ _ _ (rows_0 t (V m c main_v65)) (rows_1 t (V m c main_v110)) (rows_2 t (V m c main_v159)) (rows_3 t (V m c main_v204)) (rows_4 t (V m c main_v257)) (rows_5 t (V m c main_v302)) (rows_6 t (V m c main_v351)) (rows_7 t (V m c main_v396)) _ _ ?_
  show win0_8.index t (0 : Fin 2) * 3200 + 1 * (j 0).val = t.val * 3200 + (j 0).val
  rw [e0]; omega

/-- Point `t` writes back to the second result rows `3200 t …` of the shifted-lane sum of the arrays the region finds. -/
private theorem lanes1_flushed (c : Dev nD) (t : Fin cfg0.N) :
    (dats m 0 c).flushed 9 t = ((cfg0.win 9).blk t).view.read (Elt Ideal) (sumSh (V m c main_v65) (V m c main_v110) (V m c main_v159) (V m c main_v204) (V m c main_v257) (V m c main_v302) (V m c main_v351) (V m c main_v396)) := by
  show (cfg0.win 9).cut (grid0.coords t) ((dats m 0 c).after 9 t) = _
  rw [after0_9]
  unfold out0_9
  rw [View.canon_unit_zero zero_offsets]
  simp only [View.ld_unit_zero (S := S3200x28) zero_offsets]
  have e0 : win0_9.index t (0 : Fin 2) = t.val := (index_facts t).2.2.2.2.2.2.2.2.2.2.2.2.2.2.2.2.2.2.1
  have e1 : win0_9.index t (1 : Fin 2) = 0 := (index_facts t).2.2.2.2.2.2.2.2.2.2.2.2.2.2.2.2.2.2.2
  funext j
  rw [View.read_apply]
  refine lanes1_of_rows t.val _ _ _ _ _ _ _ _ _ _ _ _ _ _ _ _ (rows_0 t (V m c main_v65)) (rows_1 t (V m c main_v110)) (rows_2 t (V m c main_v159)) (rows_3 t (V m c main_v204)) (rows_4 t (V m c main_v257)) (rows_5 t (V m c main_v302)) (rows_6 t (V m c main_v351)) (rows_7 t (V m c main_v396)) _ _ ?_ ?_
  · show win0_9.index t (0 : Fin 2) * 3200 + 1 * (j 0).val = t.val * 3200 + (j 0).val
    rw [e0]; omega
  · show win0_9.index t (1 : Fin 2) * 27 + 1 * (j 1).val = (j 1).val
    rw [e1]; omega

/-! ## The blocks cover the arrays: row `r` is in the block of point `r / 3200` -/

private theorem lane0_cover (i : S2000000x1.Idx) :
    ∃ t : Fin cfg0.N, (cfg0.win 8).flush t = true ∧ i ∈ ((cfg0.win 8).blk t).view.set := by
  have hN : cfg0.N = 625 := N_0
  have hi0 : (i 0).val < 2000000 := (i 0).isLt
  have hi1 : (i 1).val < 1 := (i 1).isLt
  refine ⟨⟨(i 0).val / 3200, by rw [hN]; omega⟩, flush0_8 _, ?_⟩
  generalize ht : (⟨(i 0).val / 3200, by rw [hN]; omega⟩ : Fin cfg0.N) = t
  have htv : t.val = (i 0).val / 3200 := by rw [← ht]
  have e0 : win0_8.index t (0 : Fin 2) = t.val := (index_facts t).2.2.2.2.2.2.2.2.2.2.2.2.2.2.2.2.1
  have e1 : win0_8.index t (1 : Fin 2) = 0 := (index_facts t).2.2.2.2.2.2.2.2.2.2.2.2.2.2.2.2.2.1
  show i ∈ ((View.whole main_v397_0).slice (win0_8.rect t)).set
  rw [View.set_slice_whole, Rect.mem_set_unit]
  intro a
  match a with
  | ⟨0, _⟩ => show win0_8.index t (0 : Fin 2) * 3200 ≤ (i 0).val ∧ (i 0).val < win0_8.index t (0 : Fin 2) * 3200 + 3200; rw [e0, htv]; omega
  | ⟨1, _⟩ => show win0_8.index t (1 : Fin 2) * 1 ≤ (i 1).val ∧ (i 1).val < win0_8.index t (1 : Fin 2) * 1 + 1; rw [e1]; omega

private theorem lanes1_cover (i : S2000000x27.Idx) :
    ∃ t : Fin cfg0.N, (cfg0.win 9).flush t = true ∧ i ∈ ((cfg0.win 9).blk t).view.set := by
  have hN : cfg0.N = 625 := N_0
  have hi0 : (i 0).val < 2000000 := (i 0).isLt
  have hi1 : (i 1).val < 27 := (i 1).isLt
  refine ⟨⟨(i 0).val / 3200, by rw [hN]; omega⟩, flush0_9 _, ?_⟩
  generalize ht : (⟨(i 0).val / 3200, by rw [hN]; omega⟩ : Fin cfg0.N) = t
  have htv : t.val = (i 0).val / 3200 := by rw [← ht]
  have e0 : win0_9.index t (0 : Fin 2) = t.val := (index_facts t).2.2.2.2.2.2.2.2.2.2.2.2.2.2.2.2.2.2.1
  have e1 : win0_9.index t (1 : Fin 2) = 0 := (index_facts t).2.2.2.2.2.2.2.2.2.2.2.2.2.2.2.2.2.2.2
  show i ∈ ((View.whole main_v397_1).slice (win0_9.rect t)).set
  rw [View.set_slice_whole, Rect.mem_set_unit]
  intro a
  match a with
  | ⟨0, _⟩ => show win0_9.index t (0 : Fin 2) * 3200 ≤ (i 0).val ∧ (i 0).val < win0_9.index t (0 : Fin 2) * 3200 + 3200; rw [e0, htv]; omega
  | ⟨1, _⟩ => show win0_9.index t (1 : Fin 2) * 27 ≤ (i 1).val ∧ (i 1).val < win0_9.index t (1 : Fin 2) * 27 + 27; rw [e1]; omega

/-! ## The two result arrays after the run -/

/-- The first result ends as the lane-0 sum. -/
private theorem lane0_final (c : Dev nD) : (dats m 0 c).arrAt 8 cfg0.N = sumD (V m c main_v65) (V m c main_v110) (V m c main_v159) (V m c main_v204) (V m c main_v257) (V m c main_v302) (V m c main_v351) (V m c main_v396) :=
  (dats m 0 c).arrAt_eq_of_cover 8 (sumD (V m c main_v65) (V m c main_v110) (V m c main_v159) (V m c main_v204) (V m c main_v257) (V m c main_v302) (V m c main_v351) (V m c main_v396)) (fun t _ => lane0_flushed m c t) lane0_cover

/-- The second result ends as the shifted-lane sum. -/
private theorem lanes1_final (c : Dev nD) : (dats m 0 c).arrAt 9 cfg0.N = sumSh (V m c main_v65) (V m c main_v110) (V m c main_v159) (V m c main_v204) (V m c main_v257) (V m c main_v302) (V m c main_v351) (V m c main_v396) :=
  (dats m 0 c).arrAt_eq_of_cover 9 (sumSh (V m c main_v65) (V m c main_v110) (V m c main_v159) (V m c main_v204) (V m c main_v257) (V m c main_v302) (V m c main_v351) (V m c main_v396)) (fun t _ => lanes1_flushed m c t) lanes1_cover

/-- The run with both result arrays named: each is the sum's lanes of the eight arrays the region finds, and the arguments end
    as launched. -/
theorem run_vals : θ_run defs (onTc (τ := τ) (main (F := Ideal))) ⟨m, fun _ => 0, ρ⟩ (fun r => ∀ c : Dev nD,
      r.2.mem ((c.tc : Thread nD τ).loc main_v397_0) = sumD (V m c main_v65) (V m c main_v110) (V m c main_v159) (V m c main_v204) (V m c main_v257) (V m c main_v302) (V m c main_v351) (V m c main_v396)
      ∧ r.2.mem ((c.tc : Thread nD τ).loc main_v397_1) = sumSh (V m c main_v65) (V m c main_v110) (V m c main_v159) (V m c main_v204) (V m c main_v257) (V m c main_v302) (V m c main_v351) (V m c main_v396)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun r h c => ⟨((h c).1 8).trans (lane0_final m c), ((h c).1 9).trans (lanes1_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Val

end
-- ==== Proof.LibAfterAppend.lean ====
/-
  A general fact about the fold of host operations over buffer contents: running a list of operations that is a
  concatenation is running the first part and then the second from what the first left.
-/
import Idealize.ShloMosaic.Lib.StableHlo.Run

namespace Idealize.ShloMosaic.StableHlo

variable {τ : Topo} {sig : RefSig} {Val : EltTy → Type}

/-- The contents after `l₁ ++ l₂` from `V` are the contents after `l₂` from the contents after `l₁` from `V`: by induction
    on `l₁`, each operation rewriting the buffers it writes before the rest of the list runs. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibChunk.lean ====
import proofs.«415466_j54125177864604_3_alg».proof.Proof.LibAfterAppend
import Idealize.ShloMosaic.Lib.StableHlo.Run

/-!
# Reading a buffer back through one stretch of a long line of host operations

A long line of host operations in static single assignment is read back a stretch at a time. If every operation of a line
writes only references listed in `W` (`WritesIn W ops`), a reference outside `W` keeps its contents through the line. So for a
line `pre ++ (mid ++ post)`: a buffer no operation of `post` writes holds after the whole line what it holds after `mid` run from
the contents `pre` leaves (`after_mid`), and a buffer no operation of `mid ++ post` writes holds after the whole line what `pre`
leaves (`after_pre`). The stretch `mid` is then read back from an abstract valuation, a small term, and its operands are
replaced by the whole line's values.
-/

namespace Idealize.ShloMosaic.StableHlo

variable {τ : Topo} {sig : RefSig} {Val : EltTy → Type}

/-- Every operation of the line writes only references listed in `W`. -/
def WritesIn (W : List (Ref sig .tc)) (ops : List (HloOp τ sig Val)) : Prop :=
  ops.Forall fun op => op.writes ⊆ (W.map (Proc.devRef (τ := τ) .tc)).toFinset

theorem WritesIn.nil : WritesIn (τ := τ) (sig := sig) (Val := Val) [] [] := by
  unfold WritesIn
  exact List.forall_iff_forall_mem.mpr (fun _ h => absurd h List.not_mem_nil)

/-- Two lines one after the other write what either writes. -/
theorem WritesIn.append {W₁ W₂ : List (Ref sig .tc)} {l₁ l₂ : List (HloOp τ sig Val)}
    (h₁ : WritesIn W₁ l₁) (h₂ : WritesIn W₂ l₂) : WritesIn (W₁ ++ W₂) (l₁ ++ l₂) := by
  unfold WritesIn at *
  rw [List.forall_iff_forall_mem] at *
  intro op hop
  rcases List.mem_append.1 hop with h | h
  · exact (h₁ op h).trans (by rw [List.map_append, List.toFinset_append]; exact Finset.subset_union_left)
  · exact (h₂ op h).trans (by rw [List.map_append, List.toFinset_append]; exact Finset.subset_union_right)

/-- A larger list still lists every write. -/
theorem WritesIn.mono {W W' : List (Ref sig .tc)} {l : List (HloOp τ sig Val)} (h : WritesIn W l) (hs : W ⊆ W') : WritesIn W' l := by
  unfold WritesIn at *
  rw [List.forall_iff_forall_mem] at *
  intro op hop
  refine (h op hop).trans ?_
  intro b hb
  obtain ⟨y, hy, he⟩ := List.mem_map.1 (List.mem_toFinset.1 hb)
  exact List.mem_toFinset.2 (List.mem_map.2 ⟨y, hs hy, he⟩)

/-- An operation whose writes are one listed reference. -/
theorem singleton_sub_of_mem {W : List (Ref sig .tc)} {r : Ref sig .tc} (h : r ∈ W) :
    ({Proc.devRef (τ := τ) .tc r} : Finset (DevRef τ sig)) ⊆ (W.map (Proc.devRef (τ := τ) .tc)).toFinset := by
  rw [Finset.singleton_subset_iff, List.mem_toFinset]
  exact List.mem_map.2 ⟨r, h, rfl⟩

/-- A reference the line does not list keeps its contents through it. -/
theorem after_keep {W : List (Ref sig .tc)} {ops : List (HloOp τ sig Val)} (h : WritesIn W ops) {r : Ref sig .tc} (hr : r ∉ W)
    (V : Valuation τ sig Val) : after ops V (Proc.devRef .tc r) = V (Proc.devRef .tc r) :=
  after_of_writes_sub ops V h hr

/-- A buffer that `post` does not write: after the whole line it holds what `mid` leaves from what `pre` leaves. -/
theorem after_mid {Wp : List (Ref sig .tc)} (pre mid post : List (HloOp τ sig Val)) (hpost : WritesIn Wp post)
    {r : Ref sig .tc} (hr : r ∉ Wp) (V : Valuation τ sig Val) :
    after (pre ++ (mid ++ post)) V (Proc.devRef .tc r) = after mid (after pre V) (Proc.devRef .tc r) := by
  rw [after_append, after_append]
  exact after_keep hpost hr _

/-- A buffer that `rest` does not write: after the whole line it holds what `pre` leaves. -/
theorem after_pre {Wr : List (Ref sig .tc)} (pre rest : List (HloOp τ sig Val)) (hrest : WritesIn Wr rest)
    {r : Ref sig .tc} (hr : r ∉ Wr) (V : Valuation τ sig Val) :
    after (pre ++ rest) V (Proc.devRef .tc r) = after pre V (Proc.devRef .tc r) := by
  rw [after_append]
  exact after_keep hrest hr _

end Idealize.ShloMosaic.StableHlo
-- ==== Proof.RWrites.lean ====
import proofs.«415466_j54125177864604_3_alg».proof.Proof.RefRunW
import proofs.«415466_j54125177864604_3_alg».proof.Proof.LibChunk

set_option maxRecDepth 16384

noncomputable section

namespace Cert.ReferenceIdeal.Hand

open Cert.ReferenceIdeal Cert.ReferenceIdeal.Gen Cert.ReferenceIdeal.RunW
open Idealize.ShloMosaic Idealize.ShloMosaic.TcCoe Idealize.ShloMosaic.StableHlo Idealize.SL.Sem

variable {F : FTy → Type} [FloatOps F]

abbrev W_q0 : List (Ref sig .tc) := [main_cst, main_c, main_cst_0, main_v0, main_v1, main_cst_1, main_call0_v0, main_call0_v1, main_call0_v2, main_call0_v3, main_call0_v4, main_v2, main_v3, main_v4, main_c_2, main_v5, main_v6, main_c_3, main_call1_v0, main_call1_v1, main_call1_v2, main_call1_v3, main_call1_v4, main_v7, main_v8, main_v9, main_cst_4, main_v10, main_cst_5, main_v11]
set_option maxHeartbeats 4000000 in
theorem hW_q0 : WritesIn W_q0 (q0 : List (HloOp τ sig (Elt F))) := by
  unfold WritesIn
  simp only [q0, List.Forall, nullary_writes, unary_writes, binary_writes, ternary_writes, quaternary_writes, reshape_writes, nary_writes]
  repeat' apply And.intro
  all_goals exact singleton_sub_of_mem (by decide)

abbrev W_q1 : List (Ref sig .tc) := [main_v12, main_v13, main_cst_6, main_v14, main_v15, main_v16, main_v17, main_cst_7, main_v18, main_v19, main_v20, main_v21, main_cst_8, main_v22, main_v23, main_v24, main_v25, main_c_9, main_v26, main_v27, main_v28, main_v29, main_c_10, main_v30, main_v31, main_v32, main_v33, main_c_11, main_v34, main_v35, main_c_12, main_v36, main_v37, main_c_13, main_v38, main_v39, main_v40, main_c_14, main_v41, main_v42]
set_option maxHeartbeats 4000000 in
theorem hW_q1 : WritesIn W_q1 (q1 : List (HloOp τ sig (Elt F))) := by
  unfold WritesIn
  simp only [q1, List.Forall, nullary_writes, unary_writes, binary_writes, ternary_writes, quaternary_writes, reshape_writes, nary_writes]
  repeat' apply And.intro
  all_goals exact singleton_sub_of_mem (by decide)

abbrev W_q2 : List (Ref sig .tc) := [main_c_15, main_v43, main_v44, main_v45, main_c_16, main_v46, main_v47, main_c_17, main_v48, main_v49, main_v50, main_v51, main_v52, main_v53, main_v54, main_v55, main_c_18, main_v56, main_v57, main_c_19, main_call2_v0, main_call2_v1, main_v58, main_v59, main_v60, main_v61, main_v62, main_v63, main_c_20, main_v64, main_v65, main_c_21, main_v66, main_v67, main_v68, main_v69, main_v70, main_v71, main_v72, main_c_22, main_v73, main_v74, main_c_23, main_v75, main_v76, main_v77, main_v78, main_v79, main_v80, main_v81, main_v82]
set_option maxHeartbeats 4000000 in
theorem hW_q2 : WritesIn W_q2 (q2 : List (HloOp τ sig (Elt F))) := by
  unfold WritesIn
  simp only [q2, List.Forall, nullary_writes, unary_writes, binary_writes, ternary_writes, quaternary_writes, reshape_writes, nary_writes]
  repeat' apply And.intro
  all_goals exact singleton_sub_of_mem (by decide)

abbrev W_q3 : List (Ref sig .tc) := [main_v83, main_v84, main_v85, main_v86, main_c_24, main_v87, main_v88, main_v89, main_v90, main_c_25, main_v91]
set_option maxHeartbeats 4000000 in
theorem hW_q3 : WritesIn W_q3 (q3 : List (HloOp τ sig (Elt F))) := by
  unfold WritesIn
  simp only [q3, List.Forall, nullary_writes, unary_writes, binary_writes, ternary_writes, quaternary_writes, reshape_writes, nary_writes]
  repeat' apply And.intro
  all_goals exact singleton_sub_of_mem (by decide)

abbrev W_q4 : List (Ref sig .tc) := [main_v92, main_v93, main_v94, main_c_26, main_v95, main_v96, main_c_27, main_v97, main_v98, main_c_28, main_v99, main_v100, main_v101, main_c_29, main_v102, main_v103, main_c_30, main_v104, main_v105, main_v106, main_c_31, main_v107, main_v108, main_c_32, main_v109, main_v110, main_v111, main_v112, main_v113, main_v114, main_v115, main_v116, main_c_33, main_v117, main_v118, main_c_34, main_call3_v0, main_call3_v1, main_v119, main_v120, main_v121, main_v122, main_v123, main_v124, main_c_35, main_v125, main_v126, main_c_36, main_v127, main_v128, main_v129, main_v130, main_v131, main_v132, main_v133, main_c_37, main_v134, main_v135, main_c_38, main_v136, main_v137, main_v138]
set_option maxHeartbeats 4000000 in
theorem hW_q4 : WritesIn W_q4 (q4 : List (HloOp τ sig (Elt F))) := by
  unfold WritesIn
  simp only [q4, List.Forall, nullary_writes, unary_writes, binary_writes, ternary_writes, quaternary_writes, reshape_writes, nary_writes]
  repeat' apply And.intro
  all_goals exact singleton_sub_of_mem (by decide)

abbrev W_q5 : List (Ref sig .tc) := [main_v139, main_v140, main_v141, main_v142, main_v143]
set_option maxHeartbeats 4000000 in
theorem hW_q5 : WritesIn W_q5 (q5 : List (HloOp τ sig (Elt F))) := by
  unfold WritesIn
  simp only [q5, List.Forall, nullary_writes, unary_writes, binary_writes, ternary_writes, quaternary_writes, reshape_writes, nary_writes]
  repeat' apply And.intro
  all_goals exact singleton_sub_of_mem (by decide)

abbrev W_q6 : List (Ref sig .tc) := [main_v144, main_v145, main_v146, main_v147, main_cst_39, main_v148, main_v149, main_v150, main_v151, main_c_40, main_v152, main_v153, main_v154, main_v155, main_c_41, main_v156, main_v157, main_v158, main_v159, main_c_42, main_v160, main_v161, main_c_43, main_v162, main_v163, main_c_44, main_v164, main_v165, main_v166, main_c_45, main_v167, main_v168, main_c_46, main_v169, main_v170, main_v171, main_c_47, main_v172, main_v173, main_c_48, main_v174, main_v175, main_v176, main_v177, main_v178, main_v179, main_v180, main_v181, main_c_49, main_v182, main_v183, main_c_50, main_call4_v0, main_call4_v1, main_v184, main_v185, main_v186]
set_option maxHeartbeats 4000000 in
theorem hW_q6 : WritesIn W_q6 (q6 : List (HloOp τ sig (Elt F))) := by
  unfold WritesIn
  simp only [q6, List.Forall, nullary_writes, unary_writes, binary_writes, ternary_writes, quaternary_writes, reshape_writes, nary_writes]
  repeat' apply And.intro
  all_goals exact singleton_sub_of_mem (by decide)

abbrev W_q7 : List (Ref sig .tc) := [main_v187, main_v188, main_v189, main_c_51, main_v190, main_v191, main_c_52, main_v192, main_v193, main_v194, main_v195, main_v196, main_v197, main_v198, main_c_53, main_v199, main_v200, main_c_54, main_v201, main_v202, main_v203, main_v204, main_v205, main_v206, main_v207, main_v208]
set_option maxHeartbeats 4000000 in
theorem hW_q7 : WritesIn W_q7 (q7 : List (HloOp τ sig (Elt F))) := by
  unfold WritesIn
  simp only [q7, List.Forall, nullary_writes, unary_writes, binary_writes, ternary_writes, quaternary_writes, reshape_writes, nary_writes]
  repeat' apply And.intro
  all_goals exact singleton_sub_of_mem (by decide)

abbrev W_q8 : List (Ref sig .tc) := [main_v209, main_v210, main_v211, main_v212, main_c_55, main_v213, main_v214, main_v215, main_v216, main_c_56, main_v217, main_v218, main_v219, main_v220, main_c_57, main_v221, main_v222, main_c_58, main_v223, main_v224, main_c_59, main_v225, main_v226, main_v227, main_c_60, main_v228, main_v229, main_c_61, main_v230, main_v231, main_v232, main_c_62, main_v233, main_v234]
set_option maxHeartbeats 4000000 in
theorem hW_q8 : WritesIn W_q8 (q8 : List (HloOp τ sig (Elt F))) := by
  unfold WritesIn
  simp only [q8, List.Forall, nullary_writes, unary_writes, binary_writes, ternary_writes, quaternary_writes, reshape_writes, nary_writes]
  repeat' apply And.intro
  all_goals exact singleton_sub_of_mem (by decide)

abbrev W_q9 : List (Ref sig .tc) := [main_c_63, main_v235, main_v236, main_v237, main_v238, main_v239, main_v240, main_v241, main_v242, main_c_64, main_v243, main_v244, main_c_65, main_call5_v0, main_call5_v1, main_v245, main_v246, main_v247, main_v248, main_v249, main_v250, main_c_66, main_v251, main_v252, main_c_67, main_v253, main_v254, main_v255, main_v256, main_v257, main_v258, main_v259, main_c_68, main_v260, main_v261, main_c_69, main_v262, main_v263, main_v264, main_v265, main_v266, main_v267, main_v268, main_v269]
set_option maxHeartbeats 4000000 in
theorem hW_q9 : WritesIn W_q9 (q9 : List (HloOp τ sig (Elt F))) := by
  unfold WritesIn
  simp only [q9, List.Forall, nullary_writes, unary_writes, binary_writes, ternary_writes, quaternary_writes, reshape_writes, nary_writes]
  repeat' apply And.intro
  all_goals exact singleton_sub_of_mem (by decide)

abbrev W_q10 : List (Ref sig .tc) := [main_v270, main_v271, main_v272, main_v273, main_cst_70, main_v274, main_v275, main_v276, main_v277, main_cst_71, main_v278, main_v279, main_v280, main_v281, main_c_72, main_v282, main_v283, main_v284]
set_option maxHeartbeats 4000000 in
theorem hW_q10 : WritesIn W_q10 (q10 : List (HloOp τ sig (Elt F))) := by
  unfold WritesIn
  simp only [q10, List.Forall, nullary_writes, unary_writes, binary_writes, ternary_writes, quaternary_writes, reshape_writes, nary_writes]
  repeat' apply And.intro
  all_goals exact singleton_sub_of_mem (by decide)

abbrev W_q11 : List (Ref sig .tc) := [main_v285, main_c_73, main_v286, main_v287, main_v288, main_v289, main_c_74, main_v290, main_v291, main_c_75, main_v292, main_v293, main_c_76, main_v294, main_v295, main_v296, main_c_77, main_v297, main_v298, main_c_78, main_v299, main_v300, main_v301, main_c_79, main_v302, main_v303, main_c_80, main_v304, main_v305, main_v306, main_v307, main_v308, main_v309, main_v310, main_v311, main_c_81, main_v312, main_v313, main_c_82, main_call6_v0, main_call6_v1, main_v314, main_v315, main_v316, main_v317, main_v318, main_v319, main_c_83, main_v320, main_v321, main_c_84, main_v322, main_v323, main_v324, main_v325, main_v326, main_v327, main_v328, main_c_85, main_v329, main_v330, main_c_86]
set_option maxHeartbeats 4000000 in
theorem hW_q11 : WritesIn W_q11 (q11 : List (HloOp τ sig (Elt F))) := by
  unfold WritesIn
  simp only [q11, List.Forall, nullary_writes, unary_writes, binary_writes, ternary_writes, quaternary_writes, reshape_writes, nary_writes]
  repeat' apply And.intro
  all_goals exact singleton_sub_of_mem (by decide)

abbrev W_q12 : List (Ref sig .tc) := [main_v331, main_v332, main_v333, main_v334, main_v335, main_v336, main_v337, main_v338]
set_option maxHeartbeats 4000000 in
theorem hW_q12 : WritesIn W_q12 (q12 : List (HloOp τ sig (Elt F))) := by
  unfold WritesIn
  simp only [q12, List.Forall, nullary_writes, unary_writes, binary_writes, ternary_writes, quaternary_writes, reshape_writes, nary_writes]
  repeat' apply And.intro
  all_goals exact singleton_sub_of_mem (by decide)

abbrev W_q13 : List (Ref sig .tc) := [main_v339, main_v340, main_v341, main_v342, main_c_87, main_v343, main_v344, main_v345, main_v346, main_c_88, main_v347, main_v348, main_v349, main_v350, main_c_89, main_v351, main_v352, main_c_90, main_v353, main_v354, main_c_91, main_v355, main_v356, main_v357, main_c_92, main_v358, main_v359, main_c_93, main_v360, main_v361, main_v362, main_c_94, main_v363, main_v364, main_c_95, main_v365, main_v366, main_v367, main_v368, main_v369, main_v370, main_v371, main_v372, main_c_96, main_v373, main_v374, main_c_97, main_call7_v0, main_call7_v1, main_v375, main_v376, main_v377, main_v378, main_v379]
set_option maxHeartbeats 4000000 in
theorem hW_q13 : WritesIn W_q13 (q13 : List (HloOp τ sig (Elt F))) := by
  unfold WritesIn
  simp only [q13, List.Forall, nullary_writes, unary_writes, binary_writes, ternary_writes, quaternary_writes, reshape_writes, nary_writes]
  repeat' apply And.intro
  all_goals exact singleton_sub_of_mem (by decide)

abbrev W_q14 : List (Ref sig .tc) := [main_v380, main_c_98, main_v381, main_v382, main_c_99, main_v383, main_v384, main_v385, main_v386, main_v387, main_v388, main_v389, main_c_100, main_v390, main_v391, main_c_101, main_v392, main_v393, main_v394, main_v395, main_v396, main_v397, main_v398, main_v399]
set_option maxHeartbeats 4000000 in
theorem hW_q14 : WritesIn W_q14 (q14 : List (HloOp τ sig (Elt F))) := by
  unfold WritesIn
  simp only [q14, List.Forall, nullary_writes, unary_writes, binary_writes, ternary_writes, quaternary_writes, reshape_writes, nary_writes]
  repeat' apply And.intro
  all_goals exact singleton_sub_of_mem (by decide)

abbrev W_q15 : List (Ref sig .tc) := [main_v400, main_v401, main_v402, main_v403, main_cst_102, main_v404, main_v405, main_v406, main_v407, main_c_103, main_v408, main_v409, main_v410, main_v411, main_c_104, main_v412, main_v413, main_v414, main_v415, main_c_105, main_v416, main_v417, main_c_106, main_v418, main_v419, main_c_107, main_v420, main_v421, main_v422, main_c_108, main_v423, main_v424, main_c_109, main_v425, main_v426, main_v427]
set_option maxHeartbeats 4000000 in
theorem hW_q15 : WritesIn W_q15 (q15 : List (HloOp τ sig (Elt F))) := by
  unfold WritesIn
  simp only [q15, List.Forall, nullary_writes, unary_writes, binary_writes, ternary_writes, quaternary_writes, reshape_writes, nary_writes]
  repeat' apply And.intro
  all_goals exact singleton_sub_of_mem (by decide)

abbrev W_q16 : List (Ref sig .tc) := [main_c_110, main_v428, main_v429, main_c_111, main_v430, main_v431, main_v432, main_v433, main_v434, main_v435, main_v436, main_v437, main_c_112, main_v438, main_v439, main_c_113, main_call8_v0, main_call8_v1, main_v440, main_v441, main_v442, main_v443, main_v444, main_v445, main_c_114, main_v446, main_v447, main_c_115, main_v448, main_v449, main_v450, main_v451, main_v452, main_v453, main_v454, main_c_116, main_v455, main_v456, main_c_117, main_v457, main_v458, main_v459, main_v460, main_v461, main_v462, main_v463, main_v464]
set_option maxHeartbeats 4000000 in
theorem hW_q16 : WritesIn W_q16 (q16 : List (HloOp τ sig (Elt F))) := by
  unfold WritesIn
  simp only [q16, List.Forall, nullary_writes, unary_writes, binary_writes, ternary_writes, quaternary_writes, reshape_writes, nary_writes]
  repeat' apply And.intro
  all_goals exact singleton_sub_of_mem (by decide)

abbrev W_q17 : List (Ref sig .tc) := [main_v465, main_v466, main_v467, main_v468, main_c_118, main_v469, main_v470, main_v471, main_v472, main_c_119, main_v473, main_v474, main_v475, main_v476, main_c_120]
set_option maxHeartbeats 4000000 in
theorem hW_q17 : WritesIn W_q17 (q17 : List (HloOp τ sig (Elt F))) := by
  unfold WritesIn
  simp only [q17, List.Forall, nullary_writes, unary_writes, binary_writes, ternary_writes, quaternary_writes, reshape_writes, nary_writes]
  repeat' apply And.intro
  all_goals exact singleton_sub_of_mem (by decide)

abbrev W_q18 : List (Ref sig .tc) := [main_v477, main_v478, main_c_121, main_v479, main_v480, main_c_122, main_v481, main_v482, main_v483, main_c_123, main_v484, main_v485, main_c_124, main_v486, main_v487, main_v488, main_c_125, main_v489, main_v490, main_c_126, main_v491, main_v492, main_v493, main_v494, main_v495, main_v496, main_v497, main_v498, main_c_127, main_v499, main_v500, main_c_128, main_call9_v0, main_call9_v1, main_v501, main_v502, main_v503, main_v504, main_v505, main_v506, main_c_129, main_v507, main_v508, main_c_130, main_v509, main_v510, main_v511, main_v512, main_v513, main_v514, main_v515, main_c_131, main_v516, main_v517, main_c_132, main_v518, main_v519, main_v520, main_v521, main_v522, main_v523, main_v524]
set_option maxHeartbeats 4000000 in
theorem hW_q18 : WritesIn W_q18 (q18 : List (HloOp τ sig (Elt F))) := by
  unfold WritesIn
  simp only [q18, List.Forall, nullary_writes, unary_writes, binary_writes, ternary_writes, quaternary_writes, reshape_writes, nary_writes]
  repeat' apply And.intro
  all_goals exact singleton_sub_of_mem (by decide)

abbrev W_q19 : List (Ref sig .tc) := [main_v525]
set_option maxHeartbeats 4000000 in
theorem hW_q19 : WritesIn W_q19 (q19 : List (HloOp τ sig (Elt F))) := by
  unfold WritesIn
  simp only [q19, List.Forall, nullary_writes, unary_writes, binary_writes, ternary_writes, quaternary_writes, reshape_writes, nary_writes]
  repeat' apply And.intro
  all_goals exact singleton_sub_of_mem (by decide)

end Cert.ReferenceIdeal.Hand

end
-- ==== Proof.RHostC.lean ====
import proofs.«415466_j54125177864604_3_alg».proof.Proof.RefRunW
import proofs.«415466_j54125177864604_3_alg».proof.Proof.RWrites
import proofs.«415466_j54125177864604_3_alg».proof.Proof.LibChunk

set_option maxRecDepth 65536

noncomputable section

namespace Cert.ReferenceIdeal.Hand

open Cert.ReferenceIdeal Cert.ReferenceIdeal.Gen Cert.ReferenceIdeal.RunW
open Idealize.ShloMosaic Idealize.ShloMosaic.TcCoe Idealize.ShloMosaic.StableHlo Idealize.SL.Sem

variable {F : FTy → Type} [FloatOps F] (m : (ℓ : Loc nD τ sig) → Buf (Elt F) ℓ)

/-- Core c's buffers after the reference's 687 host operations, from the launch contents. -/
abbrev G (c : Dev nD) (b : Ref sig .tc) : Buf (Elt F) ((c.tc : Thread nD τ).loc b) :=
  StableHlo.after (Cert.ReferenceIdeal.RunW.ops (F := F)) (StableHlo.launchContents m c) (Proc.devRef .tc b)

/-- Chunk 0 of the operations. -/
abbrev RB0 : List (HloOp τ sig (Elt F)) := q0 ++ (q1 ++ (q2))
abbrev WRB0 : List (Ref sig .tc) := W_q0 ++ (W_q1 ++ (W_q2))
theorem hWRB0 : WritesIn WRB0 (RB0 (F := F)) := (hW_q0).append ((hW_q1).append (hW_q2))
/-- Chunk 1 of the operations. -/
abbrev RB1 : List (HloOp τ sig (Elt F)) := q3 ++ (q4 ++ (q5))
abbrev WRB1 : List (Ref sig .tc) := W_q3 ++ (W_q4 ++ (W_q5))
theorem hWRB1 : WritesIn WRB1 (RB1 (F := F)) := (hW_q3).append ((hW_q4).append (hW_q5))
/-- Chunk 2 of the operations. -/
abbrev RB2 : List (HloOp τ sig (Elt F)) := q6 ++ (q7)
abbrev WRB2 : List (Ref sig .tc) := W_q6 ++ (W_q7)
theorem hWRB2 : WritesIn WRB2 (RB2 (F := F)) := (hW_q6).append (hW_q7)
/-- Chunk 3 of the operations. -/
abbrev RB3 : List (HloOp τ sig (Elt F)) := q8 ++ (q9)
abbrev WRB3 : List (Ref sig .tc) := W_q8 ++ (W_q9)
theorem hWRB3 : WritesIn WRB3 (RB3 (F := F)) := (hW_q8).append (hW_q9)
/-- Chunk 4 of the operations. -/
abbrev RB4 : List (HloOp τ sig (Elt F)) := q10 ++ (q11 ++ (q12))
abbrev WRB4 : List (Ref sig .tc) := W_q10 ++ (W_q11 ++ (W_q12))
theorem hWRB4 : WritesIn WRB4 (RB4 (F := F)) := (hW_q10).append ((hW_q11).append (hW_q12))
/-- Chunk 5 of the operations. -/
abbrev RB5 : List (HloOp τ sig (Elt F)) := q13 ++ (q14)
abbrev WRB5 : List (Ref sig .tc) := W_q13 ++ (W_q14)
theorem hWRB5 : WritesIn WRB5 (RB5 (F := F)) := (hW_q13).append (hW_q14)
/-- Chunk 6 of the operations. -/
abbrev RB6 : List (HloOp τ sig (Elt F)) := q15 ++ (q16)
abbrev WRB6 : List (Ref sig .tc) := W_q15 ++ (W_q16)
theorem hWRB6 : WritesIn WRB6 (RB6 (F := F)) := (hW_q15).append (hW_q16)
/-- Chunk 7 of the operations. -/
abbrev RB7 : List (HloOp τ sig (Elt F)) := q17 ++ (q18 ++ (q19))
abbrev WRB7 : List (Ref sig .tc) := W_q17 ++ (W_q18 ++ (W_q19))
theorem hWRB7 : WritesIn WRB7 (RB7 (F := F)) := (hW_q17).append ((hW_q18).append (hW_q19))

abbrev rpre0 : List (HloOp τ sig (Elt F)) := []
abbrev rpost0 : List (HloOp τ sig (Elt F)) := RB1 ++ (RB2 ++ (RB3 ++ (RB4 ++ (RB5 ++ (RB6 ++ (RB7))))))
abbrev Wrpost0 : List (Ref sig .tc) := WRB1 ++ (WRB2 ++ (WRB3 ++ (WRB4 ++ (WRB5 ++ (WRB6 ++ (WRB7))))))
theorem hWrpost0 : WritesIn Wrpost0 (rpost0 (F := F)) := (hWRB1).append ((hWRB2).append ((hWRB3).append ((hWRB4).append ((hWRB5).append ((hWRB6).append (hWRB7))))))
theorem rsplit0 : Cert.ReferenceIdeal.RunW.ops (F := F) = rpre0 ++ (RB0 ++ rpost0) := by
  simp only [Cert.ReferenceIdeal.RunW.ops, rpre0, rpost0, RB0, RB1, RB2, RB3, RB4, RB5, RB6, RB7, List.append_assoc, List.append_nil, List.nil_append]
/-- The buffers as chunk 0 finds them. -/
abbrev Gpre0 (c : Dev nD) : Valuation τ sig (Elt F) := StableHlo.after (rpre0 (F := F)) (StableHlo.launchContents m c)
theorem G_at0 (c : Dev nD) {r : Ref sig .tc} (hr : r ∉ Wrpost0) :
    G m c r = StableHlo.after (RB0 (F := F)) (Gpre0 m c) (Proc.devRef .tc r) := by
  show StableHlo.after (Cert.ReferenceIdeal.RunW.ops) _ _ = _
  rw [rsplit0]
  exact after_mid _ _ _ hWrpost0 hr _
theorem G_keep0 (c : Dev nD) {r : Ref sig .tc} (hr : r ∉ WRB0 ++ Wrpost0) :
    Gpre0 m c (Proc.devRef .tc r) = G m c r := by
  show _ = StableHlo.after (Cert.ReferenceIdeal.RunW.ops) _ _
  rw [rsplit0]
  exact (after_pre _ _ (hWRB0.append hWrpost0) hr _).symm

abbrev rpre1 : List (HloOp τ sig (Elt F)) := RB0
abbrev rpost1 : List (HloOp τ sig (Elt F)) := RB2 ++ (RB3 ++ (RB4 ++ (RB5 ++ (RB6 ++ (RB7)))))
abbrev Wrpost1 : List (Ref sig .tc) := WRB2 ++ (WRB3 ++ (WRB4 ++ (WRB5 ++ (WRB6 ++ (WRB7)))))
theorem hWrpost1 : WritesIn Wrpost1 (rpost1 (F := F)) := (hWRB2).append ((hWRB3).append ((hWRB4).append ((hWRB5).append ((hWRB6).append (hWRB7)))))
theorem rsplit1 : Cert.ReferenceIdeal.RunW.ops (F := F) = rpre1 ++ (RB1 ++ rpost1) := by
  simp only [Cert.ReferenceIdeal.RunW.ops, rpre1, rpost1, RB0, RB1, RB2, RB3, RB4, RB5, RB6, RB7, List.append_assoc, List.append_nil, List.nil_append]
/-- The buffers as chunk 1 finds them. -/
abbrev Gpre1 (c : Dev nD) : Valuation τ sig (Elt F) := StableHlo.after (rpre1 (F := F)) (StableHlo.launchContents m c)
theorem G_at1 (c : Dev nD) {r : Ref sig .tc} (hr : r ∉ Wrpost1) :
    G m c r = StableHlo.after (RB1 (F := F)) (Gpre1 m c) (Proc.devRef .tc r) := by
  show StableHlo.after (Cert.ReferenceIdeal.RunW.ops) _ _ = _
  rw [rsplit1]
  exact after_mid _ _ _ hWrpost1 hr _
theorem G_keep1 (c : Dev nD) {r : Ref sig .tc} (hr : r ∉ WRB1 ++ Wrpost1) :
    Gpre1 m c (Proc.devRef .tc r) = G m c r := by
  show _ = StableHlo.after (Cert.ReferenceIdeal.RunW.ops) _ _
  rw [rsplit1]
  exact (after_pre _ _ (hWRB1.append hWrpost1) hr _).symm

abbrev rpre2 : List (HloOp τ sig (Elt F)) := RB0 ++ (RB1)
abbrev rpost2 : List (HloOp τ sig (Elt F)) := RB3 ++ (RB4 ++ (RB5 ++ (RB6 ++ (RB7))))
abbrev Wrpost2 : List (Ref sig .tc) := WRB3 ++ (WRB4 ++ (WRB5 ++ (WRB6 ++ (WRB7))))
theorem hWrpost2 : WritesIn Wrpost2 (rpost2 (F := F)) := (hWRB3).append ((hWRB4).append ((hWRB5).append ((hWRB6).append (hWRB7))))
theorem rsplit2 : Cert.ReferenceIdeal.RunW.ops (F := F) = rpre2 ++ (RB2 ++ rpost2) := by
  simp only [Cert.ReferenceIdeal.RunW.ops, rpre2, rpost2, RB0, RB1, RB2, RB3, RB4, RB5, RB6, RB7, List.append_assoc, List.append_nil, List.nil_append]
/-- The buffers as chunk 2 finds them. -/
abbrev Gpre2 (c : Dev nD) : Valuation τ sig (Elt F) := StableHlo.after (rpre2 (F := F)) (StableHlo.launchContents m c)
theorem G_at2 (c : Dev nD) {r : Ref sig .tc} (hr : r ∉ Wrpost2) :
    G m c r = StableHlo.after (RB2 (F := F)) (Gpre2 m c) (Proc.devRef .tc r) := by
  show StableHlo.after (Cert.ReferenceIdeal.RunW.ops) _ _ = _
  rw [rsplit2]
  exact after_mid _ _ _ hWrpost2 hr _
theorem G_keep2 (c : Dev nD) {r : Ref sig .tc} (hr : r ∉ WRB2 ++ Wrpost2) :
    Gpre2 m c (Proc.devRef .tc r) = G m c r := by
  show _ = StableHlo.after (Cert.ReferenceIdeal.RunW.ops) _ _
  rw [rsplit2]
  exact (after_pre _ _ (hWRB2.append hWrpost2) hr _).symm

abbrev rpre3 : List (HloOp τ sig (Elt F)) := RB0 ++ (RB1 ++ (RB2))
abbrev rpost3 : List (HloOp τ sig (Elt F)) := RB4 ++ (RB5 ++ (RB6 ++ (RB7)))
abbrev Wrpost3 : List (Ref sig .tc) := WRB4 ++ (WRB5 ++ (WRB6 ++ (WRB7)))
theorem hWrpost3 : WritesIn Wrpost3 (rpost3 (F := F)) := (hWRB4).append ((hWRB5).append ((hWRB6).append (hWRB7)))
theorem rsplit3 : Cert.ReferenceIdeal.RunW.ops (F := F) = rpre3 ++ (RB3 ++ rpost3) := by
  simp only [Cert.ReferenceIdeal.RunW.ops, rpre3, rpost3, RB0, RB1, RB2, RB3, RB4, RB5, RB6, RB7, List.append_assoc, List.append_nil, List.nil_append]
/-- The buffers as chunk 3 finds them. -/
abbrev Gpre3 (c : Dev nD) : Valuation τ sig (Elt F) := StableHlo.after (rpre3 (F := F)) (StableHlo.launchContents m c)
theorem G_at3 (c : Dev nD) {r : Ref sig .tc} (hr : r ∉ Wrpost3) :
    G m c r = StableHlo.after (RB3 (F := F)) (Gpre3 m c) (Proc.devRef .tc r) := by
  show StableHlo.after (Cert.ReferenceIdeal.RunW.ops) _ _ = _
  rw [rsplit3]
  exact after_mid _ _ _ hWrpost3 hr _
theorem G_keep3 (c : Dev nD) {r : Ref sig .tc} (hr : r ∉ WRB3 ++ Wrpost3) :
    Gpre3 m c (Proc.devRef .tc r) = G m c r := by
  show _ = StableHlo.after (Cert.ReferenceIdeal.RunW.ops) _ _
  rw [rsplit3]
  exact (after_pre _ _ (hWRB3.append hWrpost3) hr _).symm

abbrev rpre4 : List (HloOp τ sig (Elt F)) := RB0 ++ (RB1 ++ (RB2 ++ (RB3)))
abbrev rpost4 : List (HloOp τ sig (Elt F)) := RB5 ++ (RB6 ++ (RB7))
abbrev Wrpost4 : List (Ref sig .tc) := WRB5 ++ (WRB6 ++ (WRB7))
theorem hWrpost4 : WritesIn Wrpost4 (rpost4 (F := F)) := (hWRB5).append ((hWRB6).append (hWRB7))
theorem rsplit4 : Cert.ReferenceIdeal.RunW.ops (F := F) = rpre4 ++ (RB4 ++ rpost4) := by
  simp only [Cert.ReferenceIdeal.RunW.ops, rpre4, rpost4, RB0, RB1, RB2, RB3, RB4, RB5, RB6, RB7, List.append_assoc, List.append_nil, List.nil_append]
/-- The buffers as chunk 4 finds them. -/
abbrev Gpre4 (c : Dev nD) : Valuation τ sig (Elt F) := StableHlo.after (rpre4 (F := F)) (StableHlo.launchContents m c)
theorem G_at4 (c : Dev nD) {r : Ref sig .tc} (hr : r ∉ Wrpost4) :
    G m c r = StableHlo.after (RB4 (F := F)) (Gpre4 m c) (Proc.devRef .tc r) := by
  show StableHlo.after (Cert.ReferenceIdeal.RunW.ops) _ _ = _
  rw [rsplit4]
  exact after_mid _ _ _ hWrpost4 hr _
theorem G_keep4 (c : Dev nD) {r : Ref sig .tc} (hr : r ∉ WRB4 ++ Wrpost4) :
    Gpre4 m c (Proc.devRef .tc r) = G m c r := by
  show _ = StableHlo.after (Cert.ReferenceIdeal.RunW.ops) _ _
  rw [rsplit4]
  exact (after_pre _ _ (hWRB4.append hWrpost4) hr _).symm

abbrev rpre5 : List (HloOp τ sig (Elt F)) := RB0 ++ (RB1 ++ (RB2 ++ (RB3 ++ (RB4))))
abbrev rpost5 : List (HloOp τ sig (Elt F)) := RB6 ++ (RB7)
abbrev Wrpost5 : List (Ref sig .tc) := WRB6 ++ (WRB7)
theorem hWrpost5 : WritesIn Wrpost5 (rpost5 (F := F)) := (hWRB6).append (hWRB7)
theorem rsplit5 : Cert.ReferenceIdeal.RunW.ops (F := F) = rpre5 ++ (RB5 ++ rpost5) := by
  simp only [Cert.ReferenceIdeal.RunW.ops, rpre5, rpost5, RB0, RB1, RB2, RB3, RB4, RB5, RB6, RB7, List.append_assoc, List.append_nil, List.nil_append]
/-- The buffers as chunk 5 finds them. -/
abbrev Gpre5 (c : Dev nD) : Valuation τ sig (Elt F) := StableHlo.after (rpre5 (F := F)) (StableHlo.launchContents m c)
theorem G_at5 (c : Dev nD) {r : Ref sig .tc} (hr : r ∉ Wrpost5) :
    G m c r = StableHlo.after (RB5 (F := F)) (Gpre5 m c) (Proc.devRef .tc r) := by
  show StableHlo.after (Cert.ReferenceIdeal.RunW.ops) _ _ = _
  rw [rsplit5]
  exact after_mid _ _ _ hWrpost5 hr _
theorem G_keep5 (c : Dev nD) {r : Ref sig .tc} (hr : r ∉ WRB5 ++ Wrpost5) :
    Gpre5 m c (Proc.devRef .tc r) = G m c r := by
  show _ = StableHlo.after (Cert.ReferenceIdeal.RunW.ops) _ _
  rw [rsplit5]
  exact (after_pre _ _ (hWRB5.append hWrpost5) hr _).symm

abbrev rpre6 : List (HloOp τ sig (Elt F)) := RB0 ++ (RB1 ++ (RB2 ++ (RB3 ++ (RB4 ++ (RB5)))))
abbrev rpost6 : List (HloOp τ sig (Elt F)) := RB7
abbrev Wrpost6 : List (Ref sig .tc) := WRB7
theorem hWrpost6 : WritesIn Wrpost6 (rpost6 (F := F)) := hWRB7
theorem rsplit6 : Cert.ReferenceIdeal.RunW.ops (F := F) = rpre6 ++ (RB6 ++ rpost6) := by
  simp only [Cert.ReferenceIdeal.RunW.ops, rpre6, rpost6, RB0, RB1, RB2, RB3, RB4, RB5, RB6, RB7, List.append_assoc, List.append_nil, List.nil_append]
/-- The buffers as chunk 6 finds them. -/
abbrev Gpre6 (c : Dev nD) : Valuation τ sig (Elt F) := StableHlo.after (rpre6 (F := F)) (StableHlo.launchContents m c)
theorem G_at6 (c : Dev nD) {r : Ref sig .tc} (hr : r ∉ Wrpost6) :
    G m c r = StableHlo.after (RB6 (F := F)) (Gpre6 m c) (Proc.devRef .tc r) := by
  show StableHlo.after (Cert.ReferenceIdeal.RunW.ops) _ _ = _
  rw [rsplit6]
  exact after_mid _ _ _ hWrpost6 hr _
theorem G_keep6 (c : Dev nD) {r : Ref sig .tc} (hr : r ∉ WRB6 ++ Wrpost6) :
    Gpre6 m c (Proc.devRef .tc r) = G m c r := by
  show _ = StableHlo.after (Cert.ReferenceIdeal.RunW.ops) _ _
  rw [rsplit6]
  exact (after_pre _ _ (hWRB6.append hWrpost6) hr _).symm

abbrev rpre7 : List (HloOp τ sig (Elt F)) := RB0 ++ (RB1 ++ (RB2 ++ (RB3 ++ (RB4 ++ (RB5 ++ (RB6))))))
abbrev rpost7 : List (HloOp τ sig (Elt F)) := []
abbrev Wrpost7 : List (Ref sig .tc) := []
theorem hWrpost7 : WritesIn Wrpost7 (rpost7 (F := F)) := WritesIn.nil
theorem rsplit7 : Cert.ReferenceIdeal.RunW.ops (F := F) = rpre7 ++ (RB7 ++ rpost7) := by
  simp only [Cert.ReferenceIdeal.RunW.ops, rpre7, rpost7, RB0, RB1, RB2, RB3, RB4, RB5, RB6, RB7, List.append_assoc, List.append_nil, List.nil_append]
/-- The buffers as chunk 7 finds them. -/
abbrev Gpre7 (c : Dev nD) : Valuation τ sig (Elt F) := StableHlo.after (rpre7 (F := F)) (StableHlo.launchContents m c)
theorem G_at7 (c : Dev nD) {r : Ref sig .tc} (hr : r ∉ Wrpost7) :
    G m c r = StableHlo.after (RB7 (F := F)) (Gpre7 m c) (Proc.devRef .tc r) := by
  show StableHlo.after (Cert.ReferenceIdeal.RunW.ops) _ _ = _
  rw [rsplit7]
  exact after_mid _ _ _ hWrpost7 hr _
theorem G_keep7 (c : Dev nD) {r : Ref sig .tc} (hr : r ∉ WRB7 ++ Wrpost7) :
    Gpre7 m c (Proc.devRef .tc r) = G m c r := by
  show _ = StableHlo.after (Cert.ReferenceIdeal.RunW.ops) _ _
  rw [rsplit7]
  exact (after_pre _ _ (hWRB7.append hWrpost7) hr _).symm

/-- No operation writes an argument: after the whole list it is as launched. -/
theorem G_arg (c : Dev nD) {r : Ref sig .tc} (hr : r ∉ WRB0 ++ Wrpost0) : G m c r = m ((c.tc : Thread nD τ).loc r) := by
  rw [← G_keep0 m c hr]
  rfl

end Cert.ReferenceIdeal.Hand

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.Spec.lean ====
/-
  The pieces of the two programs that differ, as pure functions of their operands, and what they read at an index.

  Per corner of the trilinear stencil both programs hold a weight column `wtb : [2000000, 1]` and a row index `s : [2000000]`
  (a link, or 0 where the link is negative). The kernel joins the density column and the 27 harmonics columns into one
  [1600000, 28] table, takes row `s` of it — the row index wrapped by the table's extent if negative, the row clamped into the
  table, and the whole row replaced by the fill pattern where the wrapped index is out of range — and multiplies by the weight;
  the reference wraps the same way and gathers the density table and the harmonics table apart, each times the weight. Where
  `0 ≤ s n < 1600000` the wrap is the identity, the range test holds, and lane 0 of the joined row is the density entry and lane
  `j + 1` the harmonics entry `j`: the kernel's product at `(n, 0)` is the reference's density product at `(n, 0)`, and at
  `(n, j + 1)` the reference's harmonics product at `(n, j)`.
-/
import proofs.«415466_j54125177864604_3_alg».proof.KernelIdeal
import proofs.«415466_j54125177864604_3_alg».proof.ReferenceIdeal
import proofs.«415466_j54125177864604_3_alg».proof.Proof.LibRowIndex
import Idealize.ShloMosaic.PureOps.Ideal
import Idealize.ShloMosaic.Lib.StableHlo.Predicate
import Idealize.ShloMosaic.Lib.ValueIdx
import Idealize.ShloMosaic.Lib.Pipeline.Value

noncomputable section

open Idealize.ShloMosaic

/-! ## The kernel's side: join, take, weigh -/

namespace Cert.SpecK

open Cert.KernelIdeal

variable {F : FTy → Type} [FloatOps F] [Cert.KernelIdeal.Facts]
open Cert.KernelIdeal.Facts₀ Cert.KernelIdeal.Facts

/-- The density column and the harmonics columns joined along the lane axis. -/
def comb (d : FVec F S1600000x1 .f32) (sh : FVec F S1600000x27 .f32) : FVec F S1600000x28 .f32 :=
  concatenate S1600000x28 1 [⟨S1600000x1, d⟩, ⟨S1600000x27, sh⟩] concatenates_S1600000x1_S1600000x27_S1600000x28_d1

/-- A row index wrapped by the table's extent where it is negative. -/
def wrapCap (s : IVec S2000000 32) : IVec S2000000 32 :=
  select (cmpi .slt s (broadcastInDim S2000000 ![] bcast_S_S2000000 (constantI S_ 32 0#32)))
    (addi s (broadcastInDim S2000000 ![] bcast_S_S2000000 (constantI S_ 32 1600000#32))) s

/-- The wrapped row indices as a [2000000, 1] column. -/
def rowCol (s : IVec S2000000 32) : IVec S2000000x1 32 :=
  broadcastInDim S2000000x1 ![0] bcast_S2000000_S2000000x1_0 (wrapCap s)

/-- Whether each wrapped row index lies in the table. -/
def inRange (s : IVec S2000000 32) : IVec S2000000 1 :=
  (fun x v => Host.reduce IntOp.andi x v reducesTo_S2000000x1_S2000000_d1 h_S_)
    (andi (cmpi .sge (rowCol s) (broadcastInDim S2000000x1 ![] bcast_S_S2000000x1 (constantI S_ 32 0#32)))
      (cmpi .sle (rowCol s) (broadcastInDim S2000000x1 ![0, 1] bcast_S1x1_S2000000x1_0_1
        (broadcastInDim S1x1 ![1] bcast_S1_S1x1_1 (constantI S1 32 1599999#32)))))
    (constantI S_ 1 1#1)

/-- Rows `s` of the joined table, a row whose wrapped index is out of range replaced by the fill pattern. -/
def takeRows (cb : FVec F S1600000x28 .f32) (s : IVec S2000000 32) : FVec F S2000000x28 .f32 :=
  select (broadcastInDim S2000000x28 ![0] bcast_S2000000_S2000000x28_0 (inRange s))
    ((fun x i => Host.gather gather_S1600000x28_S2000000x1_S2000000x28_1_0_n_n_0_1_128 x i) cb (rowCol s))
    (broadcastInDim S2000000x28 ![] bcast_S_S2000000x28 (constant S_ .f32 0x7FC00000#32))

/-- One corner's weighted rows: the weight column across the 28 lanes, times the taken rows. -/
def corner (wtb : FVec F S2000000x1 .f32) (s : IVec S2000000 32) (cb : FVec F S1600000x28 .f32) : FVec F S2000000x28 .f32 :=
  mulf (broadcastInDim S2000000x28 ![0, 1] bcast_S2000000x1_S2000000x28_0_1 wtb) (takeRows cb s)

end Cert.SpecK

/-! ## The reference's side: wrap, gather each table, weigh -/

namespace Cert.SpecR

open Cert.ReferenceIdeal

variable {F : FTy → Type} [FloatOps F] [Cert.ReferenceIdeal.Facts]
open Cert.ReferenceIdeal.Facts₀ Cert.ReferenceIdeal.Facts

/-- A link, or 0 where the link is negative. -/
def safeOf (idx : IVec S2000000 32) : IVec S2000000 32 :=
  select (cmpi .sge idx (broadcastInDim S2000000 ![] bcast_S_S2000000 (constantI S_ 32 0#32))) idx
    (broadcastInDim S2000000 ![] bcast_S_S2000000 (id (constantI S_ 32 0#32)))

/-- A row index wrapped by the table's extent where it is negative, as a [2000000, 1] column. -/
def rowCol (s : IVec S2000000 32) : IVec S2000000x1 32 :=
  broadcastInDim S2000000x1 ![0] bcast_S2000000_S2000000x1_0
    (select (cmpi .slt s (broadcastInDim S2000000 ![] bcast_S_S2000000 (constantI S_ 32 0#32)))
      (addi s (broadcastInDim S2000000 ![] bcast_S_S2000000 (constantI S_ 32 1600000#32))) s)

/-- One corner's weighted density: the weight column times the gathered density rows. -/
def cornerD (wtb : FVec F S2000000x1 .f32) (s : IVec S2000000 32) (d : FVec F S1600000x1 .f32) : FVec F S2000000x1 .f32 :=
  mulf wtb ((fun x i => Host.gather gather_S1600000x1_S2000000x1_S2000000x1_1_0_n_n_0_1_11 x i) d (rowCol s))

/-- One corner's weighted harmonics: the weight column across the 27 lanes, times the gathered harmonics rows. -/
def cornerSh (wtb : FVec F S2000000x1 .f32) (s : IVec S2000000 32) (sh : FVec F S1600000x27 .f32) : FVec F S2000000x27 .f32 :=
  mulf (broadcastInDim S2000000x27 ![0, 1] bcast_S2000000x1_S2000000x27_0_1 wtb)
    ((fun x i => Host.gather gather_S1600000x27_S2000000x1_S2000000x27_1_0_n_n_0_1_127 x i) sh (rowCol s))

end Cert.SpecR

/-! ## At an index, where the row index is in range -/

namespace Cert.Spec

open Idealize.ShloMosaic.StableHlo.Predicate

variable [Cert.KernelIdeal.Facts] [Cert.ReferenceIdeal.Facts]

/-! ### Words -/

/-- A word whose signed reading is not negative is not below zero, so the wrap leaves it as it is. -/
private theorem wrap_word (x c : BitVec 32) (h0 : 0 ≤ x.toInt) :
    Scalar.select (IntOp.cmpi .slt x 0#32) (IntOp.addi x c) x = x := by
  have hb : x.slt 0#32 = false := by
    simp only [BitVec.slt, BitVec.toInt_zero, decide_eq_false_iff_not, not_lt]; exact h0
  have hc : IntOp.cmpi .slt x 0#32 = 0#1 := by
    show BitVec.ofBool (x.slt 0#32) = 0#1
    rw [hb]; rfl
  rw [hc]; exact ValueIdx.select_zero _ _

/-- A word whose signed reading lies in `[0, 1600000)` passes both bounds of the range test. -/
private theorem range_word (x : BitVec 32) (h0 : 0 ≤ x.toInt) (h1 : x.toInt < 1600000) :
    IntOp.andi (IntOp.cmpi .sge x 0#32) (IntOp.cmpi .sle x 1599999#32) = 1#1 := by
  have ha : IntOp.cmpi .sge x 0#32 = 1#1 := by
    show BitVec.ofBool ((0#32).sle x) = 1#1
    rw [ofBool_eq_one_iff]; simp only [BitVec.sle, BitVec.toInt_zero, decide_eq_true_eq]; exact h0
  have hb : IntOp.cmpi .sle x 1599999#32 = 1#1 := by
    show BitVec.ofBool (x.sle 1599999#32) = 1#1
    rw [ofBool_eq_one_iff]; simp only [BitVec.sle, decide_eq_true_eq]
    rw [toInt_ofNat_small 1599999 (by norm_num)]; omega
  rw [ha, hb]; rfl

/-- A fold of "and" from 1 over ones is 1. -/
private theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons.2 (Or.inr hi)))]; rfl

/-- A reduce by "and" from 1 along the unit second axis of an [N, 1] column is 1 at `n` when the column is 1 at row `n`. -/
private theorem reduce_andi_col {N : Nat} (h : (⟨2, ![N, 1]⟩ : Shape).ReducesTo [1] ⟨1, ![N]⟩) {u : Shape} (hu : 0 < u.numel)
    (x : IVec ⟨2, ![N, 1]⟩ 1) (init : u.Idx → BitVec 1) (hinit : init (Shape.Idx.first hu) = 1#1) (n : Fin N)
    (hx : x (ixP n) = 1#1) : Host.reduce IntOp.andi x init h hu (ValueIdx.ix1 n) = 1#1 := by
  classical
  rw [Host.reduce_eq_fold, hinit]
  refine fold_andi_one _ _ (fun i hi => ?_)
  have hd := (Finset.mem_filter.1 hi).2
  have hv : (h.drop i 0 : Nat) = i 0 := Shape.ReducesTo.drop_apply_val h i 0
  rw [hd] at hv
  have ei : i = ixP n := by
    funext b
    match b with
    | ⟨0, _⟩ => exact Fin.ext hv.symm
    | ⟨1, _⟩ => exact Fin.ext (Nat.lt_one_iff.1 (i 1).isLt)
  rw [ei]; exact hx

/-- A vector laid along the first axis of an [N, M] rectangle reads, at (p, q), the vector at `p`. -/
private theorem bcast_row_apply {α : Type} {N M : Nat} (h : (⟨1, ![N]⟩ : Shape).BroadcastsInDim ⟨2, ![N, M]⟩ ![0])
    (v : (⟨1, ![N]⟩ : Shape).Idx → α) (p : Fin N) (q : Fin M) :
    broadcastInDim ⟨2, ![N, M]⟩ ![0] h v (ij p q) = v (ValueIdx.ix1 p) := by
  simp only [broadcastInDim]
  congr 1
  funext a
  match a with
  | ⟨0, _⟩ =>
    apply Fin.ext
    have hp := p.isLt
    split
    · next h1 => change N = 1 at h1; show (0 : Nat) = p.val; omega
    · rfl

/-- A row gather read at (e, j) where the row index, read signed, lies in the table: that row at column `j`. -/
private theorem gather_row_in {α : Type} {N C m : Nat} (g : GatherDims ⟨2, ![N, C]⟩ ⟨2, ![m, 1]⟩ ⟨2, ![m, C]⟩)
    (hoff : g.offsetDims = [1]) (hcoll : g.collapsedSliceDims = [0]) (hob : g.operandBatchingDims = [])
    (hsim : g.startIndexMap = [0]) (hivd : g.indexVectorDim = 1)
    (x : (⟨2, ![N, C]⟩ : Shape).Idx → α) (idx : IVec ⟨2, ![m, 1]⟩ 32) (e : Fin m) (j : Fin C) (r : BitVec 32)
    (hidx : idx (ixP e) = r) (hr : r.toInt.toNat < N) :
    Host.gather g x idx (ij e j) = x (ij ⟨r.toInt.toNat, hr⟩ j) := by
  rw [Idealize.ShloMosaic.RowIndex.gather_rows g hoff hcoll hob hsim hivd x idx e j (by omega)]
  congr 1
  funext b
  match b with
  | ⟨0, _⟩ =>
    apply Fin.ext
    show min (idx (ixP e)).toInt.toNat (N - 1) = r.toInt.toNat
    rw [hidx]; omega
  | ⟨1, _⟩ => rfl

/-- The rank-1 index at a coordinate, in either spelling. -/
private theorem ofFin_eq_ix1 {N : Nat} (n : Fin N) : (Shape.Idx.ofFin n : (⟨1, ![N]⟩ : Shape).Idx) = ValueIdx.ix1 n := by
  funext a; match a with | ⟨0, _⟩ => rfl

/-! ### The kernel's row index -/

/-- In range the wrap is the identity. -/
private theorem wrapCapK_apply (s : IVec Cert.KernelIdeal.S2000000 32) (n : Fin 2000000)
    (h0 : 0 ≤ (s (ValueIdx.ix1 n)).toInt) : Cert.SpecK.wrapCap s (ValueIdx.ix1 n) = s (ValueIdx.ix1 n) :=
  wrap_word _ _ h0

/-- The kernel's row-index column at row `n` is the row index itself, in range. -/
private theorem rowColK_apply (s : IVec Cert.KernelIdeal.S2000000 32) (n : Fin 2000000)
    (h0 : 0 ≤ (s (ValueIdx.ix1 n)).toInt) : Cert.SpecK.rowCol s (ixP n) = s (ValueIdx.ix1 n) := by
  refine (bcast_col1 _ _ n).trans ?_
  rw [ofFin_eq_ix1]; exact wrapCapK_apply s n h0

/-- In range the range test holds. -/
private theorem inRangeK_apply (s : IVec Cert.KernelIdeal.S2000000 32) (n : Fin 2000000)
    (h0 : 0 ≤ (s (ValueIdx.ix1 n)).toInt) (h1 : (s (ValueIdx.ix1 n)).toInt < 1600000) :
    Cert.SpecK.inRange s (ValueIdx.ix1 n) = 1#1 := by
  unfold Cert.SpecK.inRange
  refine reduce_andi_col _ _ _ _ rfl n ?_
  show IntOp.andi (IntOp.cmpi .sge (Cert.SpecK.rowCol s (ixP n)) 0#32) (IntOp.cmpi .sle (Cert.SpecK.rowCol s (ixP n)) 1599999#32) = 1#1
  rw [rowColK_apply s n h0]; exact range_word _ h0 h1

/-- In range the taken row is the table's row `s n`. -/
private theorem takeRowsK_apply (cb : FVec Ideal Cert.KernelIdeal.S1600000x28 .f32) (s : IVec Cert.KernelIdeal.S2000000 32)
    (n : Fin 2000000) (j : Fin 28) (h0 : 0 ≤ (s (ValueIdx.ix1 n)).toInt) (h1 : (s (ValueIdx.ix1 n)).toInt < 1600000)
    (hr : (s (ValueIdx.ix1 n)).toInt.toNat < 1600000) :
    Cert.SpecK.takeRows (F := Ideal) cb s (ij n j) = cb (ij ⟨(s (ValueIdx.ix1 n)).toInt.toNat, hr⟩ j) := by
  unfold Cert.SpecK.takeRows
  rw [ValueIdx.select_apply, bcast_row_apply, inRangeK_apply s n h0 h1, ValueIdx.select_one]
  exact gather_row_in _ rfl rfl rfl rfl rfl cb _ n j _ (rowColK_apply s n h0) hr

/-- Lane 0 of the joined table is the density column. -/
private theorem comb_lane0 (d : FVec Ideal Cert.KernelIdeal.S1600000x1 .f32) (sh : FVec Ideal Cert.KernelIdeal.S1600000x27 .f32)
    (r : Fin 1600000) : Cert.SpecK.comb (F := Ideal) d sh (ij r (0 : Fin 28)) = d (ij r (0 : Fin 1)) := by
  unfold Cert.SpecK.comb
  refine concatenate_pair_apply_left _ d sh _ (ij r (0 : Fin 28)) rfl (ij r (0 : Fin 1)) ?_
  intro b
  match b with
  | ⟨0, _⟩ => rfl
  | ⟨1, _⟩ => rfl

/-- Lane `j + 1` of the joined table is lane `j` of the harmonics columns. -/
private theorem comb_laneS (d : FVec Ideal Cert.KernelIdeal.S1600000x1 .f32) (sh : FVec Ideal Cert.KernelIdeal.S1600000x27 .f32)
    (r : Fin 1600000) (j : Fin 27) :
    Cert.SpecK.comb (F := Ideal) d sh (ij r (⟨j.val + 1, by omega⟩ : Fin 28)) = sh (ij r j) := by
  unfold Cert.SpecK.comb
  refine concatenate_pair_apply_right _ d sh _ (ij r (⟨j.val + 1, by omega⟩ : Fin 28)) rfl rfl (ij r j) ?_ ?_
  · intro b hb
    match b, hb with
    | ⟨0, _⟩, _ => rfl
    | ⟨1, _⟩, hb => exact absurd rfl hb
  · rfl

/-! ### The reference's row index -/

/-- The reference's row-index column at row `n` is the row index itself, in range. -/
private theorem rowColR_apply (s : IVec Cert.ReferenceIdeal.S2000000 32) (n : Fin 2000000)
    (h0 : 0 ≤ (s (ValueIdx.ix1 n)).toInt) : Cert.SpecR.rowCol s (ixP n) = s (ValueIdx.ix1 n) := by
  refine (bcast_col1 _ _ n).trans ?_
  rw [ofFin_eq_ix1]; exact wrap_word _ _ h0

/-- Row `n` of a one-column array, in either spelling. -/
private theorem ixP_eq_ij {N : Nat} (n : Fin N) : ixP n = ij n (0 : Fin 1) := by
  funext a; match a with | ⟨0, _⟩ => rfl | ⟨1, _⟩ => rfl

/-- Lane 0 of the kernel's weighted row is the reference's weighted density, where the row index lies in the table. -/
theorem corner_lane0 (wtb : FVec Ideal Cert.KernelIdeal.S2000000x1 .f32) (s : IVec Cert.KernelIdeal.S2000000 32)
    (d : FVec Ideal Cert.KernelIdeal.S1600000x1 .f32) (sh : FVec Ideal Cert.KernelIdeal.S1600000x27 .f32)
    (n : Fin 2000000) (h0 : 0 ≤ (s (ValueIdx.ix1 n)).toInt) (h1 : (s (ValueIdx.ix1 n)).toInt < 1600000) :
    Cert.SpecK.corner (F := Ideal) wtb s (Cert.SpecK.comb d sh) (ij n (0 : Fin 28))
      = Cert.SpecR.cornerD (F := Ideal) wtb s d (ij n (0 : Fin 1)) := by
  have hr : (s (ValueIdx.ix1 n)).toInt.toNat < 1600000 := by omega
  have eK : Cert.SpecK.corner (F := Ideal) wtb s (Cert.SpecK.comb d sh) (ij n (0 : Fin 28))
      = wtb (ixP n) * d (ij ⟨(s (ValueIdx.ix1 n)).toInt.toNat, hr⟩ (0 : Fin 1)) := by
    unfold Cert.SpecK.corner
    rw [ValueIdx.mulf_apply, bcast_of_col, takeRowsK_apply _ s n 0 h0 h1 hr, comb_lane0]
  have eR : Cert.SpecR.cornerD (F := Ideal) wtb s d (ij n (0 : Fin 1))
      = wtb (ixP n) * d (ij ⟨(s (ValueIdx.ix1 n)).toInt.toNat, hr⟩ (0 : Fin 1)) := by
    unfold Cert.SpecR.cornerD
    rw [ValueIdx.mulf_apply]
    beta_reduce
    rw [gather_row_in Cert.ReferenceIdeal.gather_S1600000x1_S2000000x1_S2000000x1_1_0_n_n_0_1_11 rfl rfl rfl rfl rfl d _ n
        (0 : Fin 1) _ (rowColR_apply s n h0) hr, ixP_eq_ij]
  rw [eK, eR]

/-- Lane `j + 1` of the kernel's weighted row is lane `j` of the reference's weighted harmonics, where the row index lies in the table. -/
theorem corner_laneS (wtb : FVec Ideal Cert.KernelIdeal.S2000000x1 .f32) (s : IVec Cert.KernelIdeal.S2000000 32)
    (d : FVec Ideal Cert.KernelIdeal.S1600000x1 .f32) (sh : FVec Ideal Cert.KernelIdeal.S1600000x27 .f32)
    (n : Fin 2000000) (j : Fin 27) (h0 : 0 ≤ (s (ValueIdx.ix1 n)).toInt) (h1 : (s (ValueIdx.ix1 n)).toInt < 1600000) :
    Cert.SpecK.corner (F := Ideal) wtb s (Cert.SpecK.comb d sh) (ij n (⟨j.val + 1, by omega⟩ : Fin 28))
      = Cert.SpecR.cornerSh (F := Ideal) wtb s sh (ij n j) := by
  have hr : (s (ValueIdx.ix1 n)).toInt.toNat < 1600000 := by omega
  have eK : Cert.SpecK.corner (F := Ideal) wtb s (Cert.SpecK.comb d sh) (ij n (⟨j.val + 1, by omega⟩ : Fin 28))
      = wtb (ixP n) * sh (ij ⟨(s (ValueIdx.ix1 n)).toInt.toNat, hr⟩ j) := by
    unfold Cert.SpecK.corner
    rw [ValueIdx.mulf_apply, bcast_of_col, takeRowsK_apply _ s n _ h0 h1 hr, comb_laneS]
  have eR : Cert.SpecR.cornerSh (F := Ideal) wtb s sh (ij n j)
      = wtb (ixP n) * sh (ij ⟨(s (ValueIdx.ix1 n)).toInt.toNat, hr⟩ j) := by
    unfold Cert.SpecR.cornerSh
    rw [ValueIdx.mulf_apply, bcast_of_col]
    beta_reduce
    rw [gather_row_in Cert.ReferenceIdeal.gather_S1600000x27_S2000000x1_S2000000x27_1_0_n_n_0_1_127 rfl rfl rfl rfl rfl sh _ n
        j _ (rowColR_apply s n h0) hr]
  rw [eK, eR]

end Cert.Spec

end
-- ==== Proof.LibNary3.lean ====
import Idealize.ShloMosaic.Lib.StableHlo.Run

/-!
# An operation over a literal family of three references

`StableHlo.nary` over a literal family `![x, a, b]` — a concatenate of three operands — leaves in its result buffer its
function applied to the three operands' contents, each read at its own reference: the family of contents is
`Fin.cons (F ↑x) (Fin.cons (F ↑a) (Fin.cons (F ↑b) _))`, which is `fun k => F ↑(![x, a, b] k)` entry by entry. The library
states this for four references (`StableHlo.nary4_result`); this is the same statement for three.
-/

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, its left side not keyed on the result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibReadBack.lean ====
import proofs.«415466_j54125177864604_3_alg».proof.Proof.LibNary3
import Idealize.ShloMosaic.Lib.StableHlo.Run
import Idealize.ShloMosaic.PureOps
import Mathlib.Data.Fin.Tuple.Basic

/-!
# Reading a buffer back through a long line of host operations

`StableHlo.after ops V b` — buffer `b` after the operations `ops`, in order, from contents `V` — is a fold; for a literal list of
the builders' operations over literal references it is the composed term of the operations that feed `b`, over `V` at the
buffers none of them writes. `read_back` computes that term in one simplification pass, as the library's
`after_results_simp` does, with the result lemma for an operation over three literal references (a three-piece concatenate)
in the place of the library's for any family: its operands' contents then stand as the entries of a `Fin.cons` tuple, each at
a literal reference, and the tuple's entries at the literal positions 0, 1, 2 are read off (`Fin.cons_zero`, `Fin.cons_one`,
`cons3_two`), so that the pass goes on into them. The typed references of an inlined callee's operations cast contents along
equations between a buffer's type and itself: the casts are removed last.
-/

namespace Idealize.ShloMosaic.StableHlo

/-- The entry of a three-entry dependent tuple at position 2. -/
theorem cons3_two {α : Fin 3 → Sort _} (x : α 0) (p : (i : Fin 2) → α i.succ) :
    (Fin.cons x p : (i : Fin 3) → α i) 2 = p 1 := rfl

/-- A concatenate is rewritten in its list of pieces, its evidence — which speaks of the pieces' shapes only — carried along: so that
    a simplification pass goes into the pieces (the evidence's type mentions the list, which by itself keeps the pass out). -/
@[congr] theorem concatenate_congr {α : Type} (t : Shape) (a : Fin t.rank) {xs xs' : List ((s : Shape) × (s.Idx → α))}
    (e : xs = xs') (h : Shape.Concatenates (xs.map (·.1)) t a) :
    concatenate t a xs h = concatenate t a xs' (e ▸ h) := by
  subst e; rfl

/-- Reads a buffer back through a literal line of host operations (see the module's header). -/
macro "read_back" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, cons3_two]
             try simp only [TRef.ofBuf, TRef.toBuf, cast_eq]))

end Idealize.ShloMosaic.StableHlo
-- ==== Proof.RHost.lean ====
import proofs.«415466_j54125177864604_3_alg».proof.Proof.RHostC
import proofs.«415466_j54125177864604_3_alg».proof.Proof.Spec
import proofs.«415466_j54125177864604_3_alg».proof.Proof.LibReadBack

set_option maxRecDepth 65536

noncomputable section

namespace Cert.ReferenceIdeal.Hand

open Cert.ReferenceIdeal Cert.ReferenceIdeal.Gen Cert.ReferenceIdeal.RunW
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
theorem rzeroD (U : Valuation τ sig (Elt F)) : StableHlo.after (RB0 (F := F)) U (Proc.devRef .tc main_v10) = (broadcastInDim S2000000x1 ![] bcast_S_S2000000x1 (constant S_ .f32 0x00000000#32)) := by
  simp only [RB0, q0, q1, q2, List.cons_append, List.nil_append, List.append_nil]
  read_back
  first | done | rfl

set_option maxHeartbeats 16000000 in
theorem rzeroSh (U : Valuation τ sig (Elt F)) : StableHlo.after (RB0 (F := F)) U (Proc.devRef .tc main_v11) = (broadcastInDim S2000000x27 ![] bcast_S_S2000000x27 (constant S_ .f32 0x00000000#32)) := by
  simp only [RB0, q0, q1, q2, List.cons_append, List.nil_append, List.append_nil]
  read_back
  first | done | rfl

set_option maxHeartbeats 16000000 in
/-- Corner 0, over any contents the chunk is run from: the row index. -/
theorem lsafe0 (U : Valuation τ sig (Elt F)) :
    StableHlo.after (RB0 (F := F)) U (Proc.devRef .tc main_v58) = Cert.SpecR.safeOf ((fun x i => Host.gather gather_S128x128x128_S2000000x3_S2000000_n_012_n_n_012_1_111 x i) (U (Proc.devRef .tc main_arg2)) (StableHlo.after (RB0 (F := F)) U (Proc.devRef .tc main_v54))) := by
  simp only [RB0, q0, q1, q2, List.cons_append, List.nil_append, List.append_nil]
  read_back
  first | done | (unfold Cert.SpecR.safeOf; rfl)

set_option maxHeartbeats 16000000 in
/-- Corner 0, over any contents the chunk is run from: the weighted density. -/
theorem ltd0 (U : Valuation τ sig (Elt F)) :
    StableHlo.after (RB0 (F := F)) U (Proc.devRef .tc main_v71) = Cert.SpecR.cornerD (StableHlo.after (RB0 (F := F)) U (Proc.devRef .tc main_v63)) (StableHlo.after (RB0 (F := F)) U (Proc.devRef .tc main_v58)) (U (Proc.devRef .tc main_arg0)) := by
  simp only [RB0, q0, q1, q2, List.cons_append, List.nil_append, List.append_nil]
  read_back
  first | done | (unfold Cert.SpecR.cornerD Cert.SpecR.rowCol; rfl)

set_option maxHeartbeats 16000000 in
/-- Corner 0, over any contents the chunk is run from: the weighted harmonics. -/
theorem ltsh0 (U : Valuation τ sig (Elt F)) :
    StableHlo.after (RB0 (F := F)) U (Proc.devRef .tc main_v81) = Cert.SpecR.cornerSh (StableHlo.after (RB0 (F := F)) U (Proc.devRef .tc main_v63)) (StableHlo.after (RB0 (F := F)) U (Proc.devRef .tc main_v58)) (U (Proc.devRef .tc main_arg1)) := by
  simp only [RB0, q0, q1, q2, List.cons_append, List.nil_append, List.append_nil]
  read_back
  first | done | (unfold Cert.SpecR.cornerSh Cert.SpecR.rowCol; rfl)

set_option maxHeartbeats 16000000 in
/-- Corner 0, over any contents the chunk is run from: the density accumulator. -/
theorem laccD0 (U : Valuation τ sig (Elt F)) :
    StableHlo.after (RB0 (F := F)) U (Proc.devRef .tc main_v72) = addf (StableHlo.after (RB0 (F := F)) U (Proc.devRef .tc main_v10)) (StableHlo.after (RB0 (F := F)) U (Proc.devRef .tc main_v71)) := by
  simp only [RB0, q0, q1, q2, List.cons_append, List.nil_append, List.append_nil]
  read_back
  first | done | (rfl)

set_option maxHeartbeats 16000000 in
/-- Corner 0, over any contents the chunk is run from: the harmonics accumulator. -/
theorem laccSh0 (U : Valuation τ sig (Elt F)) :
    StableHlo.after (RB0 (F := F)) U (Proc.devRef .tc main_v82) = addf (StableHlo.after (RB0 (F := F)) U (Proc.devRef .tc main_v11)) (StableHlo.after (RB0 (F := F)) U (Proc.devRef .tc main_v81)) := by
  simp only [RB0, q0, q1, q2, List.cons_append, List.nil_append, List.append_nil]
  read_back
  first | done | (rfl)

set_option maxHeartbeats 16000000 in
/-- Corner 1, over any contents the chunk is run from: the row index. -/
theorem lsafe1 (U : Valuation τ sig (Elt F)) :
    StableHlo.after (RB1 (F := F)) U (Proc.devRef .tc main_v119) = Cert.SpecR.safeOf ((fun x i => Host.gather gather_S128x128x128_S2000000x3_S2000000_n_012_n_n_012_1_111 x i) (U (Proc.devRef .tc main_arg2)) (StableHlo.after (RB1 (F := F)) U (Proc.devRef .tc main_v115))) := by
  simp only [RB1, q3, q4, q5, List.cons_append, List.nil_append, List.append_nil]
  read_back
  first | done | (unfold Cert.SpecR.safeOf; rfl)

set_option maxHeartbeats 16000000 in
/-- Corner 1, over any contents the chunk is run from: the weighted density. -/
theorem ltd1 (U : Valuation τ sig (Elt F)) :
    StableHlo.after (RB1 (F := F)) U (Proc.devRef .tc main_v132) = Cert.SpecR.cornerD (StableHlo.after (RB1 (F := F)) U (Proc.devRef .tc main_v124)) (StableHlo.after (RB1 (F := F)) U (Proc.devRef .tc main_v119)) (U (Proc.devRef .tc main_arg0)) := by
  simp only [RB1, q3, q4, q5, List.cons_append, List.nil_append, List.append_nil]
  read_back
  first | done | (unfold Cert.SpecR.cornerD Cert.SpecR.rowCol; rfl)

set_option maxHeartbeats 16000000 in
/-- Corner 1, over any contents the chunk is run from: the weighted harmonics. -/
theorem ltsh1 (U : Valuation τ sig (Elt F)) :
    StableHlo.after (RB1 (F := F)) U (Proc.devRef .tc main_v142) = Cert.SpecR.cornerSh (StableHlo.after (RB1 (F := F)) U (Proc.devRef .tc main_v124)) (StableHlo.after (RB1 (F := F)) U (Proc.devRef .tc main_v119)) (U (Proc.devRef .tc main_arg1)) := by
  simp only [RB1, q3, q4, q5, List.cons_append, List.nil_append, List.append_nil]
  read_back
  first | done | (unfold Cert.SpecR.cornerSh Cert.SpecR.rowCol; rfl)

set_option maxHeartbeats 16000000 in
/-- Corner 1, over any contents the chunk is run from: the density accumulator. -/
theorem laccD1 (U : Valuation τ sig (Elt F)) :
    StableHlo.after (RB1 (F := F)) U (Proc.devRef .tc main_v133) = addf (U (Proc.devRef .tc main_v72)) (StableHlo.after (RB1 (F := F)) U (Proc.devRef .tc main_v132)) := by
  simp only [RB1, q3, q4, q5, List.cons_append, List.nil_append, List.append_nil]
  read_back
  first | done | (rfl)

set_option maxHeartbeats 16000000 in
/-- Corner 1, over any contents the chunk is run from: the harmonics accumulator. -/
theorem laccSh1 (U : Valuation τ sig (Elt F)) :
    StableHlo.after (RB1 (F := F)) U (Proc.devRef .tc main_v143) = addf (U (Proc.devRef .tc main_v82)) (StableHlo.after (RB1 (F := F)) U (Proc.devRef .tc main_v142)) := by
  simp only [RB1, q3, q4, q5, List.cons_append, List.nil_append, List.append_nil]
  read_back
  first | done | (rfl)

set_option maxHeartbeats 16000000 in
/-- Corner 2, over any contents the chunk is run from: the row index. -/
theorem lsafe2 (U : Valuation τ sig (Elt F)) :
    StableHlo.after (RB2 (F := F)) U (Proc.devRef .tc main_v184) = Cert.SpecR.safeOf ((fun x i => Host.gather gather_S128x128x128_S2000000x3_S2000000_n_012_n_n_012_1_111 x i) (U (Proc.devRef .tc main_arg2)) (StableHlo.after (RB2 (F := F)) U (Proc.devRef .tc main_v180))) := by
  simp only [RB2, q6, q7, List.cons_append, List.nil_append, List.append_nil]
  read_back
  first | done | (unfold Cert.SpecR.safeOf; rfl)

set_option maxHeartbeats 16000000 in
/-- Corner 2, over any contents the chunk is run from: the weighted density. -/
theorem ltd2 (U : Valuation τ sig (Elt F)) :
    StableHlo.after (RB2 (F := F)) U (Proc.devRef .tc main_v197) = Cert.SpecR.cornerD (StableHlo.after (RB2 (F := F)) U (Proc.devRef .tc main_v189)) (StableHlo.after (RB2 (F := F)) U (Proc.devRef .tc main_v184)) (U (Proc.devRef .tc main_arg0)) := by
  simp only [RB2, q6, q7, List.cons_append, List.nil_append, List.append_nil]
  read_back
  first | done | (unfold Cert.SpecR.cornerD Cert.SpecR.rowCol; rfl)

set_option maxHeartbeats 16000000 in
/-- Corner 2, over any contents the chunk is run from: the weighted harmonics. -/
theorem ltsh2 (U : Valuation τ sig (Elt F)) :
    StableHlo.after (RB2 (F := F)) U (Proc.devRef .tc main_v207) = Cert.SpecR.cornerSh (StableHlo.after (RB2 (F := F)) U (Proc.devRef .tc main_v189)) (StableHlo.after (RB2 (F := F)) U (Proc.devRef .tc main_v184)) (U (Proc.devRef .tc main_arg1)) := by
  simp only [RB2, q6, q7, List.cons_append, List.nil_append, List.append_nil]
  read_back
  first | done | (unfold Cert.SpecR.cornerSh Cert.SpecR.rowCol; rfl)

set_option maxHeartbeats 16000000 in
/-- Corner 2, over any contents the chunk is run from: the density accumulator. -/
theorem laccD2 (U : Valuation τ sig (Elt F)) :
    StableHlo.after (RB2 (F := F)) U (Proc.devRef .tc main_v198) = addf (U (Proc.devRef .tc main_v133)) (StableHlo.after (RB2 (F := F)) U (Proc.devRef .tc main_v197)) := by
  simp only [RB2, q6, q7, List.cons_append, List.nil_append, List.append_nil]
  read_back
  first | done | (rfl)

set_option maxHeartbeats 16000000 in
/-- Corner 2, over any contents the chunk is run from: the harmonics accumulator. -/
theorem laccSh2 (U : Valuation τ sig (Elt F)) :
    StableHlo.after (RB2 (F := F)) U (Proc.devRef .tc main_v208) = addf (U (Proc.devRef .tc main_v143)) (StableHlo.after (RB2 (F := F)) U (Proc.devRef .tc main_v207)) := by
  simp only [RB2, q6, q7, List.cons_append, List.nil_append, List.append_nil]
  read_back
  first | done | (rfl)

set_option maxHeartbeats 16000000 in
/-- Corner 3, over any contents the chunk is run from: the row index. -/
theorem lsafe3 (U : Valuation τ sig (Elt F)) :
    StableHlo.after (RB3 (F := F)) U (Proc.devRef .tc main_v245) = Cert.SpecR.safeOf ((fun x i => Host.gather gather_S128x128x128_S2000000x3_S2000000_n_012_n_n_012_1_111 x i) (U (Proc.devRef .tc main_arg2)) (StableHlo.after (RB3 (F := F)) U (Proc.devRef .tc main_v241))) := by
  simp only [RB3, q8, q9, List.cons_append, List.nil_append, List.append_nil]
  read_back
  first | done | (unfold Cert.SpecR.safeOf; rfl)

set_option maxHeartbeats 16000000 in
/-- Corner 3, over any contents the chunk is run from: the weighted density. -/
theorem ltd3 (U : Valuation τ sig (Elt F)) :
    StableHlo.after (RB3 (F := F)) U (Proc.devRef .tc main_v258) = Cert.SpecR.cornerD (StableHlo.after (RB3 (F := F)) U (Proc.devRef .tc main_v250)) (StableHlo.after (RB3 (F := F)) U (Proc.devRef .tc main_v245)) (U (Proc.devRef .tc main_arg0)) := by
  simp only [RB3, q8, q9, List.cons_append, List.nil_append, List.append_nil]
  read_back
  first | done | (unfold Cert.SpecR.cornerD Cert.SpecR.rowCol; rfl)

set_option maxHeartbeats 16000000 in
/-- Corner 3, over any contents the chunk is run from: the weighted harmonics. -/
theorem ltsh3 (U : Valuation τ sig (Elt F)) :
    StableHlo.after (RB3 (F := F)) U (Proc.devRef .tc main_v268) = Cert.SpecR.cornerSh (StableHlo.after (RB3 (F := F)) U (Proc.devRef .tc main_v250)) (StableHlo.after (RB3 (F := F)) U (Proc.devRef .tc main_v245)) (U (Proc.devRef .tc main_arg1)) := by
  simp only [RB3, q8, q9, List.cons_append, List.nil_append, List.append_nil]
  read_back
  first | done | (unfold Cert.SpecR.cornerSh Cert.SpecR.rowCol; rfl)

set_option maxHeartbeats 16000000 in
/-- Corner 3, over any contents the chunk is run from: the density accumulator. -/
theorem laccD3 (U : Valuation τ sig (Elt F)) :
    StableHlo.after (RB3 (F := F)) U (Proc.devRef .tc main_v259) = addf (U (Proc.devRef .tc main_v198)) (StableHlo.after (RB3 (F := F)) U (Proc.devRef .tc main_v258)) := by
  simp only [RB3, q8, q9, List.cons_append, List.nil_append, List.append_nil]
  read_back
  first | done | (rfl)

set_option maxHeartbeats 16000000 in
/-- Corner 3, over any contents the chunk is run from: the harmonics accumulator. -/
theorem laccSh3 (U : Valuation τ sig (Elt F)) :
    StableHlo.after (RB3 (F := F)) U (Proc.devRef .tc main_v269) = addf (U (Proc.devRef .tc main_v208)) (StableHlo.after (RB3 (F := F)) U (Proc.devRef .tc main_v268)) := by
  simp only [RB3, q8, q9, List.cons_append, List.nil_append, List.append_nil]
  read_back
  first | done | (rfl)

set_option maxHeartbeats 16000000 in
/-- Corner 4, over any contents the chunk is run from: the row index. -/
theorem lsafe4 (U : Valuation τ sig (Elt F)) :
    StableHlo.after (RB4 (F := F)) U (Proc.devRef .tc main_v314) = Cert.SpecR.safeOf ((fun x i => Host.gather gather_S128x128x128_S2000000x3_S2000000_n_012_n_n_012_1_111 x i) (U (Proc.devRef .tc main_arg2)) (StableHlo.after (RB4 (F := F)) U (Proc.devRef .tc main_v310))) := by
  simp only [RB4, q10, q11, q12, List.cons_append, List.nil_append, List.append_nil]
  read_back
  first | done | (unfold Cert.SpecR.safeOf; rfl)

set_option maxHeartbeats 16000000 in
/-- Corner 4, over any contents the chunk is run from: the weighted density. -/
theorem ltd4 (U : Valuation τ sig (Elt F)) :
    StableHlo.after (RB4 (F := F)) U (Proc.devRef .tc main_v327) = Cert.SpecR.cornerD (StableHlo.after (RB4 (F := F)) U (Proc.devRef .tc main_v319)) (StableHlo.after (RB4 (F := F)) U (Proc.devRef .tc main_v314)) (U (Proc.devRef .tc main_arg0)) := by
  simp only [RB4, q10, q11, q12, List.cons_append, List.nil_append, List.append_nil]
  read_back
  first | done | (unfold Cert.SpecR.cornerD Cert.SpecR.rowCol; rfl)

set_option maxHeartbeats 16000000 in
/-- Corner 4, over any contents the chunk is run from: the weighted harmonics. -/
theorem ltsh4 (U : Valuation τ sig (Elt F)) :
    StableHlo.after (RB4 (F := F)) U (Proc.devRef .tc main_v337) = Cert.SpecR.cornerSh (StableHlo.after (RB4 (F := F)) U (Proc.devRef .tc main_v319)) (StableHlo.after (RB4 (F := F)) U (Proc.devRef .tc main_v314)) (U (Proc.devRef .tc main_arg1)) := by
  simp only [RB4, q10, q11, q12, List.cons_append, List.nil_append, List.append_nil]
  read_back
  first | done | (unfold Cert.SpecR.cornerSh Cert.SpecR.rowCol; rfl)

set_option maxHeartbeats 16000000 in
/-- Corner 4, over any contents the chunk is run from: the density accumulator. -/
theorem laccD4 (U : Valuation τ sig (Elt F)) :
    StableHlo.after (RB4 (F := F)) U (Proc.devRef .tc main_v328) = addf (U (Proc.devRef .tc main_v259)) (StableHlo.after (RB4 (F := F)) U (Proc.devRef .tc main_v327)) := by
  simp only [RB4, q10, q11, q12, List.cons_append, List.nil_append, List.append_nil]
  read_back
  first | done | (rfl)

set_option maxHeartbeats 16000000 in
/-- Corner 4, over any contents the chunk is run from: the harmonics accumulator. -/
theorem laccSh4 (U : Valuation τ sig (Elt F)) :
    StableHlo.after (RB4 (F := F)) U (Proc.devRef .tc main_v338) = addf (U (Proc.devRef .tc main_v269)) (StableHlo.after (RB4 (F := F)) U (Proc.devRef .tc main_v337)) := by
  simp only [RB4, q10, q11, q12, List.cons_append, List.nil_append, List.append_nil]
  read_back
  first | done | (rfl)

set_option maxHeartbeats 16000000 in
/-- Corner 5, over any contents the chunk is run from: the row index. -/
theorem lsafe5 (U : Valuation τ sig (Elt F)) :
    StableHlo.after (RB5 (F := F)) U (Proc.devRef .tc main_v375) = Cert.SpecR.safeOf ((fun x i => Host.gather gather_S128x128x128_S2000000x3_S2000000_n_012_n_n_012_1_111 x i) (U (Proc.devRef .tc main_arg2)) (StableHlo.after (RB5 (F := F)) U (Proc.devRef .tc main_v371))) := by
  simp only [RB5, q13, q14, List.cons_append, List.nil_append, List.append_nil]
  read_back
  first | done | (unfold Cert.SpecR.safeOf; rfl)

set_option maxHeartbeats 16000000 in
/-- Corner 5, over any contents the chunk is run from: the weighted density. -/
theorem ltd5 (U : Valuation τ sig (Elt F)) :
    StableHlo.after (RB5 (F := F)) U (Proc.devRef .tc main_v388) = Cert.SpecR.cornerD (StableHlo.after (RB5 (F := F)) U (Proc.devRef .tc main_v380)) (StableHlo.after (RB5 (F := F)) U (Proc.devRef .tc main_v375)) (U (Proc.devRef .tc main_arg0)) := by
  simp only [RB5, q13, q14, List.cons_append, List.nil_append, List.append_nil]
  read_back
  first | done | (unfold Cert.SpecR.cornerD Cert.SpecR.rowCol; rfl)

set_option maxHeartbeats 16000000 in
/-- Corner 5, over any contents the chunk is run from: the weighted harmonics. -/
theorem ltsh5 (U : Valuation τ sig (Elt F)) :
    StableHlo.after (RB5 (F := F)) U (Proc.devRef .tc main_v398) = Cert.SpecR.cornerSh (StableHlo.after (RB5 (F := F)) U (Proc.devRef .tc main_v380)) (StableHlo.after (RB5 (F := F)) U (Proc.devRef .tc main_v375)) (U (Proc.devRef .tc main_arg1)) := by
  simp only [RB5, q13, q14, List.cons_append, List.nil_append, List.append_nil]
  read_back
  first | done | (unfold Cert.SpecR.cornerSh Cert.SpecR.rowCol; rfl)

set_option maxHeartbeats 16000000 in
/-- Corner 5, over any contents the chunk is run from: the density accumulator. -/
theorem laccD5 (U : Valuation τ sig (Elt F)) :
    StableHlo.after (RB5 (F := F)) U (Proc.devRef .tc main_v389) = addf (U (Proc.devRef .tc main_v328)) (StableHlo.after (RB5 (F := F)) U (Proc.devRef .tc main_v388)) := by
  simp only [RB5, q13, q14, List.cons_append, List.nil_append, List.append_nil]
  read_back
  first | done | (rfl)

set_option maxHeartbeats 16000000 in
/-- Corner 5, over any contents the chunk is run from: the harmonics accumulator. -/
theorem laccSh5 (U : Valuation τ sig (Elt F)) :
    StableHlo.after (RB5 (F := F)) U (Proc.devRef .tc main_v399) = addf (U (Proc.devRef .tc main_v338)) (StableHlo.after (RB5 (F := F)) U (Proc.devRef .tc main_v398)) := by
  simp only [RB5, q13, q14, List.cons_append, List.nil_append, List.append_nil]
  read_back
  first | done | (rfl)

set_option maxHeartbeats 16000000 in
/-- Corner 6, over any contents the chunk is run from: the row index. -/
theorem lsafe6 (U : Valuation τ sig (Elt F)) :
    StableHlo.after (RB6 (F := F)) U (Proc.devRef .tc main_v440) = Cert.SpecR.safeOf ((fun x i => Host.gather gather_S128x128x128_S2000000x3_S2000000_n_012_n_n_012_1_111 x i) (U (Proc.devRef .tc main_arg2)) (StableHlo.after (RB6 (F := F)) U (Proc.devRef .tc main_v436))) := by
  simp only [RB6, q15, q16, List.cons_append, List.nil_append, List.append_nil]
  read_back
  first | done | (unfold Cert.SpecR.safeOf; rfl)

set_option maxHeartbeats 16000000 in
/-- Corner 6, over any contents the chunk is run from: the weighted density. -/
theorem ltd6 (U : Valuation τ sig (Elt F)) :
    StableHlo.after (RB6 (F := F)) U (Proc.devRef .tc main_v453) = Cert.SpecR.cornerD (StableHlo.after (RB6 (F := F)) U (Proc.devRef .tc main_v445)) (StableHlo.after (RB6 (F := F)) U (Proc.devRef .tc main_v440)) (U (Proc.devRef .tc main_arg0)) := by
  simp only [RB6, q15, q16, List.cons_append, List.nil_append, List.append_nil]
  read_back
  first | done | (unfold Cert.SpecR.cornerD Cert.SpecR.rowCol; rfl)

set_option maxHeartbeats 16000000 in
/-- Corner 6, over any contents the chunk is run from: the weighted harmonics. -/
theorem ltsh6 (U : Valuation τ sig (Elt F)) :
    StableHlo.after (RB6 (F := F)) U (Proc.devRef .tc main_v463) = Cert.SpecR.cornerSh (StableHlo.after (RB6 (F := F)) U (Proc.devRef .tc main_v445)) (StableHlo.after (RB6 (F := F)) U (Proc.devRef .tc main_v440)) (U (Proc.devRef .tc main_arg1)) := by
  simp only [RB6, q15, q16, List.cons_append, List.nil_append, List.append_nil]
  read_back
  first | done | (unfold Cert.SpecR.cornerSh Cert.SpecR.rowCol; rfl)

set_option maxHeartbeats 16000000 in
/-- Corner 6, over any contents the chunk is run from: the density accumulator. -/
theorem laccD6 (U : Valuation τ sig (Elt F)) :
    StableHlo.after (RB6 (F := F)) U (Proc.devRef .tc main_v454) = addf (U (Proc.devRef .tc main_v389)) (StableHlo.after (RB6 (F := F)) U (Proc.devRef .tc main_v453)) := by
  simp only [RB6, q15, q16, List.cons_append, List.nil_append, List.append_nil]
  read_back
  first | done | (rfl)

set_option maxHeartbeats 16000000 in
/-- Corner 6, over any contents the chunk is run from: the harmonics accumulator. -/
theorem laccSh6 (U : Valuation τ sig (Elt F)) :
    StableHlo.after (RB6 (F := F)) U (Proc.devRef .tc main_v464) = addf (U (Proc.devRef .tc main_v399)) (StableHlo.after (RB6 (F := F)) U (Proc.devRef .tc main_v463)) := by
  simp only [RB6, q15, q16, List.cons_append, List.nil_append, List.append_nil]
  read_back
  first | done | (rfl)

set_option maxHeartbeats 16000000 in
/-- Corner 7, over any contents the chunk is run from: the row index. -/
theorem lsafe7 (U : Valuation τ sig (Elt F)) :
    StableHlo.after (RB7 (F := F)) U (Proc.devRef .tc main_v501) = Cert.SpecR.safeOf ((fun x i => Host.gather gather_S128x128x128_S2000000x3_S2000000_n_012_n_n_012_1_111 x i) (U (Proc.devRef .tc main_arg2)) (StableHlo.after (RB7 (F := F)) U (Proc.devRef .tc main_v497))) := by
  simp only [RB7, q17, q18, q19, List.cons_append, List.nil_append, List.append_nil]
  read_back
  first | done | (unfold Cert.SpecR.safeOf; rfl)

set_option maxHeartbeats 16000000 in
/-- Corner 7, over any contents the chunk is run from: the weighted density. -/
theorem ltd7 (U : Valuation τ sig (Elt F)) :
    StableHlo.after (RB7 (F := F)) U (Proc.devRef .tc main_v514) = Cert.SpecR.cornerD (StableHlo.after (RB7 (F := F)) U (Proc.devRef .tc main_v506)) (StableHlo.after (RB7 (F := F)) U (Proc.devRef .tc main_v501)) (U (Proc.devRef .tc main_arg0)) := by
  simp only [RB7, q17, q18, q19, List.cons_append, List.nil_append, List.append_nil]
  read_back
  first | done | (unfold Cert.SpecR.cornerD Cert.SpecR.rowCol; rfl)

set_option maxHeartbeats 16000000 in
/-- Corner 7, over any contents the chunk is run from: the weighted harmonics. -/
theorem ltsh7 (U : Valuation τ sig (Elt F)) :
    StableHlo.after (RB7 (F := F)) U (Proc.devRef .tc main_v524) = Cert.SpecR.cornerSh (StableHlo.after (RB7 (F := F)) U (Proc.devRef .tc main_v506)) (StableHlo.after (RB7 (F := F)) U (Proc.devRef .tc main_v501)) (U (Proc.devRef .tc main_arg1)) := by
  simp only [RB7, q17, q18, q19, List.cons_append, List.nil_append, List.append_nil]
  read_back
  first | done | (unfold Cert.SpecR.cornerSh Cert.SpecR.rowCol; rfl)

set_option maxHeartbeats 16000000 in
/-- Corner 7, over any contents the chunk is run from: the density accumulator. -/
theorem laccD7 (U : Valuation τ sig (Elt F)) :
    StableHlo.after (RB7 (F := F)) U (Proc.devRef .tc main_v515) = addf (U (Proc.devRef .tc main_v454)) (StableHlo.after (RB7 (F := F)) U (Proc.devRef .tc main_v514)) := by
  simp only [RB7, q17, q18, q19, List.cons_append, List.nil_append, List.append_nil]
  read_back
  first | done | (rfl)

set_option maxHeartbeats 16000000 in
/-- Corner 7, over any contents the chunk is run from: the harmonics accumulator. -/
theorem laccSh7 (U : Valuation τ sig (Elt F)) :
    StableHlo.after (RB7 (F := F)) U (Proc.devRef .tc main_v525) = addf (U (Proc.devRef .tc main_v464)) (StableHlo.after (RB7 (F := F)) U (Proc.devRef .tc main_v524)) := by
  simp only [RB7, q17, q18, q19, List.cons_append, List.nil_append, List.append_nil]
  read_back
  first | done | (rfl)

theorem rarg0 (c : Dev nD) : G m c main_arg0 = m ((c.tc : Thread nD τ).loc main_arg0) := G_arg m c (by decide)
theorem rarg1 (c : Dev nD) : G m c main_arg1 = m ((c.tc : Thread nD τ).loc main_arg1) := G_arg m c (by decide)
theorem rarg2 (c : Dev nD) : G m c main_arg2 = m ((c.tc : Thread nD τ).loc main_arg2) := G_arg m c (by decide)
theorem rarg3 (c : Dev nD) : G m c main_arg3 = m ((c.tc : Thread nD τ).loc main_arg3) := G_arg m c (by decide)

/-- Corner 0's row index is the gathered link, or 0 where the link is negative. -/
theorem rsafe0 (c : Dev nD) :
    G m c main_v58 = Cert.SpecR.safeOf ((fun x i => Host.gather gather_S128x128x128_S2000000x3_S2000000_n_012_n_n_012_1_111 x i)
      (m ((c.tc : Thread nD τ).loc main_arg2)) (G m c main_v54)) := by
  rw [G_at0 m c (r := main_v58) (by decide), lsafe0, ← G_at0 m c (r := main_v54) (by decide), G_keep0 m c (r := main_arg2) (by decide), rarg2]

/-- Corner 0's density term is the weight column times the gathered density rows. -/
theorem rtd0 (c : Dev nD) :
    G m c main_v71 = Cert.SpecR.cornerD (G m c main_v63) (G m c main_v58) (m ((c.tc : Thread nD τ).loc main_arg0)) := by
  rw [G_at0 m c (r := main_v71) (by decide), ltd0, ← G_at0 m c (r := main_v63) (by decide), ← G_at0 m c (r := main_v58) (by decide), G_keep0 m c (r := main_arg0) (by decide), rarg0]

/-- Corner 0's harmonics term is the weight column across the lanes times the gathered harmonics rows. -/
theorem rtsh0 (c : Dev nD) :
    G m c main_v81 = Cert.SpecR.cornerSh (G m c main_v63) (G m c main_v58) (m ((c.tc : Thread nD τ).loc main_arg1)) := by
  rw [G_at0 m c (r := main_v81) (by decide), ltsh0, ← G_at0 m c (r := main_v63) (by decide), ← G_at0 m c (r := main_v58) (by decide), G_keep0 m c (r := main_arg1) (by decide), rarg1]

theorem gaccD0 (c : Dev nD) : G m c main_v72 = addf (G m c main_v10) (G m c main_v71) := by
  rw [G_at0 m c (r := main_v72) (by decide), laccD0, ← G_at0 m c (r := main_v71) (by decide), ← G_at0 m c (r := main_v10) (by decide)]

theorem gaccSh0 (c : Dev nD) : G m c main_v82 = addf (G m c main_v11) (G m c main_v81) := by
  rw [G_at0 m c (r := main_v82) (by decide), laccSh0, ← G_at0 m c (r := main_v81) (by decide), ← G_at0 m c (r := main_v11) (by decide)]

/-- Corner 1's row index is the gathered link, or 0 where the link is negative. -/
theorem rsafe1 (c : Dev nD) :
    G m c main_v119 = Cert.SpecR.safeOf ((fun x i => Host.gather gather_S128x128x128_S2000000x3_S2000000_n_012_n_n_012_1_111 x i)
      (m ((c.tc : Thread nD τ).loc main_arg2)) (G m c main_v115)) := by
  rw [G_at1 m c (r := main_v119) (by decide), lsafe1, ← G_at1 m c (r := main_v115) (by decide), G_keep1 m c (r := main_arg2) (by decide), rarg2]

/-- Corner 1's density term is the weight column times the gathered density rows. -/
theorem rtd1 (c : Dev nD) :
    G m c main_v132 = Cert.SpecR.cornerD (G m c main_v124) (G m c main_v119) (m ((c.tc : Thread nD τ).loc main_arg0)) := by
  rw [G_at1 m c (r := main_v132) (by decide), ltd1, ← G_at1 m c (r := main_v124) (by decide), ← G_at1 m c (r := main_v119) (by decide), G_keep1 m c (r := main_arg0) (by decide), rarg0]

/-- Corner 1's harmonics term is the weight column across the lanes times the gathered harmonics rows. -/
theorem rtsh1 (c : Dev nD) :
    G m c main_v142 = Cert.SpecR.cornerSh (G m c main_v124) (G m c main_v119) (m ((c.tc : Thread nD τ).loc main_arg1)) := by
  rw [G_at1 m c (r := main_v142) (by decide), ltsh1, ← G_at1 m c (r := main_v124) (by decide), ← G_at1 m c (r := main_v119) (by decide), G_keep1 m c (r := main_arg1) (by decide), rarg1]

theorem gaccD1 (c : Dev nD) : G m c main_v133 = addf (G m c main_v72) (G m c main_v132) := by
  rw [G_at1 m c (r := main_v133) (by decide), laccD1, ← G_at1 m c (r := main_v132) (by decide), G_keep1 m c (r := main_v72) (by decide)]

theorem gaccSh1 (c : Dev nD) : G m c main_v143 = addf (G m c main_v82) (G m c main_v142) := by
  rw [G_at1 m c (r := main_v143) (by decide), laccSh1, ← G_at1 m c (r := main_v142) (by decide), G_keep1 m c (r := main_v82) (by decide)]

/-- Corner 2's row index is the gathered link, or 0 where the link is negative. -/
theorem rsafe2 (c : Dev nD) :
    G m c main_v184 = Cert.SpecR.safeOf ((fun x i => Host.gather gather_S128x128x128_S2000000x3_S2000000_n_012_n_n_012_1_111 x i)
      (m ((c.tc : Thread nD τ).loc main_arg2)) (G m c main_v180)) := by
  rw [G_at2 m c (r := main_v184) (by decide), lsafe2, ← G_at2 m c (r := main_v180) (by decide), G_keep2 m c (r := main_arg2) (by decide), rarg2]

/-- Corner 2's density term is the weight column times the gathered density rows. -/
theorem rtd2 (c : Dev nD) :
    G m c main_v197 = Cert.SpecR.cornerD (G m c main_v189) (G m c main_v184) (m ((c.tc : Thread nD τ).loc main_arg0)) := by
  rw [G_at2 m c (r := main_v197) (by decide), ltd2, ← G_at2 m c (r := main_v189) (by decide), ← G_at2 m c (r := main_v184) (by decide), G_keep2 m c (r := main_arg0) (by decide), rarg0]

/-- Corner 2's harmonics term is the weight column across the lanes times the gathered harmonics rows. -/
theorem rtsh2 (c : Dev nD) :
    G m c main_v207 = Cert.SpecR.cornerSh (G m c main_v189) (G m c main_v184) (m ((c.tc : Thread nD τ).loc main_arg1)) := by
  rw [G_at2 m c (r := main_v207) (by decide), ltsh2, ← G_at2 m c (r := main_v189) (by decide), ← G_at2 m c (r := main_v184) (by decide), G_keep2 m c (r := main_arg1) (by decide), rarg1]

theorem gaccD2 (c : Dev nD) : G m c main_v198 = addf (G m c main_v133) (G m c main_v197) := by
  rw [G_at2 m c (r := main_v198) (by decide), laccD2, ← G_at2 m c (r := main_v197) (by decide), G_keep2 m c (r := main_v133) (by decide)]

theorem gaccSh2 (c : Dev nD) : G m c main_v208 = addf (G m c main_v143) (G m c main_v207) := by
  rw [G_at2 m c (r := main_v208) (by decide), laccSh2, ← G_at2 m c (r := main_v207) (by decide), G_keep2 m c (r := main_v143) (by decide)]

/-- Corner 3's row index is the gathered link, or 0 where the link is negative. -/
theorem rsafe3 (c : Dev nD) :
    G m c main_v245 = Cert.SpecR.safeOf ((fun x i => Host.gather gather_S128x128x128_S2000000x3_S2000000_n_012_n_n_012_1_111 x i)
      (m ((c.tc : Thread nD τ).loc main_arg2)) (G m c main_v241)) := by
  rw [G_at3 m c (r := main_v245) (by decide), lsafe3, ← G_at3 m c (r := main_v241) (by decide), G_keep3 m c (r := main_arg2) (by decide), rarg2]

/-- Corner 3's density term is the weight column times the gathered density rows. -/
theorem rtd3 (c : Dev nD) :
    G m c main_v258 = Cert.SpecR.cornerD (G m c main_v250) (G m c main_v245) (m ((c.tc : Thread nD τ).loc main_arg0)) := by
  rw [G_at3 m c (r := main_v258) (by decide), ltd3, ← G_at3 m c (r := main_v250) (by decide), ← G_at3 m c (r := main_v245) (by decide), G_keep3 m c (r := main_arg0) (by decide), rarg0]

/-- Corner 3's harmonics term is the weight column across the lanes times the gathered harmonics rows. -/
theorem rtsh3 (c : Dev nD) :
    G m c main_v268 = Cert.SpecR.cornerSh (G m c main_v250) (G m c main_v245) (m ((c.tc : Thread nD τ).loc main_arg1)) := by
  rw [G_at3 m c (r := main_v268) (by decide), ltsh3, ← G_at3 m c (r := main_v250) (by decide), ← G_at3 m c (r := main_v245) (by decide), G_keep3 m c (r := main_arg1) (by decide), rarg1]

theorem gaccD3 (c : Dev nD) : G m c main_v259 = addf (G m c main_v198) (G m c main_v258) := by
  rw [G_at3 m c (r := main_v259) (by decide), laccD3, ← G_at3 m c (r := main_v258) (by decide), G_keep3 m c (r := main_v198) (by decide)]

theorem gaccSh3 (c : Dev nD) : G m c main_v269 = addf (G m c main_v208) (G m c main_v268) := by
  rw [G_at3 m c (r := main_v269) (by decide), laccSh3, ← G_at3 m c (r := main_v268) (by decide), G_keep3 m c (r := main_v208) (by decide)]

/-- Corner 4's row index is the gathered link, or 0 where the link is negative. -/
theorem rsafe4 (c : Dev nD) :
    G m c main_v314 = Cert.SpecR.safeOf ((fun x i => Host.gather gather_S128x128x128_S2000000x3_S2000000_n_012_n_n_012_1_111 x i)
      (m ((c.tc : Thread nD τ).loc main_arg2)) (G m c main_v310)) := by
  rw [G_at4 m c (r := main_v314) (by decide), lsafe4, ← G_at4 m c (r := main_v310) (by decide), G_keep4 m c (r := main_arg2) (by decide), rarg2]

/-- Corner 4's density term is the weight column times the gathered density rows. -/
theorem rtd4 (c : Dev nD) :
    G m c main_v327 = Cert.SpecR.cornerD (G m c main_v319) (G m c main_v314) (m ((c.tc : Thread nD τ).loc main_arg0)) := by
  rw [G_at4 m c (r := main_v327) (by decide), ltd4, ← G_at4 m c (r := main_v319) (by decide), ← G_at4 m c (r := main_v314) (by decide), G_keep4 m c (r := main_arg0) (by decide), rarg0]

/-- Corner 4's harmonics term is the weight column across the lanes times the gathered harmonics rows. -/
theorem rtsh4 (c : Dev nD) :
    G m c main_v337 = Cert.SpecR.cornerSh (G m c main_v319) (G m c main_v314) (m ((c.tc : Thread nD τ).loc main_arg1)) := by
  rw [G_at4 m c (r := main_v337) (by decide), ltsh4, ← G_at4 m c (r := main_v319) (by decide), ← G_at4 m c (r := main_v314) (by decide), G_keep4 m c (r := main_arg1) (by decide), rarg1]

theorem gaccD4 (c : Dev nD) : G m c main_v328 = addf (G m c main_v259) (G m c main_v327) := by
  rw [G_at4 m c (r := main_v328) (by decide), laccD4, ← G_at4 m c (r := main_v327) (by decide), G_keep4 m c (r := main_v259) (by decide)]

theorem gaccSh4 (c : Dev nD) : G m c main_v338 = addf (G m c main_v269) (G m c main_v337) := by
  rw [G_at4 m c (r := main_v338) (by decide), laccSh4, ← G_at4 m c (r := main_v337) (by decide), G_keep4 m c (r := main_v269) (by decide)]

/-- Corner 5's row index is the gathered link, or 0 where the link is negative. -/
theorem rsafe5 (c : Dev nD) :
    G m c main_v375 = Cert.SpecR.safeOf ((fun x i => Host.gather gather_S128x128x128_S2000000x3_S2000000_n_012_n_n_012_1_111 x i)
      (m ((c.tc : Thread nD τ).loc main_arg2)) (G m c main_v371)) := by
  rw [G_at5 m c (r := main_v375) (by decide), lsafe5, ← G_at5 m c (r := main_v371) (by decide), G_keep5 m c (r := main_arg2) (by decide), rarg2]

/-- Corner 5's density term is the weight column times the gathered density rows. -/
theorem rtd5 (c : Dev nD) :
    G m c main_v388 = Cert.SpecR.cornerD (G m c main_v380) (G m c main_v375) (m ((c.tc : Thread nD τ).loc main_arg0)) := by
  rw [G_at5 m c (r := main_v388) (by decide), ltd5, ← G_at5 m c (r := main_v380) (by decide), ← G_at5 m c (r := main_v375) (by decide), G_keep5 m c (r := main_arg0) (by decide), rarg0]

/-- Corner 5's harmonics term is the weight column across the lanes times the gathered harmonics rows. -/
theorem rtsh5 (c : Dev nD) :
    G m c main_v398 = Cert.SpecR.cornerSh (G m c main_v380) (G m c main_v375) (m ((c.tc : Thread nD τ).loc main_arg1)) := by
  rw [G_at5 m c (r := main_v398) (by decide), ltsh5, ← G_at5 m c (r := main_v380) (by decide), ← G_at5 m c (r := main_v375) (by decide), G_keep5 m c (r := main_arg1) (by decide), rarg1]

theorem gaccD5 (c : Dev nD) : G m c main_v389 = addf (G m c main_v328) (G m c main_v388) := by
  rw [G_at5 m c (r := main_v389) (by decide), laccD5, ← G_at5 m c (r := main_v388) (by decide), G_keep5 m c (r := main_v328) (by decide)]

theorem gaccSh5 (c : Dev nD) : G m c main_v399 = addf (G m c main_v338) (G m c main_v398) := by
  rw [G_at5 m c (r := main_v399) (by decide), laccSh5, ← G_at5 m c (r := main_v398) (by decide), G_keep5 m c (r := main_v338) (by decide)]

/-- Corner 6's row index is the gathered link, or 0 where the link is negative. -/
theorem rsafe6 (c : Dev nD) :
    G m c main_v440 = Cert.SpecR.safeOf ((fun x i => Host.gather gather_S128x128x128_S2000000x3_S2000000_n_012_n_n_012_1_111 x i)
      (m ((c.tc : Thread nD τ).loc main_arg2)) (G m c main_v436)) := by
  rw [G_at6 m c (r := main_v440) (by decide), lsafe6, ← G_at6 m c (r := main_v436) (by decide), G_keep6 m c (r := main_arg2) (by decide), rarg2]

/-- Corner 6's density term is the weight column times the gathered density rows. -/
theorem rtd6 (c : Dev nD) :
    G m c main_v453 = Cert.SpecR.cornerD (G m c main_v445) (G m c main_v440) (m ((c.tc : Thread nD τ).loc main_arg0)) := by
  rw [G_at6 m c (r := main_v453) (by decide), ltd6, ← G_at6 m c (r := main_v445) (by decide), ← G_at6 m c (r := main_v440) (by decide), G_keep6 m c (r := main_arg0) (by decide), rarg0]

/-- Corner 6's harmonics term is the weight column across the lanes times the gathered harmonics rows. -/
theorem rtsh6 (c : Dev nD) :
    G m c main_v463 = Cert.SpecR.cornerSh (G m c main_v445) (G m c main_v440) (m ((c.tc : Thread nD τ).loc main_arg1)) := by
  rw [G_at6 m c (r := main_v463) (by decide), ltsh6, ← G_at6 m c (r := main_v445) (by decide), ← G_at6 m c (r := main_v440) (by decide), G_keep6 m c (r := main_arg1) (by decide), rarg1]

theorem gaccD6 (c : Dev nD) : G m c main_v454 = addf (G m c main_v389) (G m c main_v453) := by
  rw [G_at6 m c (r := main_v454) (by decide), laccD6, ← G_at6 m c (r := main_v453) (by decide), G_keep6 m c (r := main_v389) (by decide)]

theorem gaccSh6 (c : Dev nD) : G m c main_v464 = addf (G m c main_v399) (G m c main_v463) := by
  rw [G_at6 m c (r := main_v464) (by decide), laccSh6, ← G_at6 m c (r := main_v463) (by decide), G_keep6 m c (r := main_v399) (by decide)]

/-- Corner 7's row index is the gathered link, or 0 where the link is negative. -/
theorem rsafe7 (c : Dev nD) :
    G m c main_v501 = Cert.SpecR.safeOf ((fun x i => Host.gather gather_S128x128x128_S2000000x3_S2000000_n_012_n_n_012_1_111 x i)
      (m ((c.tc : Thread nD τ).loc main_arg2)) (G m c main_v497)) := by
  rw [G_at7 m c (r := main_v501) (by decide), lsafe7, ← G_at7 m c (r := main_v497) (by decide), G_keep7 m c (r := main_arg2) (by decide), rarg2]

/-- Corner 7's density term is the weight column times the gathered density rows. -/
theorem rtd7 (c : Dev nD) :
    G m c main_v514 = Cert.SpecR.cornerD (G m c main_v506) (G m c main_v501) (m ((c.tc : Thread nD τ).loc main_arg0)) := by
  rw [G_at7 m c (r := main_v514) (by decide), ltd7, ← G_at7 m c (r := main_v506) (by decide), ← G_at7 m c (r := main_v501) (by decide), G_keep7 m c (r := main_arg0) (by decide), rarg0]

/-- Corner 7's harmonics term is the weight column across the lanes times the gathered harmonics rows. -/
theorem rtsh7 (c : Dev nD) :
    G m c main_v524 = Cert.SpecR.cornerSh (G m c main_v506) (G m c main_v501) (m ((c.tc : Thread nD τ).loc main_arg1)) := by
  rw [G_at7 m c (r := main_v524) (by decide), ltsh7, ← G_at7 m c (r := main_v506) (by decide), ← G_at7 m c (r := main_v501) (by decide), G_keep7 m c (r := main_arg1) (by decide), rarg1]

theorem gaccD7 (c : Dev nD) : G m c main_v515 = addf (G m c main_v454) (G m c main_v514) := by
  rw [G_at7 m c (r := main_v515) (by decide), laccD7, ← G_at7 m c (r := main_v514) (by decide), G_keep7 m c (r := main_v454) (by decide)]

theorem gaccSh7 (c : Dev nD) : G m c main_v525 = addf (G m c main_v464) (G m c main_v524) := by
  rw [G_at7 m c (r := main_v525) (by decide), laccSh7, ← G_at7 m c (r := main_v524) (by decide), G_keep7 m c (r := main_v464) (by decide)]

theorem gzeroD (c : Dev nD) : G m c main_v10 = (broadcastInDim S2000000x1 ![] bcast_S_S2000000x1 (constant S_ .f32 0x00000000#32)) := by
  rw [G_at0 m c (r := main_v10) (by decide), rzeroD]

theorem gzeroSh (c : Dev nD) : G m c main_v11 = (broadcastInDim S2000000x27 ![] bcast_S_S2000000x27 (constant S_ .f32 0x00000000#32)) := by
  rw [G_at0 m c (r := main_v11) (by decide), rzeroSh]

/-- The density result is the eight corners' density terms added to zero, first corner first. -/
theorem racc_d (c : Dev nD) :
    G m c main_v515 = (addf (addf (addf (addf (addf (addf (addf (addf (broadcastInDim S2000000x1 ![] bcast_S_S2000000x1 (constant S_ .f32 0x00000000#32)) (G m c main_v71)) (G m c main_v132)) (G m c main_v197)) (G m c main_v258)) (G m c main_v327)) (G m c main_v388)) (G m c main_v453)) (G m c main_v514)) := by
  rw [gaccD7, gaccD6, gaccD5, gaccD4, gaccD3, gaccD2, gaccD1, gaccD0, gzeroD]

/-- The harmonics result is the eight corners' harmonics terms added to zero, first corner first. -/
theorem racc_sh (c : Dev nD) :
    G m c main_v525 = (addf (addf (addf (addf (addf (addf (addf (addf (broadcastInDim S2000000x27 ![] bcast_S_S2000000x27 (constant S_ .f32 0x00000000#32)) (G m c main_v81)) (G m c main_v142)) (G m c main_v207)) (G m c main_v268)) (G m c main_v337)) (G m c main_v398)) (G m c main_v463)) (G m c main_v524)) := by
  rw [gaccSh7, gaccSh6, gaccSh5, gaccSh4, gaccSh3, gaccSh2, gaccSh1, gaccSh0, gzeroSh]

/-- The reference's run with both results named by the fold, and the arguments as launched. -/
theorem run_ref (ρ : Dev nD → PrngReg) :
    θ_run defs (onTc (τ := τ) (main (F := F))) ⟨m, fun _ => 0, ρ⟩ (fun r => ∀ c : Dev nD,
      r.2.mem ((c.tc : Thread nD τ).loc main_v515) = G m c main_v515
      ∧ r.2.mem ((c.tc : Thread nD τ).loc main_v525) = G m c main_v525
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v515, h c main_v525,
      (h c main_arg0).trans (rarg0 m c), (h c main_arg1).trans (rarg1 m c), (h c main_arg2).trans (rarg2 m c), (h c main_arg3).trans (rarg3 m c)⟩)
    (Cert.ReferenceIdeal.RunW.run (F := F) m ρ)

end Cert.ReferenceIdeal.Hand

end
-- ==== Proof.KWrites.lean ====
import proofs.«415466_j54125177864604_3_alg».proof.Proof.Gen.KernelIdeal.Launch
import proofs.«415466_j54125177864604_3_alg».proof.Proof.LibChunk

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]

abbrev W_hostOps0 : List (Ref sig .tc) := [main_cst, main_c, main_cst_0, main_v0, main_v1, main_cst_1]
set_option maxHeartbeats 4000000 in
theorem hW_hostOps0 : WritesIn W_hostOps0 (hostOps0 : List (HloOp τ sig (Elt F))) := by
  unfold WritesIn
  simp only [hostOps0, List.Forall, nullary_writes, unary_writes, binary_writes, ternary_writes, quaternary_writes, reshape_writes, nary_writes]
  repeat' apply And.intro
  all_goals exact singleton_sub_of_mem (by decide)

abbrev W_hostOps0_1 : List (Ref sig .tc) := [main_call0_v0, main_call0_v1, main_call0_v2, main_call0_v3, main_call0_v4, main_v2]
set_option maxHeartbeats 4000000 in
theorem hW_hostOps0_1 : WritesIn W_hostOps0_1 (hostOps0_1 : List (HloOp τ sig (Elt F))) := by
  unfold WritesIn
  simp only [hostOps0_1, List.Forall, nullary_writes, unary_writes, binary_writes, ternary_writes, quaternary_writes, reshape_writes, nary_writes]
  repeat' apply And.intro
  all_goals exact singleton_sub_of_mem (by decide)

abbrev W_hostOps0_2 : List (Ref sig .tc) := [main_v3, main_v4, main_c_2, main_v5, main_v6, main_c_3]
set_option maxHeartbeats 4000000 in
theorem hW_hostOps0_2 : WritesIn W_hostOps0_2 (hostOps0_2 : List (HloOp τ sig (Elt F))) := by
  unfold WritesIn
  simp only [hostOps0_2, List.Forall, nullary_writes, unary_writes, binary_writes, ternary_writes, quaternary_writes, reshape_writes, nary_writes]
  repeat' apply And.intro
  all_goals exact singleton_sub_of_mem (by decide)

abbrev W_hostOps0_3 : List (Ref sig .tc) := [main_call1_v0, main_call1_v1, main_call1_v2, main_call1_v3, main_call1_v4, main_v7]
set_option maxHeartbeats 4000000 in
theorem hW_hostOps0_3 : WritesIn W_hostOps0_3 (hostOps0_3 : List (HloOp τ sig (Elt F))) := by
  unfold WritesIn
  simp only [hostOps0_3, List.Forall, nullary_writes, unary_writes, binary_writes, ternary_writes, quaternary_writes, reshape_writes, nary_writes]
  repeat' apply And.intro
  all_goals exact singleton_sub_of_mem (by decide)

abbrev W_hostOps0_4 : List (Ref sig .tc) := [main_v8, main_v9, main_v10, main_v11, main_v12, main_cst_4, main_v13, main_v14, main_v15, main_v16, main_cst_5, main_v17, main_v18, main_v19, main_v20, main_cst_6, main_v21, main_v22, main_v23, main_v24, main_c_7, main_v25, main_v26, main_v27, main_v28, main_c_8, main_v29, main_v30, main_v31, main_v32, main_c_9, main_v33, main_v34, main_c_10, main_v35, main_v36, main_c_11, main_v37, main_v38, main_v39, main_c_12, main_v40, main_v41, main_c_13, main_v42, main_v43, main_v44, main_c_14, main_v45, main_v46, main_c_15, main_v47, main_v48, main_v49, main_v50, main_v51, main_v52, main_v53, main_v54, main_c_16, main_v55, main_v56, main_c_17]
set_option maxHeartbeats 4000000 in
theorem hW_hostOps0_4 : WritesIn W_hostOps0_4 (hostOps0_4 : List (HloOp τ sig (Elt F))) := by
  unfold WritesIn
  simp only [hostOps0_4, List.Forall, nullary_writes, unary_writes, binary_writes, ternary_writes, quaternary_writes, reshape_writes, nary_writes]
  repeat' apply And.intro
  all_goals exact singleton_sub_of_mem (by decide)

abbrev W_hostOps0_5 : List (Ref sig .tc) := [main_call2_v0, main_call2_v1, main_v57]
set_option maxHeartbeats 4000000 in
theorem hW_hostOps0_5 : WritesIn W_hostOps0_5 (hostOps0_5 : List (HloOp τ sig (Elt F))) := by
  unfold WritesIn
  simp only [hostOps0_5, List.Forall, nullary_writes, unary_writes, binary_writes, ternary_writes, quaternary_writes, reshape_writes, nary_writes]
  repeat' apply And.intro
  all_goals exact singleton_sub_of_mem (by decide)

abbrev W_hostOps0_6 : List (Ref sig .tc) := [main_v58, main_v59, main_v60, main_v61, main_v62]
set_option maxHeartbeats 4000000 in
theorem hW_hostOps0_6 : WritesIn W_hostOps0_6 (hostOps0_6 : List (HloOp τ sig (Elt F))) := by
  unfold WritesIn
  simp only [hostOps0_6, List.Forall, nullary_writes, unary_writes, binary_writes, ternary_writes, quaternary_writes, reshape_writes, nary_writes]
  repeat' apply And.intro
  all_goals exact singleton_sub_of_mem (by decide)

abbrev W_hostOps0_7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v63]
set_option maxHeartbeats 4000000 in
theorem hW_hostOps0_7 : WritesIn W_hostOps0_7 (hostOps0_7 : List (HloOp τ sig (Elt F))) := by
  unfold WritesIn
  simp only [hostOps0_7, List.Forall, nullary_writes, unary_writes, binary_writes, ternary_writes, quaternary_writes, reshape_writes, nary_writes]
  repeat' apply And.intro
  all_goals exact singleton_sub_of_mem (by decide)

abbrev W_hostOps0_8 : List (Ref sig .tc) := [main_v64, main_v65, main_v66, main_v67, main_v68, main_v69, main_c_18, main_v70, main_v71, main_v72, main_v73, main_c_19, main_v74, main_v75, main_v76, main_v77, main_c_20, main_v78, main_v79, main_c_21, main_v80, main_v81, main_c_22, main_v82, main_v83, main_v84, main_c_23, main_v85, main_v86, main_c_24, main_v87, main_v88, main_v89, main_c_25, main_v90, main_v91, main_c_26, main_v92, main_v93, main_v94, main_v95, main_v96, main_v97, main_v98, main_v99, main_c_27, main_v100, main_v101, main_c_28]
set_option maxHeartbeats 4000000 in
theorem hW_hostOps0_8 : WritesIn W_hostOps0_8 (hostOps0_8 : List (HloOp τ sig (Elt F))) := by
  unfold WritesIn
  simp only [hostOps0_8, List.Forall, nullary_writes, unary_writes, binary_writes, ternary_writes, quaternary_writes, reshape_writes, nary_writes]
  repeat' apply And.intro
  all_goals exact singleton_sub_of_mem (by decide)

abbrev W_hostOps0_9 : List (Ref sig .tc) := [main_call4_v0, main_call4_v1, main_v102]
set_option maxHeartbeats 4000000 in
theorem hW_hostOps0_9 : WritesIn W_hostOps0_9 (hostOps0_9 : List (HloOp τ sig (Elt F))) := by
  unfold WritesIn
  simp only [hostOps0_9, List.Forall, nullary_writes, unary_writes, binary_writes, ternary_writes, quaternary_writes, reshape_writes, nary_writes]
  repeat' apply And.intro
  all_goals exact singleton_sub_of_mem (by decide)

abbrev W_hostOps0_10 : List (Ref sig .tc) := [main_v103, main_v104, main_v105, main_v106, main_v107]
set_option maxHeartbeats 4000000 in
theorem hW_hostOps0_10 : WritesIn W_hostOps0_10 (hostOps0_10 : List (HloOp τ sig (Elt F))) := by
  unfold WritesIn
  simp only [hostOps0_10, List.Forall, nullary_writes, unary_writes, binary_writes, ternary_writes, quaternary_writes, reshape_writes, nary_writes]
  repeat' apply And.intro
  all_goals exact singleton_sub_of_mem (by decide)

abbrev W_hostOps0_11 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v108]
set_option maxHeartbeats 4000000 in
theorem hW_hostOps0_11 : WritesIn W_hostOps0_11 (hostOps0_11 : List (HloOp τ sig (Elt F))) := by
  unfold WritesIn
  simp only [hostOps0_11, List.Forall, nullary_writes, unary_writes, binary_writes, ternary_writes, quaternary_writes, reshape_writes, nary_writes]
  repeat' apply And.intro
  all_goals exact singleton_sub_of_mem (by decide)

abbrev W_hostOps0_12 : List (Ref sig .tc) := [main_v109, main_v110, main_v111, main_v112, main_v113, main_v114, main_cst_29, main_v115, main_v116, main_v117, main_v118, main_c_30, main_v119, main_v120, main_v121, main_v122, main_c_31, main_v123, main_v124, main_v125, main_v126, main_c_32, main_v127, main_v128, main_c_33, main_v129, main_v130, main_c_34, main_v131, main_v132, main_v133, main_c_35, main_v134, main_v135, main_c_36, main_v136, main_v137, main_v138, main_c_37, main_v139, main_v140, main_c_38, main_v141, main_v142, main_v143, main_v144, main_v145, main_v146, main_v147, main_v148, main_c_39, main_v149, main_v150, main_c_40]
set_option maxHeartbeats 4000000 in
theorem hW_hostOps0_12 : WritesIn W_hostOps0_12 (hostOps0_12 : List (HloOp τ sig (Elt F))) := by
  unfold WritesIn
  simp only [hostOps0_12, List.Forall, nullary_writes, unary_writes, binary_writes, ternary_writes, quaternary_writes, reshape_writes, nary_writes]
  repeat' apply And.intro
  all_goals exact singleton_sub_of_mem (by decide)

abbrev W_hostOps0_13 : List (Ref sig .tc) := [main_call6_v0, main_call6_v1, main_v151]
set_option maxHeartbeats 4000000 in
theorem hW_hostOps0_13 : WritesIn W_hostOps0_13 (hostOps0_13 : List (HloOp τ sig (Elt F))) := by
  unfold WritesIn
  simp only [hostOps0_13, List.Forall, nullary_writes, unary_writes, binary_writes, ternary_writes, quaternary_writes, reshape_writes, nary_writes]
  repeat' apply And.intro
  all_goals exact singleton_sub_of_mem (by decide)

abbrev W_hostOps0_14 : List (Ref sig .tc) := [main_v152, main_v153, main_v154, main_v155, main_v156]
set_option maxHeartbeats 4000000 in
theorem hW_hostOps0_14 : WritesIn W_hostOps0_14 (hostOps0_14 : List (HloOp τ sig (Elt F))) := by
  unfold WritesIn
  simp only [hostOps0_14, List.Forall, nullary_writes, unary_writes, binary_writes, ternary_writes, quaternary_writes, reshape_writes, nary_writes]
  repeat' apply And.intro
  all_goals exact singleton_sub_of_mem (by decide)

abbrev W_hostOps0_15 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v157]
set_option maxHeartbeats 4000000 in
theorem hW_hostOps0_15 : WritesIn W_hostOps0_15 (hostOps0_15 : List (HloOp τ sig (Elt F))) := by
  unfold WritesIn
  simp only [hostOps0_15, List.Forall, nullary_writes, unary_writes, binary_writes, ternary_writes, quaternary_writes, reshape_writes, nary_writes]
  repeat' apply And.intro
  all_goals exact singleton_sub_of_mem (by decide)

abbrev W_hostOps0_16 : List (Ref sig .tc) := [main_v158, main_v159, main_v160, main_v161, main_v162, main_v163, main_c_41, main_v164, main_v165, main_v166, main_v167, main_c_42, main_v168, main_v169, main_v170, main_v171, main_c_43, main_v172, main_v173, main_c_44, main_v174, main_v175, main_c_45, main_v176, main_v177, main_v178, main_c_46, main_v179, main_v180, main_c_47, main_v181, main_v182, main_v183, main_c_48, main_v184, main_v185, main_c_49, main_v186, main_v187, main_v188, main_v189, main_v190, main_v191, main_v192, main_v193, main_c_50, main_v194, main_v195, main_c_51]
set_option maxHeartbeats 4000000 in
theorem hW_hostOps0_16 : WritesIn W_hostOps0_16 (hostOps0_16 : List (HloOp τ sig (Elt F))) := by
  unfold WritesIn
  simp only [hostOps0_16, List.Forall, nullary_writes, unary_writes, binary_writes, ternary_writes, quaternary_writes, reshape_writes, nary_writes]
  repeat' apply And.intro
  all_goals exact singleton_sub_of_mem (by decide)

abbrev W_hostOps0_17 : List (Ref sig .tc) := [main_call8_v0, main_call8_v1, main_v196]
set_option maxHeartbeats 4000000 in
theorem hW_hostOps0_17 : WritesIn W_hostOps0_17 (hostOps0_17 : List (HloOp τ sig (Elt F))) := by
  unfold WritesIn
  simp only [hostOps0_17, List.Forall, nullary_writes, unary_writes, binary_writes, ternary_writes, quaternary_writes, reshape_writes, nary_writes]
  repeat' apply And.intro
  all_goals exact singleton_sub_of_mem (by decide)

abbrev W_hostOps0_18 : List (Ref sig .tc) := [main_v197, main_v198, main_v199, main_v200, main_v201]
set_option maxHeartbeats 4000000 in
theorem hW_hostOps0_18 : WritesIn W_hostOps0_18 (hostOps0_18 : List (HloOp τ sig (Elt F))) := by
  unfold WritesIn
  simp only [hostOps0_18, List.Forall, nullary_writes, unary_writes, binary_writes, ternary_writes, quaternary_writes, reshape_writes, nary_writes]
  repeat' apply And.intro
  all_goals exact singleton_sub_of_mem (by decide)

abbrev W_hostOps0_19 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v202]
set_option maxHeartbeats 4000000 in
theorem hW_hostOps0_19 : WritesIn W_hostOps0_19 (hostOps0_19 : List (HloOp τ sig (Elt F))) := by
  unfold WritesIn
  simp only [hostOps0_19, List.Forall, nullary_writes, unary_writes, binary_writes, ternary_writes, quaternary_writes, reshape_writes, nary_writes]
  repeat' apply And.intro
  all_goals exact singleton_sub_of_mem (by decide)

abbrev W_hostOps0_20 : List (Ref sig .tc) := [main_v203, main_v204, main_v205, main_v206, main_v207, main_v208, main_cst_52, main_v209, main_v210, main_v211, main_v212, main_cst_53, main_v213, main_v214, main_v215, main_v216, main_c_54, main_v217, main_v218, main_v219, main_v220, main_c_55, main_v221, main_v222, main_v223, main_v224, main_c_56, main_v225, main_v226, main_c_57, main_v227, main_v228, main_c_58, main_v229, main_v230, main_v231, main_c_59, main_v232, main_v233, main_c_60, main_v234, main_v235, main_v236, main_c_61, main_v237, main_v238, main_c_62, main_v239, main_v240, main_v241, main_v242, main_v243, main_v244, main_v245, main_v246, main_c_63, main_v247, main_v248, main_c_64]
set_option maxHeartbeats 4000000 in
theorem hW_hostOps0_20 : WritesIn W_hostOps0_20 (hostOps0_20 : List (HloOp τ sig (Elt F))) := by
  unfold WritesIn
  simp only [hostOps0_20, List.Forall, nullary_writes, unary_writes, binary_writes, ternary_writes, quaternary_writes, reshape_writes, nary_writes]
  repeat' apply And.intro
  all_goals exact singleton_sub_of_mem (by decide)

abbrev W_hostOps0_21 : List (Ref sig .tc) := [main_call10_v0, main_call10_v1, main_v249]
set_option maxHeartbeats 4000000 in
theorem hW_hostOps0_21 : WritesIn W_hostOps0_21 (hostOps0_21 : List (HloOp τ sig (Elt F))) := by
  unfold WritesIn
  simp only [hostOps0_21, List.Forall, nullary_writes, unary_writes, binary_writes, ternary_writes, quaternary_writes, reshape_writes, nary_writes]
  repeat' apply And.intro
  all_goals exact singleton_sub_of_mem (by decide)

abbrev W_hostOps0_22 : List (Ref sig .tc) := [main_v250, main_v251, main_v252, main_v253, main_v254]
set_option maxHeartbeats 4000000 in
theorem hW_hostOps0_22 : WritesIn W_hostOps0_22 (hostOps0_22 : List (HloOp τ sig (Elt F))) := by
  unfold WritesIn
  simp only [hostOps0_22, List.Forall, nullary_writes, unary_writes, binary_writes, ternary_writes, quaternary_writes, reshape_writes, nary_writes]
  repeat' apply And.intro
  all_goals exact singleton_sub_of_mem (by decide)

abbrev W_hostOps0_23 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v255]
set_option maxHeartbeats 4000000 in
theorem hW_hostOps0_23 : WritesIn W_hostOps0_23 (hostOps0_23 : List (HloOp τ sig (Elt F))) := by
  unfold WritesIn
  simp only [hostOps0_23, List.Forall, nullary_writes, unary_writes, binary_writes, ternary_writes, quaternary_writes, reshape_writes, nary_writes]
  repeat' apply And.intro
  all_goals exact singleton_sub_of_mem (by decide)

abbrev W_hostOps0_24 : List (Ref sig .tc) := [main_v256, main_v257, main_v258, main_v259, main_v260, main_v261, main_c_65, main_v262, main_v263, main_v264, main_v265, main_c_66, main_v266, main_v267, main_v268, main_v269, main_c_67, main_v270, main_v271, main_c_68, main_v272, main_v273, main_c_69, main_v274, main_v275, main_v276, main_c_70, main_v277, main_v278, main_c_71, main_v279, main_v280, main_v281, main_c_72, main_v282, main_v283, main_c_73, main_v284, main_v285, main_v286, main_v287, main_v288, main_v289, main_v290, main_v291, main_c_74, main_v292, main_v293, main_c_75]
set_option maxHeartbeats 4000000 in
theorem hW_hostOps0_24 : WritesIn W_hostOps0_24 (hostOps0_24 : List (HloOp τ sig (Elt F))) := by
  unfold WritesIn
  simp only [hostOps0_24, List.Forall, nullary_writes, unary_writes, binary_writes, ternary_writes, quaternary_writes, reshape_writes, nary_writes]
  repeat' apply And.intro
  all_goals exact singleton_sub_of_mem (by decide)

abbrev W_hostOps0_25 : List (Ref sig .tc) := [main_call12_v0, main_call12_v1, main_v294]
set_option maxHeartbeats 4000000 in
theorem hW_hostOps0_25 : WritesIn W_hostOps0_25 (hostOps0_25 : List (HloOp τ sig (Elt F))) := by
  unfold WritesIn
  simp only [hostOps0_25, List.Forall, nullary_writes, unary_writes, binary_writes, ternary_writes, quaternary_writes, reshape_writes, nary_writes]
  repeat' apply And.intro
  all_goals exact singleton_sub_of_mem (by decide)

abbrev W_hostOps0_26 : List (Ref sig .tc) := [main_v295, main_v296, main_v297, main_v298, main_v299]
set_option maxHeartbeats 4000000 in
theorem hW_hostOps0_26 : WritesIn W_hostOps0_26 (hostOps0_26 : List (HloOp τ sig (Elt F))) := by
  unfold WritesIn
  simp only [hostOps0_26, List.Forall, nullary_writes, unary_writes, binary_writes, ternary_writes, quaternary_writes, reshape_writes, nary_writes]
  repeat' apply And.intro
  all_goals exact singleton_sub_of_mem (by decide)

abbrev W_hostOps0_27 : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v300]
set_option maxHeartbeats 4000000 in
theorem hW_hostOps0_27 : WritesIn W_hostOps0_27 (hostOps0_27 : List (HloOp τ sig (Elt F))) := by
  unfold WritesIn
  simp only [hostOps0_27, List.Forall, nullary_writes, unary_writes, binary_writes, ternary_writes, quaternary_writes, reshape_writes, nary_writes]
  repeat' apply And.intro
  all_goals exact singleton_sub_of_mem (by decide)

abbrev W_hostOps0_28 : List (Ref sig .tc) := [main_v301, main_v302, main_v303, main_v304, main_v305, main_v306, main_cst_76, main_v307, main_v308, main_v309, main_v310, main_c_77, main_v311, main_v312, main_v313, main_v314, main_c_78, main_v315, main_v316, main_v317, main_v318, main_c_79, main_v319, main_v320, main_c_80, main_v321, main_v322, main_c_81, main_v323, main_v324, main_v325, main_c_82, main_v326, main_v327, main_c_83, main_v328, main_v329, main_v330, main_c_84, main_v331, main_v332, main_c_85, main_v333, main_v334, main_v335, main_v336, main_v337, main_v338, main_v339, main_v340, main_c_86, main_v341, main_v342, main_c_87]
set_option maxHeartbeats 4000000 in
theorem hW_hostOps0_28 : WritesIn W_hostOps0_28 (hostOps0_28 : List (HloOp τ sig (Elt F))) := by
  unfold WritesIn
  simp only [hostOps0_28, List.Forall, nullary_writes, unary_writes, binary_writes, ternary_writes, quaternary_writes, reshape_writes, nary_writes]
  repeat' apply And.intro
  all_goals exact singleton_sub_of_mem (by decide)

abbrev W_hostOps0_29 : List (Ref sig .tc) := [main_call14_v0, main_call14_v1, main_v343]
set_option maxHeartbeats 4000000 in
theorem hW_hostOps0_29 : WritesIn W_hostOps0_29 (hostOps0_29 : List (HloOp τ sig (Elt F))) := by
  unfold WritesIn
  simp only [hostOps0_29, List.Forall, nullary_writes, unary_writes, binary_writes, ternary_writes, quaternary_writes, reshape_writes, nary_writes]
  repeat' apply And.intro
  all_goals exact singleton_sub_of_mem (by decide)

abbrev W_hostOps0_30 : List (Ref sig .tc) := [main_v344, main_v345, main_v346, main_v347, main_v348]
set_option maxHeartbeats 4000000 in
theorem hW_hostOps0_30 : WritesIn W_hostOps0_30 (hostOps0_30 : List (HloOp τ sig (Elt F))) := by
  unfold WritesIn
  simp only [hostOps0_30, List.Forall, nullary_writes, unary_writes, binary_writes, ternary_writes, quaternary_writes, reshape_writes, nary_writes]
  repeat' apply And.intro
  all_goals exact singleton_sub_of_mem (by decide)

abbrev W_hostOps0_31 : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v349]
set_option maxHeartbeats 4000000 in
theorem hW_hostOps0_31 : WritesIn W_hostOps0_31 (hostOps0_31 : List (HloOp τ sig (Elt F))) := by
  unfold WritesIn
  simp only [hostOps0_31, List.Forall, nullary_writes, unary_writes, binary_writes, ternary_writes, quaternary_writes, reshape_writes, nary_writes]
  repeat' apply And.intro
  all_goals exact singleton_sub_of_mem (by decide)

abbrev W_hostOps0_32 : List (Ref sig .tc) := [main_v350, main_v351, main_v352, main_v353, main_v354, main_v355, main_c_88, main_v356, main_v357, main_v358, main_v359, main_c_89, main_v360, main_v361, main_v362, main_v363, main_c_90, main_v364, main_v365, main_c_91, main_v366, main_v367, main_c_92, main_v368, main_v369, main_v370, main_c_93, main_v371, main_v372, main_c_94, main_v373, main_v374, main_v375, main_c_95, main_v376, main_v377, main_c_96, main_v378, main_v379, main_v380, main_v381, main_v382, main_v383, main_v384, main_v385, main_c_97, main_v386, main_v387, main_c_98]
set_option maxHeartbeats 4000000 in
theorem hW_hostOps0_32 : WritesIn W_hostOps0_32 (hostOps0_32 : List (HloOp τ sig (Elt F))) := by
  unfold WritesIn
  simp only [hostOps0_32, List.Forall, nullary_writes, unary_writes, binary_writes, ternary_writes, quaternary_writes, reshape_writes, nary_writes]
  repeat' apply And.intro
  all_goals exact singleton_sub_of_mem (by decide)

abbrev W_hostOps0_33 : List (Ref sig .tc) := [main_call16_v0, main_call16_v1, main_v388]
set_option maxHeartbeats 4000000 in
theorem hW_hostOps0_33 : WritesIn W_hostOps0_33 (hostOps0_33 : List (HloOp τ sig (Elt F))) := by
  unfold WritesIn
  simp only [hostOps0_33, List.Forall, nullary_writes, unary_writes, binary_writes, ternary_writes, quaternary_writes, reshape_writes, nary_writes]
  repeat' apply And.intro
  all_goals exact singleton_sub_of_mem (by decide)

abbrev W_hostOps0_34 : List (Ref sig .tc) := [main_v389, main_v390, main_v391, main_v392, main_v393]
set_option maxHeartbeats 4000000 in
theorem hW_hostOps0_34 : WritesIn W_hostOps0_34 (hostOps0_34 : List (HloOp τ sig (Elt F))) := by
  unfold WritesIn
  simp only [hostOps0_34, List.Forall, nullary_writes, unary_writes, binary_writes, ternary_writes, quaternary_writes, reshape_writes, nary_writes]
  repeat' apply And.intro
  all_goals exact singleton_sub_of_mem (by decide)

abbrev W_hostOps0_35 : List (Ref sig .tc) := [main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v394]
set_option maxHeartbeats 4000000 in
theorem hW_hostOps0_35 : WritesIn W_hostOps0_35 (hostOps0_35 : List (HloOp τ sig (Elt F))) := by
  unfold WritesIn
  simp only [hostOps0_35, List.Forall, nullary_writes, unary_writes, binary_writes, ternary_writes, quaternary_writes, reshape_writes, nary_writes]
  repeat' apply And.intro
  all_goals exact singleton_sub_of_mem (by decide)

abbrev W_hostOps0_36 : List (Ref sig .tc) := [main_v395, main_v396]
set_option maxHeartbeats 4000000 in
theorem hW_hostOps0_36 : WritesIn W_hostOps0_36 (hostOps0_36 : List (HloOp τ sig (Elt F))) := by
  unfold WritesIn
  simp only [hostOps0_36, List.Forall, nullary_writes, unary_writes, binary_writes, ternary_writes, quaternary_writes, reshape_writes, nary_writes]
  repeat' apply And.intro
  all_goals exact singleton_sub_of_mem (by decide)

end Cert.KernelIdeal.Hand

end
-- ==== Proof.KHostC.lean ====
import proofs.«415466_j54125177864604_3_alg».proof.Proof.KIFrame
import proofs.«415466_j54125177864604_3_alg».proof.Proof.KWrites
import proofs.«415466_j54125177864604_3_alg».proof.Proof.LibChunk

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

/-- Chunk 0 of the host lines. -/
abbrev KC0 : List (HloOp τ sig (Elt F)) := hostOps0 ++ (hostOps0_1 ++ (hostOps0_2 ++ (hostOps0_3 ++ (hostOps0_4 ++ (hostOps0_5 ++ (hostOps0_6))))))
abbrev WKC0 : List (Ref sig .tc) := W_hostOps0 ++ (W_hostOps0_1 ++ (W_hostOps0_2 ++ (W_hostOps0_3 ++ (W_hostOps0_4 ++ (W_hostOps0_5 ++ (W_hostOps0_6))))))
theorem hWKC0 : WritesIn WKC0 (KC0 (F := F)) := (hW_hostOps0).append ((hW_hostOps0_1).append ((hW_hostOps0_2).append ((hW_hostOps0_3).append ((hW_hostOps0_4).append ((hW_hostOps0_5).append (hW_hostOps0_6))))))
/-- Chunk 1 of the host lines. -/
abbrev KC1 : List (HloOp τ sig (Elt F)) := hostOps0_7
abbrev WKC1 : List (Ref sig .tc) := W_hostOps0_7
theorem hWKC1 : WritesIn WKC1 (KC1 (F := F)) := hW_hostOps0_7
/-- Chunk 2 of the host lines. -/
abbrev KC2 : List (HloOp τ sig (Elt F)) := hostOps0_8 ++ (hostOps0_9 ++ (hostOps0_10))
abbrev WKC2 : List (Ref sig .tc) := W_hostOps0_8 ++ (W_hostOps0_9 ++ (W_hostOps0_10))
theorem hWKC2 : WritesIn WKC2 (KC2 (F := F)) := (hW_hostOps0_8).append ((hW_hostOps0_9).append (hW_hostOps0_10))
/-- Chunk 3 of the host lines. -/
abbrev KC3 : List (HloOp τ sig (Elt F)) := hostOps0_11
abbrev WKC3 : List (Ref sig .tc) := W_hostOps0_11
theorem hWKC3 : WritesIn WKC3 (KC3 (F := F)) := hW_hostOps0_11
/-- Chunk 4 of the host lines. -/
abbrev KC4 : List (HloOp τ sig (Elt F)) := hostOps0_12 ++ (hostOps0_13 ++ (hostOps0_14))
abbrev WKC4 : List (Ref sig .tc) := W_hostOps0_12 ++ (W_hostOps0_13 ++ (W_hostOps0_14))
theorem hWKC4 : WritesIn WKC4 (KC4 (F := F)) := (hW_hostOps0_12).append ((hW_hostOps0_13).append (hW_hostOps0_14))
/-- Chunk 5 of the host lines. -/
abbrev KC5 : List (HloOp τ sig (Elt F)) := hostOps0_15
abbrev WKC5 : List (Ref sig .tc) := W_hostOps0_15
theorem hWKC5 : WritesIn WKC5 (KC5 (F := F)) := hW_hostOps0_15
/-- Chunk 6 of the host lines. -/
abbrev KC6 : List (HloOp τ sig (Elt F)) := hostOps0_16 ++ (hostOps0_17 ++ (hostOps0_18))
abbrev WKC6 : List (Ref sig .tc) := W_hostOps0_16 ++ (W_hostOps0_17 ++ (W_hostOps0_18))
theorem hWKC6 : WritesIn WKC6 (KC6 (F := F)) := (hW_hostOps0_16).append ((hW_hostOps0_17).append (hW_hostOps0_18))
/-- Chunk 7 of the host lines. -/
abbrev KC7 : List (HloOp τ sig (Elt F)) := hostOps0_19
abbrev WKC7 : List (Ref sig .tc) := W_hostOps0_19
theorem hWKC7 : WritesIn WKC7 (KC7 (F := F)) := hW_hostOps0_19
/-- Chunk 8 of the host lines. -/
abbrev KC8 : List (HloOp τ sig (Elt F)) := hostOps0_20 ++ (hostOps0_21 ++ (hostOps0_22))
abbrev WKC8 : List (Ref sig .tc) := W_hostOps0_20 ++ (W_hostOps0_21 ++ (W_hostOps0_22))
theorem hWKC8 : WritesIn WKC8 (KC8 (F := F)) := (hW_hostOps0_20).append ((hW_hostOps0_21).append (hW_hostOps0_22))
/-- Chunk 9 of the host lines. -/
abbrev KC9 : List (HloOp τ sig (Elt F)) := hostOps0_23
abbrev WKC9 : List (Ref sig .tc) := W_hostOps0_23
theorem hWKC9 : WritesIn WKC9 (KC9 (F := F)) := hW_hostOps0_23
/-- Chunk 10 of the host lines. -/
abbrev KC10 : List (HloOp τ sig (Elt F)) := hostOps0_24 ++ (hostOps0_25 ++ (hostOps0_26))
abbrev WKC10 : List (Ref sig .tc) := W_hostOps0_24 ++ (W_hostOps0_25 ++ (W_hostOps0_26))
theorem hWKC10 : WritesIn WKC10 (KC10 (F := F)) := (hW_hostOps0_24).append ((hW_hostOps0_25).append (hW_hostOps0_26))
/-- Chunk 11 of the host lines. -/
abbrev KC11 : List (HloOp τ sig (Elt F)) := hostOps0_27
abbrev WKC11 : List (Ref sig .tc) := W_hostOps0_27
theorem hWKC11 : WritesIn WKC11 (KC11 (F := F)) := hW_hostOps0_27
/-- Chunk 12 of the host lines. -/
abbrev KC12 : List (HloOp τ sig (Elt F)) := hostOps0_28 ++ (hostOps0_29 ++ (hostOps0_30))
abbrev WKC12 : List (Ref sig .tc) := W_hostOps0_28 ++ (W_hostOps0_29 ++ (W_hostOps0_30))
theorem hWKC12 : WritesIn WKC12 (KC12 (F := F)) := (hW_hostOps0_28).append ((hW_hostOps0_29).append (hW_hostOps0_30))
/-- Chunk 13 of the host lines. -/
abbrev KC13 : List (HloOp τ sig (Elt F)) := hostOps0_31
abbrev WKC13 : List (Ref sig .tc) := W_hostOps0_31
theorem hWKC13 : WritesIn WKC13 (KC13 (F := F)) := hW_hostOps0_31
/-- Chunk 14 of the host lines. -/
abbrev KC14 : List (HloOp τ sig (Elt F)) := hostOps0_32 ++ (hostOps0_33 ++ (hostOps0_34))
abbrev WKC14 : List (Ref sig .tc) := W_hostOps0_32 ++ (W_hostOps0_33 ++ (W_hostOps0_34))
theorem hWKC14 : WritesIn WKC14 (KC14 (F := F)) := (hW_hostOps0_32).append ((hW_hostOps0_33).append (hW_hostOps0_34))
/-- Chunk 15 of the host lines. -/
abbrev KC15 : List (HloOp τ sig (Elt F)) := hostOps0_35
abbrev WKC15 : List (Ref sig .tc) := W_hostOps0_35
theorem hWKC15 : WritesIn WKC15 (KC15 (F := F)) := hW_hostOps0_35
/-- Chunk 16 of the host lines. -/
abbrev KC16 : List (HloOp τ sig (Elt F)) := hostOps0_36
abbrev WKC16 : List (Ref sig .tc) := W_hostOps0_36
theorem hWKC16 : WritesIn WKC16 (KC16 (F := F)) := hW_hostOps0_36

abbrev kpre0 : List (HloOp τ sig (Elt F)) := []
abbrev kpost0 : List (HloOp τ sig (Elt F)) := KC1 ++ (KC2 ++ (KC3 ++ (KC4 ++ (KC5 ++ (KC6 ++ (KC7 ++ (KC8 ++ (KC9 ++ (KC10 ++ (KC11 ++ (KC12 ++ (KC13 ++ (KC14 ++ (KC15 ++ (KC16)))))))))))))))
abbrev Wkpost0 : List (Ref sig .tc) := WKC1 ++ (WKC2 ++ (WKC3 ++ (WKC4 ++ (WKC5 ++ (WKC6 ++ (WKC7 ++ (WKC8 ++ (WKC9 ++ (WKC10 ++ (WKC11 ++ (WKC12 ++ (WKC13 ++ (WKC14 ++ (WKC15 ++ (WKC16)))))))))))))))
theorem hWkpost0 : WritesIn Wkpost0 (kpost0 (F := F)) := (hWKC1).append ((hWKC2).append ((hWKC3).append ((hWKC4).append ((hWKC5).append ((hWKC6).append ((hWKC7).append ((hWKC8).append ((hWKC9).append ((hWKC10).append ((hWKC11).append ((hWKC12).append ((hWKC13).append ((hWKC14).append ((hWKC15).append (hWKC16)))))))))))))))
theorem ksplit0 : List.flatten (hostLines (F := F)) = kpre0 ++ (KC0 ++ kpost0) := by
  simp only [hostLines, kpre0, kpost0, KC0, KC1, KC2, KC3, KC4, KC5, KC6, KC7, KC8, KC9, KC10, KC11, KC12, KC13, KC14, KC15, KC16, List.flatten_cons, List.flatten_nil, List.append_assoc, List.append_nil, List.nil_append]
/-- The buffers as chunk 0 finds them. -/
abbrev Vpre0 (c : Dev nD) : Valuation τ sig (Elt F) := StableHlo.after (kpre0 (F := F)) (fun b => m (c, b))
/-- A buffer no later chunk writes is, after the whole line, what chunk 0 leaves. -/
theorem V_at0 (c : Dev nD) {r : Ref sig .tc} (hr : r ∉ Wkpost0) :
    V m c r = StableHlo.after (KC0 (F := F)) (Vpre0 m c) (Proc.devRef .tc r) := by
  show StableHlo.after (List.flatten hostLines) _ _ = _
  rw [ksplit0]
  exact after_mid _ _ _ hWkpost0 hr _
/-- A buffer neither chunk 0 nor a later one writes is, as chunk 0 finds it, what it is after the whole line. -/
theorem V_keep0 (c : Dev nD) {r : Ref sig .tc} (hr : r ∉ WKC0 ++ Wkpost0) :
    Vpre0 m c (Proc.devRef .tc r) = V m c r := by
  show _ = StableHlo.after (List.flatten hostLines) _ _
  rw [ksplit0]
  exact (after_pre _ _ (hWKC0.append hWkpost0) hr _).symm

abbrev kpre1 : List (HloOp τ sig (Elt F)) := KC0
abbrev kpost1 : List (HloOp τ sig (Elt F)) := KC2 ++ (KC3 ++ (KC4 ++ (KC5 ++ (KC6 ++ (KC7 ++ (KC8 ++ (KC9 ++ (KC10 ++ (KC11 ++ (KC12 ++ (KC13 ++ (KC14 ++ (KC15 ++ (KC16))))))))))))))
abbrev Wkpost1 : List (Ref sig .tc) := WKC2 ++ (WKC3 ++ (WKC4 ++ (WKC5 ++ (WKC6 ++ (WKC7 ++ (WKC8 ++ (WKC9 ++ (WKC10 ++ (WKC11 ++ (WKC12 ++ (WKC13 ++ (WKC14 ++ (WKC15 ++ (WKC16))))))))))))))
theorem hWkpost1 : WritesIn Wkpost1 (kpost1 (F := F)) := (hWKC2).append ((hWKC3).append ((hWKC4).append ((hWKC5).append ((hWKC6).append ((hWKC7).append ((hWKC8).append ((hWKC9).append ((hWKC10).append ((hWKC11).append ((hWKC12).append ((hWKC13).append ((hWKC14).append ((hWKC15).append (hWKC16))))))))))))))
theorem ksplit1 : List.flatten (hostLines (F := F)) = kpre1 ++ (KC1 ++ kpost1) := by
  simp only [hostLines, kpre1, kpost1, KC0, KC1, KC2, KC3, KC4, KC5, KC6, KC7, KC8, KC9, KC10, KC11, KC12, KC13, KC14, KC15, KC16, List.flatten_cons, List.flatten_nil, List.append_assoc, List.append_nil, List.nil_append]
/-- The buffers as chunk 1 finds them. -/
abbrev Vpre1 (c : Dev nD) : Valuation τ sig (Elt F) := StableHlo.after (kpre1 (F := F)) (fun b => m (c, b))
/-- A buffer no later chunk writes is, after the whole line, what chunk 1 leaves. -/
theorem V_at1 (c : Dev nD) {r : Ref sig .tc} (hr : r ∉ Wkpost1) :
    V m c r = StableHlo.after (KC1 (F := F)) (Vpre1 m c) (Proc.devRef .tc r) := by
  show StableHlo.after (List.flatten hostLines) _ _ = _
  rw [ksplit1]
  exact after_mid _ _ _ hWkpost1 hr _
/-- A buffer neither chunk 1 nor a later one writes is, as chunk 1 finds it, what it is after the whole line. -/
theorem V_keep1 (c : Dev nD) {r : Ref sig .tc} (hr : r ∉ WKC1 ++ Wkpost1) :
    Vpre1 m c (Proc.devRef .tc r) = V m c r := by
  show _ = StableHlo.after (List.flatten hostLines) _ _
  rw [ksplit1]
  exact (after_pre _ _ (hWKC1.append hWkpost1) hr _).symm

abbrev kpre2 : List (HloOp τ sig (Elt F)) := KC0 ++ (KC1)
abbrev kpost2 : List (HloOp τ sig (Elt F)) := KC3 ++ (KC4 ++ (KC5 ++ (KC6 ++ (KC7 ++ (KC8 ++ (KC9 ++ (KC10 ++ (KC11 ++ (KC12 ++ (KC13 ++ (KC14 ++ (KC15 ++ (KC16)))))))))))))
abbrev Wkpost2 : List (Ref sig .tc) := WKC3 ++ (WKC4 ++ (WKC5 ++ (WKC6 ++ (WKC7 ++ (WKC8 ++ (WKC9 ++ (WKC10 ++ (WKC11 ++ (WKC12 ++ (WKC13 ++ (WKC14 ++ (WKC15 ++ (WKC16)))))))))))))
theorem hWkpost2 : WritesIn Wkpost2 (kpost2 (F := F)) := (hWKC3).append ((hWKC4).append ((hWKC5).append ((hWKC6).append ((hWKC7).append ((hWKC8).append ((hWKC9).append ((hWKC10).append ((hWKC11).append ((hWKC12).append ((hWKC13).append ((hWKC14).append ((hWKC15).append (hWKC16)))))))))))))
theorem ksplit2 : List.flatten (hostLines (F := F)) = kpre2 ++ (KC2 ++ kpost2) := by
  simp only [hostLines, kpre2, kpost2, KC0, KC1, KC2, KC3, KC4, KC5, KC6, KC7, KC8, KC9, KC10, KC11, KC12, KC13, KC14, KC15, KC16, List.flatten_cons, List.flatten_nil, List.append_assoc, List.append_nil, List.nil_append]
/-- The buffers as chunk 2 finds them. -/
abbrev Vpre2 (c : Dev nD) : Valuation τ sig (Elt F) := StableHlo.after (kpre2 (F := F)) (fun b => m (c, b))
/-- A buffer no later chunk writes is, after the whole line, what chunk 2 leaves. -/
theorem V_at2 (c : Dev nD) {r : Ref sig .tc} (hr : r ∉ Wkpost2) :
    V m c r = StableHlo.after (KC2 (F := F)) (Vpre2 m c) (Proc.devRef .tc r) := by
  show StableHlo.after (List.flatten hostLines) _ _ = _
  rw [ksplit2]
  exact after_mid _ _ _ hWkpost2 hr _
/-- A buffer neither chunk 2 nor a later one writes is, as chunk 2 finds it, what it is after the whole line. -/
theorem V_keep2 (c : Dev nD) {r : Ref sig .tc} (hr : r ∉ WKC2 ++ Wkpost2) :
    Vpre2 m c (Proc.devRef .tc r) = V m c r := by
  show _ = StableHlo.after (List.flatten hostLines) _ _
  rw [ksplit2]
  exact (after_pre _ _ (hWKC2.append hWkpost2) hr _).symm

abbrev kpre3 : List (HloOp τ sig (Elt F)) := KC0 ++ (KC1 ++ (KC2))
abbrev kpost3 : List (HloOp τ sig (Elt F)) := KC4 ++ (KC5 ++ (KC6 ++ (KC7 ++ (KC8 ++ (KC9 ++ (KC10 ++ (KC11 ++ (KC12 ++ (KC13 ++ (KC14 ++ (KC15 ++ (KC16))))))))))))
abbrev Wkpost3 : List (Ref sig .tc) := WKC4 ++ (WKC5 ++ (WKC6 ++ (WKC7 ++ (WKC8 ++ (WKC9 ++ (WKC10 ++ (WKC11 ++ (WKC12 ++ (WKC13 ++ (WKC14 ++ (WKC15 ++ (WKC16))))))))))))
theorem hWkpost3 : WritesIn Wkpost3 (kpost3 (F := F)) := (hWKC4).append ((hWKC5).append ((hWKC6).append ((hWKC7).append ((hWKC8).append ((hWKC9).append ((hWKC10).append ((hWKC11).append ((hWKC12).append ((hWKC13).append ((hWKC14).append ((hWKC15).append (hWKC16))))))))))))
theorem ksplit3 : List.flatten (hostLines (F := F)) = kpre3 ++ (KC3 ++ kpost3) := by
  simp only [hostLines, kpre3, kpost3, KC0, KC1, KC2, KC3, KC4, KC5, KC6, KC7, KC8, KC9, KC10, KC11, KC12, KC13, KC14, KC15, KC16, List.flatten_cons, List.flatten_nil, List.append_assoc, List.append_nil, List.nil_append]
/-- The buffers as chunk 3 finds them. -/
abbrev Vpre3 (c : Dev nD) : Valuation τ sig (Elt F) := StableHlo.after (kpre3 (F := F)) (fun b => m (c, b))
/-- A buffer no later chunk writes is, after the whole line, what chunk 3 leaves. -/
theorem V_at3 (c : Dev nD) {r : Ref sig .tc} (hr : r ∉ Wkpost3) :
    V m c r = StableHlo.after (KC3 (F := F)) (Vpre3 m c) (Proc.devRef .tc r) := by
  show StableHlo.after (List.flatten hostLines) _ _ = _
  rw [ksplit3]
  exact after_mid _ _ _ hWkpost3 hr _
/-- A buffer neither chunk 3 nor a later one writes is, as chunk 3 finds it, what it is after the whole line. -/
theorem V_keep3 (c : Dev nD) {r : Ref sig .tc} (hr : r ∉ WKC3 ++ Wkpost3) :
    Vpre3 m c (Proc.devRef .tc r) = V m c r := by
  show _ = StableHlo.after (List.flatten hostLines) _ _
  rw [ksplit3]
  exact (after_pre _ _ (hWKC3.append hWkpost3) hr _).symm

abbrev kpre4 : List (HloOp τ sig (Elt F)) := KC0 ++ (KC1 ++ (KC2 ++ (KC3)))
abbrev kpost4 : List (HloOp τ sig (Elt F)) := KC5 ++ (KC6 ++ (KC7 ++ (KC8 ++ (KC9 ++ (KC10 ++ (KC11 ++ (KC12 ++ (KC13 ++ (KC14 ++ (KC15 ++ (KC16)))))))))))
abbrev Wkpost4 : List (Ref sig .tc) := WKC5 ++ (WKC6 ++ (WKC7 ++ (WKC8 ++ (WKC9 ++ (WKC10 ++ (WKC11 ++ (WKC12 ++ (WKC13 ++ (WKC14 ++ (WKC15 ++ (WKC16)))))))))))
theorem hWkpost4 : WritesIn Wkpost4 (kpost4 (F := F)) := (hWKC5).append ((hWKC6).append ((hWKC7).append ((hWKC8).append ((hWKC9).append ((hWKC10).append ((hWKC11).append ((hWKC12).append ((hWKC13).append ((hWKC14).append ((hWKC15).append (hWKC16)))))))))))
theorem ksplit4 : List.flatten (hostLines (F := F)) = kpre4 ++ (KC4 ++ kpost4) := by
  simp only [hostLines, kpre4, kpost4, KC0, KC1, KC2, KC3, KC4, KC5, KC6, KC7, KC8, KC9, KC10, KC11, KC12, KC13, KC14, KC15, KC16, List.flatten_cons, List.flatten_nil, List.append_assoc, List.append_nil, List.nil_append]
/-- The buffers as chunk 4 finds them. -/
abbrev Vpre4 (c : Dev nD) : Valuation τ sig (Elt F) := StableHlo.after (kpre4 (F := F)) (fun b => m (c, b))
/-- A buffer no later chunk writes is, after the whole line, what chunk 4 leaves. -/
theorem V_at4 (c : Dev nD) {r : Ref sig .tc} (hr : r ∉ Wkpost4) :
    V m c r = StableHlo.after (KC4 (F := F)) (Vpre4 m c) (Proc.devRef .tc r) := by
  show StableHlo.after (List.flatten hostLines) _ _ = _
  rw [ksplit4]
  exact after_mid _ _ _ hWkpost4 hr _
/-- A buffer neither chunk 4 nor a later one writes is, as chunk 4 finds it, what it is after the whole line. -/
theorem V_keep4 (c : Dev nD) {r : Ref sig .tc} (hr : r ∉ WKC4 ++ Wkpost4) :
    Vpre4 m c (Proc.devRef .tc r) = V m c r := by
  show _ = StableHlo.after (List.flatten hostLines) _ _
  rw [ksplit4]
  exact (after_pre _ _ (hWKC4.append hWkpost4) hr _).symm

abbrev kpre5 : List (HloOp τ sig (Elt F)) := KC0 ++ (KC1 ++ (KC2 ++ (KC3 ++ (KC4))))
abbrev kpost5 : List (HloOp τ sig (Elt F)) := KC6 ++ (KC7 ++ (KC8 ++ (KC9 ++ (KC10 ++ (KC11 ++ (KC12 ++ (KC13 ++ (KC14 ++ (KC15 ++ (KC16))))))))))
abbrev Wkpost5 : List (Ref sig .tc) := WKC6 ++ (WKC7 ++ (WKC8 ++ (WKC9 ++ (WKC10 ++ (WKC11 ++ (WKC12 ++ (WKC13 ++ (WKC14 ++ (WKC15 ++ (WKC16))))))))))
theorem hWkpost5 : WritesIn Wkpost5 (kpost5 (F := F)) := (hWKC6).append ((hWKC7).append ((hWKC8).append ((hWKC9).append ((hWKC10).append ((hWKC11).append ((hWKC12).append ((hWKC13).append ((hWKC14).append ((hWKC15).append (hWKC16))))))))))
theorem ksplit5 : List.flatten (hostLines (F := F)) = kpre5 ++ (KC5 ++ kpost5) := by
  simp only [hostLines, kpre5, kpost5, KC0, KC1, KC2, KC3, KC4, KC5, KC6, KC7, KC8, KC9, KC10, KC11, KC12, KC13, KC14, KC15, KC16, List.flatten_cons, List.flatten_nil, List.append_assoc, List.append_nil, List.nil_append]
/-- The buffers as chunk 5 finds them. -/
abbrev Vpre5 (c : Dev nD) : Valuation τ sig (Elt F) := StableHlo.after (kpre5 (F := F)) (fun b => m (c, b))
/-- A buffer no later chunk writes is, after the whole line, what chunk 5 leaves. -/
theorem V_at5 (c : Dev nD) {r : Ref sig .tc} (hr : r ∉ Wkpost5) :
    V m c r = StableHlo.after (KC5 (F := F)) (Vpre5 m c) (Proc.devRef .tc r) := by
  show StableHlo.after (List.flatten hostLines) _ _ = _
  rw [ksplit5]
  exact after_mid _ _ _ hWkpost5 hr _
/-- A buffer neither chunk 5 nor a later one writes is, as chunk 5 finds it, what it is after the whole line. -/
theorem V_keep5 (c : Dev nD) {r : Ref sig .tc} (hr : r ∉ WKC5 ++ Wkpost5) :
    Vpre5 m c (Proc.devRef .tc r) = V m c r := by
  show _ = StableHlo.after (List.flatten hostLines) _ _
  rw [ksplit5]
  exact (after_pre _ _ (hWKC5.append hWkpost5) hr _).symm

abbrev kpre6 : List (HloOp τ sig (Elt F)) := KC0 ++ (KC1 ++ (KC2 ++ (KC3 ++ (KC4 ++ (KC5)))))
abbrev kpost6 : List (HloOp τ sig (Elt F)) := KC7 ++ (KC8 ++ (KC9 ++ (KC10 ++ (KC11 ++ (KC12 ++ (KC13 ++ (KC14 ++ (KC15 ++ (KC16)))))))))
abbrev Wkpost6 : List (Ref sig .tc) := WKC7 ++ (WKC8 ++ (WKC9 ++ (WKC10 ++ (WKC11 ++ (WKC12 ++ (WKC13 ++ (WKC14 ++ (WKC15 ++ (WKC16)))))))))
theorem hWkpost6 : WritesIn Wkpost6 (kpost6 (F := F)) := (hWKC7).append ((hWKC8).append ((hWKC9).append ((hWKC10).append ((hWKC11).append ((hWKC12).append ((hWKC13).append ((hWKC14).append ((hWKC15).append (hWKC16)))))))))
theorem ksplit6 : List.flatten (hostLines (F := F)) = kpre6 ++ (KC6 ++ kpost6) := by
  simp only [hostLines, kpre6, kpost6, KC0, KC1, KC2, KC3, KC4, KC5, KC6, KC7, KC8, KC9, KC10, KC11, KC12, KC13, KC14, KC15, KC16, List.flatten_cons, List.flatten_nil, List.append_assoc, List.append_nil, List.nil_append]
/-- The buffers as chunk 6 finds them. -/
abbrev Vpre6 (c : Dev nD) : Valuation τ sig (Elt F) := StableHlo.after (kpre6 (F := F)) (fun b => m (c, b))
/-- A buffer no later chunk writes is, after the whole line, what chunk 6 leaves. -/
theorem V_at6 (c : Dev nD) {r : Ref sig .tc} (hr : r ∉ Wkpost6) :
    V m c r = StableHlo.after (KC6 (F := F)) (Vpre6 m c) (Proc.devRef .tc r) := by
  show StableHlo.after (List.flatten hostLines) _ _ = _
  rw [ksplit6]
  exact after_mid _ _ _ hWkpost6 hr _
/-- A buffer neither chunk 6 nor a later one writes is, as chunk 6 finds it, what it is after the whole line. -/
theorem V_keep6 (c : Dev nD) {r : Ref sig .tc} (hr : r ∉ WKC6 ++ Wkpost6) :
    Vpre6 m c (Proc.devRef .tc r) = V m c r := by
  show _ = StableHlo.after (List.flatten hostLines) _ _
  rw [ksplit6]
  exact (after_pre _ _ (hWKC6.append hWkpost6) hr _).symm

abbrev kpre7 : List (HloOp τ sig (Elt F)) := KC0 ++ (KC1 ++ (KC2 ++ (KC3 ++ (KC4 ++ (KC5 ++ (KC6))))))
abbrev kpost7 : List (HloOp τ sig (Elt F)) := KC8 ++ (KC9 ++ (KC10 ++ (KC11 ++ (KC12 ++ (KC13 ++ (KC14 ++ (KC15 ++ (KC16))))))))
abbrev Wkpost7 : List (Ref sig .tc) := WKC8 ++ (WKC9 ++ (WKC10 ++ (WKC11 ++ (WKC12 ++ (WKC13 ++ (WKC14 ++ (WKC15 ++ (WKC16))))))))
theorem hWkpost7 : WritesIn Wkpost7 (kpost7 (F := F)) := (hWKC8).append ((hWKC9).append ((hWKC10).append ((hWKC11).append ((hWKC12).append ((hWKC13).append ((hWKC14).append ((hWKC15).append (hWKC16))))))))
theorem ksplit7 : List.flatten (hostLines (F := F)) = kpre7 ++ (KC7 ++ kpost7) := by
  simp only [hostLines, kpre7, kpost7, KC0, KC1, KC2, KC3, KC4, KC5, KC6, KC7, KC8, KC9, KC10, KC11, KC12, KC13, KC14, KC15, KC16, List.flatten_cons, List.flatten_nil, List.append_assoc, List.append_nil, List.nil_append]
/-- The buffers as chunk 7 finds them. -/
abbrev Vpre7 (c : Dev nD) : Valuation τ sig (Elt F) := StableHlo.after (kpre7 (F := F)) (fun b => m (c, b))
/-- A buffer no later chunk writes is, after the whole line, what chunk 7 leaves. -/
theorem V_at7 (c : Dev nD) {r : Ref sig .tc} (hr : r ∉ Wkpost7) :
    V m c r = StableHlo.after (KC7 (F := F)) (Vpre7 m c) (Proc.devRef .tc r) := by
  show StableHlo.after (List.flatten hostLines) _ _ = _
  rw [ksplit7]
  exact after_mid _ _ _ hWkpost7 hr _
/-- A buffer neither chunk 7 nor a later one writes is, as chunk 7 finds it, what it is after the whole line. -/
theorem V_keep7 (c : Dev nD) {r : Ref sig .tc} (hr : r ∉ WKC7 ++ Wkpost7) :
    Vpre7 m c (Proc.devRef .tc r) = V m c r := by
  show _ = StableHlo.after (List.flatten hostLines) _ _
  rw [ksplit7]
  exact (after_pre _ _ (hWKC7.append hWkpost7) hr _).symm

abbrev kpre8 : List (HloOp τ sig (Elt F)) := KC0 ++ (KC1 ++ (KC2 ++ (KC3 ++ (KC4 ++ (KC5 ++ (KC6 ++ (KC7)))))))
abbrev kpost8 : List (HloOp τ sig (Elt F)) := KC9 ++ (KC10 ++ (KC11 ++ (KC12 ++ (KC13 ++ (KC14 ++ (KC15 ++ (KC16)))))))
abbrev Wkpost8 : List (Ref sig .tc) := WKC9 ++ (WKC10 ++ (WKC11 ++ (WKC12 ++ (WKC13 ++ (WKC14 ++ (WKC15 ++ (WKC16)))))))
theorem hWkpost8 : WritesIn Wkpost8 (kpost8 (F := F)) := (hWKC9).append ((hWKC10).append ((hWKC11).append ((hWKC12).append ((hWKC13).append ((hWKC14).append ((hWKC15).append (hWKC16)))))))
theorem ksplit8 : List.flatten (hostLines (F := F)) = kpre8 ++ (KC8 ++ kpost8) := by
  simp only [hostLines, kpre8, kpost8, KC0, KC1, KC2, KC3, KC4, KC5, KC6, KC7, KC8, KC9, KC10, KC11, KC12, KC13, KC14, KC15, KC16, List.flatten_cons, List.flatten_nil, List.append_assoc, List.append_nil, List.nil_append]
/-- The buffers as chunk 8 finds them. -/
abbrev Vpre8 (c : Dev nD) : Valuation τ sig (Elt F) := StableHlo.after (kpre8 (F := F)) (fun b => m (c, b))
/-- A buffer no later chunk writes is, after the whole line, what chunk 8 leaves. -/
theorem V_at8 (c : Dev nD) {r : Ref sig .tc} (hr : r ∉ Wkpost8) :
    V m c r = StableHlo.after (KC8 (F := F)) (Vpre8 m c) (Proc.devRef .tc r) := by
  show StableHlo.after (List.flatten hostLines) _ _ = _
  rw [ksplit8]
  exact after_mid _ _ _ hWkpost8 hr _
/-- A buffer neither chunk 8 nor a later one writes is, as chunk 8 finds it, what it is after the whole line. -/
theorem V_keep8 (c : Dev nD) {r : Ref sig .tc} (hr : r ∉ WKC8 ++ Wkpost8) :
    Vpre8 m c (Proc.devRef .tc r) = V m c r := by
  show _ = StableHlo.after (List.flatten hostLines) _ _
  rw [ksplit8]
  exact (after_pre _ _ (hWKC8.append hWkpost8) hr _).symm

abbrev kpre9 : List (HloOp τ sig (Elt F)) := KC0 ++ (KC1 ++ (KC2 ++ (KC3 ++ (KC4 ++ (KC5 ++ (KC6 ++ (KC7 ++ (KC8))))))))
abbrev kpost9 : List (HloOp τ sig (Elt F)) := KC10 ++ (KC11 ++ (KC12 ++ (KC13 ++ (KC14 ++ (KC15 ++ (KC16))))))
abbrev Wkpost9 : List (Ref sig .tc) := WKC10 ++ (WKC11 ++ (WKC12 ++ (WKC13 ++ (WKC14 ++ (WKC15 ++ (WKC16))))))
theorem hWkpost9 : WritesIn Wkpost9 (kpost9 (F := F)) := (hWKC10).append ((hWKC11).append ((hWKC12).append ((hWKC13).append ((hWKC14).append ((hWKC15).append (hWKC16))))))
theorem ksplit9 : List.flatten (hostLines (F := F)) = kpre9 ++ (KC9 ++ kpost9) := by
  simp only [hostLines, kpre9, kpost9, KC0, KC1, KC2, KC3, KC4, KC5, KC6, KC7, KC8, KC9, KC10, KC11, KC12, KC13, KC14, KC15, KC16, List.flatten_cons, List.flatten_nil, List.append_assoc, List.append_nil, List.nil_append]
/-- The buffers as chunk 9 finds them. -/
abbrev Vpre9 (c : Dev nD) : Valuation τ sig (Elt F) := StableHlo.after (kpre9 (F := F)) (fun b => m (c, b))
/-- A buffer no later chunk writes is, after the whole line, what chunk 9 leaves. -/
theorem V_at9 (c : Dev nD) {r : Ref sig .tc} (hr : r ∉ Wkpost9) :
    V m c r = StableHlo.after (KC9 (F := F)) (Vpre9 m c) (Proc.devRef .tc r) := by
  show StableHlo.after (List.flatten hostLines) _ _ = _
  rw [ksplit9]
  exact after_mid _ _ _ hWkpost9 hr _
/-- A buffer neither chunk 9 nor a later one writes is, as chunk 9 finds it, what it is after the whole line. -/
theorem V_keep9 (c : Dev nD) {r : Ref sig .tc} (hr : r ∉ WKC9 ++ Wkpost9) :
    Vpre9 m c (Proc.devRef .tc r) = V m c r := by
  show _ = StableHlo.after (List.flatten hostLines) _ _
  rw [ksplit9]
  exact (after_pre _ _ (hWKC9.append hWkpost9) hr _).symm

abbrev kpre10 : List (HloOp τ sig (Elt F)) := KC0 ++ (KC1 ++ (KC2 ++ (KC3 ++ (KC4 ++ (KC5 ++ (KC6 ++ (KC7 ++ (KC8 ++ (KC9)))))))))
abbrev kpost10 : List (HloOp τ sig (Elt F)) := KC11 ++ (KC12 ++ (KC13 ++ (KC14 ++ (KC15 ++ (KC16)))))
abbrev Wkpost10 : List (Ref sig .tc) := WKC11 ++ (WKC12 ++ (WKC13 ++ (WKC14 ++ (WKC15 ++ (WKC16)))))
theorem hWkpost10 : WritesIn Wkpost10 (kpost10 (F := F)) := (hWKC11).append ((hWKC12).append ((hWKC13).append ((hWKC14).append ((hWKC15).append (hWKC16)))))
theorem ksplit10 : List.flatten (hostLines (F := F)) = kpre10 ++ (KC10 ++ kpost10) := by
  simp only [hostLines, kpre10, kpost10, KC0, KC1, KC2, KC3, KC4, KC5, KC6, KC7, KC8, KC9, KC10, KC11, KC12, KC13, KC14, KC15, KC16, List.flatten_cons, List.flatten_nil, List.append_assoc, List.append_nil, List.nil_append]
/-- The buffers as chunk 10 finds them. -/
abbrev Vpre10 (c : Dev nD) : Valuation τ sig (Elt F) := StableHlo.after (kpre10 (F := F)) (fun b => m (c, b))
/-- A buffer no later chunk writes is, after the whole line, what chunk 10 leaves. -/
theorem V_at10 (c : Dev nD) {r : Ref sig .tc} (hr : r ∉ Wkpost10) :
    V m c r = StableHlo.after (KC10 (F := F)) (Vpre10 m c) (Proc.devRef .tc r) := by
  show StableHlo.after (List.flatten hostLines) _ _ = _
  rw [ksplit10]
  exact after_mid _ _ _ hWkpost10 hr _
/-- A buffer neither chunk 10 nor a later one writes is, as chunk 10 finds it, what it is after the whole line. -/
theorem V_keep10 (c : Dev nD) {r : Ref sig .tc} (hr : r ∉ WKC10 ++ Wkpost10) :
    Vpre10 m c (Proc.devRef .tc r) = V m c r := by
  show _ = StableHlo.after (List.flatten hostLines) _ _
  rw [ksplit10]
  exact (after_pre _ _ (hWKC10.append hWkpost10) hr _).symm

abbrev kpre11 : List (HloOp τ sig (Elt F)) := KC0 ++ (KC1 ++ (KC2 ++ (KC3 ++ (KC4 ++ (KC5 ++ (KC6 ++ (KC7 ++ (KC8 ++ (KC9 ++ (KC10))))))))))
abbrev kpost11 : List (HloOp τ sig (Elt F)) := KC12 ++ (KC13 ++ (KC14 ++ (KC15 ++ (KC16))))
abbrev Wkpost11 : List (Ref sig .tc) := WKC12 ++ (WKC13 ++ (WKC14 ++ (WKC15 ++ (WKC16))))
theorem hWkpost11 : WritesIn Wkpost11 (kpost11 (F := F)) := (hWKC12).append ((hWKC13).append ((hWKC14).append ((hWKC15).append (hWKC16))))
theorem ksplit11 : List.flatten (hostLines (F := F)) = kpre11 ++ (KC11 ++ kpost11) := by
  simp only [hostLines, kpre11, kpost11, KC0, KC1, KC2, KC3, KC4, KC5, KC6, KC7, KC8, KC9, KC10, KC11, KC12, KC13, KC14, KC15, KC16, List.flatten_cons, List.flatten_nil, List.append_assoc, List.append_nil, List.nil_append]
/-- The buffers as chunk 11 finds them. -/
abbrev Vpre11 (c : Dev nD) : Valuation τ sig (Elt F) := StableHlo.after (kpre11 (F := F)) (fun b => m (c, b))
/-- A buffer no later chunk writes is, after the whole line, what chunk 11 leaves. -/
theorem V_at11 (c : Dev nD) {r : Ref sig .tc} (hr : r ∉ Wkpost11) :
    V m c r = StableHlo.after (KC11 (F := F)) (Vpre11 m c) (Proc.devRef .tc r) := by
  show StableHlo.after (List.flatten hostLines) _ _ = _
  rw [ksplit11]
  exact after_mid _ _ _ hWkpost11 hr _
/-- A buffer neither chunk 11 nor a later one writes is, as chunk 11 finds it, what it is after the whole line. -/
theorem V_keep11 (c : Dev nD) {r : Ref sig .tc} (hr : r ∉ WKC11 ++ Wkpost11) :
    Vpre11 m c (Proc.devRef .tc r) = V m c r := by
  show _ = StableHlo.after (List.flatten hostLines) _ _
  rw [ksplit11]
  exact (after_pre _ _ (hWKC11.append hWkpost11) hr _).symm

abbrev kpre12 : List (HloOp τ sig (Elt F)) := KC0 ++ (KC1 ++ (KC2 ++ (KC3 ++ (KC4 ++ (KC5 ++ (KC6 ++ (KC7 ++ (KC8 ++ (KC9 ++ (KC10 ++ (KC11)))))))))))
abbrev kpost12 : List (HloOp τ sig (Elt F)) := KC13 ++ (KC14 ++ (KC15 ++ (KC16)))
abbrev Wkpost12 : List (Ref sig .tc) := WKC13 ++ (WKC14 ++ (WKC15 ++ (WKC16)))
theorem hWkpost12 : WritesIn Wkpost12 (kpost12 (F := F)) := (hWKC13).append ((hWKC14).append ((hWKC15).append (hWKC16)))
theorem ksplit12 : List.flatten (hostLines (F := F)) = kpre12 ++ (KC12 ++ kpost12) := by
  simp only [hostLines, kpre12, kpost12, KC0, KC1, KC2, KC3, KC4, KC5, KC6, KC7, KC8, KC9, KC10, KC11, KC12, KC13, KC14, KC15, KC16, List.flatten_cons, List.flatten_nil, List.append_assoc, List.append_nil, List.nil_append]
/-- The buffers as chunk 12 finds them. -/
abbrev Vpre12 (c : Dev nD) : Valuation τ sig (Elt F) := StableHlo.after (kpre12 (F := F)) (fun b => m (c, b))
/-- A buffer no later chunk writes is, after the whole line, what chunk 12 leaves. -/
theorem V_at12 (c : Dev nD) {r : Ref sig .tc} (hr : r ∉ Wkpost12) :
    V m c r = StableHlo.after (KC12 (F := F)) (Vpre12 m c) (Proc.devRef .tc r) := by
  show StableHlo.after (List.flatten hostLines) _ _ = _
  rw [ksplit12]
  exact after_mid _ _ _ hWkpost12 hr _
/-- A buffer neither chunk 12 nor a later one writes is, as chunk 12 finds it, what it is after the whole line. -/
theorem V_keep12 (c : Dev nD) {r : Ref sig .tc} (hr : r ∉ WKC12 ++ Wkpost12) :
    Vpre12 m c (Proc.devRef .tc r) = V m c r := by
  show _ = StableHlo.after (List.flatten hostLines) _ _
  rw [ksplit12]
  exact (after_pre _ _ (hWKC12.append hWkpost12) hr _).symm

abbrev kpre13 : List (HloOp τ sig (Elt F)) := KC0 ++ (KC1 ++ (KC2 ++ (KC3 ++ (KC4 ++ (KC5 ++ (KC6 ++ (KC7 ++ (KC8 ++ (KC9 ++ (KC10 ++ (KC11 ++ (KC12))))))))))))
abbrev kpost13 : List (HloOp τ sig (Elt F)) := KC14 ++ (KC15 ++ (KC16))
abbrev Wkpost13 : List (Ref sig .tc) := WKC14 ++ (WKC15 ++ (WKC16))
theorem hWkpost13 : WritesIn Wkpost13 (kpost13 (F := F)) := (hWKC14).append ((hWKC15).append (hWKC16))
theorem ksplit13 : List.flatten (hostLines (F := F)) = kpre13 ++ (KC13 ++ kpost13) := by
  simp only [hostLines, kpre13, kpost13, KC0, KC1, KC2, KC3, KC4, KC5, KC6, KC7, KC8, KC9, KC10, KC11, KC12, KC13, KC14, KC15, KC16, List.flatten_cons, List.flatten_nil, List.append_assoc, List.append_nil, List.nil_append]
/-- The buffers as chunk 13 finds them. -/
abbrev Vpre13 (c : Dev nD) : Valuation τ sig (Elt F) := StableHlo.after (kpre13 (F := F)) (fun b => m (c, b))
/-- A buffer no later chunk writes is, after the whole line, what chunk 13 leaves. -/
theorem V_at13 (c : Dev nD) {r : Ref sig .tc} (hr : r ∉ Wkpost13) :
    V m c r = StableHlo.after (KC13 (F := F)) (Vpre13 m c) (Proc.devRef .tc r) := by
  show StableHlo.after (List.flatten hostLines) _ _ = _
  rw [ksplit13]
  exact after_mid _ _ _ hWkpost13 hr _
/-- A buffer neither chunk 13 nor a later one writes is, as chunk 13 finds it, what it is after the whole line. -/
theorem V_keep13 (c : Dev nD) {r : Ref sig .tc} (hr : r ∉ WKC13 ++ Wkpost13) :
    Vpre13 m c (Proc.devRef .tc r) = V m c r := by
  show _ = StableHlo.after (List.flatten hostLines) _ _
  rw [ksplit13]
  exact (after_pre _ _ (hWKC13.append hWkpost13) hr _).symm

abbrev kpre14 : List (HloOp τ sig (Elt F)) := KC0 ++ (KC1 ++ (KC2 ++ (KC3 ++ (KC4 ++ (KC5 ++ (KC6 ++ (KC7 ++ (KC8 ++ (KC9 ++ (KC10 ++ (KC11 ++ (KC12 ++ (KC13)))))))))))))
abbrev kpost14 : List (HloOp τ sig (Elt F)) := KC15 ++ (KC16)
abbrev Wkpost14 : List (Ref sig .tc) := WKC15 ++ (WKC16)
theorem hWkpost14 : WritesIn Wkpost14 (kpost14 (F := F)) := (hWKC15).append (hWKC16)
theorem ksplit14 : List.flatten (hostLines (F := F)) = kpre14 ++ (KC14 ++ kpost14) := by
  simp only [hostLines, kpre14, kpost14, KC0, KC1, KC2, KC3, KC4, KC5, KC6, KC7, KC8, KC9, KC10, KC11, KC12, KC13, KC14, KC15, KC16, List.flatten_cons, List.flatten_nil, List.append_assoc, List.append_nil, List.nil_append]
/-- The buffers as chunk 14 finds them. -/
abbrev Vpre14 (c : Dev nD) : Valuation τ sig (Elt F) := StableHlo.after (kpre14 (F := F)) (fun b => m (c, b))
/-- A buffer no later chunk writes is, after the whole line, what chunk 14 leaves. -/
theorem V_at14 (c : Dev nD) {r : Ref sig .tc} (hr : r ∉ Wkpost14) :
    V m c r = StableHlo.after (KC14 (F := F)) (Vpre14 m c) (Proc.devRef .tc r) := by
  show StableHlo.after (List.flatten hostLines) _ _ = _
  rw [ksplit14]
  exact after_mid _ _ _ hWkpost14 hr _
/-- A buffer neither chunk 14 nor a later one writes is, as chunk 14 finds it, what it is after the whole line. -/
theorem V_keep14 (c : Dev nD) {r : Ref sig .tc} (hr : r ∉ WKC14 ++ Wkpost14) :
    Vpre14 m c (Proc.devRef .tc r) = V m c r := by
  show _ = StableHlo.after (List.flatten hostLines) _ _
  rw [ksplit14]
  exact (after_pre _ _ (hWKC14.append hWkpost14) hr _).symm

abbrev kpre15 : List (HloOp τ sig (Elt F)) := KC0 ++ (KC1 ++ (KC2 ++ (KC3 ++ (KC4 ++ (KC5 ++ (KC6 ++ (KC7 ++ (KC8 ++ (KC9 ++ (KC10 ++ (KC11 ++ (KC12 ++ (KC13 ++ (KC14))))))))))))))
abbrev kpost15 : List (HloOp τ sig (Elt F)) := KC16
abbrev Wkpost15 : List (Ref sig .tc) := WKC16
theorem hWkpost15 : WritesIn Wkpost15 (kpost15 (F := F)) := hWKC16
theorem ksplit15 : List.flatten (hostLines (F := F)) = kpre15 ++ (KC15 ++ kpost15) := by
  simp only [hostLines, kpre15, kpost15, KC0, KC1, KC2, KC3, KC4, KC5, KC6, KC7, KC8, KC9, KC10, KC11, KC12, KC13, KC14, KC15, KC16, List.flatten_cons, List.flatten_nil, List.append_assoc, List.append_nil, List.nil_append]
/-- The buffers as chunk 15 finds them. -/
abbrev Vpre15 (c : Dev nD) : Valuation τ sig (Elt F) := StableHlo.after (kpre15 (F := F)) (fun b => m (c, b))
/-- A buffer no later chunk writes is, after the whole line, what chunk 15 leaves. -/
theorem V_at15 (c : Dev nD) {r : Ref sig .tc} (hr : r ∉ Wkpost15) :
    V m c r = StableHlo.after (KC15 (F := F)) (Vpre15 m c) (Proc.devRef .tc r) := by
  show StableHlo.after (List.flatten hostLines) _ _ = _
  rw [ksplit15]
  exact after_mid _ _ _ hWkpost15 hr _
/-- A buffer neither chunk 15 nor a later one writes is, as chunk 15 finds it, what it is after the whole line. -/
theorem V_keep15 (c : Dev nD) {r : Ref sig .tc} (hr : r ∉ WKC15 ++ Wkpost15) :
    Vpre15 m c (Proc.devRef .tc r) = V m c r := by
  show _ = StableHlo.after (List.flatten hostLines) _ _
  rw [ksplit15]
  exact (after_pre _ _ (hWKC15.append hWkpost15) hr _).symm

abbrev kpre16 : List (HloOp τ sig (Elt F)) := KC0 ++ (KC1 ++ (KC2 ++ (KC3 ++ (KC4 ++ (KC5 ++ (KC6 ++ (KC7 ++ (KC8 ++ (KC9 ++ (KC10 ++ (KC11 ++ (KC12 ++ (KC13 ++ (KC14 ++ (KC15)))))))))))))))
abbrev kpost16 : List (HloOp τ sig (Elt F)) := []
abbrev Wkpost16 : List (Ref sig .tc) := []
theorem hWkpost16 : WritesIn Wkpost16 (kpost16 (F := F)) := WritesIn.nil
theorem ksplit16 : List.flatten (hostLines (F := F)) = kpre16 ++ (KC16 ++ kpost16) := by
  simp only [hostLines, kpre16, kpost16, KC0, KC1, KC2, KC3, KC4, KC5, KC6, KC7, KC8, KC9, KC10, KC11, KC12, KC13, KC14, KC15, KC16, List.flatten_cons, List.flatten_nil, List.append_assoc, List.append_nil, List.nil_append]
/-- The buffers as chunk 16 finds them. -/
abbrev Vpre16 (c : Dev nD) : Valuation τ sig (Elt F) := StableHlo.after (kpre16 (F := F)) (fun b => m (c, b))
/-- A buffer no later chunk writes is, after the whole line, what chunk 16 leaves. -/
theorem V_at16 (c : Dev nD) {r : Ref sig .tc} (hr : r ∉ Wkpost16) :
    V m c r = StableHlo.after (KC16 (F := F)) (Vpre16 m c) (Proc.devRef .tc r) := by
  show StableHlo.after (List.flatten hostLines) _ _ = _
  rw [ksplit16]
  exact after_mid _ _ _ hWkpost16 hr _
/-- A buffer neither chunk 16 nor a later one writes is, as chunk 16 finds it, what it is after the whole line. -/
theorem V_keep16 (c : Dev nD) {r : Ref sig .tc} (hr : r ∉ WKC16 ++ Wkpost16) :
    Vpre16 m c (Proc.devRef .tc r) = V m c r := by
  show _ = StableHlo.after (List.flatten hostLines) _ _
  rw [ksplit16]
  exact (after_pre _ _ (hWKC16.append hWkpost16) hr _).symm

end Cert.KernelIdeal.Hand

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.LibReadBack2.lean ====
import proofs.«415466_j54125177864604_3_alg».proof.Proof.LibReadBack
import proofs.«415466_j54125177864604_3_alg».proof.Proof.LibTypedRef

/-!
# Reading a buffer back, with the typed references' casts cancelled in pairs first

An inlined callee's operations write their results through typed references and read their operands back through them: the
composed term is full of `x.ofBuf (x.toBuf v)`, which is `v` (`TRef.ofBuf_toBuf`). `read_back2` is `read_back`'s pass with
those pairs cancelled before the remaining casts — the few at the stretch's own operands and at its result — are opened and
removed; removing a cast over a large operand by unification is what that avoids. `concat3_evid`: a three-piece concatenate under
any evidence is the same under any other (the evidence is a proof), used to put a concatenate's evidence back in the form it is
printed with after a simplification pass has rewritten its pieces. `concat3`: a three-piece concatenate as a function of its
pieces (`concatenate_three`): the pass then rewrites the pieces as ordinary arguments and the evidence stays the printed one.
-/

namespace Idealize.ShloMosaic.StableHlo

/-- A three-piece concatenate does not depend on which evidence it is given. -/
theorem concat3_evid {α : Type} (t : Shape) (a : Fin t.rank) (S₁ S₂ S₃ : Shape) (x : S₁.Idx → α) (y : S₂.Idx → α) (z : S₃.Idx → α)
    (h : Shape.Concatenates (([⟨S₁, x⟩, ⟨S₂, y⟩, ⟨S₃, z⟩] : List ((s : Shape) × (s.Idx → α))).map (·.1)) t a)
    (h' : Shape.Concatenates [S₁, S₂, S₃] t a) :
    concatenate t a [⟨S₁, x⟩, ⟨S₂, y⟩, ⟨S₃, z⟩] h = concatenate t a [⟨S₁, x⟩, ⟨S₂, y⟩, ⟨S₃, z⟩] h' := rfl

/-- A three-piece concatenate as a function of its three pieces, its evidence stated of the pieces' shapes alone. -/
def concat3 {α : Type} (t : Shape) (a : Fin t.rank) (S₁ S₂ S₃ : Shape) (h : Shape.Concatenates [S₁, S₂, S₃] t a)
    (x : S₁.Idx → α) (y : S₂.Idx → α) (z : S₃.Idx → α) : t.Idx → α :=
  concatenate t a [⟨S₁, x⟩, ⟨S₂, y⟩, ⟨S₃, z⟩] h

/-- The printed form of a three-piece concatenate is that function of its pieces: in this form a simplification pass rewrites
    the pieces as ordinary arguments, and the evidence is the printed one, unchanged. -/
theorem concatenate_three {α : Type} (t : Shape) (a : Fin t.rank) (S₁ S₂ S₃ : Shape) (x : S₁.Idx → α) (y : S₂.Idx → α) (z : S₃.Idx → α)
    (h : Shape.Concatenates (([⟨S₁, x⟩, ⟨S₂, y⟩, ⟨S₃, z⟩] : List ((s : Shape) × (s.Idx → α))).map (·.1)) t a) :
    concatenate t a [⟨S₁, x⟩, ⟨S₂, y⟩, ⟨S₃, z⟩] h = concat3 t a S₁ S₂ S₃ (by simpa using h) x y z := rfl

/-- `read_back` with the typed references' casts cancelled in pairs first (see the module's header). -/
macro "read_back2" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, Fin.cons_one, cons3_two, ↓concatenate_three]
             try simp only [TRef.ofBuf_toBuf]
             try simp only [TRef.ofBuf, TRef.toBuf, cast_eq]))

end Idealize.ShloMosaic.StableHlo
-- ==== Proof.KHostL0.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- The joined table, from the two argument tables as the first chunk finds them. -/
theorem kjoin (U : Valuation τ sig (Elt F)) :
    StableHlo.after (KC0 (F := F)) U (Proc.devRef .tc main_v10) = Cert.SpecK.comb (U (Proc.devRef .tc main_arg0)) (U (Proc.devRef .tc main_arg1)) := by
  simp only [KC0, hostOps0, hostOps0_1, hostOps0_2, hostOps0_3, hostOps0_4, hostOps0_5, hostOps0_6, List.cons_append, List.nil_append, List.append_nil]
  read_back2
  first | done | (unfold Cert.SpecK.comb; rfl)

set_option maxHeartbeats 16000000 in
/-- Corner 0: the taken rows, over any contents the chunk is run from. -/
theorem ktake0 (U : Valuation τ sig (Elt F)) :
    StableHlo.after (KC1 (F := F)) U (Proc.devRef .tc main_v63) = Cert.SpecK.takeRows (U (Proc.devRef .tc main_v10)) (U (Proc.devRef .tc main_v57)) := by
  simp only [KC1, hostOps0_7, List.cons_append, List.nil_append, List.append_nil]
  read_back2
  first | done | (unfold Cert.SpecK.takeRows Cert.SpecK.inRange Cert.SpecK.rowCol Cert.SpecK.wrapCap; rfl)

set_option maxHeartbeats 16000000 in
/-- Corner 0: the array left for the region, over any contents the next chunk is run from. -/
theorem kmul0 (U : Valuation τ sig (Elt F)) :
    StableHlo.after (KC2 (F := F)) U (Proc.devRef .tc main_v65) = mulf (broadcastInDim S2000000x28 ![0, 1] bcast_S2000000x1_S2000000x28_0_1 (U (Proc.devRef .tc main_v62))) (U (Proc.devRef .tc main_v63)) := by
  simp only [KC2, hostOps0_8, hostOps0_9, hostOps0_10, List.cons_append, List.nil_append, List.append_nil]
  read_back2
  first | done | rfl

end Cert.KernelIdeal.Hand

end
-- ==== Proof.KHostL1.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 1: the taken rows, over any contents the chunk is run from. -/
theorem ktake1 (U : Valuation τ sig (Elt F)) :
    StableHlo.after (KC3 (F := F)) U (Proc.devRef .tc main_v108) = Cert.SpecK.takeRows (U (Proc.devRef .tc main_v10)) (U (Proc.devRef .tc main_v102)) := by
  simp only [KC3, hostOps0_11, List.cons_append, List.nil_append, List.append_nil]
  read_back2
  first | done | (unfold Cert.SpecK.takeRows Cert.SpecK.inRange Cert.SpecK.rowCol Cert.SpecK.wrapCap; rfl)

set_option maxHeartbeats 16000000 in
/-- Corner 1: the array left for the region, over any contents the next chunk is run from. -/
theorem kmul1 (U : Valuation τ sig (Elt F)) :
    StableHlo.after (KC4 (F := F)) U (Proc.devRef .tc main_v110) = mulf (broadcastInDim S2000000x28 ![0, 1] bcast_S2000000x1_S2000000x28_0_1 (U (Proc.devRef .tc main_v107))) (U (Proc.devRef .tc main_v108)) := by
  simp only [KC4, hostOps0_12, hostOps0_13, hostOps0_14, List.cons_append, List.nil_append, List.append_nil]
  read_back2
  first | done | rfl

end Cert.KernelIdeal.Hand

end
-- ==== Proof.KHostL2.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 2: the taken rows, over any contents the chunk is run from. -/
theorem ktake2 (U : Valuation τ sig (Elt F)) :
    StableHlo.after (KC5 (F := F)) U (Proc.devRef .tc main_v157) = Cert.SpecK.takeRows (U (Proc.devRef .tc main_v10)) (U (Proc.devRef .tc main_v151)) := by
  simp only [KC5, hostOps0_15, List.cons_append, List.nil_append, List.append_nil]
  read_back2
  first | done | (unfold Cert.SpecK.takeRows Cert.SpecK.inRange Cert.SpecK.rowCol Cert.SpecK.wrapCap; rfl)

set_option maxHeartbeats 16000000 in
/-- Corner 2: the array left for the region, over any contents the next chunk is run from. -/
theorem kmul2 (U : Valuation τ sig (Elt F)) :
    StableHlo.after (KC6 (F := F)) U (Proc.devRef .tc main_v159) = mulf (broadcastInDim S2000000x28 ![0, 1] bcast_S2000000x1_S2000000x28_0_1 (U (Proc.devRef .tc main_v156))) (U (Proc.devRef .tc main_v157)) := by
  simp only [KC6, hostOps0_16, hostOps0_17, hostOps0_18, List.cons_append, List.nil_append, List.append_nil]
  read_back2
  first | done | rfl

end Cert.KernelIdeal.Hand

end
-- ==== Proof.KHostL3.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 3: the taken rows, over any contents the chunk is run from. -/
theorem ktake3 (U : Valuation τ sig (Elt F)) :
    StableHlo.after (KC7 (F := F)) U (Proc.devRef .tc main_v202) = Cert.SpecK.takeRows (U (Proc.devRef .tc main_v10)) (U (Proc.devRef .tc main_v196)) := by
  simp only [KC7, hostOps0_19, List.cons_append, List.nil_append, List.append_nil]
  read_back2
  first | done | (unfold Cert.SpecK.takeRows Cert.SpecK.inRange Cert.SpecK.rowCol Cert.SpecK.wrapCap; rfl)

set_option maxHeartbeats 16000000 in
/-- Corner 3: the array left for the region, over any contents the next chunk is run from. -/
theorem kmul3 (U : Valuation τ sig (Elt F)) :
    StableHlo.after (KC8 (F := F)) U (Proc.devRef .tc main_v204) = mulf (broadcastInDim S2000000x28 ![0, 1] bcast_S2000000x1_S2000000x28_0_1 (U (Proc.devRef .tc main_v201))) (U (Proc.devRef .tc main_v202)) := by
  simp only [KC8, hostOps0_20, hostOps0_21, hostOps0_22, List.cons_append, List.nil_append, List.append_nil]
  read_back2
  first | done | rfl

end Cert.KernelIdeal.Hand

end
-- ==== Proof.KHostL4.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 4: the taken rows, over any contents the chunk is run from. -/
theorem ktake4 (U : Valuation τ sig (Elt F)) :
    StableHlo.after (KC9 (F := F)) U (Proc.devRef .tc main_v255) = Cert.SpecK.takeRows (U (Proc.devRef .tc main_v10)) (U (Proc.devRef .tc main_v249)) := by
  simp only [KC9, hostOps0_23, List.cons_append, List.nil_append, List.append_nil]
  read_back2
  first | done | (unfold Cert.SpecK.takeRows Cert.SpecK.inRange Cert.SpecK.rowCol Cert.SpecK.wrapCap; rfl)

set_option maxHeartbeats 16000000 in
/-- Corner 4: the array left for the region, over any contents the next chunk is run from. -/
theorem kmul4 (U : Valuation τ sig (Elt F)) :
    StableHlo.after (KC10 (F := F)) U (Proc.devRef .tc main_v257) = mulf (broadcastInDim S2000000x28 ![0, 1] bcast_S2000000x1_S2000000x28_0_1 (U (Proc.devRef .tc main_v254))) (U (Proc.devRef .tc main_v255)) := by
  simp only [KC10, hostOps0_24, hostOps0_25, hostOps0_26, List.cons_append, List.nil_append, List.append_nil]
  read_back2
  first | done | rfl

end Cert.KernelIdeal.Hand

end
-- ==== Proof.KHostL5.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 5: the taken rows, over any contents the chunk is run from. -/
theorem ktake5 (U : Valuation τ sig (Elt F)) :
    StableHlo.after (KC11 (F := F)) U (Proc.devRef .tc main_v300) = Cert.SpecK.takeRows (U (Proc.devRef .tc main_v10)) (U (Proc.devRef .tc main_v294)) := by
  simp only [KC11, hostOps0_27, List.cons_append, List.nil_append, List.append_nil]
  read_back2
  first | done | (unfold Cert.SpecK.takeRows Cert.SpecK.inRange Cert.SpecK.rowCol Cert.SpecK.wrapCap; rfl)

set_option maxHeartbeats 16000000 in
/-- Corner 5: the array left for the region, over any contents the next chunk is run from. -/
theorem kmul5 (U : Valuation τ sig (Elt F)) :
    StableHlo.after (KC12 (F := F)) U (Proc.devRef .tc main_v302) = mulf (broadcastInDim S2000000x28 ![0, 1] bcast_S2000000x1_S2000000x28_0_1 (U (Proc.devRef .tc main_v299))) (U (Proc.devRef .tc main_v300)) := by
  simp only [KC12, hostOps0_28, hostOps0_29, hostOps0_30, List.cons_append, List.nil_append, List.append_nil]
  read_back2
  first | done | rfl

end Cert.KernelIdeal.Hand

end
-- ==== Proof.KHostL6.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 6: the taken rows, over any contents the chunk is run from. -/
theorem ktake6 (U : Valuation τ sig (Elt F)) :
    StableHlo.after (KC13 (F := F)) U (Proc.devRef .tc main_v349) = Cert.SpecK.takeRows (U (Proc.devRef .tc main_v10)) (U (Proc.devRef .tc main_v343)) := by
  simp only [KC13, hostOps0_31, List.cons_append, List.nil_append, List.append_nil]
  read_back2
  first | done | (unfold Cert.SpecK.takeRows Cert.SpecK.inRange Cert.SpecK.rowCol Cert.SpecK.wrapCap; rfl)

set_option maxHeartbeats 16000000 in
/-- Corner 6: the array left for the region, over any contents the next chunk is run from. -/
theorem kmul6 (U : Valuation τ sig (Elt F)) :
    StableHlo.after (KC14 (F := F)) U (Proc.devRef .tc main_v351) = mulf (broadcastInDim S2000000x28 ![0, 1] bcast_S2000000x1_S2000000x28_0_1 (U (Proc.devRef .tc main_v348))) (U (Proc.devRef .tc main_v349)) := by
  simp only [KC14, hostOps0_32, hostOps0_33, hostOps0_34, List.cons_append, List.nil_append, List.append_nil]
  read_back2
  first | done | rfl

end Cert.KernelIdeal.Hand

end
-- ==== Proof.KHostL7.lean ====
import proofs.«415466_j54125177864604_3_alg».proof.Proof.KHostC
import proofs.«415466_j54125177864604_3_alg».proof.Proof.Spec
import proofs.«415466_j54125177864604_3_alg».proof.Proof.LibReadBack2

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

set_option maxHeartbeats 16000000 in
/-- Corner 7: the taken rows, over any contents the chunk is run from. -/
theorem ktake7 (U : Valuation τ sig (Elt F)) :
    StableHlo.after (KC15 (F := F)) U (Proc.devRef .tc main_v394) = Cert.SpecK.takeRows (U (Proc.devRef .tc main_v10)) (U (Proc.devRef .tc main_v388)) := by
  simp only [KC15, hostOps0_35, List.cons_append, List.nil_append, List.append_nil]
  read_back2
  first | done | (unfold Cert.SpecK.takeRows Cert.SpecK.inRange Cert.SpecK.rowCol Cert.SpecK.wrapCap; rfl)

set_option maxHeartbeats 16000000 in
/-- Corner 7: the array left for the region, over any contents the next chunk is run from. -/
theorem kmul7 (U : Valuation τ sig (Elt F)) :
    StableHlo.after (KC16 (F := F)) U (Proc.devRef .tc main_v396) = mulf (broadcastInDim S2000000x28 ![0, 1] bcast_S2000000x1_S2000000x28_0_1 (U (Proc.devRef .tc main_v393))) (U (Proc.devRef .tc main_v394)) := by
  simp only [KC16, hostOps0_36, List.cons_append, List.nil_append, List.append_nil]
  read_back2
  first | done | rfl

end Cert.KernelIdeal.Hand

end
-- ==== Proof.KHost.lean ====
import proofs.«415466_j54125177864604_3_alg».proof.Proof.KHostL0
import proofs.«415466_j54125177864604_3_alg».proof.Proof.KHostL1
import proofs.«415466_j54125177864604_3_alg».proof.Proof.KHostL2
import proofs.«415466_j54125177864604_3_alg».proof.Proof.KHostL3
import proofs.«415466_j54125177864604_3_alg».proof.Proof.KHostL4
import proofs.«415466_j54125177864604_3_alg».proof.Proof.KHostL5
import proofs.«415466_j54125177864604_3_alg».proof.Proof.KHostL6
import proofs.«415466_j54125177864604_3_alg».proof.Proof.KHostL7

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ)

/-- The joined table after the whole line. -/
theorem Vjoin (c : Dev nD) : V m c main_v10 = Cert.SpecK.comb (m ((c : Thread nD τ).loc main_arg0)) (m ((c : Thread nD τ).loc main_arg1)) := by
  rw [V_at0 m c (r := main_v10) (by decide), kjoin]
  rfl

/-- Corner 0: the array the region finds as its input 0 is the corner's weight column times the taken rows of the joined table. -/
theorem kcorner0 (c : Dev nD) :
    V m c main_v65 = Cert.SpecK.corner (V m c main_v62) (V m c main_v57)
      (Cert.SpecK.comb (m ((c : Thread nD τ).loc main_arg0)) (m ((c : Thread nD τ).loc main_arg1))) := by
  have htake : V m c main_v63 = Cert.SpecK.takeRows (V m c main_v10) (V m c main_v57) := by
    rw [V_at1 m c (r := main_v63) (by decide), ktake0, V_keep1 m c (r := main_v10) (by decide), V_keep1 m c (r := main_v57) (by decide)]
  rw [V_at2 m c (r := main_v65) (by decide), kmul0, V_keep2 m c (r := main_v62) (by decide), V_keep2 m c (r := main_v63) (by decide), htake, Vjoin]
  rfl

/-- Corner 1: the array the region finds as its input 1 is the corner's weight column times the taken rows of the joined table. -/
theorem kcorner1 (c : Dev nD) :
    V m c main_v110 = Cert.SpecK.corner (V m c main_v107) (V m c main_v102)
      (Cert.SpecK.comb (m ((c : Thread nD τ).loc main_arg0)) (m ((c : Thread nD τ).loc main_arg1))) := by
  have htake : V m c main_v108 = Cert.SpecK.takeRows (V m c main_v10) (V m c main_v102) := by
    rw [V_at3 m c (r := main_v108) (by decide), ktake1, V_keep3 m c (r := main_v10) (by decide), V_keep3 m c (r := main_v102) (by decide)]
  rw [V_at4 m c (r := main_v110) (by decide), kmul1, V_keep4 m c (r := main_v107) (by decide), V_keep4 m c (r := main_v108) (by decide), htake, Vjoin]
  rfl

/-- Corner 2: the array the region finds as its input 2 is the corner's weight column times the taken rows of the joined table. -/
theorem kcorner2 (c : Dev nD) :
    V m c main_v159 = Cert.SpecK.corner (V m c main_v156) (V m c main_v151)
      (Cert.SpecK.comb (m ((c : Thread nD τ).loc main_arg0)) (m ((c : Thread nD τ).loc main_arg1))) := by
  have htake : V m c main_v157 = Cert.SpecK.takeRows (V m c main_v10) (V m c main_v151) := by
    rw [V_at5 m c (r := main_v157) (by decide), ktake2, V_keep5 m c (r := main_v10) (by decide), V_keep5 m c (r := main_v151) (by decide)]
  rw [V_at6 m c (r := main_v159) (by decide), kmul2, V_keep6 m c (r := main_v156) (by decide), V_keep6 m c (r := main_v157) (by decide), htake, Vjoin]
  rfl

/-- Corner 3: the array the region finds as its input 3 is the corner's weight column times the taken rows of the joined table. -/
theorem kcorner3 (c : Dev nD) :
    V m c main_v204 = Cert.SpecK.corner (V m c main_v201) (V m c main_v196)
      (Cert.SpecK.comb (m ((c : Thread nD τ).loc main_arg0)) (m ((c : Thread nD τ).loc main_arg1))) := by
  have htake : V m c main_v202 = Cert.SpecK.takeRows (V m c main_v10) (V m c main_v196) := by
    rw [V_at7 m c (r := main_v202) (by decide), ktake3, V_keep7 m c (r := main_v10) (by decide), V_keep7 m c (r := main_v196) (by decide)]
  rw [V_at8 m c (r := main_v204) (by decide), kmul3, V_keep8 m c (r := main_v201) (by decide), V_keep8 m c (r := main_v202) (by decide), htake, Vjoin]
  rfl

/-- Corner 4: the array the region finds as its input 4 is the corner's weight column times the taken rows of the joined table. -/
theorem kcorner4 (c : Dev nD) :
    V m c main_v257 = Cert.SpecK.corner (V m c main_v254) (V m c main_v249)
      (Cert.SpecK.comb (m ((c : Thread nD τ).loc main_arg0)) (m ((c : Thread nD τ).loc main_arg1))) := by
  have htake : V m c main_v255 = Cert.SpecK.takeRows (V m c main_v10) (V m c main_v249) := by
    rw [V_at9 m c (r := main_v255) (by decide), ktake4, V_keep9 m c (r := main_v10) (by decide), V_keep9 m c (r := main_v249) (by decide)]
  rw [V_at10 m c (r := main_v257) (by decide), kmul4, V_keep10 m c (r := main_v254) (by decide), V_keep10 m c (r := main_v255) (by decide), htake, Vjoin]
  rfl

/-- Corner 5: the array the region finds as its input 5 is the corner's weight column times the taken rows of the joined table. -/
theorem kcorner5 (c : Dev nD) :
    V m c main_v302 = Cert.SpecK.corner (V m c main_v299) (V m c main_v294)
      (Cert.SpecK.comb (m ((c : Thread nD τ).loc main_arg0)) (m ((c : Thread nD τ).loc main_arg1))) := by
  have htake : V m c main_v300 = Cert.SpecK.takeRows (V m c main_v10) (V m c main_v294) := by
    rw [V_at11 m c (r := main_v300) (by decide), ktake5, V_keep11 m c (r := main_v10) (by decide), V_keep11 m c (r := main_v294) (by decide)]
  rw [V_at12 m c (r := main_v302) (by decide), kmul5, V_keep12 m c (r := main_v299) (by decide), V_keep12 m c (r := main_v300) (by decide), htake, Vjoin]
  rfl

/-- Corner 6: the array the region finds as its input 6 is the corner's weight column times the taken rows of the joined table. -/
theorem kcorner6 (c : Dev nD) :
    V m c main_v351 = Cert.SpecK.corner (V m c main_v348) (V m c main_v343)
      (Cert.SpecK.comb (m ((c : Thread nD τ).loc main_arg0)) (m ((c : Thread nD τ).loc main_arg1))) := by
  have htake : V m c main_v349 = Cert.SpecK.takeRows (V m c main_v10) (V m c main_v343) := by
    rw [V_at13 m c (r := main_v349) (by decide), ktake6, V_keep13 m c (r := main_v10) (by decide), V_keep13 m c (r := main_v343) (by decide)]
  rw [V_at14 m c (r := main_v351) (by decide), kmul6, V_keep14 m c (r := main_v348) (by decide), V_keep14 m c (r := main_v349) (by decide), htake, Vjoin]
  rfl

/-- Corner 7: the array the region finds as its input 7 is the corner's weight column times the taken rows of the joined table. -/
theorem kcorner7 (c : Dev nD) :
    V m c main_v396 = Cert.SpecK.corner (V m c main_v393) (V m c main_v388)
      (Cert.SpecK.comb (m ((c : Thread nD τ).loc main_arg0)) (m ((c : Thread nD τ).loc main_arg1))) := by
  have htake : V m c main_v394 = Cert.SpecK.takeRows (V m c main_v10) (V m c main_v388) := by
    rw [V_at15 m c (r := main_v394) (by decide), ktake7, V_keep15 m c (r := main_v10) (by decide), V_keep15 m c (r := main_v388) (by decide)]
  rw [V_at16 m c (r := main_v396) (by decide), kmul7, V_keep16 m c (r := main_v393) (by decide), V_keep16 m c (r := main_v394) (by decide), htake, Vjoin]
  rfl

end Cert.KernelIdeal.Hand

end
-- ==== Proof.CrossL0_w.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 0 against chunk 0, from contents that agree on what the chunks read. -/
theorem l_w_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v9) : FVec F Cert.KernelIdeal.S2000000x3 .f32) = StableHlo.after (Cert.ReferenceIdeal.Hand.RB0 (F := F)) U' (Proc.devRef .tc Cert.ReferenceIdeal.main_v9) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_w0_0, kread_w0_1, kread_w0_2, rread_w0_0, rread_w0_1, rread_w0_2]); (try simp only [concat3_evid _ _ _ _ _ _ _ _ _ Cert.KernelIdeal.Facts₀.concatenates_S2000000x1_S2000000x1_S2000000x1_S2000000x3_d1]); first | done | rfl)

end Cert.Cross

end
-- ==== Proof.CrossL0_l.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 0 against chunk 0, from contents that agree on what the chunks read. -/
theorem l_l_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v7) : IVec Cert.KernelIdeal.S2000000x3 32) = StableHlo.after (Cert.ReferenceIdeal.Hand.RB0 (F := F)) U' (Proc.devRef .tc Cert.ReferenceIdeal.main_v7) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_l0_0, kread_l0_1, kread_l0_2, rread_l0_0, rread_l0_1, rread_l0_2]); (try simp only [concat3_evid _ _ _ _ _ _ _ _ _ Cert.KernelIdeal.Facts₀.concatenates_S2000000x1_S2000000x1_S2000000x1_S2000000x3_d1]); first | done | rfl)

end Cert.Cross

end
-- ==== Proof.CrossL0_h0.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 0 against chunk 0, from contents that agree on what the chunks read. -/
theorem l_h0_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v14) : FVec F Cert.KernelIdeal.S2000000 .f32) = StableHlo.after (Cert.ReferenceIdeal.Hand.RB0 (F := F)) U' (Proc.devRef .tc Cert.ReferenceIdeal.main_v15) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_h00_0, kread_h00_1, kread_h00_2, rread_h00_0, rread_h00_1, rread_h00_2]); (try simp only [concat3_evid _ _ _ _ _ _ _ _ _ Cert.KernelIdeal.Facts₀.concatenates_S2000000x1_S2000000x1_S2000000x1_S2000000x3_d1]); first | done | rfl)

end Cert.Cross

end
-- ==== Proof.CrossL0_h1.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 0 against chunk 0, from contents that agree on what the chunks read. -/
theorem l_h1_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v18) : FVec F Cert.KernelIdeal.S2000000 .f32) = StableHlo.after (Cert.ReferenceIdeal.Hand.RB0 (F := F)) U' (Proc.devRef .tc Cert.ReferenceIdeal.main_v19) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_h10_0, kread_h10_1, kread_h10_2, rread_h10_0, rread_h10_1, rread_h10_2]); (try simp only [concat3_evid _ _ _ _ _ _ _ _ _ Cert.KernelIdeal.Facts₀.concatenates_S2000000x1_S2000000x1_S2000000x1_S2000000x3_d1]); first | done | rfl)

end Cert.Cross

end
-- ==== Proof.CrossL0_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt0_0 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 0 = A := rfl
/-- Entry 1 of the corner's three index columns as a tuple. -/
theorem kread_wt0_1 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 1 = B := rfl
/-- Entry 2 of the corner's three index columns as a tuple. -/
theorem kread_wt0_2 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 2 = C := rfl
/-- Entry 0 of the corner's three index columns as a tuple. -/
theorem rread_wt0_0 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 0 = A := rfl
/-- Entry 1 of the corner's three index columns as a tuple. -/
theorem rread_wt0_1 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 1 = B := rfl
/-- Entry 2 of the corner's three index columns as a tuple. -/
theorem rread_wt0_2 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 2 = C := rfl

set_option maxHeartbeats 32000000 in
/-- Chunk 0 against chunk 0, from contents that agree on what the chunks read. -/
theorem l_wt_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v62) : FVec F Cert.KernelIdeal.S2000000x1 .f32) = StableHlo.after (Cert.ReferenceIdeal.Hand.RB0 (F := F)) U' (Proc.devRef .tc Cert.ReferenceIdeal.main_v63) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_wt0_0, kread_wt0_1, kread_wt0_2, rread_wt0_0, rread_wt0_1, rread_wt0_2]); (try simp only [concat3_evid _ _ _ _ _ _ _ _ _ Cert.KernelIdeal.Facts₀.concatenates_S2000000x1_S2000000x1_S2000000x1_S2000000x3_d1]); first | done | rfl)

end Cert.Cross

end
-- ==== Proof.CrossL0_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe0_0 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 0 = A := rfl
/-- Entry 1 of the corner's three index columns as a tuple. -/
theorem kread_safe0_1 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 1 = B := rfl
/-- Entry 2 of the corner's three index columns as a tuple. -/
theorem kread_safe0_2 (A B C : IVec Cert.KernelIdeal.S2000000x1 32) :
    ((Fin.cons (α := (fun k => ((![Cert.KernelIdeal.main_v50, Cert.KernelIdeal.main_v51, Cert.KernelIdeal.main_v52] : Fin 3 → Ref Cert.KernelIdeal.sig .tc) k).ty.Contents (Elt F))) A (Fin.cons (α := fun i => (fun k => ((![Cert.KernelIdeal.main_v50, Cert.KernelIdeal.main_v51, Cert.KernelIdeal.main_v52] : Fin 3 → Ref Cert.KernelIdeal.sig .tc) k).ty.Contents (Elt F)) i.succ) B (Fin.cons (α := fun i => (fun k => ((![Cert.KernelIdeal.main_v50, Cert.KernelIdeal.main_v51, Cert.KernelIdeal.main_v52] : Fin 3 → Ref Cert.KernelIdeal.sig .tc) k).ty.Contents (Elt F)) i.succ.succ) C (fun i => i.elim0)))) : (k : Fin 3) → (fun k => ((![Cert.KernelIdeal.main_v50, Cert.KernelIdeal.main_v51, Cert.KernelIdeal.main_v52] : Fin 3 → Ref Cert.KernelIdeal.sig .tc) k).ty.Contents (Elt F)) k) 2 = C := rfl
/-- Entry 0 of the corner's three index columns as a tuple. -/
theorem rread_safe0_0 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 0 = A := rfl
/-- Entry 1 of the corner's three index columns as a tuple. -/
theorem rread_safe0_1 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 1 = B := rfl
/-- Entry 2 of the corner's three index columns as a tuple. -/
theorem rread_safe0_2 (A B C : IVec Cert.ReferenceIdeal.S2000000x1 32) :
    ((Fin.cons (α := (fun k => ((![Cert.ReferenceIdeal.main_v51, Cert.ReferenceIdeal.main_v52, Cert.ReferenceIdeal.main_v53] : Fin 3 → Ref Cert.ReferenceIdeal.sig .tc) k).ty.Contents (Elt F))) A (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ) B (Fin.cons (α := fun i => (fun k => ((![Cert.ReferenceIdeal.main_v51, Cert.ReferenceIdeal.main_v52, Cert.ReferenceIdeal.main_v53] : Fin 3 → Ref Cert.ReferenceIdeal.sig .tc) k).ty.Contents (Elt F)) i.succ.succ) C (fun i => i.elim0)))) : (k : Fin 3) → (fun k => ((![Cert.ReferenceIdeal.main_v51, Cert.ReferenceIdeal.main_v52, Cert.ReferenceIdeal.main_v53] : Fin 3 → Ref Cert.ReferenceIdeal.sig .tc) k).ty.Contents (Elt F)) k) 2 = C := rfl

set_option maxHeartbeats 32000000 in
/-- Chunk 0 against chunk 0, from contents that agree on what the chunks read. -/
theorem l_safe_0 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_pts : (U (Proc.devRef .tc Cert.KernelIdeal.main_arg3) : FVec F Cert.KernelIdeal.S2000000x3 .f32) = U' (Proc.devRef .tc Cert.ReferenceIdeal.main_arg3)) :
    (StableHlo.after (Cert.KernelIdeal.Hand.KC0 (F := F)) U (Proc.devRef .tc Cert.KernelIdeal.main_v57) : IVec Cert.KernelIdeal.S2000000 32) = StableHlo.after (Cert.ReferenceIdeal.Hand.RB0 (F := F)) U' (Proc.devRef .tc Cert.ReferenceIdeal.main_v58) := by
  simp only [Cert.KernelIdeal.Hand.KC0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.ReferenceIdeal.Hand.RB0, Cert.ReferenceIdeal.RunW.q0, Cert.ReferenceIdeal.RunW.q1, Cert.ReferenceIdeal.RunW.q2, List.cons_append, List.nil_append, List.append_nil]
  read_back2
  first | done | ((try simp only [h_links, h_pts]); (try simp only [kread_safe0_0, kread_safe0_1, kread_safe0_2, rread_safe0_0, rread_safe0_1, rread_safe0_2]); (try simp only [concat3_evid _ _ _ _ _ _ _ _ _ Cert.KernelIdeal.Facts₀.concatenates_S2000000x1_S2000000x1_S2000000x1_S2000000x3_d1]); first | done | rfl)

end Cert.Cross

end
-- ==== Proof.CrossL1_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt1_0 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 0 = A := rfl
/-- Entry 1 of the corner's three index columns as a tuple. -/
theorem kread_wt1_1 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 1 = B := rfl
/-- Entry 2 of the corner's three index columns as a tuple. -/
theorem kread_wt1_2 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 2 = C := rfl
/-- Entry 0 of the corner's three index columns as a tuple. -/
theorem rread_wt1_0 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 0 = A := rfl
/-- Entry 1 of the corner's three index columns as a tuple. -/
theorem rread_wt1_1 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 1 = B := rfl
/-- Entry 2 of the corner's three index columns as a tuple. -/
theorem rread_wt1_2 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 2 = C := rfl

set_option maxHeartbeats 32000000 in
/-- Chunk 1 against chunk 1, from contents that agree on what the chunks read. -/
theorem l_wt_1 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15))
    (h_h1 : (U (Proc.devRef .tc Cert.KernelIdeal.main_v18) : FVec F Cert.KernelIdeal.S2000000 .f32) = U' (Proc.devRef .tc Cert.ReferenceIdeal.main_v19)) :
    (StableHlo.after (Cert.KernelIdeal.Hand.KC2 (F := F)) U (Proc.devRef .tc Cert.KernelIdeal.main_v107) : FVec F Cert.KernelIdeal.S2000000x1 .f32) = StableHlo.after (Cert.ReferenceIdeal.Hand.RB1 (F := F)) U' (Proc.devRef .tc Cert.ReferenceIdeal.main_v124) := by
  simp only [Cert.KernelIdeal.Hand.KC2, Cert.KernelIdeal.Gen.hostOps0_8, Cert.KernelIdeal.Gen.hostOps0_9, Cert.KernelIdeal.Gen.hostOps0_10, Cert.ReferenceIdeal.Hand.RB1, Cert.ReferenceIdeal.RunW.q3, Cert.ReferenceIdeal.RunW.q4, Cert.ReferenceIdeal.RunW.q5, List.cons_append, List.nil_append, List.append_nil]
  read_back2
  first | done | ((try simp only [h_links, h_w, h_l, h_h0, h_h1]); (try simp only [kread_wt1_0, kread_wt1_1, kread_wt1_2, rread_wt1_0, rread_wt1_1, rread_wt1_2]); (try simp only [concat3_evid _ _ _ _ _ _ _ _ _ Cert.KernelIdeal.Facts₀.concatenates_S2000000x1_S2000000x1_S2000000x1_S2000000x3_d1]); first | done | rfl)

end Cert.Cross

end
-- ==== Proof.CrossL1_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe1_0 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 0 = A := rfl
/-- Entry 1 of the corner's three index columns as a tuple. -/
theorem kread_safe1_1 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 1 = B := rfl
/-- Entry 2 of the corner's three index columns as a tuple. -/
theorem kread_safe1_2 (A B C : IVec Cert.KernelIdeal.S2000000x1 32) :
    ((Fin.cons (α := (fun k => ((![Cert.KernelIdeal.main_v95, Cert.KernelIdeal.main_v96, Cert.KernelIdeal.main_v97] : Fin 3 → Ref Cert.KernelIdeal.sig .tc) k).ty.Contents (Elt F))) A (Fin.cons (α := fun i => (fun k => ((![Cert.KernelIdeal.main_v95, Cert.KernelIdeal.main_v96, Cert.KernelIdeal.main_v97] : Fin 3 → Ref Cert.KernelIdeal.sig .tc) k).ty.Contents (Elt F)) i.succ) B (Fin.cons (α := fun i => (fun k => ((![Cert.KernelIdeal.main_v95, Cert.KernelIdeal.main_v96, Cert.KernelIdeal.main_v97] : Fin 3 → Ref Cert.KernelIdeal.sig .tc) k).ty.Contents (Elt F)) i.succ.succ) C (fun i => i.elim0)))) : (k : Fin 3) → (fun k => ((![Cert.KernelIdeal.main_v95, Cert.KernelIdeal.main_v96, Cert.KernelIdeal.main_v97] : Fin 3 → Ref Cert.KernelIdeal.sig .tc) k).ty.Contents (Elt F)) k) 2 = C := rfl
/-- Entry 0 of the corner's three index columns as a tuple. -/
theorem rread_safe1_0 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 0 = A := rfl
/-- Entry 1 of the corner's three index columns as a tuple. -/
theorem rread_safe1_1 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 1 = B := rfl
/-- Entry 2 of the corner's three index columns as a tuple. -/
theorem rread_safe1_2 (A B C : IVec Cert.ReferenceIdeal.S2000000x1 32) :
    ((Fin.cons (α := (fun k => ((![Cert.ReferenceIdeal.main_v112, Cert.ReferenceIdeal.main_v113, Cert.ReferenceIdeal.main_v114] : Fin 3 → Ref Cert.ReferenceIdeal.sig .tc) k).ty.Contents (Elt F))) A (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ) B (Fin.cons (α := fun i => (fun k => ((![Cert.ReferenceIdeal.main_v112, Cert.ReferenceIdeal.main_v113, Cert.ReferenceIdeal.main_v114] : Fin 3 → Ref Cert.ReferenceIdeal.sig .tc) k).ty.Contents (Elt F)) i.succ.succ) C (fun i => i.elim0)))) : (k : Fin 3) → (fun k => ((![Cert.ReferenceIdeal.main_v112, Cert.ReferenceIdeal.main_v113, Cert.ReferenceIdeal.main_v114] : Fin 3 → Ref Cert.ReferenceIdeal.sig .tc) k).ty.Contents (Elt F)) k) 2 = C := rfl

set_option maxHeartbeats 32000000 in
/-- Chunk 1 against chunk 1, from contents that agree on what the chunks read. -/
theorem l_safe_1 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15))
    (h_h1 : (U (Proc.devRef .tc Cert.KernelIdeal.main_v18) : FVec F Cert.KernelIdeal.S2000000 .f32) = U' (Proc.devRef .tc Cert.ReferenceIdeal.main_v19)) :
    (StableHlo.after (Cert.KernelIdeal.Hand.KC2 (F := F)) U (Proc.devRef .tc Cert.KernelIdeal.main_v102) : IVec Cert.KernelIdeal.S2000000 32) = StableHlo.after (Cert.ReferenceIdeal.Hand.RB1 (F := F)) U' (Proc.devRef .tc Cert.ReferenceIdeal.main_v119) := by
  simp only [Cert.KernelIdeal.Hand.KC2, Cert.KernelIdeal.Gen.hostOps0_8, Cert.KernelIdeal.Gen.hostOps0_9, Cert.KernelIdeal.Gen.hostOps0_10, Cert.ReferenceIdeal.Hand.RB1, Cert.ReferenceIdeal.RunW.q3, Cert.ReferenceIdeal.RunW.q4, Cert.ReferenceIdeal.RunW.q5, List.cons_append, List.nil_append, List.append_nil]
  read_back2
  first | done | ((try simp only [h_links, h_w, h_l, h_h0, h_h1]); (try simp only [kread_safe1_0, kread_safe1_1, kread_safe1_2, rread_safe1_0, rread_safe1_1, rread_safe1_2]); (try simp only [concat3_evid _ _ _ _ _ _ _ _ _ Cert.KernelIdeal.Facts₀.concatenates_S2000000x1_S2000000x1_S2000000x1_S2000000x3_d1]); first | done | rfl)

end Cert.Cross

end
-- ==== Proof.CrossL2_h2.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 2 against chunk 2, from contents that agree on what the chunks read. -/
theorem l_h2_2 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15)) :
    (StableHlo.after (Cert.KernelIdeal.Hand.KC4 (F := F)) U (Proc.devRef .tc Cert.KernelIdeal.main_v112) : FVec F Cert.KernelIdeal.S2000000 .f32) = StableHlo.after (Cert.ReferenceIdeal.Hand.RB2 (F := F)) U' (Proc.devRef .tc Cert.ReferenceIdeal.main_v145) := by
  simp only [Cert.KernelIdeal.Hand.KC4, Cert.KernelIdeal.Gen.hostOps0_12, Cert.KernelIdeal.Gen.hostOps0_13, Cert.KernelIdeal.Gen.hostOps0_14, Cert.ReferenceIdeal.Hand.RB2, Cert.ReferenceIdeal.RunW.q6, Cert.ReferenceIdeal.RunW.q7, List.cons_append, List.nil_append, List.append_nil]
  read_back2
  first | done | ((try simp only [h_links, h_w, h_l, h_h0]); (try simp only [kread_h22_0, kread_h22_1, kread_h22_2, rread_h22_0, rread_h22_1, rread_h22_2]); (try simp only [concat3_evid _ _ _ _ _ _ _ _ _ Cert.KernelIdeal.Facts₀.concatenates_S2000000x1_S2000000x1_S2000000x1_S2000000x3_d1]); first | done | rfl)

end Cert.Cross

end
-- ==== Proof.CrossL2_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt2_0 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 0 = A := rfl
/-- Entry 1 of the corner's three index columns as a tuple. -/
theorem kread_wt2_1 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 1 = B := rfl
/-- Entry 2 of the corner's three index columns as a tuple. -/
theorem kread_wt2_2 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 2 = C := rfl
/-- Entry 0 of the corner's three index columns as a tuple. -/
theorem rread_wt2_0 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 0 = A := rfl
/-- Entry 1 of the corner's three index columns as a tuple. -/
theorem rread_wt2_1 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 1 = B := rfl
/-- Entry 2 of the corner's three index columns as a tuple. -/
theorem rread_wt2_2 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 2 = C := rfl

set_option maxHeartbeats 32000000 in
/-- Chunk 2 against chunk 2, from contents that agree on what the chunks read. -/
theorem l_wt_2 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15)) :
    (StableHlo.after (Cert.KernelIdeal.Hand.KC4 (F := F)) U (Proc.devRef .tc Cert.KernelIdeal.main_v156) : FVec F Cert.KernelIdeal.S2000000x1 .f32) = StableHlo.after (Cert.ReferenceIdeal.Hand.RB2 (F := F)) U' (Proc.devRef .tc Cert.ReferenceIdeal.main_v189) := by
  simp only [Cert.KernelIdeal.Hand.KC4, Cert.KernelIdeal.Gen.hostOps0_12, Cert.KernelIdeal.Gen.hostOps0_13, Cert.KernelIdeal.Gen.hostOps0_14, Cert.ReferenceIdeal.Hand.RB2, Cert.ReferenceIdeal.RunW.q6, Cert.ReferenceIdeal.RunW.q7, List.cons_append, List.nil_append, List.append_nil]
  read_back2
  first | done | ((try simp only [h_links, h_w, h_l, h_h0]); (try simp only [kread_wt2_0, kread_wt2_1, kread_wt2_2, rread_wt2_0, rread_wt2_1, rread_wt2_2]); (try simp only [concat3_evid _ _ _ _ _ _ _ _ _ Cert.KernelIdeal.Facts₀.concatenates_S2000000x1_S2000000x1_S2000000x1_S2000000x3_d1]); first | done | rfl)

end Cert.Cross

end
-- ==== Proof.CrossL2_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe2_0 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 0 = A := rfl
/-- Entry 1 of the corner's three index columns as a tuple. -/
theorem kread_safe2_1 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 1 = B := rfl
/-- Entry 2 of the corner's three index columns as a tuple. -/
theorem kread_safe2_2 (A B C : IVec Cert.KernelIdeal.S2000000x1 32) :
    ((Fin.cons (α := (fun k => ((![Cert.KernelIdeal.main_v144, Cert.KernelIdeal.main_v145, Cert.KernelIdeal.main_v146] : Fin 3 → Ref Cert.KernelIdeal.sig .tc) k).ty.Contents (Elt F))) A (Fin.cons (α := fun i => (fun k => ((![Cert.KernelIdeal.main_v144, Cert.KernelIdeal.main_v145, Cert.KernelIdeal.main_v146] : Fin 3 → Ref Cert.KernelIdeal.sig .tc) k).ty.Contents (Elt F)) i.succ) B (Fin.cons (α := fun i => (fun k => ((![Cert.KernelIdeal.main_v144, Cert.KernelIdeal.main_v145, Cert.KernelIdeal.main_v146] : Fin 3 → Ref Cert.KernelIdeal.sig .tc) k).ty.Contents (Elt F)) i.succ.succ) C (fun i => i.elim0)))) : (k : Fin 3) → (fun k => ((![Cert.KernelIdeal.main_v144, Cert.KernelIdeal.main_v145, Cert.KernelIdeal.main_v146] : Fin 3 → Ref Cert.KernelIdeal.sig .tc) k).ty.Contents (Elt F)) k) 2 = C := rfl
/-- Entry 0 of the corner's three index columns as a tuple. -/
theorem rread_safe2_0 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 0 = A := rfl
/-- Entry 1 of the corner's three index columns as a tuple. -/
theorem rread_safe2_1 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 1 = B := rfl
/-- Entry 2 of the corner's three index columns as a tuple. -/
theorem rread_safe2_2 (A B C : IVec Cert.ReferenceIdeal.S2000000x1 32) :
    ((Fin.cons (α := (fun k => ((![Cert.ReferenceIdeal.main_v177, Cert.ReferenceIdeal.main_v178, Cert.ReferenceIdeal.main_v179] : Fin 3 → Ref Cert.ReferenceIdeal.sig .tc) k).ty.Contents (Elt F))) A (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ) B (Fin.cons (α := fun i => (fun k => ((![Cert.ReferenceIdeal.main_v177, Cert.ReferenceIdeal.main_v178, Cert.ReferenceIdeal.main_v179] : Fin 3 → Ref Cert.ReferenceIdeal.sig .tc) k).ty.Contents (Elt F)) i.succ.succ) C (fun i => i.elim0)))) : (k : Fin 3) → (fun k => ((![Cert.ReferenceIdeal.main_v177, Cert.ReferenceIdeal.main_v178, Cert.ReferenceIdeal.main_v179] : Fin 3 → Ref Cert.ReferenceIdeal.sig .tc) k).ty.Contents (Elt F)) k) 2 = C := rfl

set_option maxHeartbeats 32000000 in
/-- Chunk 2 against chunk 2, from contents that agree on what the chunks read. -/
theorem l_safe_2 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15)) :
    (StableHlo.after (Cert.KernelIdeal.Hand.KC4 (F := F)) U (Proc.devRef .tc Cert.KernelIdeal.main_v151) : IVec Cert.KernelIdeal.S2000000 32) = StableHlo.after (Cert.ReferenceIdeal.Hand.RB2 (F := F)) U' (Proc.devRef .tc Cert.ReferenceIdeal.main_v184) := by
  simp only [Cert.KernelIdeal.Hand.KC4, Cert.KernelIdeal.Gen.hostOps0_12, Cert.KernelIdeal.Gen.hostOps0_13, Cert.KernelIdeal.Gen.hostOps0_14, Cert.ReferenceIdeal.Hand.RB2, Cert.ReferenceIdeal.RunW.q6, Cert.ReferenceIdeal.RunW.q7, List.cons_append, List.nil_append, List.append_nil]
  read_back2
  first | done | ((try simp only [h_links, h_w, h_l, h_h0]); (try simp only [kread_safe2_0, kread_safe2_1, kread_safe2_2, rread_safe2_0, rread_safe2_1, rread_safe2_2]); (try simp only [concat3_evid _ _ _ _ _ _ _ _ _ Cert.KernelIdeal.Facts₀.concatenates_S2000000x1_S2000000x1_S2000000x1_S2000000x3_d1]); first | done | rfl)

end Cert.Cross

end
-- ==== Proof.CrossL3_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt3_0 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 0 = A := rfl
/-- Entry 1 of the corner's three index columns as a tuple. -/
theorem kread_wt3_1 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 1 = B := rfl
/-- Entry 2 of the corner's three index columns as a tuple. -/
theorem kread_wt3_2 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 2 = C := rfl
/-- Entry 0 of the corner's three index columns as a tuple. -/
theorem rread_wt3_0 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 0 = A := rfl
/-- Entry 1 of the corner's three index columns as a tuple. -/
theorem rread_wt3_1 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 1 = B := rfl
/-- Entry 2 of the corner's three index columns as a tuple. -/
theorem rread_wt3_2 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 2 = C := rfl

set_option maxHeartbeats 32000000 in
/-- Chunk 3 against chunk 3, from contents that agree on what the chunks read. -/
theorem l_wt_3 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15))
    (h_h2 : (U (Proc.devRef .tc Cert.KernelIdeal.main_v112) : FVec F Cert.KernelIdeal.S2000000 .f32) = U' (Proc.devRef .tc Cert.ReferenceIdeal.main_v145)) :
    (StableHlo.after (Cert.KernelIdeal.Hand.KC6 (F := F)) U (Proc.devRef .tc Cert.KernelIdeal.main_v201) : FVec F Cert.KernelIdeal.S2000000x1 .f32) = StableHlo.after (Cert.ReferenceIdeal.Hand.RB3 (F := F)) U' (Proc.devRef .tc Cert.ReferenceIdeal.main_v250) := by
  simp only [Cert.KernelIdeal.Hand.KC6, Cert.KernelIdeal.Gen.hostOps0_16, Cert.KernelIdeal.Gen.hostOps0_17, Cert.KernelIdeal.Gen.hostOps0_18, Cert.ReferenceIdeal.Hand.RB3, Cert.ReferenceIdeal.RunW.q8, Cert.ReferenceIdeal.RunW.q9, List.cons_append, List.nil_append, List.append_nil]
  read_back2
  first | done | ((try simp only [h_links, h_w, h_l, h_h0, h_h2]); (try simp only [kread_wt3_0, kread_wt3_1, kread_wt3_2, rread_wt3_0, rread_wt3_1, rread_wt3_2]); (try simp only [concat3_evid _ _ _ _ _ _ _ _ _ Cert.KernelIdeal.Facts₀.concatenates_S2000000x1_S2000000x1_S2000000x1_S2000000x3_d1]); first | done | rfl)

end Cert.Cross

end
-- ==== Proof.CrossL3_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe3_0 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 0 = A := rfl
/-- Entry 1 of the corner's three index columns as a tuple. -/
theorem kread_safe3_1 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 1 = B := rfl
/-- Entry 2 of the corner's three index columns as a tuple. -/
theorem kread_safe3_2 (A B C : IVec Cert.KernelIdeal.S2000000x1 32) :
    ((Fin.cons (α := (fun k => ((![Cert.KernelIdeal.main_v189, Cert.KernelIdeal.main_v190, Cert.KernelIdeal.main_v191] : Fin 3 → Ref Cert.KernelIdeal.sig .tc) k).ty.Contents (Elt F))) A (Fin.cons (α := fun i => (fun k => ((![Cert.KernelIdeal.main_v189, Cert.KernelIdeal.main_v190, Cert.KernelIdeal.main_v191] : Fin 3 → Ref Cert.KernelIdeal.sig .tc) k).ty.Contents (Elt F)) i.succ) B (Fin.cons (α := fun i => (fun k => ((![Cert.KernelIdeal.main_v189, Cert.KernelIdeal.main_v190, Cert.KernelIdeal.main_v191] : Fin 3 → Ref Cert.KernelIdeal.sig .tc) k).ty.Contents (Elt F)) i.succ.succ) C (fun i => i.elim0)))) : (k : Fin 3) → (fun k => ((![Cert.KernelIdeal.main_v189, Cert.KernelIdeal.main_v190, Cert.KernelIdeal.main_v191] : Fin 3 → Ref Cert.KernelIdeal.sig .tc) k).ty.Contents (Elt F)) k) 2 = C := rfl
/-- Entry 0 of the corner's three index columns as a tuple. -/
theorem rread_safe3_0 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 0 = A := rfl
/-- Entry 1 of the corner's three index columns as a tuple. -/
theorem rread_safe3_1 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 1 = B := rfl
/-- Entry 2 of the corner's three index columns as a tuple. -/
theorem rread_safe3_2 (A B C : IVec Cert.ReferenceIdeal.S2000000x1 32) :
    ((Fin.cons (α := (fun k => ((![Cert.ReferenceIdeal.main_v238, Cert.ReferenceIdeal.main_v239, Cert.ReferenceIdeal.main_v240] : Fin 3 → Ref Cert.ReferenceIdeal.sig .tc) k).ty.Contents (Elt F))) A (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ) B (Fin.cons (α := fun i => (fun k => ((![Cert.ReferenceIdeal.main_v238, Cert.ReferenceIdeal.main_v239, Cert.ReferenceIdeal.main_v240] : Fin 3 → Ref Cert.ReferenceIdeal.sig .tc) k).ty.Contents (Elt F)) i.succ.succ) C (fun i => i.elim0)))) : (k : Fin 3) → (fun k => ((![Cert.ReferenceIdeal.main_v238, Cert.ReferenceIdeal.main_v239, Cert.ReferenceIdeal.main_v240] : Fin 3 → Ref Cert.ReferenceIdeal.sig .tc) k).ty.Contents (Elt F)) k) 2 = C := rfl

set_option maxHeartbeats 32000000 in
/-- Chunk 3 against chunk 3, from contents that agree on what the chunks read. -/
theorem l_safe_3 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h0 : (U (Proc.devRef .tc Cert.KernelIdeal.main_v14) : FVec F Cert.KernelIdeal.S2000000 .f32) = U' (Proc.devRef .tc Cert.ReferenceIdeal.main_v15))
    (h_h2 : (U (Proc.devRef .tc Cert.KernelIdeal.main_v112) : FVec F Cert.KernelIdeal.S2000000 .f32) = U' (Proc.devRef .tc Cert.ReferenceIdeal.main_v145)) :
    (StableHlo.after (Cert.KernelIdeal.Hand.KC6 (F := F)) U (Proc.devRef .tc Cert.KernelIdeal.main_v196) : IVec Cert.KernelIdeal.S2000000 32) = StableHlo.after (Cert.ReferenceIdeal.Hand.RB3 (F := F)) U' (Proc.devRef .tc Cert.ReferenceIdeal.main_v245) := by
  simp only [Cert.KernelIdeal.Hand.KC6, Cert.KernelIdeal.Gen.hostOps0_16, Cert.KernelIdeal.Gen.hostOps0_17, Cert.KernelIdeal.Gen.hostOps0_18, Cert.ReferenceIdeal.Hand.RB3, Cert.ReferenceIdeal.RunW.q8, Cert.ReferenceIdeal.RunW.q9, List.cons_append, List.nil_append, List.append_nil]
  read_back2
  first | done | ((try simp only [h_links, h_w, h_l, h_h0, h_h2]); (try simp only [kread_safe3_0, kread_safe3_1, kread_safe3_2, rread_safe3_0, rread_safe3_1, rread_safe3_2]); (try simp only [concat3_evid _ _ _ _ _ _ _ _ _ Cert.KernelIdeal.Facts₀.concatenates_S2000000x1_S2000000x1_S2000000x1_S2000000x3_d1]); first | done | rfl)

end Cert.Cross

end
-- ==== Proof.CrossL4_h3.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 4 against chunk 4, from contents that agree on what the chunks read. -/
theorem l_h3_4 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7)) :
    (StableHlo.after (Cert.KernelIdeal.Hand.KC8 (F := F)) U (Proc.devRef .tc Cert.KernelIdeal.main_v206) : FVec F Cert.KernelIdeal.S2000000 .f32) = StableHlo.after (Cert.ReferenceIdeal.Hand.RB4 (F := F)) U' (Proc.devRef .tc Cert.ReferenceIdeal.main_v271) := by
  simp only [Cert.KernelIdeal.Hand.KC8, Cert.KernelIdeal.Gen.hostOps0_20, Cert.KernelIdeal.Gen.hostOps0_21, Cert.KernelIdeal.Gen.hostOps0_22, Cert.ReferenceIdeal.Hand.RB4, Cert.ReferenceIdeal.RunW.q10, Cert.ReferenceIdeal.RunW.q11, Cert.ReferenceIdeal.RunW.q12, List.cons_append, List.nil_append, List.append_nil]
  read_back2
  first | done | ((try simp only [h_links, h_w, h_l]); (try simp only [kread_h34_0, kread_h34_1, kread_h34_2, rread_h34_0, rread_h34_1, rread_h34_2]); (try simp only [concat3_evid _ _ _ _ _ _ _ _ _ Cert.KernelIdeal.Facts₀.concatenates_S2000000x1_S2000000x1_S2000000x1_S2000000x3_d1]); first | done | rfl)

end Cert.Cross

end
-- ==== Proof.CrossL4_h4.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 4 against chunk 4, from contents that agree on what the chunks read. -/
theorem l_h4_4 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7)) :
    (StableHlo.after (Cert.KernelIdeal.Hand.KC8 (F := F)) U (Proc.devRef .tc Cert.KernelIdeal.main_v210) : FVec F Cert.KernelIdeal.S2000000 .f32) = StableHlo.after (Cert.ReferenceIdeal.Hand.RB4 (F := F)) U' (Proc.devRef .tc Cert.ReferenceIdeal.main_v275) := by
  simp only [Cert.KernelIdeal.Hand.KC8, Cert.KernelIdeal.Gen.hostOps0_20, Cert.KernelIdeal.Gen.hostOps0_21, Cert.KernelIdeal.Gen.hostOps0_22, Cert.ReferenceIdeal.Hand.RB4, Cert.ReferenceIdeal.RunW.q10, Cert.ReferenceIdeal.RunW.q11, Cert.ReferenceIdeal.RunW.q12, List.cons_append, List.nil_append, List.append_nil]
  read_back2
  first | done | ((try simp only [h_links, h_w, h_l]); (try simp only [kread_h44_0, kread_h44_1, kread_h44_2, rread_h44_0, rread_h44_1, rread_h44_2]); (try simp only [concat3_evid _ _ _ _ _ _ _ _ _ Cert.KernelIdeal.Facts₀.concatenates_S2000000x1_S2000000x1_S2000000x1_S2000000x3_d1]); first | done | rfl)

end Cert.Cross

end
-- ==== Proof.CrossL4_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt4_0 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 0 = A := rfl
/-- Entry 1 of the corner's three index columns as a tuple. -/
theorem kread_wt4_1 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 1 = B := rfl
/-- Entry 2 of the corner's three index columns as a tuple. -/
theorem kread_wt4_2 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 2 = C := rfl
/-- Entry 0 of the corner's three index columns as a tuple. -/
theorem rread_wt4_0 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 0 = A := rfl
/-- Entry 1 of the corner's three index columns as a tuple. -/
theorem rread_wt4_1 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 1 = B := rfl
/-- Entry 2 of the corner's three index columns as a tuple. -/
theorem rread_wt4_2 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 2 = C := rfl

set_option maxHeartbeats 32000000 in
/-- Chunk 4 against chunk 4, from contents that agree on what the chunks read. -/
theorem l_wt_4 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7)) :
    (StableHlo.after (Cert.KernelIdeal.Hand.KC8 (F := F)) U (Proc.devRef .tc Cert.KernelIdeal.main_v254) : FVec F Cert.KernelIdeal.S2000000x1 .f32) = StableHlo.after (Cert.ReferenceIdeal.Hand.RB4 (F := F)) U' (Proc.devRef .tc Cert.ReferenceIdeal.main_v319) := by
  simp only [Cert.KernelIdeal.Hand.KC8, Cert.KernelIdeal.Gen.hostOps0_20, Cert.KernelIdeal.Gen.hostOps0_21, Cert.KernelIdeal.Gen.hostOps0_22, Cert.ReferenceIdeal.Hand.RB4, Cert.ReferenceIdeal.RunW.q10, Cert.ReferenceIdeal.RunW.q11, Cert.ReferenceIdeal.RunW.q12, List.cons_append, List.nil_append, List.append_nil]
  read_back2
  first | done | ((try simp only [h_links, h_w, h_l]); (try simp only [kread_wt4_0, kread_wt4_1, kread_wt4_2, rread_wt4_0, rread_wt4_1, rread_wt4_2]); (try simp only [concat3_evid _ _ _ _ _ _ _ _ _ Cert.KernelIdeal.Facts₀.concatenates_S2000000x1_S2000000x1_S2000000x1_S2000000x3_d1]); first | done | rfl)

end Cert.Cross

end
-- ==== Proof.CrossL4_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe4_0 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 0 = A := rfl
/-- Entry 1 of the corner's three index columns as a tuple. -/
theorem kread_safe4_1 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 1 = B := rfl
/-- Entry 2 of the corner's three index columns as a tuple. -/
theorem kread_safe4_2 (A B C : IVec Cert.KernelIdeal.S2000000x1 32) :
    ((Fin.cons (α := (fun k => ((![Cert.KernelIdeal.main_v242, Cert.KernelIdeal.main_v243, Cert.KernelIdeal.main_v244] : Fin 3 → Ref Cert.KernelIdeal.sig .tc) k).ty.Contents (Elt F))) A (Fin.cons (α := fun i => (fun k => ((![Cert.KernelIdeal.main_v242, Cert.KernelIdeal.main_v243, Cert.KernelIdeal.main_v244] : Fin 3 → Ref Cert.KernelIdeal.sig .tc) k).ty.Contents (Elt F)) i.succ) B (Fin.cons (α := fun i => (fun k => ((![Cert.KernelIdeal.main_v242, Cert.KernelIdeal.main_v243, Cert.KernelIdeal.main_v244] : Fin 3 → Ref Cert.KernelIdeal.sig .tc) k).ty.Contents (Elt F)) i.succ.succ) C (fun i => i.elim0)))) : (k : Fin 3) → (fun k => ((![Cert.KernelIdeal.main_v242, Cert.KernelIdeal.main_v243, Cert.KernelIdeal.main_v244] : Fin 3 → Ref Cert.KernelIdeal.sig .tc) k).ty.Contents (Elt F)) k) 2 = C := rfl
/-- Entry 0 of the corner's three index columns as a tuple. -/
theorem rread_safe4_0 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 0 = A := rfl
/-- Entry 1 of the corner's three index columns as a tuple. -/
theorem rread_safe4_1 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 1 = B := rfl
/-- Entry 2 of the corner's three index columns as a tuple. -/
theorem rread_safe4_2 (A B C : IVec Cert.ReferenceIdeal.S2000000x1 32) :
    ((Fin.cons (α := (fun k => ((![Cert.ReferenceIdeal.main_v307, Cert.ReferenceIdeal.main_v308, Cert.ReferenceIdeal.main_v309] : Fin 3 → Ref Cert.ReferenceIdeal.sig .tc) k).ty.Contents (Elt F))) A (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ) B (Fin.cons (α := fun i => (fun k => ((![Cert.ReferenceIdeal.main_v307, Cert.ReferenceIdeal.main_v308, Cert.ReferenceIdeal.main_v309] : Fin 3 → Ref Cert.ReferenceIdeal.sig .tc) k).ty.Contents (Elt F)) i.succ.succ) C (fun i => i.elim0)))) : (k : Fin 3) → (fun k => ((![Cert.ReferenceIdeal.main_v307, Cert.ReferenceIdeal.main_v308, Cert.ReferenceIdeal.main_v309] : Fin 3 → Ref Cert.ReferenceIdeal.sig .tc) k).ty.Contents (Elt F)) k) 2 = C := rfl

set_option maxHeartbeats 32000000 in
/-- Chunk 4 against chunk 4, from contents that agree on what the chunks read. -/
theorem l_safe_4 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7)) :
    (StableHlo.after (Cert.KernelIdeal.Hand.KC8 (F := F)) U (Proc.devRef .tc Cert.KernelIdeal.main_v249) : IVec Cert.KernelIdeal.S2000000 32) = StableHlo.after (Cert.ReferenceIdeal.Hand.RB4 (F := F)) U' (Proc.devRef .tc Cert.ReferenceIdeal.main_v314) := by
  simp only [Cert.KernelIdeal.Hand.KC8, Cert.KernelIdeal.Gen.hostOps0_20, Cert.KernelIdeal.Gen.hostOps0_21, Cert.KernelIdeal.Gen.hostOps0_22, Cert.ReferenceIdeal.Hand.RB4, Cert.ReferenceIdeal.RunW.q10, Cert.ReferenceIdeal.RunW.q11, Cert.ReferenceIdeal.RunW.q12, List.cons_append, List.nil_append, List.append_nil]
  read_back2
  first | done | ((try simp only [h_links, h_w, h_l]); (try simp only [kread_safe4_0, kread_safe4_1, kread_safe4_2, rread_safe4_0, rread_safe4_1, rread_safe4_2]); (try simp only [concat3_evid _ _ _ _ _ _ _ _ _ Cert.KernelIdeal.Facts₀.concatenates_S2000000x1_S2000000x1_S2000000x1_S2000000x3_d1]); first | done | rfl)

end Cert.Cross

end
-- ==== Proof.CrossL5_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt5_0 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 0 = A := rfl
/-- Entry 1 of the corner's three index columns as a tuple. -/
theorem kread_wt5_1 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 1 = B := rfl
/-- Entry 2 of the corner's three index columns as a tuple. -/
theorem kread_wt5_2 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 2 = C := rfl
/-- Entry 0 of the corner's three index columns as a tuple. -/
theorem rread_wt5_0 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 0 = A := rfl
/-- Entry 1 of the corner's three index columns as a tuple. -/
theorem rread_wt5_1 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 1 = B := rfl
/-- Entry 2 of the corner's three index columns as a tuple. -/
theorem rread_wt5_2 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 2 = C := rfl

set_option maxHeartbeats 32000000 in
/-- Chunk 5 against chunk 5, from contents that agree on what the chunks read. -/
theorem l_wt_5 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271))
    (h_h4 : (U (Proc.devRef .tc Cert.KernelIdeal.main_v210) : FVec F Cert.KernelIdeal.S2000000 .f32) = U' (Proc.devRef .tc Cert.ReferenceIdeal.main_v275)) :
    (StableHlo.after (Cert.KernelIdeal.Hand.KC10 (F := F)) U (Proc.devRef .tc Cert.KernelIdeal.main_v299) : FVec F Cert.KernelIdeal.S2000000x1 .f32) = StableHlo.after (Cert.ReferenceIdeal.Hand.RB5 (F := F)) U' (Proc.devRef .tc Cert.ReferenceIdeal.main_v380) := by
  simp only [Cert.KernelIdeal.Hand.KC10, Cert.KernelIdeal.Gen.hostOps0_24, Cert.KernelIdeal.Gen.hostOps0_25, Cert.KernelIdeal.Gen.hostOps0_26, Cert.ReferenceIdeal.Hand.RB5, Cert.ReferenceIdeal.RunW.q13, Cert.ReferenceIdeal.RunW.q14, List.cons_append, List.nil_append, List.append_nil]
  read_back2
  first | done | ((try simp only [h_links, h_w, h_l, h_h3, h_h4]); (try simp only [kread_wt5_0, kread_wt5_1, kread_wt5_2, rread_wt5_0, rread_wt5_1, rread_wt5_2]); (try simp only [concat3_evid _ _ _ _ _ _ _ _ _ Cert.KernelIdeal.Facts₀.concatenates_S2000000x1_S2000000x1_S2000000x1_S2000000x3_d1]); first | done | rfl)

end Cert.Cross

end
-- ==== Proof.CrossL5_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe5_0 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 0 = A := rfl
/-- Entry 1 of the corner's three index columns as a tuple. -/
theorem kread_safe5_1 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 1 = B := rfl
/-- Entry 2 of the corner's three index columns as a tuple. -/
theorem kread_safe5_2 (A B C : IVec Cert.KernelIdeal.S2000000x1 32) :
    ((Fin.cons (α := (fun k => ((![Cert.KernelIdeal.main_v287, Cert.KernelIdeal.main_v288, Cert.KernelIdeal.main_v289] : Fin 3 → Ref Cert.KernelIdeal.sig .tc) k).ty.Contents (Elt F))) A (Fin.cons (α := fun i => (fun k => ((![Cert.KernelIdeal.main_v287, Cert.KernelIdeal.main_v288, Cert.KernelIdeal.main_v289] : Fin 3 → Ref Cert.KernelIdeal.sig .tc) k).ty.Contents (Elt F)) i.succ) B (Fin.cons (α := fun i => (fun k => ((![Cert.KernelIdeal.main_v287, Cert.KernelIdeal.main_v288, Cert.KernelIdeal.main_v289] : Fin 3 → Ref Cert.KernelIdeal.sig .tc) k).ty.Contents (Elt F)) i.succ.succ) C (fun i => i.elim0)))) : (k : Fin 3) → (fun k => ((![Cert.KernelIdeal.main_v287, Cert.KernelIdeal.main_v288, Cert.KernelIdeal.main_v289] : Fin 3 → Ref Cert.KernelIdeal.sig .tc) k).ty.Contents (Elt F)) k) 2 = C := rfl
/-- Entry 0 of the corner's three index columns as a tuple. -/
theorem rread_safe5_0 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 0 = A := rfl
/-- Entry 1 of the corner's three index columns as a tuple. -/
theorem rread_safe5_1 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 1 = B := rfl
/-- Entry 2 of the corner's three index columns as a tuple. -/
theorem rread_safe5_2 (A B C : IVec Cert.ReferenceIdeal.S2000000x1 32) :
    ((Fin.cons (α := (fun k => ((![Cert.ReferenceIdeal.main_v368, Cert.ReferenceIdeal.main_v369, Cert.ReferenceIdeal.main_v370] : Fin 3 → Ref Cert.ReferenceIdeal.sig .tc) k).ty.Contents (Elt F))) A (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ) B (Fin.cons (α := fun i => (fun k => ((![Cert.ReferenceIdeal.main_v368, Cert.ReferenceIdeal.main_v369, Cert.ReferenceIdeal.main_v370] : Fin 3 → Ref Cert.ReferenceIdeal.sig .tc) k).ty.Contents (Elt F)) i.succ.succ) C (fun i => i.elim0)))) : (k : Fin 3) → (fun k => ((![Cert.ReferenceIdeal.main_v368, Cert.ReferenceIdeal.main_v369, Cert.ReferenceIdeal.main_v370] : Fin 3 → Ref Cert.ReferenceIdeal.sig .tc) k).ty.Contents (Elt F)) k) 2 = C := rfl

set_option maxHeartbeats 32000000 in
/-- Chunk 5 against chunk 5, from contents that agree on what the chunks read. -/
theorem l_safe_5 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271))
    (h_h4 : (U (Proc.devRef .tc Cert.KernelIdeal.main_v210) : FVec F Cert.KernelIdeal.S2000000 .f32) = U' (Proc.devRef .tc Cert.ReferenceIdeal.main_v275)) :
    (StableHlo.after (Cert.KernelIdeal.Hand.KC10 (F := F)) U (Proc.devRef .tc Cert.KernelIdeal.main_v294) : IVec Cert.KernelIdeal.S2000000 32) = StableHlo.after (Cert.ReferenceIdeal.Hand.RB5 (F := F)) U' (Proc.devRef .tc Cert.ReferenceIdeal.main_v375) := by
  simp only [Cert.KernelIdeal.Hand.KC10, Cert.KernelIdeal.Gen.hostOps0_24, Cert.KernelIdeal.Gen.hostOps0_25, Cert.KernelIdeal.Gen.hostOps0_26, Cert.ReferenceIdeal.Hand.RB5, Cert.ReferenceIdeal.RunW.q13, Cert.ReferenceIdeal.RunW.q14, List.cons_append, List.nil_append, List.append_nil]
  read_back2
  first | done | ((try simp only [h_links, h_w, h_l, h_h3, h_h4]); (try simp only [kread_safe5_0, kread_safe5_1, kread_safe5_2, rread_safe5_0, rread_safe5_1, rread_safe5_2]); (try simp only [concat3_evid _ _ _ _ _ _ _ _ _ Cert.KernelIdeal.Facts₀.concatenates_S2000000x1_S2000000x1_S2000000x1_S2000000x3_d1]); first | done | rfl)

end Cert.Cross

end
-- ==== Proof.CrossL6_h5.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

set_option maxHeartbeats 32000000 in
/-- Chunk 6 against chunk 6, from contents that agree on what the chunks read. -/
theorem l_h5_6 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271)) :
    (StableHlo.after (Cert.KernelIdeal.Hand.KC12 (F := F)) U (Proc.devRef .tc Cert.KernelIdeal.main_v304) : FVec F Cert.KernelIdeal.S2000000 .f32) = StableHlo.after (Cert.ReferenceIdeal.Hand.RB6 (F := F)) U' (Proc.devRef .tc Cert.ReferenceIdeal.main_v401) := by
  simp only [Cert.KernelIdeal.Hand.KC12, Cert.KernelIdeal.Gen.hostOps0_28, Cert.KernelIdeal.Gen.hostOps0_29, Cert.KernelIdeal.Gen.hostOps0_30, Cert.ReferenceIdeal.Hand.RB6, Cert.ReferenceIdeal.RunW.q15, Cert.ReferenceIdeal.RunW.q16, List.cons_append, List.nil_append, List.append_nil]
  read_back2
  first | done | ((try simp only [h_links, h_w, h_l, h_h3]); (try simp only [kread_h56_0, kread_h56_1, kread_h56_2, rread_h56_0, rread_h56_1, rread_h56_2]); (try simp only [concat3_evid _ _ _ _ _ _ _ _ _ Cert.KernelIdeal.Facts₀.concatenates_S2000000x1_S2000000x1_S2000000x1_S2000000x3_d1]); first | done | rfl)

end Cert.Cross

end
-- ==== Proof.CrossL6_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt6_0 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 0 = A := rfl
/-- Entry 1 of the corner's three index columns as a tuple. -/
theorem kread_wt6_1 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 1 = B := rfl
/-- Entry 2 of the corner's three index columns as a tuple. -/
theorem kread_wt6_2 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 2 = C := rfl
/-- Entry 0 of the corner's three index columns as a tuple. -/
theorem rread_wt6_0 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 0 = A := rfl
/-- Entry 1 of the corner's three index columns as a tuple. -/
theorem rread_wt6_1 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 1 = B := rfl
/-- Entry 2 of the corner's three index columns as a tuple. -/
theorem rread_wt6_2 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 2 = C := rfl

set_option maxHeartbeats 32000000 in
/-- Chunk 6 against chunk 6, from contents that agree on what the chunks read. -/
theorem l_wt_6 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271)) :
    (StableHlo.after (Cert.KernelIdeal.Hand.KC12 (F := F)) U (Proc.devRef .tc Cert.KernelIdeal.main_v348) : FVec F Cert.KernelIdeal.S2000000x1 .f32) = StableHlo.after (Cert.ReferenceIdeal.Hand.RB6 (F := F)) U' (Proc.devRef .tc Cert.ReferenceIdeal.main_v445) := by
  simp only [Cert.KernelIdeal.Hand.KC12, Cert.KernelIdeal.Gen.hostOps0_28, Cert.KernelIdeal.Gen.hostOps0_29, Cert.KernelIdeal.Gen.hostOps0_30, Cert.ReferenceIdeal.Hand.RB6, Cert.ReferenceIdeal.RunW.q15, Cert.ReferenceIdeal.RunW.q16, List.cons_append, List.nil_append, List.append_nil]
  read_back2
  first | done | ((try simp only [h_links, h_w, h_l, h_h3]); (try simp only [kread_wt6_0, kread_wt6_1, kread_wt6_2, rread_wt6_0, rread_wt6_1, rread_wt6_2]); (try simp only [concat3_evid _ _ _ _ _ _ _ _ _ Cert.KernelIdeal.Facts₀.concatenates_S2000000x1_S2000000x1_S2000000x1_S2000000x3_d1]); first | done | rfl)

end Cert.Cross

end
-- ==== Proof.CrossL6_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe6_0 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 0 = A := rfl
/-- Entry 1 of the corner's three index columns as a tuple. -/
theorem kread_safe6_1 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 1 = B := rfl
/-- Entry 2 of the corner's three index columns as a tuple. -/
theorem kread_safe6_2 (A B C : IVec Cert.KernelIdeal.S2000000x1 32) :
    ((Fin.cons (α := (fun k => ((![Cert.KernelIdeal.main_v336, Cert.KernelIdeal.main_v337, Cert.KernelIdeal.main_v338] : Fin 3 → Ref Cert.KernelIdeal.sig .tc) k).ty.Contents (Elt F))) A (Fin.cons (α := fun i => (fun k => ((![Cert.KernelIdeal.main_v336, Cert.KernelIdeal.main_v337, Cert.KernelIdeal.main_v338] : Fin 3 → Ref Cert.KernelIdeal.sig .tc) k).ty.Contents (Elt F)) i.succ) B (Fin.cons (α := fun i => (fun k => ((![Cert.KernelIdeal.main_v336, Cert.KernelIdeal.main_v337, Cert.KernelIdeal.main_v338] : Fin 3 → Ref Cert.KernelIdeal.sig .tc) k).ty.Contents (Elt F)) i.succ.succ) C (fun i => i.elim0)))) : (k : Fin 3) → (fun k => ((![Cert.KernelIdeal.main_v336, Cert.KernelIdeal.main_v337, Cert.KernelIdeal.main_v338] : Fin 3 → Ref Cert.KernelIdeal.sig .tc) k).ty.Contents (Elt F)) k) 2 = C := rfl
/-- Entry 0 of the corner's three index columns as a tuple. -/
theorem rread_safe6_0 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 0 = A := rfl
/-- Entry 1 of the corner's three index columns as a tuple. -/
theorem rread_safe6_1 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 1 = B := rfl
/-- Entry 2 of the corner's three index columns as a tuple. -/
theorem rread_safe6_2 (A B C : IVec Cert.ReferenceIdeal.S2000000x1 32) :
    ((Fin.cons (α := (fun k => ((![Cert.ReferenceIdeal.main_v433, Cert.ReferenceIdeal.main_v434, Cert.ReferenceIdeal.main_v435] : Fin 3 → Ref Cert.ReferenceIdeal.sig .tc) k).ty.Contents (Elt F))) A (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ) B (Fin.cons (α := fun i => (fun k => ((![Cert.ReferenceIdeal.main_v433, Cert.ReferenceIdeal.main_v434, Cert.ReferenceIdeal.main_v435] : Fin 3 → Ref Cert.ReferenceIdeal.sig .tc) k).ty.Contents (Elt F)) i.succ.succ) C (fun i => i.elim0)))) : (k : Fin 3) → (fun k => ((![Cert.ReferenceIdeal.main_v433, Cert.ReferenceIdeal.main_v434, Cert.ReferenceIdeal.main_v435] : Fin 3 → Ref Cert.ReferenceIdeal.sig .tc) k).ty.Contents (Elt F)) k) 2 = C := rfl

set_option maxHeartbeats 32000000 in
/-- Chunk 6 against chunk 6, from contents that agree on what the chunks read. -/
theorem l_safe_6 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271)) :
    (StableHlo.after (Cert.KernelIdeal.Hand.KC12 (F := F)) U (Proc.devRef .tc Cert.KernelIdeal.main_v343) : IVec Cert.KernelIdeal.S2000000 32) = StableHlo.after (Cert.ReferenceIdeal.Hand.RB6 (F := F)) U' (Proc.devRef .tc Cert.ReferenceIdeal.main_v440) := by
  simp only [Cert.KernelIdeal.Hand.KC12, Cert.KernelIdeal.Gen.hostOps0_28, Cert.KernelIdeal.Gen.hostOps0_29, Cert.KernelIdeal.Gen.hostOps0_30, Cert.ReferenceIdeal.Hand.RB6, Cert.ReferenceIdeal.RunW.q15, Cert.ReferenceIdeal.RunW.q16, List.cons_append, List.nil_append, List.append_nil]
  read_back2
  first | done | ((try simp only [h_links, h_w, h_l, h_h3]); (try simp only [kread_safe6_0, kread_safe6_1, kread_safe6_2, rread_safe6_0, rread_safe6_1, rread_safe6_2]); (try simp only [concat3_evid _ _ _ _ _ _ _ _ _ Cert.KernelIdeal.Facts₀.concatenates_S2000000x1_S2000000x1_S2000000x1_S2000000x3_d1]); first | done | rfl)

end Cert.Cross

end
-- ==== Proof.CrossL7_wt.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_wt7_0 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 0 = A := rfl
/-- Entry 1 of the corner's three index columns as a tuple. -/
theorem kread_wt7_1 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 1 = B := rfl
/-- Entry 2 of the corner's three index columns as a tuple. -/
theorem kread_wt7_2 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 2 = C := rfl
/-- Entry 0 of the corner's three index columns as a tuple. -/
theorem rread_wt7_0 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 0 = A := rfl
/-- Entry 1 of the corner's three index columns as a tuple. -/
theorem rread_wt7_1 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 1 = B := rfl
/-- Entry 2 of the corner's three index columns as a tuple. -/
theorem rread_wt7_2 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 2 = C := rfl

set_option maxHeartbeats 32000000 in
/-- Chunk 7 against chunk 7, from contents that agree on what the chunks read. -/
theorem l_wt_7 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271))
    (h_h5 : (U (Proc.devRef .tc Cert.KernelIdeal.main_v304) : FVec F Cert.KernelIdeal.S2000000 .f32) = U' (Proc.devRef .tc Cert.ReferenceIdeal.main_v401)) :
    (StableHlo.after (Cert.KernelIdeal.Hand.KC14 (F := F)) U (Proc.devRef .tc Cert.KernelIdeal.main_v393) : FVec F Cert.KernelIdeal.S2000000x1 .f32) = StableHlo.after (Cert.ReferenceIdeal.Hand.RB7 (F := F)) U' (Proc.devRef .tc Cert.ReferenceIdeal.main_v506) := by
  simp only [Cert.KernelIdeal.Hand.KC14, Cert.KernelIdeal.Gen.hostOps0_32, Cert.KernelIdeal.Gen.hostOps0_33, Cert.KernelIdeal.Gen.hostOps0_34, Cert.ReferenceIdeal.Hand.RB7, Cert.ReferenceIdeal.RunW.q17, Cert.ReferenceIdeal.RunW.q18, Cert.ReferenceIdeal.RunW.q19, List.cons_append, List.nil_append, List.append_nil]
  read_back2
  first | done | ((try simp only [h_links, h_w, h_l, h_h3, h_h5]); (try simp only [kread_wt7_0, kread_wt7_1, kread_wt7_2, rread_wt7_0, rread_wt7_1, rread_wt7_2]); (try simp only [concat3_evid _ _ _ _ _ _ _ _ _ Cert.KernelIdeal.Facts₀.concatenates_S2000000x1_S2000000x1_S2000000x1_S2000000x3_d1]); first | done | rfl)

end Cert.Cross

end
-- ==== Proof.CrossL7_safe.lean ====
import proofs.«415466_j54125177864604_3_alg».proof.Proof.KHostC
import proofs.«415466_j54125177864604_3_alg».proof.Proof.RHostC
import proofs.«415466_j54125177864604_3_alg».proof.Proof.LibReadBack2

set_option maxRecDepth 65536

noncomputable section

namespace Cert.Cross

open Idealize.ShloMosaic Idealize.ShloMosaic.TcCoe Idealize.ShloMosaic.StableHlo Idealize.SL.Sem

variable {F : FTy → Type} [FloatOps F]

/-- Entry 0 of the corner's three index columns as a tuple. -/
theorem kread_safe7_0 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 0 = A := rfl
/-- Entry 1 of the corner's three index columns as a tuple. -/
theorem kread_safe7_1 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 1 = B := rfl
/-- Entry 2 of the corner's three index columns as a tuple. -/
theorem kread_safe7_2 (A B C : IVec Cert.KernelIdeal.S2000000x1 32) :
    ((Fin.cons (α := (fun k => ((![Cert.KernelIdeal.main_v381, Cert.KernelIdeal.main_v382, Cert.KernelIdeal.main_v383] : Fin 3 → Ref Cert.KernelIdeal.sig .tc) k).ty.Contents (Elt F))) A (Fin.cons (α := fun i => (fun k => ((![Cert.KernelIdeal.main_v381, Cert.KernelIdeal.main_v382, Cert.KernelIdeal.main_v383] : Fin 3 → Ref Cert.KernelIdeal.sig .tc) k).ty.Contents (Elt F)) i.succ) B (Fin.cons (α := fun i => (fun k => ((![Cert.KernelIdeal.main_v381, Cert.KernelIdeal.main_v382, Cert.KernelIdeal.main_v383] : Fin 3 → Ref Cert.KernelIdeal.sig .tc) k).ty.Contents (Elt F)) i.succ.succ) C (fun i => i.elim0)))) : (k : Fin 3) → (fun k => ((![Cert.KernelIdeal.main_v381, Cert.KernelIdeal.main_v382, Cert.KernelIdeal.main_v383] : Fin 3 → Ref Cert.KernelIdeal.sig .tc) k).ty.Contents (Elt F)) k) 2 = C := rfl
/-- Entry 0 of the corner's three index columns as a tuple. -/
theorem rread_safe7_0 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 0 = A := rfl
/-- Entry 1 of the corner's three index columns as a tuple. -/
theorem rread_safe7_1 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 1 = B := rfl
/-- Entry 2 of the corner's three index columns as a tuple. -/
theorem rread_safe7_2 (A B C : IVec Cert.ReferenceIdeal.S2000000x1 32) :
    ((Fin.cons (α := (fun k => ((![Cert.ReferenceIdeal.main_v494, Cert.ReferenceIdeal.main_v495, Cert.ReferenceIdeal.main_v496] : Fin 3 → Ref Cert.ReferenceIdeal.sig .tc) k).ty.Contents (Elt F))) A (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ) B (Fin.cons (α := fun i => (fun k => ((![Cert.ReferenceIdeal.main_v494, Cert.ReferenceIdeal.main_v495, Cert.ReferenceIdeal.main_v496] : Fin 3 → Ref Cert.ReferenceIdeal.sig .tc) k).ty.Contents (Elt F)) i.succ.succ) C (fun i => i.elim0)))) : (k : Fin 3) → (fun k => ((![Cert.ReferenceIdeal.main_v494, Cert.ReferenceIdeal.main_v495, Cert.ReferenceIdeal.main_v496] : Fin 3 → Ref Cert.ReferenceIdeal.sig .tc) k).ty.Contents (Elt F)) k) 2 = C := rfl

set_option maxHeartbeats 32000000 in
/-- Chunk 7 against chunk 7, from contents that agree on what the chunks read. -/
theorem l_safe_7 (U : Valuation Cert.KernelIdeal.τ Cert.KernelIdeal.sig (Elt F)) (U' : Valuation Cert.ReferenceIdeal.τ Cert.ReferenceIdeal.sig (Elt F))
    (h_links : (U (Proc.devRef .tc Cert.KernelIdeal.main_arg2) : IVec Cert.KernelIdeal.S128x128x128 32) = U' (Proc.devRef .tc Cert.ReferenceIdeal.main_arg2))
    (h_w : (U (Proc.devRef .tc Cert.KernelIdeal.main_v9) : FVec F Cert.KernelIdeal.S2000000x3 .f32) = U' (Proc.devRef .tc Cert.ReferenceIdeal.main_v9))
    (h_l : (U (Proc.devRef .tc Cert.KernelIdeal.main_v7) : IVec Cert.KernelIdeal.S2000000x3 32) = U' (Proc.devRef .tc Cert.ReferenceIdeal.main_v7))
    (h_h3 : (U (Proc.devRef .tc Cert.KernelIdeal.main_v206) : FVec F Cert.KernelIdeal.S2000000 .f32) = U' (Proc.devRef .tc Cert.ReferenceIdeal.main_v271))
    (h_h5 : (U (Proc.devRef .tc Cert.KernelIdeal.main_v304) : FVec F Cert.KernelIdeal.S2000000 .f32) = U' (Proc.devRef .tc Cert.ReferenceIdeal.main_v401)) :
    (StableHlo.after (Cert.KernelIdeal.Hand.KC14 (F := F)) U (Proc.devRef .tc Cert.KernelIdeal.main_v388) : IVec Cert.KernelIdeal.S2000000 32) = StableHlo.after (Cert.ReferenceIdeal.Hand.RB7 (F := F)) U' (Proc.devRef .tc Cert.ReferenceIdeal.main_v501) := by
  simp only [Cert.KernelIdeal.Hand.KC14, Cert.KernelIdeal.Gen.hostOps0_32, Cert.KernelIdeal.Gen.hostOps0_33, Cert.KernelIdeal.Gen.hostOps0_34, Cert.ReferenceIdeal.Hand.RB7, Cert.ReferenceIdeal.RunW.q17, Cert.ReferenceIdeal.RunW.q18, Cert.ReferenceIdeal.RunW.q19, List.cons_append, List.nil_append, List.append_nil]
  read_back2
  first | done | ((try simp only [h_links, h_w, h_l, h_h3, h_h5]); (try simp only [kread_safe7_0, kread_safe7_1, kread_safe7_2, rread_safe7_0, rread_safe7_1, rread_safe7_2]); (try simp only [concat3_evid _ _ _ _ _ _ _ _ _ Cert.KernelIdeal.Facts₀.concatenates_S2000000x1_S2000000x1_S2000000x1_S2000000x3_d1]); first | done | rfl)

end Cert.Cross

end
-- ==== Proof.Cross.lean ====
import proofs.«415466_j54125177864604_3_alg».proof.Proof.CrossL0_w
import proofs.«415466_j54125177864604_3_alg».proof.Proof.CrossL0_l
import proofs.«415466_j54125177864604_3_alg».proof.Proof.CrossL0_h0
import proofs.«415466_j54125177864604_3_alg».proof.Proof.CrossL0_h1
import proofs.«415466_j54125177864604_3_alg».proof.Proof.CrossL0_wt
import proofs.«415466_j54125177864604_3_alg».proof.Proof.CrossL0_safe
import proofs.«415466_j54125177864604_3_alg».proof.Proof.CrossL1_wt
import proofs.«415466_j54125177864604_3_alg».proof.Proof.CrossL1_safe
import proofs.«415466_j54125177864604_3_alg».proof.Proof.CrossL2_h2
import proofs.«415466_j54125177864604_3_alg».proof.Proof.CrossL2_wt
import proofs.«415466_j54125177864604_3_alg».proof.Proof.CrossL2_safe
import proofs.«415466_j54125177864604_3_alg».proof.Proof.CrossL3_wt
import proofs.«415466_j54125177864604_3_alg».proof.Proof.CrossL3_safe
import proofs.«415466_j54125177864604_3_alg».proof.Proof.CrossL4_h3
import proofs.«415466_j54125177864604_3_alg».proof.Proof.CrossL4_h4
import proofs.«415466_j54125177864604_3_alg».proof.Proof.CrossL4_wt
import proofs.«415466_j54125177864604_3_alg».proof.Proof.CrossL4_safe
import proofs.«415466_j54125177864604_3_alg».proof.Proof.CrossL5_wt
import proofs.«415466_j54125177864604_3_alg».proof.Proof.CrossL5_safe
import proofs.«415466_j54125177864604_3_alg».proof.Proof.CrossL6_h5
import proofs.«415466_j54125177864604_3_alg».proof.Proof.CrossL6_wt
import proofs.«415466_j54125177864604_3_alg».proof.Proof.CrossL6_safe
import proofs.«415466_j54125177864604_3_alg».proof.Proof.CrossL7_wt
import proofs.«415466_j54125177864604_3_alg».proof.Proof.CrossL7_safe

set_option maxRecDepth 65536

noncomputable section

namespace Cert.Cross

open Idealize.ShloMosaic Idealize.ShloMosaic.TcCoe Idealize.ShloMosaic.StableHlo Idealize.SL.Sem

variable {F : FTy → Type} [FloatOps F]

variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)

/-- After both whole lines, from memories that agree on the arguments. -/
theorem x_w (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v9 : FVec F Cert.KernelIdeal.S2000000x3 .f32) = Cert.ReferenceIdeal.Hand.G m' c Cert.ReferenceIdeal.main_v9 := by
  rw [Cert.KernelIdeal.Hand.V_at0 m c (r := Cert.KernelIdeal.main_v9) (by decide), Cert.ReferenceIdeal.Hand.G_at0 m' c (r := Cert.ReferenceIdeal.main_v9) (by decide)]
  exact l_w_0 _ _ ((hag c).2.2.1).symm
    ((hag c).2.2.2).symm

/-- After both whole lines, from memories that agree on the arguments. -/
theorem x_l (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v7 : IVec Cert.KernelIdeal.S2000000x3 32) = Cert.ReferenceIdeal.Hand.G m' c Cert.ReferenceIdeal.main_v7 := by
  rw [Cert.KernelIdeal.Hand.V_at0 m c (r := Cert.KernelIdeal.main_v7) (by decide), Cert.ReferenceIdeal.Hand.G_at0 m' c (r := Cert.ReferenceIdeal.main_v7) (by decide)]
  exact l_l_0 _ _ ((hag c).2.2.1).symm
    ((hag c).2.2.2).symm

/-- After both whole lines, from memories that agree on the arguments. -/
theorem x_h0 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v14 : FVec F Cert.KernelIdeal.S2000000 .f32) = Cert.ReferenceIdeal.Hand.G m' c Cert.ReferenceIdeal.main_v15 := by
  rw [Cert.KernelIdeal.Hand.V_at0 m c (r := Cert.KernelIdeal.main_v14) (by decide), Cert.ReferenceIdeal.Hand.G_at0 m' c (r := Cert.ReferenceIdeal.main_v15) (by decide)]
  exact l_h0_0 _ _ ((hag c).2.2.1).symm
    ((hag c).2.2.2).symm

/-- After both whole lines, from memories that agree on the arguments. -/
theorem x_h1 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v18 : FVec F Cert.KernelIdeal.S2000000 .f32) = Cert.ReferenceIdeal.Hand.G m' c Cert.ReferenceIdeal.main_v19 := by
  rw [Cert.KernelIdeal.Hand.V_at0 m c (r := Cert.KernelIdeal.main_v18) (by decide), Cert.ReferenceIdeal.Hand.G_at0 m' c (r := Cert.ReferenceIdeal.main_v19) (by decide)]
  exact l_h1_0 _ _ ((hag c).2.2.1).symm
    ((hag c).2.2.2).symm

/-- After both whole lines, from memories that agree on the arguments. -/
theorem x_wt0 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v62 : FVec F Cert.KernelIdeal.S2000000x1 .f32) = Cert.ReferenceIdeal.Hand.G m' c Cert.ReferenceIdeal.main_v63 := by
  rw [Cert.KernelIdeal.Hand.V_at0 m c (r := Cert.KernelIdeal.main_v62) (by decide), Cert.ReferenceIdeal.Hand.G_at0 m' c (r := Cert.ReferenceIdeal.main_v63) (by decide)]
  exact l_wt_0 _ _ ((hag c).2.2.1).symm
    ((hag c).2.2.2).symm

/-- After both whole lines, from memories that agree on the arguments. -/
theorem x_safe0 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v57 : IVec Cert.KernelIdeal.S2000000 32) = Cert.ReferenceIdeal.Hand.G m' c Cert.ReferenceIdeal.main_v58 := by
  rw [Cert.KernelIdeal.Hand.V_at0 m c (r := Cert.KernelIdeal.main_v57) (by decide), Cert.ReferenceIdeal.Hand.G_at0 m' c (r := Cert.ReferenceIdeal.main_v58) (by decide)]
  exact l_safe_0 _ _ ((hag c).2.2.1).symm
    ((hag c).2.2.2).symm

/-- After both whole lines, from memories that agree on the arguments. -/
theorem x_wt1 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v107 : FVec F Cert.KernelIdeal.S2000000x1 .f32) = Cert.ReferenceIdeal.Hand.G m' c Cert.ReferenceIdeal.main_v124 := by
  rw [Cert.KernelIdeal.Hand.V_at2 m c (r := Cert.KernelIdeal.main_v107) (by decide), Cert.ReferenceIdeal.Hand.G_at1 m' c (r := Cert.ReferenceIdeal.main_v124) (by decide)]
  exact l_wt_1 _ _ ((Cert.KernelIdeal.Hand.V_keep2 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep1 m' c (r := Cert.ReferenceIdeal.main_arg2) (by decide)).symm))))
    ((Cert.KernelIdeal.Hand.V_keep2 m c (r := Cert.KernelIdeal.main_v9) (by decide)).trans ((x_w m m' hag c).trans (Cert.ReferenceIdeal.Hand.G_keep1 m' c (r := Cert.ReferenceIdeal.main_v9) (by decide)).symm))
    ((Cert.KernelIdeal.Hand.V_keep2 m c (r := Cert.KernelIdeal.main_v7) (by decide)).trans ((x_l m m' hag c).trans (Cert.ReferenceIdeal.Hand.G_keep1 m' c (r := Cert.ReferenceIdeal.main_v7) (by decide)).symm))
    ((Cert.KernelIdeal.Hand.V_keep2 m c (r := Cert.KernelIdeal.main_v14) (by decide)).trans ((x_h0 m m' hag c).trans (Cert.ReferenceIdeal.Hand.G_keep1 m' c (r := Cert.ReferenceIdeal.main_v15) (by decide)).symm))
    ((Cert.KernelIdeal.Hand.V_keep2 m c (r := Cert.KernelIdeal.main_v18) (by decide)).trans ((x_h1 m m' hag c).trans (Cert.ReferenceIdeal.Hand.G_keep1 m' c (r := Cert.ReferenceIdeal.main_v19) (by decide)).symm))

/-- After both whole lines, from memories that agree on the arguments. -/
theorem x_safe1 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v102 : IVec Cert.KernelIdeal.S2000000 32) = Cert.ReferenceIdeal.Hand.G m' c Cert.ReferenceIdeal.main_v119 := by
  rw [Cert.KernelIdeal.Hand.V_at2 m c (r := Cert.KernelIdeal.main_v102) (by decide), Cert.ReferenceIdeal.Hand.G_at1 m' c (r := Cert.ReferenceIdeal.main_v119) (by decide)]
  exact l_safe_1 _ _ ((Cert.KernelIdeal.Hand.V_keep2 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep1 m' c (r := Cert.ReferenceIdeal.main_arg2) (by decide)).symm))))
    ((Cert.KernelIdeal.Hand.V_keep2 m c (r := Cert.KernelIdeal.main_v9) (by decide)).trans ((x_w m m' hag c).trans (Cert.ReferenceIdeal.Hand.G_keep1 m' c (r := Cert.ReferenceIdeal.main_v9) (by decide)).symm))
    ((Cert.KernelIdeal.Hand.V_keep2 m c (r := Cert.KernelIdeal.main_v7) (by decide)).trans ((x_l m m' hag c).trans (Cert.ReferenceIdeal.Hand.G_keep1 m' c (r := Cert.ReferenceIdeal.main_v7) (by decide)).symm))
    ((Cert.KernelIdeal.Hand.V_keep2 m c (r := Cert.KernelIdeal.main_v14) (by decide)).trans ((x_h0 m m' hag c).trans (Cert.ReferenceIdeal.Hand.G_keep1 m' c (r := Cert.ReferenceIdeal.main_v15) (by decide)).symm))
    ((Cert.KernelIdeal.Hand.V_keep2 m c (r := Cert.KernelIdeal.main_v18) (by decide)).trans ((x_h1 m m' hag c).trans (Cert.ReferenceIdeal.Hand.G_keep1 m' c (r := Cert.ReferenceIdeal.main_v19) (by decide)).symm))

/-- After both whole lines, from memories that agree on the arguments. -/
theorem x_h2 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v112 : FVec F Cert.KernelIdeal.S2000000 .f32) = Cert.ReferenceIdeal.Hand.G m' c Cert.ReferenceIdeal.main_v145 := by
  rw [Cert.KernelIdeal.Hand.V_at4 m c (r := Cert.KernelIdeal.main_v112) (by decide), Cert.ReferenceIdeal.Hand.G_at2 m' c (r := Cert.ReferenceIdeal.main_v145) (by decide)]
  exact l_h2_2 _ _ ((Cert.KernelIdeal.Hand.V_keep4 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep2 m' c (r := Cert.ReferenceIdeal.main_arg2) (by decide)).symm))))
    ((Cert.KernelIdeal.Hand.V_keep4 m c (r := Cert.KernelIdeal.main_v9) (by decide)).trans ((x_w m m' hag c).trans (Cert.ReferenceIdeal.Hand.G_keep2 m' c (r := Cert.ReferenceIdeal.main_v9) (by decide)).symm))
    ((Cert.KernelIdeal.Hand.V_keep4 m c (r := Cert.KernelIdeal.main_v7) (by decide)).trans ((x_l m m' hag c).trans (Cert.ReferenceIdeal.Hand.G_keep2 m' c (r := Cert.ReferenceIdeal.main_v7) (by decide)).symm))
    ((Cert.KernelIdeal.Hand.V_keep4 m c (r := Cert.KernelIdeal.main_v14) (by decide)).trans ((x_h0 m m' hag c).trans (Cert.ReferenceIdeal.Hand.G_keep2 m' c (r := Cert.ReferenceIdeal.main_v15) (by decide)).symm))

/-- After both whole lines, from memories that agree on the arguments. -/
theorem x_wt2 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v156 : FVec F Cert.KernelIdeal.S2000000x1 .f32) = Cert.ReferenceIdeal.Hand.G m' c Cert.ReferenceIdeal.main_v189 := by
  rw [Cert.KernelIdeal.Hand.V_at4 m c (r := Cert.KernelIdeal.main_v156) (by decide), Cert.ReferenceIdeal.Hand.G_at2 m' c (r := Cert.ReferenceIdeal.main_v189) (by decide)]
  exact l_wt_2 _ _ ((Cert.KernelIdeal.Hand.V_keep4 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep2 m' c (r := Cert.ReferenceIdeal.main_arg2) (by decide)).symm))))
    ((Cert.KernelIdeal.Hand.V_keep4 m c (r := Cert.KernelIdeal.main_v9) (by decide)).trans ((x_w m m' hag c).trans (Cert.ReferenceIdeal.Hand.G_keep2 m' c (r := Cert.ReferenceIdeal.main_v9) (by decide)).symm))
    ((Cert.KernelIdeal.Hand.V_keep4 m c (r := Cert.KernelIdeal.main_v7) (by decide)).trans ((x_l m m' hag c).trans (Cert.ReferenceIdeal.Hand.G_keep2 m' c (r := Cert.ReferenceIdeal.main_v7) (by decide)).symm))
    ((Cert.KernelIdeal.Hand.V_keep4 m c (r := Cert.KernelIdeal.main_v14) (by decide)).trans ((x_h0 m m' hag c).trans (Cert.ReferenceIdeal.Hand.G_keep2 m' c (r := Cert.ReferenceIdeal.main_v15) (by decide)).symm))

/-- After both whole lines, from memories that agree on the arguments. -/
theorem x_safe2 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v151 : IVec Cert.KernelIdeal.S2000000 32) = Cert.ReferenceIdeal.Hand.G m' c Cert.ReferenceIdeal.main_v184 := by
  rw [Cert.KernelIdeal.Hand.V_at4 m c (r := Cert.KernelIdeal.main_v151) (by decide), Cert.ReferenceIdeal.Hand.G_at2 m' c (r := Cert.ReferenceIdeal.main_v184) (by decide)]
  exact l_safe_2 _ _ ((Cert.KernelIdeal.Hand.V_keep4 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep2 m' c (r := Cert.ReferenceIdeal.main_arg2) (by decide)).symm))))
    ((Cert.KernelIdeal.Hand.V_keep4 m c (r := Cert.KernelIdeal.main_v9) (by decide)).trans ((x_w m m' hag c).trans (Cert.ReferenceIdeal.Hand.G_keep2 m' c (r := Cert.ReferenceIdeal.main_v9) (by decide)).symm))
    ((Cert.KernelIdeal.Hand.V_keep4 m c (r := Cert.KernelIdeal.main_v7) (by decide)).trans ((x_l m m' hag c).trans (Cert.ReferenceIdeal.Hand.G_keep2 m' c (r := Cert.ReferenceIdeal.main_v7) (by decide)).symm))
    ((Cert.KernelIdeal.Hand.V_keep4 m c (r := Cert.KernelIdeal.main_v14) (by decide)).trans ((x_h0 m m' hag c).trans (Cert.ReferenceIdeal.Hand.G_keep2 m' c (r := Cert.ReferenceIdeal.main_v15) (by decide)).symm))

/-- After both whole lines, from memories that agree on the arguments. -/
theorem x_wt3 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v201 : FVec F Cert.KernelIdeal.S2000000x1 .f32) = Cert.ReferenceIdeal.Hand.G m' c Cert.ReferenceIdeal.main_v250 := by
  rw [Cert.KernelIdeal.Hand.V_at6 m c (r := Cert.KernelIdeal.main_v201) (by decide), Cert.ReferenceIdeal.Hand.G_at3 m' c (r := Cert.ReferenceIdeal.main_v250) (by decide)]
  exact l_wt_3 _ _ ((Cert.KernelIdeal.Hand.V_keep6 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep3 m' c (r := Cert.ReferenceIdeal.main_arg2) (by decide)).symm))))
    ((Cert.KernelIdeal.Hand.V_keep6 m c (r := Cert.KernelIdeal.main_v9) (by decide)).trans ((x_w m m' hag c).trans (Cert.ReferenceIdeal.Hand.G_keep3 m' c (r := Cert.ReferenceIdeal.main_v9) (by decide)).symm))
    ((Cert.KernelIdeal.Hand.V_keep6 m c (r := Cert.KernelIdeal.main_v7) (by decide)).trans ((x_l m m' hag c).trans (Cert.ReferenceIdeal.Hand.G_keep3 m' c (r := Cert.ReferenceIdeal.main_v7) (by decide)).symm))
    ((Cert.KernelIdeal.Hand.V_keep6 m c (r := Cert.KernelIdeal.main_v14) (by decide)).trans ((x_h0 m m' hag c).trans (Cert.ReferenceIdeal.Hand.G_keep3 m' c (r := Cert.ReferenceIdeal.main_v15) (by decide)).symm))
    ((Cert.KernelIdeal.Hand.V_keep6 m c (r := Cert.KernelIdeal.main_v112) (by decide)).trans ((x_h2 m m' hag c).trans (Cert.ReferenceIdeal.Hand.G_keep3 m' c (r := Cert.ReferenceIdeal.main_v145) (by decide)).symm))

/-- After both whole lines, from memories that agree on the arguments. -/
theorem x_safe3 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v196 : IVec Cert.KernelIdeal.S2000000 32) = Cert.ReferenceIdeal.Hand.G m' c Cert.ReferenceIdeal.main_v245 := by
  rw [Cert.KernelIdeal.Hand.V_at6 m c (r := Cert.KernelIdeal.main_v196) (by decide), Cert.ReferenceIdeal.Hand.G_at3 m' c (r := Cert.ReferenceIdeal.main_v245) (by decide)]
  exact l_safe_3 _ _ ((Cert.KernelIdeal.Hand.V_keep6 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep3 m' c (r := Cert.ReferenceIdeal.main_arg2) (by decide)).symm))))
    ((Cert.KernelIdeal.Hand.V_keep6 m c (r := Cert.KernelIdeal.main_v9) (by decide)).trans ((x_w m m' hag c).trans (Cert.ReferenceIdeal.Hand.G_keep3 m' c (r := Cert.ReferenceIdeal.main_v9) (by decide)).symm))
    ((Cert.KernelIdeal.Hand.V_keep6 m c (r := Cert.KernelIdeal.main_v7) (by decide)).trans ((x_l m m' hag c).trans (Cert.ReferenceIdeal.Hand.G_keep3 m' c (r := Cert.ReferenceIdeal.main_v7) (by decide)).symm))
    ((Cert.KernelIdeal.Hand.V_keep6 m c (r := Cert.KernelIdeal.main_v14) (by decide)).trans ((x_h0 m m' hag c).trans (Cert.ReferenceIdeal.Hand.G_keep3 m' c (r := Cert.ReferenceIdeal.main_v15) (by decide)).symm))
    ((Cert.KernelIdeal.Hand.V_keep6 m c (r := Cert.KernelIdeal.main_v112) (by decide)).trans ((x_h2 m m' hag c).trans (Cert.ReferenceIdeal.Hand.G_keep3 m' c (r := Cert.ReferenceIdeal.main_v145) (by decide)).symm))

/-- After both whole lines, from memories that agree on the arguments. -/
theorem x_h3 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v206 : FVec F Cert.KernelIdeal.S2000000 .f32) = Cert.ReferenceIdeal.Hand.G m' c Cert.ReferenceIdeal.main_v271 := by
  rw [Cert.KernelIdeal.Hand.V_at8 m c (r := Cert.KernelIdeal.main_v206) (by decide), Cert.ReferenceIdeal.Hand.G_at4 m' c (r := Cert.ReferenceIdeal.main_v271) (by decide)]
  exact l_h3_4 _ _ ((Cert.KernelIdeal.Hand.V_keep8 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep4 m' c (r := Cert.ReferenceIdeal.main_arg2) (by decide)).symm))))
    ((Cert.KernelIdeal.Hand.V_keep8 m c (r := Cert.KernelIdeal.main_v9) (by decide)).trans ((x_w m m' hag c).trans (Cert.ReferenceIdeal.Hand.G_keep4 m' c (r := Cert.ReferenceIdeal.main_v9) (by decide)).symm))
    ((Cert.KernelIdeal.Hand.V_keep8 m c (r := Cert.KernelIdeal.main_v7) (by decide)).trans ((x_l m m' hag c).trans (Cert.ReferenceIdeal.Hand.G_keep4 m' c (r := Cert.ReferenceIdeal.main_v7) (by decide)).symm))

/-- After both whole lines, from memories that agree on the arguments. -/
theorem x_h4 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v210 : FVec F Cert.KernelIdeal.S2000000 .f32) = Cert.ReferenceIdeal.Hand.G m' c Cert.ReferenceIdeal.main_v275 := by
  rw [Cert.KernelIdeal.Hand.V_at8 m c (r := Cert.KernelIdeal.main_v210) (by decide), Cert.ReferenceIdeal.Hand.G_at4 m' c (r := Cert.ReferenceIdeal.main_v275) (by decide)]
  exact l_h4_4 _ _ ((Cert.KernelIdeal.Hand.V_keep8 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep4 m' c (r := Cert.ReferenceIdeal.main_arg2) (by decide)).symm))))
    ((Cert.KernelIdeal.Hand.V_keep8 m c (r := Cert.KernelIdeal.main_v9) (by decide)).trans ((x_w m m' hag c).trans (Cert.ReferenceIdeal.Hand.G_keep4 m' c (r := Cert.ReferenceIdeal.main_v9) (by decide)).symm))
    ((Cert.KernelIdeal.Hand.V_keep8 m c (r := Cert.KernelIdeal.main_v7) (by decide)).trans ((x_l m m' hag c).trans (Cert.ReferenceIdeal.Hand.G_keep4 m' c (r := Cert.ReferenceIdeal.main_v7) (by decide)).symm))

/-- After both whole lines, from memories that agree on the arguments. -/
theorem x_wt4 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v254 : FVec F Cert.KernelIdeal.S2000000x1 .f32) = Cert.ReferenceIdeal.Hand.G m' c Cert.ReferenceIdeal.main_v319 := by
  rw [Cert.KernelIdeal.Hand.V_at8 m c (r := Cert.KernelIdeal.main_v254) (by decide), Cert.ReferenceIdeal.Hand.G_at4 m' c (r := Cert.ReferenceIdeal.main_v319) (by decide)]
  exact l_wt_4 _ _ ((Cert.KernelIdeal.Hand.V_keep8 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep4 m' c (r := Cert.ReferenceIdeal.main_arg2) (by decide)).symm))))
    ((Cert.KernelIdeal.Hand.V_keep8 m c (r := Cert.KernelIdeal.main_v9) (by decide)).trans ((x_w m m' hag c).trans (Cert.ReferenceIdeal.Hand.G_keep4 m' c (r := Cert.ReferenceIdeal.main_v9) (by decide)).symm))
    ((Cert.KernelIdeal.Hand.V_keep8 m c (r := Cert.KernelIdeal.main_v7) (by decide)).trans ((x_l m m' hag c).trans (Cert.ReferenceIdeal.Hand.G_keep4 m' c (r := Cert.ReferenceIdeal.main_v7) (by decide)).symm))

/-- After both whole lines, from memories that agree on the arguments. -/
theorem x_safe4 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v249 : IVec Cert.KernelIdeal.S2000000 32) = Cert.ReferenceIdeal.Hand.G m' c Cert.ReferenceIdeal.main_v314 := by
  rw [Cert.KernelIdeal.Hand.V_at8 m c (r := Cert.KernelIdeal.main_v249) (by decide), Cert.ReferenceIdeal.Hand.G_at4 m' c (r := Cert.ReferenceIdeal.main_v314) (by decide)]
  exact l_safe_4 _ _ ((Cert.KernelIdeal.Hand.V_keep8 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep4 m' c (r := Cert.ReferenceIdeal.main_arg2) (by decide)).symm))))
    ((Cert.KernelIdeal.Hand.V_keep8 m c (r := Cert.KernelIdeal.main_v9) (by decide)).trans ((x_w m m' hag c).trans (Cert.ReferenceIdeal.Hand.G_keep4 m' c (r := Cert.ReferenceIdeal.main_v9) (by decide)).symm))
    ((Cert.KernelIdeal.Hand.V_keep8 m c (r := Cert.KernelIdeal.main_v7) (by decide)).trans ((x_l m m' hag c).trans (Cert.ReferenceIdeal.Hand.G_keep4 m' c (r := Cert.ReferenceIdeal.main_v7) (by decide)).symm))

/-- After both whole lines, from memories that agree on the arguments. -/
theorem x_wt5 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v299 : FVec F Cert.KernelIdeal.S2000000x1 .f32) = Cert.ReferenceIdeal.Hand.G m' c Cert.ReferenceIdeal.main_v380 := by
  rw [Cert.KernelIdeal.Hand.V_at10 m c (r := Cert.KernelIdeal.main_v299) (by decide), Cert.ReferenceIdeal.Hand.G_at5 m' c (r := Cert.ReferenceIdeal.main_v380) (by decide)]
  exact l_wt_5 _ _ ((Cert.KernelIdeal.Hand.V_keep10 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep5 m' c (r := Cert.ReferenceIdeal.main_arg2) (by decide)).symm))))
    ((Cert.KernelIdeal.Hand.V_keep10 m c (r := Cert.KernelIdeal.main_v9) (by decide)).trans ((x_w m m' hag c).trans (Cert.ReferenceIdeal.Hand.G_keep5 m' c (r := Cert.ReferenceIdeal.main_v9) (by decide)).symm))
    ((Cert.KernelIdeal.Hand.V_keep10 m c (r := Cert.KernelIdeal.main_v7) (by decide)).trans ((x_l m m' hag c).trans (Cert.ReferenceIdeal.Hand.G_keep5 m' c (r := Cert.ReferenceIdeal.main_v7) (by decide)).symm))
    ((Cert.KernelIdeal.Hand.V_keep10 m c (r := Cert.KernelIdeal.main_v206) (by decide)).trans ((x_h3 m m' hag c).trans (Cert.ReferenceIdeal.Hand.G_keep5 m' c (r := Cert.ReferenceIdeal.main_v271) (by decide)).symm))
    ((Cert.KernelIdeal.Hand.V_keep10 m c (r := Cert.KernelIdeal.main_v210) (by decide)).trans ((x_h4 m m' hag c).trans (Cert.ReferenceIdeal.Hand.G_keep5 m' c (r := Cert.ReferenceIdeal.main_v275) (by decide)).symm))

/-- After both whole lines, from memories that agree on the arguments. -/
theorem x_safe5 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v294 : IVec Cert.KernelIdeal.S2000000 32) = Cert.ReferenceIdeal.Hand.G m' c Cert.ReferenceIdeal.main_v375 := by
  rw [Cert.KernelIdeal.Hand.V_at10 m c (r := Cert.KernelIdeal.main_v294) (by decide), Cert.ReferenceIdeal.Hand.G_at5 m' c (r := Cert.ReferenceIdeal.main_v375) (by decide)]
  exact l_safe_5 _ _ ((Cert.KernelIdeal.Hand.V_keep10 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep5 m' c (r := Cert.ReferenceIdeal.main_arg2) (by decide)).symm))))
    ((Cert.KernelIdeal.Hand.V_keep10 m c (r := Cert.KernelIdeal.main_v9) (by decide)).trans ((x_w m m' hag c).trans (Cert.ReferenceIdeal.Hand.G_keep5 m' c (r := Cert.ReferenceIdeal.main_v9) (by decide)).symm))
    ((Cert.KernelIdeal.Hand.V_keep10 m c (r := Cert.KernelIdeal.main_v7) (by decide)).trans ((x_l m m' hag c).trans (Cert.ReferenceIdeal.Hand.G_keep5 m' c (r := Cert.ReferenceIdeal.main_v7) (by decide)).symm))
    ((Cert.KernelIdeal.Hand.V_keep10 m c (r := Cert.KernelIdeal.main_v206) (by decide)).trans ((x_h3 m m' hag c).trans (Cert.ReferenceIdeal.Hand.G_keep5 m' c (r := Cert.ReferenceIdeal.main_v271) (by decide)).symm))
    ((Cert.KernelIdeal.Hand.V_keep10 m c (r := Cert.KernelIdeal.main_v210) (by decide)).trans ((x_h4 m m' hag c).trans (Cert.ReferenceIdeal.Hand.G_keep5 m' c (r := Cert.ReferenceIdeal.main_v275) (by decide)).symm))

/-- After both whole lines, from memories that agree on the arguments. -/
theorem x_h5 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v304 : FVec F Cert.KernelIdeal.S2000000 .f32) = Cert.ReferenceIdeal.Hand.G m' c Cert.ReferenceIdeal.main_v401 := by
  rw [Cert.KernelIdeal.Hand.V_at12 m c (r := Cert.KernelIdeal.main_v304) (by decide), Cert.ReferenceIdeal.Hand.G_at6 m' c (r := Cert.ReferenceIdeal.main_v401) (by decide)]
  exact l_h5_6 _ _ ((Cert.KernelIdeal.Hand.V_keep12 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep6 m' c (r := Cert.ReferenceIdeal.main_arg2) (by decide)).symm))))
    ((Cert.KernelIdeal.Hand.V_keep12 m c (r := Cert.KernelIdeal.main_v9) (by decide)).trans ((x_w m m' hag c).trans (Cert.ReferenceIdeal.Hand.G_keep6 m' c (r := Cert.ReferenceIdeal.main_v9) (by decide)).symm))
    ((Cert.KernelIdeal.Hand.V_keep12 m c (r := Cert.KernelIdeal.main_v7) (by decide)).trans ((x_l m m' hag c).trans (Cert.ReferenceIdeal.Hand.G_keep6 m' c (r := Cert.ReferenceIdeal.main_v7) (by decide)).symm))
    ((Cert.KernelIdeal.Hand.V_keep12 m c (r := Cert.KernelIdeal.main_v206) (by decide)).trans ((x_h3 m m' hag c).trans (Cert.ReferenceIdeal.Hand.G_keep6 m' c (r := Cert.ReferenceIdeal.main_v271) (by decide)).symm))

/-- After both whole lines, from memories that agree on the arguments. -/
theorem x_wt6 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v348 : FVec F Cert.KernelIdeal.S2000000x1 .f32) = Cert.ReferenceIdeal.Hand.G m' c Cert.ReferenceIdeal.main_v445 := by
  rw [Cert.KernelIdeal.Hand.V_at12 m c (r := Cert.KernelIdeal.main_v348) (by decide), Cert.ReferenceIdeal.Hand.G_at6 m' c (r := Cert.ReferenceIdeal.main_v445) (by decide)]
  exact l_wt_6 _ _ ((Cert.KernelIdeal.Hand.V_keep12 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep6 m' c (r := Cert.ReferenceIdeal.main_arg2) (by decide)).symm))))
    ((Cert.KernelIdeal.Hand.V_keep12 m c (r := Cert.KernelIdeal.main_v9) (by decide)).trans ((x_w m m' hag c).trans (Cert.ReferenceIdeal.Hand.G_keep6 m' c (r := Cert.ReferenceIdeal.main_v9) (by decide)).symm))
    ((Cert.KernelIdeal.Hand.V_keep12 m c (r := Cert.KernelIdeal.main_v7) (by decide)).trans ((x_l m m' hag c).trans (Cert.ReferenceIdeal.Hand.G_keep6 m' c (r := Cert.ReferenceIdeal.main_v7) (by decide)).symm))
    ((Cert.KernelIdeal.Hand.V_keep12 m c (r := Cert.KernelIdeal.main_v206) (by decide)).trans ((x_h3 m m' hag c).trans (Cert.ReferenceIdeal.Hand.G_keep6 m' c (r := Cert.ReferenceIdeal.main_v271) (by decide)).symm))

/-- After both whole lines, from memories that agree on the arguments. -/
theorem x_safe6 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v343 : IVec Cert.KernelIdeal.S2000000 32) = Cert.ReferenceIdeal.Hand.G m' c Cert.ReferenceIdeal.main_v440 := by
  rw [Cert.KernelIdeal.Hand.V_at12 m c (r := Cert.KernelIdeal.main_v343) (by decide), Cert.ReferenceIdeal.Hand.G_at6 m' c (r := Cert.ReferenceIdeal.main_v440) (by decide)]
  exact l_safe_6 _ _ ((Cert.KernelIdeal.Hand.V_keep12 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep6 m' c (r := Cert.ReferenceIdeal.main_arg2) (by decide)).symm))))
    ((Cert.KernelIdeal.Hand.V_keep12 m c (r := Cert.KernelIdeal.main_v9) (by decide)).trans ((x_w m m' hag c).trans (Cert.ReferenceIdeal.Hand.G_keep6 m' c (r := Cert.ReferenceIdeal.main_v9) (by decide)).symm))
    ((Cert.KernelIdeal.Hand.V_keep12 m c (r := Cert.KernelIdeal.main_v7) (by decide)).trans ((x_l m m' hag c).trans (Cert.ReferenceIdeal.Hand.G_keep6 m' c (r := Cert.ReferenceIdeal.main_v7) (by decide)).symm))
    ((Cert.KernelIdeal.Hand.V_keep12 m c (r := Cert.KernelIdeal.main_v206) (by decide)).trans ((x_h3 m m' hag c).trans (Cert.ReferenceIdeal.Hand.G_keep6 m' c (r := Cert.ReferenceIdeal.main_v271) (by decide)).symm))

/-- After both whole lines, from memories that agree on the arguments. -/
theorem x_wt7 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v393 : FVec F Cert.KernelIdeal.S2000000x1 .f32) = Cert.ReferenceIdeal.Hand.G m' c Cert.ReferenceIdeal.main_v506 := by
  rw [Cert.KernelIdeal.Hand.V_at14 m c (r := Cert.KernelIdeal.main_v393) (by decide), Cert.ReferenceIdeal.Hand.G_at7 m' c (r := Cert.ReferenceIdeal.main_v506) (by decide)]
  exact l_wt_7 _ _ ((Cert.KernelIdeal.Hand.V_keep14 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep7 m' c (r := Cert.ReferenceIdeal.main_arg2) (by decide)).symm))))
    ((Cert.KernelIdeal.Hand.V_keep14 m c (r := Cert.KernelIdeal.main_v9) (by decide)).trans ((x_w m m' hag c).trans (Cert.ReferenceIdeal.Hand.G_keep7 m' c (r := Cert.ReferenceIdeal.main_v9) (by decide)).symm))
    ((Cert.KernelIdeal.Hand.V_keep14 m c (r := Cert.KernelIdeal.main_v7) (by decide)).trans ((x_l m m' hag c).trans (Cert.ReferenceIdeal.Hand.G_keep7 m' c (r := Cert.ReferenceIdeal.main_v7) (by decide)).symm))
    ((Cert.KernelIdeal.Hand.V_keep14 m c (r := Cert.KernelIdeal.main_v206) (by decide)).trans ((x_h3 m m' hag c).trans (Cert.ReferenceIdeal.Hand.G_keep7 m' c (r := Cert.ReferenceIdeal.main_v271) (by decide)).symm))
    ((Cert.KernelIdeal.Hand.V_keep14 m c (r := Cert.KernelIdeal.main_v304) (by decide)).trans ((x_h5 m m' hag c).trans (Cert.ReferenceIdeal.Hand.G_keep7 m' c (r := Cert.ReferenceIdeal.main_v401) (by decide)).symm))

/-- After both whole lines, from memories that agree on the arguments. -/
theorem x_safe7 (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Hand.V m c Cert.KernelIdeal.main_v388 : IVec Cert.KernelIdeal.S2000000 32) = Cert.ReferenceIdeal.Hand.G m' c Cert.ReferenceIdeal.main_v501 := by
  rw [Cert.KernelIdeal.Hand.V_at14 m c (r := Cert.KernelIdeal.main_v388) (by decide), Cert.ReferenceIdeal.Hand.G_at7 m' c (r := Cert.ReferenceIdeal.main_v501) (by decide)]
  exact l_safe_7 _ _ ((Cert.KernelIdeal.Hand.V_keep14 m c (r := Cert.KernelIdeal.main_arg2) (by decide)).trans ((Cert.KernelIdeal.Hand.V_main_arg2 m c).trans (((hag c).2.2.1).symm.trans ((Cert.ReferenceIdeal.Hand.G_arg m' c (r := Cert.ReferenceIdeal.main_arg2) (by decide)).symm.trans (Cert.ReferenceIdeal.Hand.G_keep7 m' c (r := Cert.ReferenceIdeal.main_arg2) (by decide)).symm))))
    ((Cert.KernelIdeal.Hand.V_keep14 m c (r := Cert.KernelIdeal.main_v9) (by decide)).trans ((x_w m m' hag c).trans (Cert.ReferenceIdeal.Hand.G_keep7 m' c (r := Cert.ReferenceIdeal.main_v9) (by decide)).symm))
    ((Cert.KernelIdeal.Hand.V_keep14 m c (r := Cert.KernelIdeal.main_v7) (by decide)).trans ((x_l m m' hag c).trans (Cert.ReferenceIdeal.Hand.G_keep7 m' c (r := Cert.ReferenceIdeal.main_v7) (by decide)).symm))
    ((Cert.KernelIdeal.Hand.V_keep14 m c (r := Cert.KernelIdeal.main_v206) (by decide)).trans ((x_h3 m m' hag c).trans (Cert.ReferenceIdeal.Hand.G_keep7 m' c (r := Cert.ReferenceIdeal.main_v271) (by decide)).symm))
    ((Cert.KernelIdeal.Hand.V_keep14 m c (r := Cert.KernelIdeal.main_v304) (by decide)).trans ((x_h5 m m' hag c).trans (Cert.ReferenceIdeal.Hand.G_keep7 m' c (r := Cert.ReferenceIdeal.main_v401) (by decide)).symm))

end Cert.Cross

end
-- ==== Proof.PreRange.lean ====
/-
  What the precondition says of the links table, and the range of a corner's row index: every link is below 1600000 (the data
  tables' extent), so a link read anywhere in the table is, and the row index — the link, or 0 where the link is negative — lies
  in `[0, 1600000)`.
-/
import proofs.«415466_j54125177864604_3_alg».proof.Defs
import proofs.«415466_j54125177864604_3_alg».proof.Proof.Spec
import Idealize.ShloMosaic.Lib.StableHlo.Predicate
import Idealize.ShloMosaic.Lib.ReduceAll
import Idealize.ShloMosaic.Lib.ValueIdx

noncomputable section

namespace Cert.PreRange

open Idealize.ShloMosaic Idealize.SL.Sem

variable [Cert.KernelIdeal.Facts] [Cert.ReferenceIdeal.Facts] [Cert.Pre_finite_inputs.Facts]

/-- Under the precondition every entry of the links table is below 1600000, read signed. -/
theorem links_lt (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S128x128x128.Idx) :
    ((m ((c.tc : Thread Cert.KernelIdeal.nD Cert.KernelIdeal.τ).loc Cert.KernelIdeal.main_arg2) : IVec Cert.KernelIdeal.S128x128x128 32) j).toInt < 1600000 := by
  -- the precondition at the scalar result's one index: a conjunction of four bits, the last the links' "all below 1600000"
  have h0 := congrFun (h c) ValueIdx.ix0
  dsimp only [Cert.Pre_finite_inputs.fn, Cert.Pre_finite_inputs.fn_part1] at h0
  have h1 := (IntOp.andi_eq_one.1 h0).2
  -- a reduction by `and` over every axis that is 1 met a 1 at every position
  haveI : Subsingleton Cert.Pre_finite_inputs.S_.Idx := ⟨fun a b => funext fun d => d.elim0⟩
  have h2 := Host.reduce_andi_all _ _ _ _ _ h1 j
  -- the bit at `j` is the signed comparison of the link with the broadcast constant
  have h3 := IntOp.cmpi_slt.1 h2
  have hk : (1600000#32 : BitVec 32).toInt = 1600000 := by decide
  rw [← hk]
  exact h3

/-- A corner's row index — a gathered link, or 0 where it is negative — lies in the data tables' rows, whatever positions the
    gather reads, when every link is below 1600000. -/
theorem safe_range (links : IVec Cert.ReferenceIdeal.S128x128x128 32) (hl : ∀ j, (links j).toInt < 1600000)
    (ii : IVec Cert.ReferenceIdeal.S2000000x3 32) (n : Cert.ReferenceIdeal.S2000000.Idx) :
    0 ≤ (Cert.SpecR.safeOf (Host.gather Cert.ReferenceIdeal.gather_S128x128x128_S2000000x3_S2000000_n_012_n_n_012_1_111 links ii) n).toInt
    ∧ (Cert.SpecR.safeOf (Host.gather Cert.ReferenceIdeal.gather_S128x128x128_S2000000x3_S2000000_n_012_n_n_012_1_111 links ii) n).toInt < 1600000 := by
  -- a gathered element is an entry of the table, whatever position the gather reads
  have hlt : ∀ p, (Host.gather Cert.ReferenceIdeal.gather_S128x128x128_S2000000x3_S2000000_n_012_n_n_012_1_111 links ii p).toInt < 1600000 :=
    fun p => hl _
  generalize Host.gather Cert.ReferenceIdeal.gather_S128x128x128_S2000000x3_S2000000_n_012_n_n_012_1_111 links ii = idx at hlt ⊢
  -- at `n` the row index is a select on the bit "the link is nonnegative"
  have hs : Cert.SpecR.safeOf idx n = Scalar.select (IntOp.cmpi .sge (idx n) 0#32) (idx n) 0#32 := rfl
  rw [hs]
  have h0 : (0#32 : BitVec 32).toInt = 0 := by decide
  by_cases hc : IntOp.cmpi .sge (idx n) 0#32 = 1#1
  · rw [hc, ValueIdx.select_one]
    have hge := IntOp.cmpi_sge.1 hc
    rw [h0] at hge
    exact ⟨hge, hlt n⟩
  · rw [ValueIdx.eq_zero_of_ne_one hc, ValueIdx.select_zero, h0]
    exact ⟨le_refl 0, by norm_num⟩

end Cert.PreRange

end
-- ==== Proof.Bridge.lean ====
/-
  The two programs' results are equal, entry by entry, as extended reals, under the precondition.

  Row `n` of the kernel's density result is lane 0 of the sum, left to right, of the eight arrays the region finds; each is a
  corner's weight column times the rows taken from the joined table at the corner's row index. The reference's density result is
  zero plus the eight corners' weighted gathered density rows, added in the same order. Corner by corner the weight columns and the
  row indices are the same functions of the points and the links; the precondition puts every link below the tables' extent, so
  every row index lies in the tables, and there lane 0 of the kernel's weighted row is the reference's weighted density entry. The
  two sums then differ only by the reference's leading zero. The harmonics result, lane `j`, is the same with lane `j + 1` of the
  joined rows.
-/
import proofs.«415466_j54125177864604_3_alg».proof.Proof.KHost
import proofs.«415466_j54125177864604_3_alg».proof.Proof.RHost
import proofs.«415466_j54125177864604_3_alg».proof.Proof.Cross
import proofs.«415466_j54125177864604_3_alg».proof.Proof.KIValue
import proofs.«415466_j54125177864604_3_alg».proof.Proof.PreRange
import proofs.«415466_j54125177864604_3_alg».proof.Proof.Gen.Pre_finite_inputs
import Idealize.ShloMosaic.PureOps.Ideal.Laws

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

open Idealize.ShloMosaic.StableHlo.Predicate (ij ij_eta)

/-- The zero constant laid over any shape reads 0 everywhere. -/
private theorem zero_bcast_apply {t : Shape} (h : (⟨0, ![]⟩ : Shape).BroadcastsInDim t ![]) (i : t.Idx) :
    broadcastInDim t ![] h (constant (F := Ideal) ⟨0, ![]⟩ .f32 0x00000000#32) i = (0 : EReal) :=
  Ideal.ofBits_zero_f32

/-- One corner, density: where the kernel's array is the corner's weighted taken rows of the joined table, the reference's
    term the weighted gathered density rows over the same weight column, row index and density table, and the row index a
    gathered link (or 0) with every link below the tables' extent, lane 0 of the kernel's row is the reference's entry. -/
private theorem corner_d_entry
    (g : FVec Ideal Cert.KernelIdeal.S2000000x28 .f32) (wtb : FVec Ideal Cert.KernelIdeal.S2000000x1 .f32)
    (s : IVec Cert.KernelIdeal.S2000000 32) (d : FVec Ideal Cert.KernelIdeal.S1600000x1 .f32) (sh : FVec Ideal Cert.KernelIdeal.S1600000x27 .f32)
    (td : FVec Ideal Cert.ReferenceIdeal.S2000000x1 .f32) (wtb' : FVec Ideal Cert.ReferenceIdeal.S2000000x1 .f32)
    (s' : IVec Cert.ReferenceIdeal.S2000000 32) (d' : FVec Ideal Cert.ReferenceIdeal.S1600000x1 .f32)
    (links : IVec Cert.ReferenceIdeal.S128x128x128 32) (ii : IVec Cert.ReferenceIdeal.S2000000x3 32)
    (hg : g = Cert.SpecK.corner wtb s (Cert.SpecK.comb d sh))
    (htd : td = Cert.SpecR.cornerD wtb' s' d')
    (hw : wtb = wtb') (hs : s = s') (hd : d' = d)
    (hs' : s' = Cert.SpecR.safeOf (Host.gather Cert.ReferenceIdeal.gather_S128x128x128_S2000000x3_S2000000_n_012_n_n_012_1_111 links ii))
    (hl : ∀ j, (links j).toInt < 1600000) (n : Fin 2000000) :
    g (ij n (0 : Fin 28)) = td (ij n (0 : Fin 1)) := by
  have hr := Cert.PreRange.safe_range links hl ii (ValueIdx.ix1 n)
  subst hg htd hw hd hs hs'
  exact Cert.Spec.corner_lane0 _ _ _ _ n hr.1 hr.2

/-- One corner, harmonics: likewise lane `j + 1` of the kernel's row is lane `j` of the reference's harmonics term. -/
private theorem corner_sh_entry
    (g : FVec Ideal Cert.KernelIdeal.S2000000x28 .f32) (wtb : FVec Ideal Cert.KernelIdeal.S2000000x1 .f32)
    (s : IVec Cert.KernelIdeal.S2000000 32) (d : FVec Ideal Cert.KernelIdeal.S1600000x1 .f32) (sh : FVec Ideal Cert.KernelIdeal.S1600000x27 .f32)
    (tsh : FVec Ideal Cert.ReferenceIdeal.S2000000x27 .f32) (wtb' : FVec Ideal Cert.ReferenceIdeal.S2000000x1 .f32)
    (s' : IVec Cert.ReferenceIdeal.S2000000 32) (sh' : FVec Ideal Cert.ReferenceIdeal.S1600000x27 .f32)
    (links : IVec Cert.ReferenceIdeal.S128x128x128 32) (ii : IVec Cert.ReferenceIdeal.S2000000x3 32)
    (hg : g = Cert.SpecK.corner wtb s (Cert.SpecK.comb d sh))
    (htsh : tsh = Cert.SpecR.cornerSh wtb' s' sh')
    (hw : wtb = wtb') (hs : s = s') (hsh : sh' = sh)
    (hs' : s' = Cert.SpecR.safeOf (Host.gather Cert.ReferenceIdeal.gather_S128x128x128_S2000000x3_S2000000_n_012_n_n_012_1_111 links ii))
    (hl : ∀ j, (links j).toInt < 1600000) (n : Fin 2000000) (j : Fin 27) :
    g (ij n (⟨j.val + 1, by omega⟩ : Fin 28)) = tsh (ij n j) := by
  have hr := Cert.PreRange.safe_range links hl ii (ValueIdx.ix1 n)
  subst hg htsh hw hsh hs hs'
  exact Cert.Spec.corner_laneS _ _ _ _ n j hr.1 hr.2

/-- The density results agree. -/
theorem density (hpre : Cert.Pre_KernelIdeal m) (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Val.sumD (Cert.KernelIdeal.Hand.V m c Cert.KernelIdeal.main_v65) (Cert.KernelIdeal.Hand.V m c Cert.KernelIdeal.main_v110) (Cert.KernelIdeal.Hand.V m c Cert.KernelIdeal.main_v159) (Cert.KernelIdeal.Hand.V m c Cert.KernelIdeal.main_v204) (Cert.KernelIdeal.Hand.V m c Cert.KernelIdeal.main_v257) (Cert.KernelIdeal.Hand.V m c Cert.KernelIdeal.main_v302) (Cert.KernelIdeal.Hand.V m c Cert.KernelIdeal.main_v351) (Cert.KernelIdeal.Hand.V m c Cert.KernelIdeal.main_v396) : FVec Ideal Cert.KernelIdeal.S2000000x1 .f32)
      = Cert.ReferenceIdeal.Hand.G m' c Cert.ReferenceIdeal.main_v515 := by
  funext i
  obtain ⟨n, q, rfl⟩ : ∃ (n : Fin 2000000) (q : Fin 1), i = ij n q := ⟨i 0, i 1, (ij_eta i).symm⟩
  obtain rfl : q = 0 := Subsingleton.elim _ _
  have hl : ∀ j, ((m' ((c.tc : Thread Cert.ReferenceIdeal.nD Cert.ReferenceIdeal.τ).loc Cert.ReferenceIdeal.main_arg2) : IVec Cert.ReferenceIdeal.S128x128x128 32) j).toInt < 1600000 := fun j => by
    rw [(hag c).2.2.1]; exact Cert.PreRange.links_lt m hpre c j
  rw [Cert.KernelIdeal.Val.sumD_apply, Cert.ReferenceIdeal.Hand.racc_d m' c]
  rw [ValueIdx.addf_apply, ValueIdx.addf_apply, ValueIdx.addf_apply, ValueIdx.addf_apply, ValueIdx.addf_apply,
    ValueIdx.addf_apply, ValueIdx.addf_apply, ValueIdx.addf_apply, zero_bcast_apply, zero_add]
  rw [corner_d_entry _ _ _ _ _ _ _ _ _ _ _ (Cert.KernelIdeal.Hand.kcorner0 m c) (Cert.ReferenceIdeal.Hand.rtd0 m' c) (Cert.Cross.x_wt0 m m' hag c) (Cert.Cross.x_safe0 m m' hag c) (hag c).1 (Cert.ReferenceIdeal.Hand.rsafe0 m' c) hl n,
    corner_d_entry _ _ _ _ _ _ _ _ _ _ _ (Cert.KernelIdeal.Hand.kcorner1 m c) (Cert.ReferenceIdeal.Hand.rtd1 m' c) (Cert.Cross.x_wt1 m m' hag c) (Cert.Cross.x_safe1 m m' hag c) (hag c).1 (Cert.ReferenceIdeal.Hand.rsafe1 m' c) hl n,
    corner_d_entry _ _ _ _ _ _ _ _ _ _ _ (Cert.KernelIdeal.Hand.kcorner2 m c) (Cert.ReferenceIdeal.Hand.rtd2 m' c) (Cert.Cross.x_wt2 m m' hag c) (Cert.Cross.x_safe2 m m' hag c) (hag c).1 (Cert.ReferenceIdeal.Hand.rsafe2 m' c) hl n,
    corner_d_entry _ _ _ _ _ _ _ _ _ _ _ (Cert.KernelIdeal.Hand.kcorner3 m c) (Cert.ReferenceIdeal.Hand.rtd3 m' c) (Cert.Cross.x_wt3 m m' hag c) (Cert.Cross.x_safe3 m m' hag c) (hag c).1 (Cert.ReferenceIdeal.Hand.rsafe3 m' c) hl n,
    corner_d_entry _ _ _ _ _ _ _ _ _ _ _ (Cert.KernelIdeal.Hand.kcorner4 m c) (Cert.ReferenceIdeal.Hand.rtd4 m' c) (Cert.Cross.x_wt4 m m' hag c) (Cert.Cross.x_safe4 m m' hag c) (hag c).1 (Cert.ReferenceIdeal.Hand.rsafe4 m' c) hl n,
    corner_d_entry _ _ _ _ _ _ _ _ _ _ _ (Cert.KernelIdeal.Hand.kcorner5 m c) (Cert.ReferenceIdeal.Hand.rtd5 m' c) (Cert.Cross.x_wt5 m m' hag c) (Cert.Cross.x_safe5 m m' hag c) (hag c).1 (Cert.ReferenceIdeal.Hand.rsafe5 m' c) hl n,
    corner_d_entry _ _ _ _ _ _ _ _ _ _ _ (Cert.KernelIdeal.Hand.kcorner6 m c) (Cert.ReferenceIdeal.Hand.rtd6 m' c) (Cert.Cross.x_wt6 m m' hag c) (Cert.Cross.x_safe6 m m' hag c) (hag c).1 (Cert.ReferenceIdeal.Hand.rsafe6 m' c) hl n,
    corner_d_entry _ _ _ _ _ _ _ _ _ _ _ (Cert.KernelIdeal.Hand.kcorner7 m c) (Cert.ReferenceIdeal.Hand.rtd7 m' c) (Cert.Cross.x_wt7 m m' hag c) (Cert.Cross.x_safe7 m m' hag c) (hag c).1 (Cert.ReferenceIdeal.Hand.rsafe7 m' c) hl n]

/-- The harmonics results agree. -/
theorem harmonics (hpre : Cert.Pre_KernelIdeal m) (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (c : Dev Cert.KernelIdeal.nD) :
    (Cert.KernelIdeal.Val.sumSh (Cert.KernelIdeal.Hand.V m c Cert.KernelIdeal.main_v65) (Cert.KernelIdeal.Hand.V m c Cert.KernelIdeal.main_v110) (Cert.KernelIdeal.Hand.V m c Cert.KernelIdeal.main_v159) (Cert.KernelIdeal.Hand.V m c Cert.KernelIdeal.main_v204) (Cert.KernelIdeal.Hand.V m c Cert.KernelIdeal.main_v257) (Cert.KernelIdeal.Hand.V m c Cert.KernelIdeal.main_v302) (Cert.KernelIdeal.Hand.V m c Cert.KernelIdeal.main_v351) (Cert.KernelIdeal.Hand.V m c Cert.KernelIdeal.main_v396) : FVec Ideal Cert.KernelIdeal.S2000000x27 .f32)
      = Cert.ReferenceIdeal.Hand.G m' c Cert.ReferenceIdeal.main_v525 := by
  funext i
  obtain ⟨n, j, rfl⟩ : ∃ (n : Fin 2000000) (j : Fin 27), i = ij n j := ⟨i 0, i 1, (ij_eta i).symm⟩
  have hl : ∀ j, ((m' ((c.tc : Thread Cert.ReferenceIdeal.nD Cert.ReferenceIdeal.τ).loc Cert.ReferenceIdeal.main_arg2) : IVec Cert.ReferenceIdeal.S128x128x128 32) j).toInt < 1600000 := fun j => by
    rw [(hag c).2.2.1]; exact Cert.PreRange.links_lt m hpre c j
  rw [Cert.KernelIdeal.Val.sumSh_apply, Cert.ReferenceIdeal.Hand.racc_sh m' c]
  rw [ValueIdx.addf_apply, ValueIdx.addf_apply, ValueIdx.addf_apply, ValueIdx.addf_apply, ValueIdx.addf_apply,
    ValueIdx.addf_apply, ValueIdx.addf_apply, ValueIdx.addf_apply, zero_bcast_apply, zero_add]
  rw [corner_sh_entry _ _ _ _ _ _ _ _ _ _ _ (Cert.KernelIdeal.Hand.kcorner0 m c) (Cert.ReferenceIdeal.Hand.rtsh0 m' c) (Cert.Cross.x_wt0 m m' hag c) (Cert.Cross.x_safe0 m m' hag c) (hag c).2.1 (Cert.ReferenceIdeal.Hand.rsafe0 m' c) hl n j,
    corner_sh_entry _ _ _ _ _ _ _ _ _ _ _ (Cert.KernelIdeal.Hand.kcorner1 m c) (Cert.ReferenceIdeal.Hand.rtsh1 m' c) (Cert.Cross.x_wt1 m m' hag c) (Cert.Cross.x_safe1 m m' hag c) (hag c).2.1 (Cert.ReferenceIdeal.Hand.rsafe1 m' c) hl n j,
    corner_sh_entry _ _ _ _ _ _ _ _ _ _ _ (Cert.KernelIdeal.Hand.kcorner2 m c) (Cert.ReferenceIdeal.Hand.rtsh2 m' c) (Cert.Cross.x_wt2 m m' hag c) (Cert.Cross.x_safe2 m m' hag c) (hag c).2.1 (Cert.ReferenceIdeal.Hand.rsafe2 m' c) hl n j,
    corner_sh_entry _ _ _ _ _ _ _ _ _ _ _ (Cert.KernelIdeal.Hand.kcorner3 m c) (Cert.ReferenceIdeal.Hand.rtsh3 m' c) (Cert.Cross.x_wt3 m m' hag c) (Cert.Cross.x_safe3 m m' hag c) (hag c).2.1 (Cert.ReferenceIdeal.Hand.rsafe3 m' c) hl n j,
    corner_sh_entry _ _ _ _ _ _ _ _ _ _ _ (Cert.KernelIdeal.Hand.kcorner4 m c) (Cert.ReferenceIdeal.Hand.rtsh4 m' c) (Cert.Cross.x_wt4 m m' hag c) (Cert.Cross.x_safe4 m m' hag c) (hag c).2.1 (Cert.ReferenceIdeal.Hand.rsafe4 m' c) hl n j,
    corner_sh_entry _ _ _ _ _ _ _ _ _ _ _ (Cert.KernelIdeal.Hand.kcorner5 m c) (Cert.ReferenceIdeal.Hand.rtsh5 m' c) (Cert.Cross.x_wt5 m m' hag c) (Cert.Cross.x_safe5 m m' hag c) (hag c).2.1 (Cert.ReferenceIdeal.Hand.rsafe5 m' c) hl n j,
    corner_sh_entry _ _ _ _ _ _ _ _ _ _ _ (Cert.KernelIdeal.Hand.kcorner6 m c) (Cert.ReferenceIdeal.Hand.rtsh6 m' c) (Cert.Cross.x_wt6 m m' hag c) (Cert.Cross.x_safe6 m m' hag c) (hag c).2.1 (Cert.ReferenceIdeal.Hand.rsafe6 m' c) hl n j,
    corner_sh_entry _ _ _ _ _ _ _ _ _ _ _ (Cert.KernelIdeal.Hand.kcorner7 m c) (Cert.ReferenceIdeal.Hand.rtsh7 m' c) (Cert.Cross.x_wt7 m m' hag c) (Cert.Cross.x_safe7 m m' hag c) (hag c).2.1 (Cert.ReferenceIdeal.Hand.rsafe7 m' c) hl n j]

end Cert.Bridge

end
-- ==== Proof.lean ====
/-
  A sparse-voxel trilinear gather: for each of 2,000,000 points, the eight corners of its voxel are looked up in a 128³ table of
  links into a density table and a harmonics table of 1,600,000 rows, and the corners' rows are added with the trilinear weights,
  a negative link contributing nothing. The kernel program forms, per corner, the weighted row of the two tables joined (28 lanes)
  on the host and adds the eight arrays in one pipelined region, splitting the sum into the density lane and the 27 harmonics lanes;
  the reference accumulates the weighted density rows and the weighted harmonics rows apart, corner by corner, from zero.

  The claim holds where every link is below the tables' extent: a larger link is out of range for the reference's own indexing (it
  clamps), while the kernel's row lookup fills such a row with the fill pattern. The precondition says so, with finiteness of the
  float inputs (which the proof does not use: the two sums are the same terms in the same order, up to the reference's leading zero).

  The frames: each kernel program is thirty-seven lines of host operations and one region (KFrame, KIFrame: the library's frame run
  over the plain proof data); the reference is 687 host operations run in order (RefRunW, RHost). The value: the kernel's results as
  lanes of the sum of the eight arrays the region finds (KIValue), each array read back through the host lines as its corner's weight
  column times the taken rows (KHost), the reference's results read back as the corners' terms added to zero (RHost), the corners'
  weight columns and row indices the same terms in both programs (Cross), every row index within the tables (PreRange), and there the
  kernel's weighted row's lanes the reference's weighted entries (Spec); Bridge puts these together.
-/
import proofs.«415466_j54125177864604_3_alg».proof.Defs
import proofs.«415466_j54125177864604_3_alg».proof.Proof.Gen.Kernel
import proofs.«415466_j54125177864604_3_alg».proof.Proof.Gen.KernelIdeal
import proofs.«415466_j54125177864604_3_alg».proof.Proof.Gen.ReferenceIdeal
import proofs.«415466_j54125177864604_3_alg».proof.Proof.Gen.Pre_finite_inputs
import proofs.«415466_j54125177864604_3_alg».proof.Proof.KFrame
import proofs.«415466_j54125177864604_3_alg».proof.Proof.KIFrame
import proofs.«415466_j54125177864604_3_alg».proof.Proof.KIValue
import proofs.«415466_j54125177864604_3_alg».proof.Proof.RHost
import proofs.«415466_j54125177864604_3_alg».proof.Proof.Bridge
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame m ρ

/-- The idealized kernel runs to the end and leaves its arguments as launched. -/
theorem frame_ki : Cert.frame_KernelIdeal := fun m ρ _ => Cert.KernelIdeal.Hand.frame m ρ

/-- The idealized reference runs to the end and leaves its arguments as launched: its run, the results dropped. -/
theorem frame_ri : Cert.frame_ReferenceIdeal := fun m ρ _ =>
  (θ_run Cert.ReferenceIdeal.defs _ _).mono (fun _ h c => (h c).2.2) (Cert.ReferenceIdeal.Hand.run_ref (F := Ideal) m ρ)

/-- From memories agreeing on the arguments both idealized programs run, and end with the same two result arrays: the kernel's
    are the sum's lanes of the eight arrays its region finds, and the reference's folds are those (Bridge). -/
theorem algebraic : Cert.algebraic_KernelIdeal_ReferenceIdeal := by
  intro m g m' g' hpre hag
  refine ⟨fun c => Cert.KernelIdeal.Val.sumD (Cert.KernelIdeal.Hand.V m c Cert.KernelIdeal.main_v65) (Cert.KernelIdeal.Hand.V m c Cert.KernelIdeal.main_v110) (Cert.KernelIdeal.Hand.V m c Cert.KernelIdeal.main_v159) (Cert.KernelIdeal.Hand.V m c Cert.KernelIdeal.main_v204) (Cert.KernelIdeal.Hand.V m c Cert.KernelIdeal.main_v257) (Cert.KernelIdeal.Hand.V m c Cert.KernelIdeal.main_v302) (Cert.KernelIdeal.Hand.V m c Cert.KernelIdeal.main_v351) (Cert.KernelIdeal.Hand.V m c Cert.KernelIdeal.main_v396),
    fun c => Cert.KernelIdeal.Val.sumSh (Cert.KernelIdeal.Hand.V m c Cert.KernelIdeal.main_v65) (Cert.KernelIdeal.Hand.V m c Cert.KernelIdeal.main_v110) (Cert.KernelIdeal.Hand.V m c Cert.KernelIdeal.main_v159) (Cert.KernelIdeal.Hand.V m c Cert.KernelIdeal.main_v204) (Cert.KernelIdeal.Hand.V m c Cert.KernelIdeal.main_v257) (Cert.KernelIdeal.Hand.V m c Cert.KernelIdeal.main_v302) (Cert.KernelIdeal.Hand.V m c Cert.KernelIdeal.main_v351) (Cert.KernelIdeal.Hand.V m c Cert.KernelIdeal.main_v396),
    Cert.KernelIdeal.Val.run_vals m g, ?_⟩
  refine (θ_run Cert.ReferenceIdeal.defs _ _).mono (fun _ h c => ⟨(h c).1.trans (Cert.Bridge.density m m' hpre hag c).symm,
    (h c).2.1.trans (Cert.Bridge.harmonics m m' hpre hag c).symm, (h c).2.2⟩) (Cert.ReferenceIdeal.Hand.run_ref (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
